-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v156) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S50000x256 : Shape := ⟨2, ![50000, 256]⟩
abbrev S256x256 : Shape := ⟨2, ![256, 256]⟩
abbrev S256 : Shape := ⟨1, ![256]⟩
abbrev S256x8 : Shape := ⟨2, ![256, 8]⟩
abbrev S8 : Shape := ⟨1, ![8]⟩
abbrev S200000 : Shape := ⟨1, ![200000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S50000x256 : S_.BroadcastsInDim S50000x256 (![] : Fin 0 → Fin S50000x256.rank)
  reducesTo_S50000x256_S_d0_1 : S50000x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x8 : S_.BroadcastsInDim S256x8 (![] : Fin 0 → Fin S256x8.rank)
  reducesTo_S256x8_S_d0_1 : S256x8.ReducesTo [0, 1] S_
  bcast_S_S8 : S_.BroadcastsInDim S8 (![] : Fin 0 → Fin S8.rank)
  reducesTo_S8_S_d0 : S8.ReducesTo [0] S_
  bcast_S_S200000 : S_.BroadcastsInDim S200000 (![] : Fin 0 → Fin S200000.rank)
  reducesTo_S200000_S_d0 : S200000.ReducesTo [0] S_

variable [Facts]

def fn_part9 {F : FTy → Type} [FloatOps F] (main_arg29 : IVec S200000 32) (main_v149 : IVec S_ 1) (main_v151 : IVec S200000 1) (main_v152 : IVec S200000 32) : IVec S_ 1 :=
  let main_v153 : IVec S200000 1 := cmpi .slt main_arg29 main_v152
  let main_v154 : IVec S200000 1 := andi main_v151 main_v153
  let main_c_61 : IVec S_ 1 := constantI S_ 1 1#1
  let main_v155 : IVec S_ 1 := (fun x v => Host.reduce IntOp.andi x v reducesTo_S200000_S_d0 h_S_) main_v154 main_c_61
  let main_v156 : IVec S_ 1 := andi main_v149 main_v155
  main_v156

def fn_part8 {F : FTy → Type} [FloatOps F] (main_arg27 : IVec S200000 32) (main_arg28 : IVec S200000 32) (main_arg29 : IVec S200000 32) (main_v135 : IVec S_ 1) (main_c_53 : IVec S_ 32) : IVec S_ 1 :=
  let main_v136 : IVec S200000 32 := broadcastInDim S200000 ![] bcast_S_S200000 main_c_53
  let main_v137 : IVec S200000 1 := cmpi .sge main_arg27 main_v136
  let main_c_54 : IVec S_ 32 := constantI S_ 32 50000#32
  let main_v138 : IVec S200000 32 := broadcastInDim S200000 ![] bcast_S_S200000 main_c_54
  let main_v139 : IVec S200000 1 := cmpi .slt main_arg27 main_v138
  let main_v140 : IVec S200000 1 := andi main_v137 main_v139
  let main_c_55 : IVec S_ 1 := constantI S_ 1 1#1
  let main_v141 : IVec S_ 1 := (fun x v => Host.reduce IntOp.andi x v reducesTo_S200000_S_d0 h_S_) main_v140 main_c_55
  let main_v142 : IVec S_ 1 := andi main_v135 main_v141
  let main_c_56 : IVec S_ 32 := constantI S_ 32 0#32
  let main_v143 : IVec S200000 32 := broadcastInDim S200000 ![] bcast_S_S200000 main_c_56
  let main_v144 : IVec S200000 1 := cmpi .sge main_arg28 main_v143
  let main_c_57 : IVec S_ 32 := constantI S_ 32 50000#32
  let main_v145 : IVec S200000 32 := broadcastInDim S200000 ![] bcast_S_S200000 main_c_57
  let main_v146 : IVec S200000 1 := cmpi .slt main_arg28 main_v145
  let main_v147 : IVec S200000 1 := andi main_v144 main_v146
  let main_c_58 : IVec S_ 1 := constantI S_ 1 1#1
  let main_v148 : IVec S_ 1 := (fun x v => Host.reduce IntOp.andi x v reducesTo_S200000_S_d0 h_S_) main_v147 main_c_58
  let main_v149 : IVec S_ 1 := andi main_v142 main_v148
  let main_c_59 : IVec S_ 32 := constantI S_ 32 0#32
  let main_v150 : IVec S200000 32 := broadcastInDim S200000 ![] bcast_S_S200000 main_c_59
  let main_v151 : IVec S200000 1 := cmpi .sge main_arg29 main_v150
  let main_c_60 : IVec S_ 32 := constantI S_ 32 100000#32
  let main_v152 : IVec S200000 32 := broadcastInDim S200000 ![] bcast_S_S200000 main_c_60
  fn_part9 (F := F) main_arg29 main_v149 main_v151 main_v152

def fn_part7 {F : FTy → Type} [FloatOps F] (main_arg25 : FVec F S256 .f32) (main_arg26 : IVec S200000 32) (main_arg27 : IVec S200000 32) (main_arg28 : IVec S200000 32) (main_arg29 : IVec S200000 32) (main_v118 : IVec S_ 1) (main_v119 : FVec F S256x256 .f32) : IVec S_ 1 :=
  let main_cst_46 : FVec F S_ .f32 := constant S_ .f32 0x7F800000#32
  let main_v120 : FVec F S256x256 .f32 := broadcastInDim S256x256 ![] bcast_S_S256x256 main_cst_46
  let main_v121 : IVec S256x256 1 := cmpf .olt main_v119 main_v120
  let main_c_47 : IVec S_ 1 := constantI S_ 1 1#1
  let main_v122 : IVec S_ 1 := (fun x v => Host.reduce IntOp.andi x v reducesTo_S256x256_S_d0_1 h_S_) main_v121 main_c_47
  let main_v123 : IVec S_ 1 := andi main_v118 main_v122
  let main_v124 : FVec F S256 .f32 := Host.absf main_arg25
  let main_cst_48 : FVec F S_ .f32 := constant S_ .f32 0x7F800000#32
  let main_v125 : FVec F S256 .f32 := broadcastInDim S256 ![] bcast_S_S256 main_cst_48
  let main_v126 : IVec S256 1 := cmpf .olt main_v124 main_v125
  let main_c_49 : IVec S_ 1 := constantI S_ 1 1#1
  let main_v127 : IVec S_ 1 := (fun x v => Host.reduce IntOp.andi x v reducesTo_S256_S_d0 h_S_) main_v126 main_c_49
  let main_v128 : IVec S_ 1 := andi main_v123 main_v127
  let main_c_50 : IVec S_ 32 := constantI S_ 32 0#32
  let main_v129 : IVec S200000 32 := broadcastInDim S200000 ![] bcast_S_S200000 main_c_50
  let main_v130 : IVec S200000 1 := cmpi .sge main_arg26 main_v129
  let main_c_51 : IVec S_ 32 := constantI S_ 32 100000#32
  let main_v131 : IVec S200000 32 := broadcastInDim S200000 ![] bcast_S_S200000 main_c_51
  let main_v132 : IVec S200000 1 := cmpi .slt main_arg26 main_v131
  let main_v133 : IVec S200000 1 := andi main_v130 main_v132
  let main_c_52 : IVec S_ 1 := constantI S_ 1 1#1
  let main_v134 : IVec S_ 1 := (fun x v => Host.reduce IntOp.andi x v reducesTo_S200000_S_d0 h_S_) main_v133 main_c_52
  let main_v135 : IVec S_ 1 := andi main_v128 main_v134
  let main_c_53 : IVec S_ 32 := constantI S_ 32 0#32
  fn_part8 (F := F) main_arg27 main_arg28 main_arg29 main_v135 main_c_53

def fn_part6 {F : FTy → Type} [FloatOps F] (main_arg21 : FVec F S256 .f32) (main_arg22 : FVec F S256x8 .f32) (main_arg23 : FVec F S8 .f32) (main_arg24 : FVec F S256x256 .f32) (main_arg25 : FVec F S256 .f32) (main_arg26 : IVec S200000 32) (main_arg27 : IVec S200000 32) (main_arg28 : IVec S200000 32) (main_arg29 : IVec S200000 32) (main_v98 : IVec S_ 1) (main_v101 : IVec S256x256 1) (main_c_39 : IVec S_ 1) : IVec S_ 1 :=
  let main_v102 : IVec S_ 1 := (fun x v => Host.reduce IntOp.andi x v reducesTo_S256x256_S_d0_1 h_S_) main_v101 main_c_39
  let main_v103 : IVec S_ 1 := andi main_v98 main_v102
  let main_v104 : FVec F S256 .f32 := Host.absf main_arg21
  let main_cst_40 : FVec F S_ .f32 := constant S_ .f32 0x7F800000#32
  let main_v105 : FVec F S256 .f32 := broadcastInDim S256 ![] bcast_S_S256 main_cst_40
  let main_v106 : IVec S256 1 := cmpf .olt main_v104 main_v105
  let main_c_41 : IVec S_ 1 := constantI S_ 1 1#1
  let main_v107 : IVec S_ 1 := (fun x v => Host.reduce IntOp.andi x v reducesTo_S256_S_d0 h_S_) main_v106 main_c_41
  let main_v108 : IVec S_ 1 := andi main_v103 main_v107
  let main_v109 : FVec F S256x8 .f32 := Host.absf main_arg22
  let main_cst_42 : FVec F S_ .f32 := constant S_ .f32 0x7F800000#32
  let main_v110 : FVec F S256x8 .f32 := broadcastInDim S256x8 ![] bcast_S_S256x8 main_cst_42
  let main_v111 : IVec S256x8 1 := cmpf .olt main_v109 main_v110
  let main_c_43 : IVec S_ 1 := constantI S_ 1 1#1
  let main_v112 : IVec S_ 1 := (fun x v => Host.reduce IntOp.andi x v reducesTo_S256x8_S_d0_1 h_S_) main_v111 main_c_43
  let main_v113 : IVec S_ 1 := andi main_v108 main_v112
  let main_v114 : FVec F S8 .f32 := Host.absf main_arg23
  let main_cst_44 : FVec F S_ .f32 := constant S_ .f32 0x7F800000#32
  let main_v115 : FVec F S8 .f32 := broadcastInDim S8 ![] bcast_S_S8 main_cst_44
  let main_v116 : IVec S8 1 := cmpf .olt main_v114 main_v115
  let main_c_45 : IVec S_ 1 := constantI S_ 1 1#1
  let main_v117 : IVec S_ 1 := (fun x v => Host.reduce IntOp.andi x v reducesTo_S8_S_d0 h_S_) main_v116 main_c_45
  let main_v118 : IVec S_ 1 := andi main_v113 main_v117
  let main_v119 : FVec F S256x256 .f32 := Host.absf main_arg24
  fn_part7 (F := F) main_arg25 main_arg26 main_arg27 main_arg28 main_arg29 main_v118 main_v119

def fn_part5 {F : FTy → Type} [FloatOps F] (main_arg18 : FVec F S256x8 .f32) (main_arg19 : FVec F S8 .f32) (main_arg20 : FVec F S256x256 .f32) (main_arg21 : FVec F S256 .f32) (main_arg22 : FVec F S256x8 .f32) (main_arg23 : FVec F S8 .f32) (main_arg24 : FVec F S256x256 .f32) (main_arg25 : FVec F S256 .f32) (main_arg26 : IVec S200000 32) (main_arg27 : IVec S200000 32) (main_arg28 : IVec S200000 32) (main_arg29 : IVec S200000 32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S256x8 .f32 := Host.absf main_arg18
  let main_cst_34 : FVec F S_ .f32 := constant S_ .f32 0x7F800000#32
  let main_v90 : FVec F S256x8 .f32 := broadcastInDim S256x8 ![] bcast_S_S256x8 main_cst_34
  let main_v91 : IVec S256x8 1 := cmpf .olt main_v89 main_v90
  let main_c_35 : IVec S_ 1 := constantI S_ 1 1#1
  let main_v92 : IVec S_ 1 := (fun x v => Host.reduce IntOp.andi x v reducesTo_S256x8_S_d0_1 h_S_) main_v91 main_c_35
  let main_v93 : IVec S_ 1 := andi main_v88 main_v92
  let main_v94 : FVec F S8 .f32 := Host.absf main_arg19
  let main_cst_36 : FVec F S_ .f32 := constant S_ .f32 0x7F800000#32
  let main_v95 : FVec F S8 .f32 := broadcastInDim S8 ![] bcast_S_S8 main_cst_36
  let main_v96 : IVec S8 1 := cmpf .olt main_v94 main_v95
  let main_c_37 : IVec S_ 1 := constantI S_ 1 1#1
  let main_v97 : IVec S_ 1 := (fun x v => Host.reduce IntOp.andi x v reducesTo_S8_S_d0 h_S_) main_v96 main_c_37
  let main_v98 : IVec S_ 1 := andi main_v93 main_v97
  let main_v99 : FVec F S256x256 .f32 := Host.absf main_arg20
  let main_cst_38 : FVec F S_ .f32 := constant S_ .f32 0x7F800000#32
  let main_v100 : FVec F S256x256 .f32 := broadcastInDim S256x256 ![] bcast_S_S256x256 main_cst_38
  let main_v101 : IVec S256x256 1 := cmpf .olt main_v99 main_v100
  let main_c_39 : IVec S_ 1 := constantI S_ 1 1#1
  fn_part6 (F := F) main_arg21 main_arg22 main_arg23 main_arg24 main_arg25 main_arg26 main_arg27 main_arg28 main_arg29 main_v98 main_v101 main_c_39

def fn_part4 {F : FTy → Type} [FloatOps F] (main_arg14 : FVec F S256x256 .f32) (main_arg15 : FVec F S256 .f32) (main_arg16 : FVec F S256x256 .f32) (main_arg17 : FVec F S256 .f32) (main_arg18 : FVec F S256x8 .f32) (main_arg19 : FVec F S8 .f32) (main_arg20 : FVec F S256x256 .f32) (main_arg21 : FVec F S256 .f32) (main_arg22 : FVec F S256x8 .f32) (main_arg23 : FVec F S8 .f32) (main_arg24 : FVec F S256x256 .f32) (main_arg25 : FVec F S256 .f32) (main_arg26 : IVec S200000 32) (main_arg27 : IVec S200000 32) (main_arg28 : IVec S200000 32) (main_arg29 : IVec S200000 32) (main_v63 : IVec S_ 1) (main_v67 : IVec S_ 1) : IVec S_ 1 :=
  let main_v68 : IVec S_ 1 := andi main_v63 main_v67
  let main_v69 : FVec F S256x256 .f32 := Host.absf main_arg14
  let main_cst_26 : FVec F S_ .f32 := constant S_ .f32 0x7F800000#32
  let main_v70 : FVec F S256x256 .f32 := broadcastInDim S256x256 ![] bcast_S_S256x256 main_cst_26
  let main_v71 : IVec S256x256 1 := cmpf .olt main_v69 main_v70
  let main_c_27 : IVec S_ 1 := constantI S_ 1 1#1
  let main_v72 : IVec S_ 1 := (fun x v => Host.reduce IntOp.andi x v reducesTo_S256x256_S_d0_1 h_S_) main_v71 main_c_27
  let main_v73 : IVec S_ 1 := andi main_v68 main_v72
  let main_v74 : FVec F S256 .f32 := Host.absf main_arg15
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256x256 .f32 := Host.absf main_arg16
  let main_cst_30 : FVec F S_ .f32 := constant S_ .f32 0x7F800000#32
  let main_v80 : FVec F S256x256 .f32 := broadcastInDim S256x256 ![] bcast_S_S256x256 main_cst_30
  let main_v81 : IVec S256x256 1 := cmpf .olt main_v79 main_v80
  let main_c_31 : IVec S_ 1 := constantI S_ 1 1#1
  let main_v82 : IVec S_ 1 := (fun x v => Host.reduce IntOp.andi x v reducesTo_S256x256_S_d0_1 h_S_) main_v81 main_c_31
  let main_v83 : IVec S_ 1 := andi main_v78 main_v82
  let main_v84 : FVec F S256 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_arg28 main_arg29 main_v83 main_v84 main_cst_32

def fn_part3 {F : FTy → Type} [FloatOps F] (main_arg11 : FVec F S256 .f32) (main_arg12 : FVec F S256x256 .f32) (main_arg13 : FVec F S256 .f32) (main_arg14 : FVec F S256x256 .f32) (main_arg15 : FVec F S256 .f32) (main_arg16 : FVec F S256x256 .f32) (main_arg17 : FVec F S256 .f32) (main_arg18 : FVec F S256x8 .f32) (main_arg19 : FVec F S8 .f32) (main_arg20 : FVec F S256x256 .f32) (main_arg21 : FVec F S256 .f32) (main_arg22 : FVec F S256x8 .f32) (main_arg23 : FVec F S8 .f32) (main_arg24 : FVec F S256x256 .f32) (main_arg25 : FVec F S256 .f32) (main_arg26 : IVec S200000 32) (main_arg27 : IVec S200000 32) (main_arg28 : IVec S200000 32) (main_arg29 : IVec S200000 32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x256 .f32 := Host.absf main_arg12
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg14 main_arg15 main_arg16 main_arg17 main_arg18 main_arg19 main_arg20 main_arg21 main_arg22 main_arg23 main_arg24 main_arg25 main_arg26 main_arg27 main_arg28 main_arg29 main_v63 main_v67

def fn_part2 {F : FTy → Type} [FloatOps F] (main_arg7 : FVec F S256 .f32) (main_arg8 : FVec F S256x256 .f32) (main_arg9 : FVec F S256 .f32) (main_arg10 : FVec F S256x256 .f32) (main_arg11 : FVec F S256 .f32) (main_arg12 : FVec F S256x256 .f32) (main_arg13 : FVec F S256 .f32) (main_arg14 : FVec F S256x256 .f32) (main_arg15 : FVec F S256 .f32) (main_arg16 : FVec F S256x256 .f32) (main_arg17 : FVec F S256 .f32) (main_arg18 : FVec F S256x8 .f32) (main_arg19 : FVec F S8 .f32) (main_arg20 : FVec F S256x256 .f32) (main_arg21 : FVec F S256 .f32) (main_arg22 : FVec F S256x8 .f32) (main_arg23 : FVec F S8 .f32) (main_arg24 : FVec F S256x256 .f32) (main_arg25 : FVec F S256 .f32) (main_arg26 : IVec S200000 32) (main_arg27 : IVec S200000 32) (main_arg28 : IVec S200000 32) (main_arg29 : IVec S200000 32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg10
  let main_cst_18 : FVec F S_ .f32 := constant S_ .f32 0x7F800000#32
  let main_v50 : FVec F S256x256 .f32 := broadcastInDim S256x256 ![] bcast_S_S256x256 main_cst_18
  fn_part3 (F := F) main_arg11 main_arg12 main_arg13 main_arg14 main_arg15 main_arg16 main_arg17 main_arg18 main_arg19 main_arg20 main_arg21 main_arg22 main_arg23 main_arg24 main_arg25 main_arg26 main_arg27 main_arg28 main_arg29 main_v48 main_v49 main_v50

def fn_part1 {F : FTy → Type} [FloatOps F] (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S256x256 .f32) (main_arg11 : FVec F S256 .f32) (main_arg12 : FVec F S256x256 .f32) (main_arg13 : FVec F S256 .f32) (main_arg14 : FVec F S256x256 .f32) (main_arg15 : FVec F S256 .f32) (main_arg16 : FVec F S256x256 .f32) (main_arg17 : FVec F S256 .f32) (main_arg18 : FVec F S256x8 .f32) (main_arg19 : FVec F S8 .f32) (main_arg20 : FVec F S256x256 .f32) (main_arg21 : FVec F S256 .f32) (main_arg22 : FVec F S256x8 .f32) (main_arg23 : FVec F S8 .f32) (main_arg24 : FVec F S256x256 .f32) (main_arg25 : FVec F S256 .f32) (main_arg26 : IVec S200000 32) (main_arg27 : IVec S200000 32) (main_arg28 : IVec S200000 32) (main_arg29 : IVec S200000 32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_v33

def fn {F : FTy → Type} [FloatOps F] (main_arg0 : FVec F S100000x256 .f32) (main_arg1 : FVec F S50000x256 .f32) (main_arg2 : FVec F S256x256 .f32) (main_arg3 : FVec F S256 .f32) (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S256x256 .f32) (main_arg11 : FVec F S256 .f32) (main_arg12 : FVec F S256x256 .f32) (main_arg13 : FVec F S256 .f32) (main_arg14 : FVec F S256x256 .f32) (main_arg15 : FVec F S256 .f32) (main_arg16 : FVec F S256x256 .f32) (main_arg17 : FVec F S256 .f32) (main_arg18 : FVec F S256x8 .f32) (main_arg19 : FVec F S8 .f32) (main_arg20 : FVec F S256x256 .f32) (main_arg21 : FVec F S256 .f32) (main_arg22 : FVec F S256x8 .f32) (main_arg23 : FVec F S8 .f32) (main_arg24 : FVec F S256x256 .f32) (main_arg25 : FVec F S256 .f32) (main_arg26 : IVec S200000 32) (main_arg27 : IVec S200000 32) (main_arg28 : IVec S200000 32) (main_arg29 : IVec S200000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S50000x256 .f32 := Host.absf main_arg1
  let main_cst_0 : FVec F S_ .f32 := constant S_ .f32 0x7F800000#32
  let main_v5 : FVec F S50000x256 .f32 := broadcastInDim S50000x256 ![] bcast_S_S50000x256 main_cst_0
  let main_v6 : IVec S50000x256 1 := cmpf .olt main_v4 main_v5
  let main_c_1 : IVec S_ 1 := constantI S_ 1 1#1
  let main_v7 : IVec S_ 1 := (fun x v => Host.reduce IntOp.andi x v reducesTo_S50000x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_v13 main_v16
-- ==== Kernel.lean ====
abbrev S100000x256 : Shape := ⟨2, ![100000, 256]⟩
abbrev S50000x256 : Shape := ⟨2, ![50000, 256]⟩
abbrev S256x256 : Shape := ⟨2, ![256, 256]⟩
abbrev S256 : Shape := ⟨1, ![256]⟩
abbrev S256x8 : Shape := ⟨2, ![256, 8]⟩
abbrev S8 : Shape := ⟨1, ![8]⟩
abbrev S200000 : Shape := ⟨1, ![200000]⟩
abbrev S1x256 : Shape := ⟨2, ![1, 256]⟩
abbrev S2000x256 : Shape := ⟨2, ![2000, 256]⟩
abbrev S_ : Shape := ⟨0, ![]⟩
abbrev S200000x1 : Shape := ⟨2, ![200000, 1]⟩
abbrev S1 : Shape := ⟨1, ![1]⟩
abbrev S1x1 : Shape := ⟨2, ![1, 1]⟩
abbrev S200000x256 : Shape := ⟨2, ![200000, 256]⟩
abbrev S1x8 : Shape := ⟨2, ![1, 8]⟩
abbrev S2000x8 : Shape := ⟨2, ![2000, 8]⟩
abbrev S2000 : Shape := ⟨1, ![2000]⟩
abbrev S2000x1 : Shape := ⟨2, ![2000, 1]⟩
abbrev S50000x1 : Shape := ⟨2, ![50000, 1]⟩
abbrev S100000x1 : Shape := ⟨2, ![100000, 1]⟩
abbrev S150000x256 : Shape := ⟨2, ![150000, 256]⟩

abbrev nBuf : Space → Nat
  | .hbm => 211
  | .vmem => 72
  | .smem => 0
  | _ => 0

abbrev hbmTy0_0 (i : Nat) : BufTy := match i % 128 with
  | 0 => ⟨S100000x256, .f32⟩
  | 1 => ⟨S50000x256, .f32⟩
  | 2 => ⟨S256x256, .f32⟩
  | 3 => ⟨S256, .f32⟩
  | 4 => ⟨S256x256, .f32⟩
  | 5 => ⟨S256, .f32⟩
  | 6 => ⟨S256x256, .f32⟩
  | 7 => ⟨S256, .f32⟩
  | 8 => ⟨S256x256, .f32⟩
  | 9 => ⟨S256, .f32⟩
  | 10 => ⟨S256x256, .f32⟩
  | 11 => ⟨S256, .f32⟩
  | 12 => ⟨S256x256, .f32⟩
  | 13 => ⟨S256, .f32⟩
  | 14 => ⟨S256x256, .f32⟩
  | 15 => ⟨S256, .f32⟩
  | 16 => ⟨S256x256, .f32⟩
  | 17 => ⟨S256, .f32⟩
  | 18 => ⟨S256x8, .f32⟩
  | 19 => ⟨S8, .f32⟩
  | 20 => ⟨S256x256, .f32⟩
  | 21 => ⟨S256, .f32⟩
  | 22 => ⟨S256x8, .f32⟩
  | 23 => ⟨S8, .f32⟩
  | 24 => ⟨S256x256, .f32⟩
  | 25 => ⟨S256, .f32⟩
  | 26 => ⟨S200000, .i32⟩
  | 27 => ⟨S200000, .i32⟩
  | 28 => ⟨S200000, .i32⟩
  | 29 => ⟨S200000, .i32⟩
  | 30 => ⟨S1x256, .f32⟩
  | 31 => ⟨S1x256, .f32⟩
  | 32 => ⟨S1x256, .f32⟩
  | 33 => ⟨S100000x256, .f32⟩
  | 34 => ⟨S100000x256, .f32⟩
  | 35 => ⟨S100000x256, .f32⟩
  | 36 => ⟨S1x256, .f32⟩
  | 37 => ⟨S1x256, .f32⟩
  | 38 => ⟨S1x256, .f32⟩
  | 39 => ⟨S50000x256, .f32⟩
  | 40 => ⟨S50000x256, .f32⟩
  | 41 => ⟨S50000x256, .f32⟩
  | 42 => ⟨S_, .i32⟩
  | 43 => ⟨S200000, .i32⟩
  | 44 => ⟨S200000, .i1⟩
  | 45 => ⟨S_, .i32⟩
  | 46 => ⟨S200000, .i32⟩
  | 47 => ⟨S200000, .i32⟩
  | 48 => ⟨S200000, .i32⟩
  | 49 => ⟨S200000x1, .i32⟩
  | 50 => ⟨S1, .i32⟩
  | 51 => ⟨S_, .i32⟩
  | 52 => ⟨S200000x1, .i32⟩
  | 53 => ⟨S200000x1, .i1⟩
  | 54 => ⟨S1x1, .i32⟩
  | 55 => ⟨S200000x1, .i32⟩
  | 56 => ⟨S200000x1, .i1⟩
  | 57 => ⟨S200000x1, .i1⟩
  | 58 => ⟨S_, .i1⟩
  | 59 => ⟨S200000, .i1⟩
  | 60 => ⟨S200000x256, .f32⟩
  | 61 => ⟨S200000x256, .i1⟩
  | 62 => ⟨S_, .f32⟩
  | 63 => ⟨S200000x256, .f32⟩
  | 64 => ⟨S200000x256, .f32⟩
  | 65 => ⟨S_, .i32⟩
  | 66 => ⟨S200000, .i32⟩
  | 67 => ⟨S200000, .i1⟩
  | 68 => ⟨S_, .i32⟩
  | 69 => ⟨S200000, .i32⟩
  | 70 => ⟨S200000, .i32⟩
  | 71 => ⟨S200000, .i32⟩
  | 72 => ⟨S200000x1, .i32⟩
  | 73 => ⟨S1, .i32⟩
  | 74 => ⟨S_, .i32⟩
  | 75 => ⟨S200000x1, .i32⟩
  | 76 => ⟨S200000x1, .i1⟩
  | 77 => ⟨S1x1, .i32⟩
  | 78 => ⟨S200000x1, .i32⟩
  | 79 => ⟨S200000x1, .i1⟩
  | 80 => ⟨S200000x1, .i1⟩
  | 81 => ⟨S_, .i1⟩
  | 82 => ⟨S200000, .i1⟩
  | 83 => ⟨S200000x256, .f32⟩
  | 84 => ⟨S200000x256, .i1⟩
  | 85 => ⟨S_, .f32⟩
  | 86 => ⟨S200000x256, .f32⟩
  | 87 => ⟨S200000x256, .f32⟩
  | 88 => ⟨S_, .i32⟩
  | 89 => ⟨S200000, .i32⟩
  | 90 => ⟨S200000, .i1⟩
  | 91 => ⟨S_, .i32⟩
  | 92 => ⟨S200000, .i32⟩
  | 93 => ⟨S200000, .i32⟩
  | 94 => ⟨S200000, .i32⟩
  | 95 => ⟨S200000x1, .i32⟩
  | 96 => ⟨S1, .i32⟩
  | 97 => ⟨S_, .i32⟩
  | 98 => ⟨S200000x1, .i32⟩
  | 99 => ⟨S200000x1, .i1⟩
  | 100 => ⟨S1x1, .i32⟩
  | 101 => ⟨S200000x1, .i32⟩
  | 102 => ⟨S200000x1, .i1⟩
  | 103 => ⟨S200000x1, .i1⟩
  | 104 => ⟨S_, .i1⟩
  | 105 => ⟨S200000, .i1⟩
  | 106 => ⟨S200000x256, .f32⟩
  | 107 => ⟨S200000x256, .i1⟩
  | 108 => ⟨S_, .f32⟩
  | 109 => ⟨S200000x256, .f32⟩
  | 110 => ⟨S200000x256, .f32⟩
  | 111 => ⟨S1x8, .f32⟩
  | 112 => ⟨S1x256, .f32⟩
  | 113 => ⟨S200000x256, .f32⟩
  | 114 => ⟨S_, .f32⟩
  | 115 => ⟨S50000x256, .f32⟩
  | 116 => ⟨S200000x1, .i32⟩
  | 117 => ⟨S50000x256, .f32⟩
  | 118 => ⟨S_, .f32⟩
  | 119 => ⟨S200000x1, .f32⟩
  | 120 => ⟨S_, .f32⟩
  | 121 => ⟨S50000x1, .f32⟩
  | 122 => ⟨S200000x1, .i32⟩
  | 123 => ⟨S50000x1, .f32⟩
  | 124 => ⟨S_, .i32⟩
  | 125 => ⟨S200000, .i32⟩
  | 126 => ⟨S200000, .i1⟩
  | 127 => ⟨S_, .i32⟩
  | _ => ⟨S100000x256, .f32⟩

abbrev hbmTy0_1 (i : Nat) : BufTy := match i % 128 with
  | 0 => ⟨S200000, .i32⟩
  | 1 => ⟨S200000, .i32⟩
  | 2 => ⟨S200000, .i32⟩
  | 3 => ⟨S200000x1, .i32⟩
  | 4 => ⟨S1, .i32⟩
  | 5 => ⟨S_, .i32⟩
  | 6 => ⟨S200000x1, .i32⟩
  | 7 => ⟨S200000x1, .i1⟩
  | 8 => ⟨S1x1, .i32⟩
  | 9 => ⟨S200000x1, .i32⟩
  | 10 => ⟨S200000x1, .i1⟩
  | 11 => ⟨S200000x1, .i1⟩
  | 12 => ⟨S_, .i1⟩
  | 13 => ⟨S200000, .i1⟩
  | 14 => ⟨S200000x256, .f32⟩
  | 15 => ⟨S200000x256, .i1⟩
  | 16 => ⟨S_, .f32⟩
  | 17 => ⟨S200000x256, .f32⟩
  | 18 => ⟨S200000x256, .f32⟩
  | 19 => ⟨S_, .i32⟩
  | 20 => ⟨S200000, .i32⟩
  | 21 => ⟨S200000, .i1⟩
  | 22 => ⟨S_, .i32⟩
  | 23 => ⟨S200000, .i32⟩
  | 24 => ⟨S200000, .i32⟩
  | 25 => ⟨S200000, .i32⟩
  | 26 => ⟨S200000x1, .i32⟩
  | 27 => ⟨S1, .i32⟩
  | 28 => ⟨S_, .i32⟩
  | 29 => ⟨S200000x1, .i32⟩
  | 30 => ⟨S200000x1, .i1⟩
  | 31 => ⟨S1x1, .i32⟩
  | 32 => ⟨S200000x1, .i32⟩
  | 33 => ⟨S200000x1, .i1⟩
  | 34 => ⟨S200000x1, .i1⟩
  | 35 => ⟨S_, .i1⟩
  | 36 => ⟨S200000, .i1⟩
  | 37 => ⟨S200000x256, .f32⟩
  | 38 => ⟨S200000x256, .i1⟩
  | 39 => ⟨S_, .f32⟩
  | 40 => ⟨S200000x256, .f32⟩
  | 41 => ⟨S200000x256, .f32⟩
  | 42 => ⟨S_, .i32⟩
  | 43 => ⟨S200000, .i32⟩
  | 44 => ⟨S200000, .i1⟩
  | 45 => ⟨S_, .i32⟩
  | 46 => ⟨S200000, .i32⟩
  | 47 => ⟨S200000, .i32⟩
  | 48 => ⟨S200000, .i32⟩
  | 49 => ⟨S200000x1, .i32⟩
  | 50 => ⟨S1, .i32⟩
  | 51 => ⟨S_, .i32⟩
  | 52 => ⟨S200000x1, .i32⟩
  | 53 => ⟨S200000x1, .i1⟩
  | 54 => ⟨S1x1, .i32⟩
  | 55 => ⟨S200000x1, .i32⟩
  | 56 => ⟨S200000x1, .i1⟩
  | 57 => ⟨S200000x1, .i1⟩
  | 58 => ⟨S_, .i1⟩
  | 59 => ⟨S200000, .i1⟩
  | 60 => ⟨S200000x256, .f32⟩
  | 61 => ⟨S200000x256, .i1⟩
  | 62 => ⟨S_, .f32⟩
  | 63 => ⟨S200000x256, .f32⟩
  | 64 => ⟨S200000x256, .f32⟩
  | 65 => ⟨S1x8, .f32⟩
  | 66 => ⟨S1x256, .f32⟩
  | 67 => ⟨S200000x256, .f32⟩
  | 68 => ⟨S_, .f32⟩
  | 69 => ⟨S100000x256, .f32⟩
  | 70 => ⟨S200000x1, .i32⟩
  | 71 => ⟨S100000x256, .f32⟩
  | 72 => ⟨S_, .f32⟩
  | 73 => ⟨S200000x1, .f32⟩
  | 74 => ⟨S_, .f32⟩
  | 75 => ⟨S100000x1, .f32⟩
  | 76 => ⟨S200000x1, .i32⟩
  | 77 => ⟨S100000x1, .f32⟩
  | 78 => ⟨S1x256, .f32⟩
  | 79 => ⟨S100000x256, .f32⟩
  | 80 => ⟨S1x256, .f32⟩
  | 81 => ⟨S50000x256, .f32⟩
  | 82 => ⟨S150000x256, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S256x256, .f32⟩
  | .local _ .vmem, ⟨17, _⟩ => ⟨S1x256, .f32⟩
  | .local _ .vmem, ⟨18, _⟩ => ⟨S256x256, .f32⟩
  | .local _ .vmem, ⟨19, _⟩ => ⟨S1x256, .f32⟩
  | .local _ .vmem, ⟨20, _⟩ => ⟨S256x256, .f32⟩
  | .local _ .vmem, ⟨21, _⟩ => ⟨S1x256, .f32⟩
  | .local _ .vmem, ⟨22, _⟩ => ⟨S2000x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S2000x256, .f32⟩
  | .local _ .vmem, ⟨29, _⟩ => ⟨S2000x256, .f32⟩
  | .local _ .vmem, ⟨30, _⟩ => ⟨S2000x256, .f32⟩
  | .local _ .vmem, ⟨31, _⟩ => ⟨S2000x256, .f32⟩
  | .local _ .vmem, ⟨32, _⟩ => ⟨S2000x256, .f32⟩
  | .local _ .vmem, ⟨33, _⟩ => ⟨S2000x256, .f32⟩
  | .local _ .vmem, ⟨34, _⟩ => ⟨S256x8, .f32⟩
  | .local _ .vmem, ⟨35, _⟩ => ⟨S1x8, .f32⟩
  | .local _ .vmem, ⟨36, _⟩ => ⟨S256x256, .f32⟩
  | .local _ .vmem, ⟨37, _⟩ => ⟨S1x256, .f32⟩
  | .local _ .vmem, ⟨38, _⟩ => ⟨S2000x256, .f32⟩
  | .local _ .vmem, ⟨39, _⟩ => ⟨S2000x256, .f32⟩
  | .local _ .vmem, ⟨40, _⟩ => ⟨S2000x256, .f32⟩
  | .local _ .vmem, ⟨41, _⟩ => ⟨S2000x256, .f32⟩
  | .local _ .vmem, ⟨42, _⟩ => ⟨S2000x256, .f32⟩
  | .local _ .vmem, ⟨43, _⟩ => ⟨S2000x256, .f32⟩
  | .local _ .vmem, ⟨44, _⟩ => ⟨S2000x256, .f32⟩
  | .local _ .vmem, ⟨45, _⟩ => ⟨S2000x256, .f32⟩
  | .local _ .vmem, ⟨46, _⟩ => ⟨S256x8, .f32⟩
  | .local _ .vmem, ⟨47, _⟩ => ⟨S1x8, .f32⟩
  | .local _ .vmem, ⟨48, _⟩ => ⟨S256x256, .f32⟩
  | .local _ .vmem, ⟨49, _⟩ => ⟨S1x256, .f32⟩
  | .local _ .vmem, ⟨50, _⟩ => ⟨S2000x256, .f32⟩
  | .local _ .vmem, ⟨51, _⟩ => ⟨S2000x256, .f32⟩
  | .local _ .vmem, ⟨52, _⟩ => ⟨S2000x256, .f32⟩
  | .local _ .vmem, ⟨53, _⟩ => ⟨S2000x256, .f32⟩
  | .local _ .vmem, ⟨54, _⟩ => ⟨S2000x1, .f32⟩
  | .local _ .vmem, ⟨55, _⟩ => ⟨S2000x1, .f32⟩
  | .local _ .vmem, ⟨56, _⟩ => ⟨S2000x256, .f32⟩
  | .local _ .vmem, ⟨57, _⟩ => ⟨S2000x256, .f32⟩
  | .local _ .vmem, ⟨58, _⟩ => ⟨S256x256, .f32⟩
  | .local _ .vmem, ⟨59, _⟩ => ⟨S1x256, .f32⟩
  | .local _ .vmem, ⟨60, _⟩ => ⟨S2000x256, .f32⟩
  | .local _ .vmem, ⟨61, _⟩ => ⟨S2000x256, .f32⟩
  | .local _ .vmem, ⟨62, _⟩ => ⟨S2000x256, .f32⟩
  | .local _ .vmem, ⟨63, _⟩ => ⟨S2000x256, .f32⟩
  | .local _ .vmem, ⟨64, _⟩ => ⟨S2000x1, .f32⟩
  | .local _ .vmem, ⟨65, _⟩ => ⟨S2000x1, .f32⟩
  | .local _ .vmem, ⟨66, _⟩ => ⟨S2000x256, .f32⟩
  | .local _ .vmem, ⟨67, _⟩ => ⟨S2000x256, .f32⟩
  | .local _ .vmem, ⟨68, _⟩ => ⟨S256x256, .f32⟩
  | .local _ .vmem, ⟨69, _⟩ => ⟨S1x256, .f32⟩
  | .local _ .vmem, ⟨70, _⟩ => ⟨S2000x256, .f32⟩
  | .local _ .vmem, ⟨71, _⟩ => ⟨S2000x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3_0 : Ref sig .tc := ⟨.hbm, 33, rfl⟩
abbrev main_v3_1 : Ref sig .tc := ⟨.hbm, 34, rfl⟩
abbrev main_v3_2 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7_0 : Ref sig .tc := ⟨.hbm, 39, rfl⟩
abbrev main_v7_1 : Ref sig .tc := ⟨.hbm, 40, rfl⟩
abbrev main_v7_2 : Ref sig .tc := ⟨.hbm, 41, rfl⟩
abbrev main_call0_c : Ref sig .tc := ⟨.hbm, 42, rfl⟩
abbrev main_call0_v0 : Ref sig .tc := ⟨.hbm, 43, rfl⟩
abbrev main_call0_v1 : Ref sig .tc := ⟨.hbm, 44, rfl⟩
abbrev main_call0_c_0 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_v5 : Ref sig .tc := ⟨.hbm, 49, rfl⟩
abbrev main_call0_c_1 : Ref sig .tc := ⟨.hbm, 50, rfl⟩
abbrev main_call0_c_2 : Ref sig .tc := ⟨.hbm, 51, rfl⟩
abbrev main_call0_v6 : Ref sig .tc := ⟨.hbm, 52, rfl⟩
abbrev main_call0_v7 : Ref sig .tc := ⟨.hbm, 53, rfl⟩
abbrev main_call0_v8 : Ref sig .tc := ⟨.hbm, 54, rfl⟩
abbrev main_call0_v9 : Ref sig .tc := ⟨.hbm, 55, rfl⟩
abbrev main_call0_v10 : Ref sig .tc := ⟨.hbm, 56, rfl⟩
abbrev main_call0_v11 : Ref sig .tc := ⟨.hbm, 57, rfl⟩
abbrev main_call0_c_3 : Ref sig .tc := ⟨.hbm, 58, rfl⟩
abbrev main_call0_v12 : Ref sig .tc := ⟨.hbm, 59, rfl⟩
abbrev main_call0_v13 : Ref sig .tc := ⟨.hbm, 60, rfl⟩
abbrev main_call0_v14 : Ref sig .tc := ⟨.hbm, 61, rfl⟩
abbrev main_call0_cst : Ref sig .tc := ⟨.hbm, 62, rfl⟩
abbrev main_call0_v15 : Ref sig .tc := ⟨.hbm, 63, rfl⟩
abbrev main_v8 : Ref sig .tc := ⟨.hbm, 64, rfl⟩
abbrev main_call1_c : Ref sig .tc := ⟨.hbm, 65, rfl⟩
abbrev main_call1_v0 : Ref sig .tc := ⟨.hbm, 66, rfl⟩
abbrev main_call1_v1 : Ref sig .tc := ⟨.hbm, 67, rfl⟩
abbrev main_call1_c_0 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_call1_v5 : Ref sig .tc := ⟨.hbm, 72, rfl⟩
abbrev main_call1_c_1 : Ref sig .tc := ⟨.hbm, 73, rfl⟩
abbrev main_call1_c_2 : Ref sig .tc := ⟨.hbm, 74, rfl⟩
abbrev main_call1_v6 : Ref sig .tc := ⟨.hbm, 75, rfl⟩
abbrev main_call1_v7 : Ref sig .tc := ⟨.hbm, 76, rfl⟩
abbrev main_call1_v8 : Ref sig .tc := ⟨.hbm, 77, rfl⟩
abbrev main_call1_v9 : Ref sig .tc := ⟨.hbm, 78, rfl⟩
abbrev main_call1_v10 : Ref sig .tc := ⟨.hbm, 79, rfl⟩
abbrev main_call1_v11 : Ref sig .tc := ⟨.hbm, 80, rfl⟩
abbrev main_call1_c_3 : Ref sig .tc := ⟨.hbm, 81, rfl⟩
abbrev main_call1_v12 : Ref sig .tc := ⟨.hbm, 82, rfl⟩
abbrev main_call1_v13 : Ref sig .tc := ⟨.hbm, 83, rfl⟩
abbrev main_call1_v14 : Ref sig .tc := ⟨.hbm, 84, rfl⟩
abbrev main_call1_cst : Ref sig .tc := ⟨.hbm, 85, rfl⟩
abbrev main_call1_v15 : Ref sig .tc := ⟨.hbm, 86, rfl⟩
abbrev main_v9 : Ref sig .tc := ⟨.hbm, 87, rfl⟩
abbrev main_call2_c : Ref sig .tc := ⟨.hbm, 88, rfl⟩
abbrev main_call2_v0 : Ref sig .tc := ⟨.hbm, 89, rfl⟩
abbrev main_call2_v1 : Ref sig .tc := ⟨.hbm, 90, rfl⟩
abbrev main_call2_c_0 : Ref sig .tc := ⟨.hbm, 91, rfl⟩
abbrev main_call2_v2 : Ref sig .tc := ⟨.hbm, 92, rfl⟩
abbrev main_call2_v3 : Ref sig .tc := ⟨.hbm, 93, rfl⟩
abbrev main_call2_v4 : Ref sig .tc := ⟨.hbm, 94, rfl⟩
abbrev main_call2_v5 : Ref sig .tc := ⟨.hbm, 95, rfl⟩
abbrev main_call2_c_1 : Ref sig .tc := ⟨.hbm, 96, rfl⟩
abbrev main_call2_c_2 : Ref sig .tc := ⟨.hbm, 97, rfl⟩
abbrev main_call2_v6 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_call2_v11 : Ref sig .tc := ⟨.hbm, 103, rfl⟩
abbrev main_call2_c_3 : Ref sig .tc := ⟨.hbm, 104, rfl⟩
abbrev main_call2_v12 : Ref sig .tc := ⟨.hbm, 105, rfl⟩
abbrev main_call2_v13 : Ref sig .tc := ⟨.hbm, 106, rfl⟩
abbrev main_call2_v14 : Ref sig .tc := ⟨.hbm, 107, rfl⟩
abbrev main_call2_cst : Ref sig .tc := ⟨.hbm, 108, rfl⟩
abbrev main_call2_v15 : Ref sig .tc := ⟨.hbm, 109, rfl⟩
abbrev main_v10 : Ref sig .tc := ⟨.hbm, 110, rfl⟩
abbrev main_v11 : Ref sig .tc := ⟨.hbm, 111, rfl⟩
abbrev main_v12 : Ref sig .tc := ⟨.hbm, 112, rfl⟩
abbrev main_v13 : Ref sig .tc := ⟨.hbm, 113, rfl⟩
abbrev main_cst : Ref sig .tc := ⟨.hbm, 114, rfl⟩
abbrev main_v14 : Ref sig .tc := ⟨.hbm, 115, rfl⟩
abbrev main_v15 : Ref sig .tc := ⟨.hbm, 116, rfl⟩
abbrev main_v16 : Ref sig .tc := ⟨.hbm, 117, rfl⟩
abbrev main_cst_0 : Ref sig .tc := ⟨.hbm, 118, rfl⟩
abbrev main_v17 : Ref sig .tc := ⟨.hbm, 119, rfl⟩
abbrev main_cst_1 : Ref sig .tc := ⟨.hbm, 120, rfl⟩
abbrev main_v18 : Ref sig .tc := ⟨.hbm, 121, rfl⟩
abbrev main_v19 : Ref sig .tc := ⟨.hbm, 122, rfl⟩
abbrev main_v20 : Ref sig .tc := ⟨.hbm, 123, rfl⟩
abbrev main_call3_c : Ref sig .tc := ⟨.hbm, 124, rfl⟩
abbrev main_call3_v0 : Ref sig .tc := ⟨.hbm, 125, rfl⟩
abbrev main_call3_v1 : Ref sig .tc := ⟨.hbm, 126, rfl⟩
abbrev main_call3_c_0 : Ref sig .tc := ⟨.hbm, 127, rfl⟩
abbrev main_call3_v2 : Ref sig .tc := ⟨.hbm, 128, rfl⟩
abbrev main_call3_v3 : Ref sig .tc := ⟨.hbm, 129, rfl⟩
abbrev main_call3_v4 : Ref sig .tc := ⟨.hbm, 130, rfl⟩
abbrev main_call3_v5 : Ref sig .tc := ⟨.hbm, 131, rfl⟩
abbrev main_call3_c_1 : Ref sig .tc := ⟨.hbm, 132, rfl⟩
abbrev main_call3_c_2 : Ref sig .tc := ⟨.hbm, 133, rfl⟩
abbrev main_call3_v6 : Ref sig .tc := ⟨.hbm, 134, rfl⟩
abbrev main_call3_v7 : Ref sig .tc := ⟨.hbm, 135, rfl⟩
abbrev main_call3_v8 : Ref sig .tc := ⟨.hbm, 136, rfl⟩
abbrev main_call3_v9 : Ref sig .tc := ⟨.hbm, 137, rfl⟩
abbrev main_call3_v10 : Ref sig .tc := ⟨.hbm, 138, rfl⟩
abbrev main_call3_v11 : Ref sig .tc := ⟨.hbm, 139, rfl⟩
abbrev main_call3_c_3 : Ref sig .tc := ⟨.hbm, 140, rfl⟩
abbrev main_call3_v12 : Ref sig .tc := ⟨.hbm, 141, rfl⟩
abbrev main_call3_v13 : Ref sig .tc := ⟨.hbm, 142, rfl⟩
abbrev main_call3_v14 : Ref sig .tc := ⟨.hbm, 143, rfl⟩
abbrev main_call3_cst : Ref sig .tc := ⟨.hbm, 144, rfl⟩
abbrev main_call3_v15 : Ref sig .tc := ⟨.hbm, 145, rfl⟩
abbrev main_v21 : Ref sig .tc := ⟨.hbm, 146, rfl⟩
abbrev main_call4_c : Ref sig .tc := ⟨.hbm, 147, rfl⟩
abbrev main_call4_v0 : Ref sig .tc := ⟨.hbm, 148, rfl⟩
abbrev main_call4_v1 : Ref sig .tc := ⟨.hbm, 149, rfl⟩
abbrev main_call4_c_0 : Ref sig .tc := ⟨.hbm, 150, rfl⟩
abbrev main_call4_v2 : Ref sig .tc := ⟨.hbm, 151, rfl⟩
abbrev main_call4_v3 : Ref sig .tc := ⟨.hbm, 152, rfl⟩
abbrev main_call4_v4 : Ref sig .tc := ⟨.hbm, 153, rfl⟩
abbrev main_call4_v5 : Ref sig .tc := ⟨.hbm, 154, rfl⟩
abbrev main_call4_c_1 : Ref sig .tc := ⟨.hbm, 155, rfl⟩
abbrev main_call4_c_2 : Ref sig .tc := ⟨.hbm, 156, rfl⟩
abbrev main_call4_v6 : Ref sig .tc := ⟨.hbm, 157, rfl⟩
abbrev main_call4_v7 : Ref sig .tc := ⟨.hbm, 158, rfl⟩
abbrev main_call4_v8 : Ref sig .tc := ⟨.hbm, 159, rfl⟩
abbrev main_call4_v9 : Ref sig .tc := ⟨.hbm, 160, rfl⟩
abbrev main_call4_v10 : Ref sig .tc := ⟨.hbm, 161, rfl⟩
abbrev main_call4_v11 : Ref sig .tc := ⟨.hbm, 162, rfl⟩
abbrev main_call4_c_3 : Ref sig .tc := ⟨.hbm, 163, rfl⟩
abbrev main_call4_v12 : Ref sig .tc := ⟨.hbm, 164, rfl⟩
abbrev main_call4_v13 : Ref sig .tc := ⟨.hbm, 165, rfl⟩
abbrev main_call4_v14 : Ref sig .tc := ⟨.hbm, 166, rfl⟩
abbrev main_call4_cst : Ref sig .tc := ⟨.hbm, 167, rfl⟩
abbrev main_call4_v15 : Ref sig .tc := ⟨.hbm, 168, rfl⟩
abbrev main_v22 : Ref sig .tc := ⟨.hbm, 169, rfl⟩
abbrev main_call5_c : Ref sig .tc := ⟨.hbm, 170, rfl⟩
abbrev main_call5_v0 : Ref sig .tc := ⟨.hbm, 171, rfl⟩
abbrev main_call5_v1 : Ref sig .tc := ⟨.hbm, 172, rfl⟩
abbrev main_call5_c_0 : Ref sig .tc := ⟨.hbm, 173, rfl⟩
abbrev main_call5_v2 : Ref sig .tc := ⟨.hbm, 174, rfl⟩
abbrev main_call5_v3 : Ref sig .tc := ⟨.hbm, 175, rfl⟩
abbrev main_call5_v4 : Ref sig .tc := ⟨.hbm, 176, rfl⟩
abbrev main_call5_v5 : Ref sig .tc := ⟨.hbm, 177, rfl⟩
abbrev main_call5_c_1 : Ref sig .tc := ⟨.hbm, 178, rfl⟩
abbrev main_call5_c_2 : Ref sig .tc := ⟨.hbm, 179, rfl⟩
abbrev main_call5_v6 : Ref sig .tc := ⟨.hbm, 180, rfl⟩
abbrev main_call5_v7 : Ref sig .tc := ⟨.hbm, 181, rfl⟩
abbrev main_call5_v8 : Ref sig .tc := ⟨.hbm, 182, rfl⟩
abbrev main_call5_v9 : Ref sig .tc := ⟨.hbm, 183, rfl⟩
abbrev main_call5_v10 : Ref sig .tc := ⟨.hbm, 184, rfl⟩
abbrev main_call5_v11 : Ref sig .tc := ⟨.hbm, 185, rfl⟩
abbrev main_call5_c_3 : Ref sig .tc := ⟨.hbm, 186, rfl⟩
abbrev main_call5_v12 : Ref sig .tc := ⟨.hbm, 187, rfl⟩
abbrev main_call5_v13 : Ref sig .tc := ⟨.hbm, 188, rfl⟩
abbrev main_call5_v14 : Ref sig .tc := ⟨.hbm, 189, rfl⟩
abbrev main_call5_cst : Ref sig .tc := ⟨.hbm, 190, rfl⟩
abbrev main_call5_v15 : Ref sig .tc := ⟨.hbm, 191, rfl⟩
abbrev main_v23 : Ref sig .tc := ⟨.hbm, 192, rfl⟩
abbrev main_v24 : Ref sig .tc := ⟨.hbm, 193, rfl⟩
abbrev main_v25 : Ref sig .tc := ⟨.hbm, 194, rfl⟩
abbrev main_v26 : Ref sig .tc := ⟨.hbm, 195, rfl⟩
abbrev main_cst_2 : Ref sig .tc := ⟨.hbm, 196, rfl⟩
abbrev main_v27 : Ref sig .tc := ⟨.hbm, 197, rfl⟩
abbrev main_v28 : Ref sig .tc := ⟨.hbm, 198, rfl⟩
abbrev main_v29 : Ref sig .tc := ⟨.hbm, 199, rfl⟩
abbrev main_cst_3 : Ref sig .tc := ⟨.hbm, 200, rfl⟩
abbrev main_v30 : Ref sig .tc := ⟨.hbm, 201, rfl⟩
abbrev main_cst_4 : Ref sig .tc := ⟨.hbm, 202, rfl⟩
abbrev main_v31 : Ref sig .tc := ⟨.hbm, 203, rfl⟩
abbrev main_v32 : Ref sig .tc := ⟨.hbm, 204, rfl⟩
abbrev main_v33 : Ref sig .tc := ⟨.hbm, 205, rfl⟩
abbrev main_v34 : Ref sig .tc := ⟨.hbm, 206, rfl⟩
abbrev main_v35 : Ref sig .tc := ⟨.hbm, 207, rfl⟩
abbrev main_v36 : Ref sig .tc := ⟨.hbm, 208, rfl⟩
abbrev main_v37 : Ref sig .tc := ⟨.hbm, 209, rfl⟩
abbrev main_v38 : Ref sig .tc := ⟨.hbm, 210, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc1_stg8_0 : Ref sig .tc := ⟨.vmem, 24, rfl⟩
abbrev cc1_stg8_1 : Ref sig .tc := ⟨.vmem, 25, rfl⟩
abbrev cc1_stg9_0 : Ref sig .tc := ⟨.vmem, 26, rfl⟩
abbrev cc1_stg9_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg2_1 : Ref sig .tc := ⟨.vmem, 33, rfl⟩
abbrev cc2_stg3_0 : Ref sig .tc := ⟨.vmem, 34, rfl⟩
abbrev cc2_stg4_0 : Ref sig .tc := ⟨.vmem, 35, rfl⟩
abbrev cc2_stg5_0 : Ref sig .tc := ⟨.vmem, 36, rfl⟩
abbrev cc2_stg6_0 : Ref sig .tc := ⟨.vmem, 37, rfl⟩
abbrev cc2_stg7_0 : Ref sig .tc := ⟨.vmem, 38, rfl⟩
abbrev cc2_stg7_1 : Ref sig .tc := ⟨.vmem, 39, rfl⟩
abbrev cc3_stg0_0 : Ref sig .tc := ⟨.vmem, 40, rfl⟩
abbrev cc3_stg0_1 : Ref sig .tc := ⟨.vmem, 41, rfl⟩
abbrev cc3_stg1_0 : Ref sig .tc := ⟨.vmem, 42, rfl⟩
abbrev cc3_stg1_1 : Ref sig .tc := ⟨.vmem, 43, rfl⟩
abbrev cc3_stg2_0 : Ref sig .tc := ⟨.vmem, 44, rfl⟩
abbrev cc3_stg2_1 : Ref sig .tc := ⟨.vmem, 45, rfl⟩
abbrev cc3_stg3_0 : Ref sig .tc := ⟨.vmem, 46, rfl⟩
abbrev cc3_stg4_0 : Ref sig .tc := ⟨.vmem, 47, rfl⟩
abbrev cc3_stg5_0 : Ref sig .tc := ⟨.vmem, 48, rfl⟩
abbrev cc3_stg6_0 : Ref sig .tc := ⟨.vmem, 49, rfl⟩
abbrev cc3_stg7_0 : Ref sig .tc := ⟨.vmem, 50, rfl⟩
abbrev cc3_stg7_1 : Ref sig .tc := ⟨.vmem, 51, rfl⟩
abbrev cc4_stg0_0 : Ref sig .tc := ⟨.vmem, 52, rfl⟩
abbrev cc4_stg0_1 : Ref sig .tc := ⟨.vmem, 53, rfl⟩
abbrev cc4_stg1_0 : Ref sig .tc := ⟨.vmem, 54, rfl⟩
abbrev cc4_stg1_1 : Ref sig .tc := ⟨.vmem, 55, rfl⟩
abbrev cc4_stg2_0 : Ref sig .tc := ⟨.vmem, 56, rfl⟩
abbrev cc4_stg2_1 : Ref sig .tc := ⟨.vmem, 57, rfl⟩
abbrev cc4_stg3_0 : Ref sig .tc := ⟨.vmem, 58, rfl⟩
abbrev cc4_stg4_0 : Ref sig .tc := ⟨.vmem, 59, rfl⟩
abbrev cc4_stg5_0 : Ref sig .tc := ⟨.vmem, 60, rfl⟩
abbrev cc4_stg5_1 : Ref sig .tc := ⟨.vmem, 61, rfl⟩
abbrev cc5_stg0_0 : Ref sig .tc := ⟨.vmem, 62, rfl⟩
abbrev cc5_stg0_1 : Ref sig .tc := ⟨.vmem, 63, rfl⟩
abbrev cc5_stg1_0 : Ref sig .tc := ⟨.vmem, 64, rfl⟩
abbrev cc5_stg1_1 : Ref sig .tc := ⟨.vmem, 65, rfl⟩
abbrev cc5_stg2_0 : Ref sig .tc := ⟨.vmem, 66, rfl⟩
abbrev cc5_stg2_1 : Ref sig .tc := ⟨.vmem, 67, rfl⟩
abbrev cc5_stg3_0 : Ref sig .tc := ⟨.vmem, 68, rfl⟩
abbrev cc5_stg4_0 : Ref sig .tc := ⟨.vmem, 69, rfl⟩
abbrev cc5_stg5_0 : Ref sig .tc := ⟨.vmem, 70, rfl⟩
abbrev cc5_stg5_1 : Ref sig .tc := ⟨.vmem, 71, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23
abbrev cc1_sem8_0 : DmaSem sig := 24
abbrev cc1_sem8_1 : DmaSem sig := 25
abbrev cc1_sem9_0 : DmaSem sig := 26
abbrev cc1_sem9_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33
abbrev cc2_sem3_0 : DmaSem sig := 34
abbrev cc2_sem4_0 : DmaSem sig := 35
abbrev cc2_sem5_0 : DmaSem sig := 36
abbrev cc2_sem6_0 : DmaSem sig := 37
abbrev cc2_sem7_0 : DmaSem sig := 38
abbrev cc2_sem7_1 : DmaSem sig := 39
abbrev cc3_sem0_0 : DmaSem sig := 40
abbrev cc3_sem0_1 : DmaSem sig := 41
abbrev cc3_sem1_0 : DmaSem sig := 42
abbrev cc3_sem1_1 : DmaSem sig := 43
abbrev cc3_sem2_0 : DmaSem sig := 44
abbrev cc3_sem2_1 : DmaSem sig := 45
abbrev cc3_sem3_0 : DmaSem sig := 46
abbrev cc3_sem4_0 : DmaSem sig := 47
abbrev cc3_sem5_0 : DmaSem sig := 48
abbrev cc3_sem6_0 : DmaSem sig := 49
abbrev cc3_sem7_0 : DmaSem sig := 50
abbrev cc3_sem7_1 : DmaSem sig := 51
abbrev cc4_sem0_0 : DmaSem sig := 52
abbrev cc4_sem0_1 : DmaSem sig := 53
abbrev cc4_sem1_0 : DmaSem sig := 54
abbrev cc4_sem1_1 : DmaSem sig := 55
abbrev cc4_sem2_0 : DmaSem sig := 56
abbrev cc4_sem2_1 : DmaSem sig := 57
abbrev cc4_sem3_0 : DmaSem sig := 58
abbrev cc4_sem4_0 : DmaSem sig := 59
abbrev cc4_sem5_0 : DmaSem sig := 60
abbrev cc4_sem5_1 : DmaSem sig := 61
abbrev cc5_sem0_0 : DmaSem sig := 62
abbrev cc5_sem0_1 : DmaSem sig := 63
abbrev cc5_sem1_0 : DmaSem sig := 64
abbrev cc5_sem1_1 : DmaSem sig := 65
abbrev cc5_sem2_0 : DmaSem sig := 66
abbrev cc5_sem2_1 : DmaSem sig := 67
abbrev cc5_sem3_0 : DmaSem sig := 68
abbrev cc5_sem4_0 : DmaSem sig := 69
abbrev cc5_sem5_0 : DmaSem sig := 70
abbrev cc5_sem5_1 : DmaSem sig := 71

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2000x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2000x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S2000x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S2000x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x8 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x8 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S256x8 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x8 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S2000x256 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S256x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x256 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S256x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x256 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  bcast_S_S200000 : S_.BroadcastsInDim S200000 (![] : Fin 0 → Fin S200000.rank)
  bcast_S200000_S200000x1_0 : S200000.BroadcastsInDim S200000x1 (![0] : Fin 1 → Fin S200000x1.rank)
  bcast_S_S200000x1 : S_.BroadcastsInDim S200000x1 (![] : Fin 0 → Fin S200000x1.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  reducesTo_S200000x1_S200000_d1 : S200000x1.ReducesTo [1] S200000
  h_S_ : 0 < S_.numel
  bcast_S200000_S200000x256_0 : S200000.BroadcastsInDim S200000x256 (![0] : Fin 1 → Fin S200000x256.rank)
  bcast_S_S200000x256 : S_.BroadcastsInDim S200000x256 (![] : Fin 0 → Fin S200000x256.rank)
  shapeCasts_S8_S1x8 : S8.ShapeCasts S1x8
  shapeCasts_S2000x256_S2000x256 : S2000x256.ShapeCasts S2000x256
  inb_S256x8_S256x8_0_0 : ∀ a, (![0, 0] : Fin 2 → Nat) a + S256x8.size a ≤ S256x8.size a
  h_S256x8 : 0 < S256x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S2000x8 : S1x8.Broadcasts S2000x8
  reduces_S2000x8_S2000 : S2000x8.Reduces [1] S2000
  shapeCasts_S2000_S2000x1 : S2000.ShapeCasts S2000x1
  broadcasts_S2000x1_S2000x8 : S2000x1.Broadcasts S2000x8
  broadcasts_S2000x1_S2000x256 : S2000x1.Broadcasts S2000x256
  bcast_S_S50000x256 : S_.BroadcastsInDim S50000x256 (![] : Fin 0 → Fin S50000x256.rank)
  bcast_S_S50000x1 : S_.BroadcastsInDim S50000x1 (![] : Fin 0 → Fin S50000x1.rank)
  bcast_S_S100000x256 : S_.BroadcastsInDim S100000x256 (![] : Fin 0 → Fin S100000x256.rank)
  bcast_S_S100000x1 : S_.BroadcastsInDim S100000x1 (![] : Fin 0 → Fin S100000x1.rank)
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  concatenates_S100000x256_S50000x256_S150000x256_d0 : Shape.Concatenates [S100000x256, S50000x256] S150000x256 0
  dot_S2000x256_S256x256_S2000x256_1_0_0_1_n_n_wf : DotDims.WF S2000x256 S256x256 S2000x256 [1] [0] [0] [1] [] []
  gather_S100000x256_S200000x1_S200000x256_1_0_n_n_0_1_1256_wf : GatherDims.WF S100000x256 S200000x1 S200000x256 [1] [0] [] [0] [] 1 ![1, 256]
  gather_S50000x256_S200000x1_S200000x256_1_0_n_n_0_1_1256_wf : GatherDims.WF S50000x256 S200000x1 S200000x256 [1] [0] [] [0] [] 1 ![1, 256]
  dot_S2000x256_S256x8_S2000x8_1_0_0_1_n_n_wf : DotDims.WF S2000x256 S256x8 S2000x8 [1] [0] [0] [1] [] []
  scatter_S50000x256_S200000x1_S200000x256_1_0_0_1_wf : ScatterDims.WF S50000x256 S200000x1 S200000x256 [1] [0] [0] 1
  scatter_S50000x1_S200000x1_S200000x1_1_0_0_1_wf : ScatterDims.WF S50000x1 S200000x1 S200000x1 [1] [0] [0] 1
  scatter_S100000x256_S200000x1_S200000x256_1_0_0_1_wf : ScatterDims.WF S100000x256 S200000x1 S200000x256 [1] [0] [0] 1
  scatter_S100000x1_S200000x1_S200000x1_1_0_0_1_wf : ScatterDims.WF S100000x1 S200000x1 S200000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x256.size a ≤ S100000x256.size a
  hwx0_7 : ∀ i : grid0.Coords, EltTy.bits .f32 = 32 ∨ (Rect.block (s := S100000x256) S2000x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x256.size a ≤ S100000x256.size a
  hwx0_8 : ∀ i : grid0.Coords, EltTy.bits .f32 = 32 ∨ (Rect.block (s := S100000x256) S2000x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x256.size a ≤ S100000x256.size a
  hwx0_9 : ∀ i : grid0.Coords, EltTy.bits .f32 = 32 ∨ (Rect.block (s := S100000x256) S2000x256.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .f32 = 32 ∨ (Rect.block (s := S256x256) S256x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x256.size a ≤ S50000x256.size a
  hwx1_7 : ∀ i : grid1.Coords, EltTy.bits .f32 = 32 ∨ (Rect.block (s := S50000x256) S2000x256.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x256.size a ≤ S50000x256.size a
  hwx1_8 : ∀ i : grid1.Coords, EltTy.bits .f32 = 32 ∨ (Rect.block (s := S50000x256) S2000x256.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x256.size a ≤ S50000x256.size a
  hwx1_9 : ∀ i : grid1.Coords, EltTy.bits .f32 = 32 ∨ (Rect.block (s := S50000x256) S2000x256.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S200000x256.size a
  hwx2_0 : ∀ i : grid2.Coords, EltTy.bits .f32 = 32 ∨ (Rect.block (s := S200000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S200000x256.size a
  hwx2_1 : ∀ i : grid2.Coords, EltTy.bits .f32 = 32 ∨ (Rect.block (s := S200000x256) S2000x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S200000x256.size a
  hwx2_2 : ∀ i : grid2.Coords, EltTy.bits .f32 = 32 ∨ (Rect.block (s := S200000x256) S2000x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x8.size a ≤ S256x8.size a
  hwx2_3 : ∀ i : grid2.Coords, EltTy.bits .f32 = 32 ∨ (Rect.block (s := S256x8) S256x8.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x8.size a ≤ S1x8.size a
  hwx2_4 : ∀ i : grid2.Coords, EltTy.bits .f32 = 32 ∨ (Rect.block (s := S1x8) S1x8.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x256.size a ≤ S256x256.size a
  hwx2_5 : ∀ i : grid2.Coords, EltTy.bits .f32 = 32 ∨ (Rect.block (s := S256x256) S256x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x256.size a ≤ S200000x256.size a
  hwx2_7 : ∀ i : grid2.Coords, EltTy.bits .f32 = 32 ∨ (Rect.block (s := S200000x256) S2000x256.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S200000x256.size a
  hwx3_0 : ∀ i : grid3.Coords, EltTy.bits .f32 = 32 ∨ (Rect.block (s := S200000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S200000x256.size a
  hwx3_1 : ∀ i : grid3.Coords, EltTy.bits .f32 = 32 ∨ (Rect.block (s := S200000x256) S2000x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x256.size a ≤ S200000x256.size a
  hwx3_2 : ∀ i : grid3.Coords, EltTy.bits .f32 = 32 ∨ (Rect.block (s := S200000x256) S2000x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x8.size a ≤ S256x8.size a
  hwx3_3 : ∀ i : grid3.Coords, EltTy.bits .f32 = 32 ∨ (Rect.block (s := S256x8) S256x8.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x8.size a ≤ S1x8.size a
  hwx3_4 : ∀ i : grid3.Coords, EltTy.bits .f32 = 32 ∨ (Rect.block (s := S1x8) S1x8.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256x256.size a ≤ S256x256.size a
  hwx3_5 : ∀ i : grid3.Coords, EltTy.bits .f32 = 32 ∨ (Rect.block (s := S256x256) S256x256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x256.size a ≤ S1x256.size a
  hwx3_6 : ∀ i : grid3.Coords, EltTy.bits .f32 = 32 ∨ (Rect.block (s := S1x256) S1x256.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S2000x256.size a ≤ S200000x256.size a
  hwx3_7 : ∀ i : grid3.Coords, EltTy.bits .f32 = 32 ∨ (Rect.block (s := S200000x256) S2000x256.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S100000x256.size a
  hwx4_0 : ∀ i : grid4.Coords, EltTy.bits .f32 = 32 ∨ (Rect.block (s := S100000x256) S2000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x1.size a ≤ S100000x1.size a
  hwx4_1 : ∀ i : grid4.Coords, EltTy.bits .f32 = 32 ∨ (Rect.block (s := S100000x1) S2000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x256.size a ≤ S100000x256.size a
  hwx4_2 : ∀ i : grid4.Coords, EltTy.bits .f32 = 32 ∨ (Rect.block (s := S100000x256) S2000x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x256.size a ≤ S256x256.size a
  hwx4_3 : ∀ i : grid4.Coords, EltTy.bits .f32 = 32 ∨ (Rect.block (s := S256x256) S256x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x256.size a ≤ S100000x256.size a
  hwx4_5 : ∀ i : grid4.Coords, EltTy.bits .f32 = 32 ∨ (Rect.block (s := S100000x256) S2000x256.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S50000x256.size a
  hwx5_0 : ∀ i : grid5.Coords, EltTy.bits .f32 = 32 ∨ (Rect.block (s := S50000x256) S2000x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x1.size a ≤ S50000x1.size a
  hwx5_1 : ∀ i : grid5.Coords, EltTy.bits .f32 = 32 ∨ (Rect.block (s := S50000x1) S2000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x256.size a ≤ S50000x256.size a
  hwx5_2 : ∀ i : grid5.Coords, EltTy.bits .f32 = 32 ∨ (Rect.block (s := S50000x256) S2000x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S256x256.size a ≤ S256x256.size a
  hwx5_3 : ∀ i : grid5.Coords, EltTy.bits .f32 = 32 ∨ (Rect.block (s := S256x256) S256x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x256.size a ≤ S1x256.size a
  hwx5_4 : ∀ i : grid5.Coords, EltTy.bits .f32 = 32 ∨ (Rect.block (s := S1x256) S1x256.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x256.size a ≤ S50000x256.size a
  hwx5_5 : ∀ i : grid5.Coords, EltTy.bits .f32 = 32 ∨ (Rect.block (s := S50000x256) S2000x256.size (cc5_transform_5 i) (hinb5_5 i)).WholeWords (EltTy.packing .f32)

variable [Facts₀]

def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S100000x256_S200000x1_S200000x256_1_0_n_n_0_1_1256 : GatherDims S100000x256 S200000x1 S200000x256 where
  offsetDims := [1]
  collapsedSliceDims := [0]
  operandBatchingDims := []
  startIndicesBatchingDims := []
  startIndexMap := [0]
  indexVectorDim := 1
  sliceSizes := ![1, 256]
  wf := gather_S100000x256_S200000x1_S200000x256_1_0_n_n_0_1_1256_wf
def gather_S50000x256_S200000x1_S200000x256_1_0_n_n_0_1_1256 : GatherDims S50000x256 S200000x1 S200000x256 where
  offsetDims := [1]
  collapsedSliceDims := [0]
  operandBatchingDims := []
  startIndicesBatchingDims := []
  startIndexMap := [0]
  indexVectorDim := 1
  sliceSizes := ![1, 256]
  wf := gather_S50000x256_S200000x1_S200000x256_1_0_n_n_0_1_1256_wf
def dot_S2000x256_S256x8_S2000x8_1_0_0_1_n_n : DotDims S2000x256 S256x8 S2000x8 where
  lhsContracting := [1]
  rhsContracting := [0]
  lhsNonContracting := [0]
  rhsNonContracting := [1]
  lhsBatch := []
  rhsBatch := []
  wf := dot_S2000x256_S256x8_S2000x8_1_0_0_1_n_n_wf
def scatter_S50000x256_S200000x1_S200000x256_1_0_0_1 : ScatterDims S50000x256 S200000x1 S200000x256 where
  updateWindowDims := [1]
  insertedWindowDims := [0]
  scatterDimsToOperandDims := [0]
  indexVectorDim := 1
  wf := scatter_S50000x256_S200000x1_S200000x256_1_0_0_1_wf
def scatter_S50000x1_S200000x1_S200000x1_1_0_0_1 : ScatterDims S50000x1 S200000x1 S200000x1 where
  updateWindowDims := [1]
  insertedWindowDims := [0]
  scatterDimsToOperandDims := [0]
  indexVectorDim := 1
  wf := scatter_S50000x1_S200000x1_S200000x1_1_0_0_1_wf
def scatter_S100000x256_S200000x1_S200000x256_1_0_0_1 : ScatterDims S100000x256 S200000x1 S200000x256 where
  updateWindowDims := [1]
  insertedWindowDims := [0]
  scatterDimsToOperandDims := [0]
  indexVectorDim := 1
  wf := scatter_S100000x256_S200000x1_S200000x256_1_0_0_1_wf
def scatter_S100000x1_S200000x1_S200000x1_1_0_0_1 : ScatterDims S100000x1 S200000x1 S200000x1 where
  updateWindowDims := [1]
  insertedWindowDims := [0]
  scatterDimsToOperandDims := [0]
  indexVectorDim := 1
  wf := scatter_S100000x1_S200000x1_S200000x1_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3_0) S2000x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v3_1) S2000x256.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v3_2) S2000x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg1) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg10) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg12) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg14) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v6) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v7_0) S2000x256.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v7_1) S2000x256.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v7_2) S2000x256.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v8) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v10) S2000x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg18) S256x8.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v11) S1x8.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg20) S256x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v12) S1x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v13) S2000x256.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v21) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v22) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v23) S2000x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg22) S256x8.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v24) S1x8.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg24) S256x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v25) S1x256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v26) S2000x256.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v29) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v33) S2000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg0) S2000x256.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg8) S256x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v34) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v35) S2000x256.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v16) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v20) S2000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg1) S2000x256.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_arg16) S256x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v36) S1x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v37) S2000x256.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S100000x256 : Shape := ⟨2, ![100000, 256]⟩
abbrev S50000x256 : Shape := ⟨2, ![50000, 256]⟩
abbrev S256x256 : Shape := ⟨2, ![256, 256]⟩
abbrev S256 : Shape := ⟨1, ![256]⟩
abbrev S256x8 : Shape := ⟨2, ![256, 8]⟩
abbrev S8 : Shape := ⟨1, ![8]⟩
abbrev S200000 : Shape := ⟨1, ![200000]⟩
abbrev S1x256 : Shape := ⟨2, ![1, 256]⟩
abbrev S_ : Shape := ⟨0, ![]⟩
abbrev S200000x1 : Shape := ⟨2, ![200000, 1]⟩
abbrev S200000x256 : Shape := ⟨2, ![200000, 256]⟩
abbrev S200000x8 : Shape := ⟨2, ![200000, 8]⟩
abbrev S1x8 : Shape := ⟨2, ![1, 8]⟩
abbrev S50000x1 : Shape := ⟨2, ![50000, 1]⟩
abbrev S100000x1 : Shape := ⟨2, ![100000, 1]⟩
abbrev S150000x256 : Shape := ⟨2, ![150000, 256]⟩

abbrev nBuf : Space → Nat
  | .hbm => 223
  | .vmem => 0
  | .smem => 0
  | _ => 0

abbrev hbmTy0_0 (i : Nat) : BufTy := match i % 128 with
  | 0 => ⟨S100000x256, .f32⟩
  | 1 => ⟨S50000x256, .f32⟩
  | 2 => ⟨S256x256, .f32⟩
  | 3 => ⟨S256, .f32⟩
  | 4 => ⟨S256x256, .f32⟩
  | 5 => ⟨S256, .f32⟩
  | 6 => ⟨S256x256, .f32⟩
  | 7 => ⟨S256, .f32⟩
  | 8 => ⟨S256x256, .f32⟩
  | 9 => ⟨S256, .f32⟩
  | 10 => ⟨S256x256, .f32⟩
  | 11 => ⟨S256, .f32⟩
  | 12 => ⟨S256x256, .f32⟩
  | 13 => ⟨S256, .f32⟩
  | 14 => ⟨S256x256, .f32⟩
  | 15 => ⟨S256, .f32⟩
  | 16 => ⟨S256x256, .f32⟩
  | 17 => ⟨S256, .f32⟩
  | 18 => ⟨S256x8, .f32⟩
  | 19 => ⟨S8, .f32⟩
  | 20 => ⟨S256x256, .f32⟩
  | 21 => ⟨S256, .f32⟩
  | 22 => ⟨S256x8, .f32⟩
  | 23 => ⟨S8, .f32⟩
  | 24 => ⟨S256x256, .f32⟩
  | 25 => ⟨S256, .f32⟩
  | 26 => ⟨S200000, .i32⟩
  | 27 => ⟨S200000, .i32⟩
  | 28 => ⟨S200000, .i32⟩
  | 29 => ⟨S200000, .i32⟩
  | 30 => ⟨S100000x256, .f32⟩
  | 31 => ⟨S1x256, .f32⟩
  | 32 => ⟨S100000x256, .f32⟩
  | 33 => ⟨S100000x256, .f32⟩
  | 34 => ⟨S100000x256, .f32⟩
  | 35 => ⟨S1x256, .f32⟩
  | 36 => ⟨S100000x256, .f32⟩
  | 37 => ⟨S100000x256, .f32⟩
  | 38 => ⟨S100000x256, .f32⟩
  | 39 => ⟨S1x256, .f32⟩
  | 40 => ⟨S100000x256, .f32⟩
  | 41 => ⟨S100000x256, .f32⟩
  | 42 => ⟨S50000x256, .f32⟩
  | 43 => ⟨S1x256, .f32⟩
  | 44 => ⟨S50000x256, .f32⟩
  | 45 => ⟨S50000x256, .f32⟩
  | 46 => ⟨S50000x256, .f32⟩
  | 47 => ⟨S1x256, .f32⟩
  | 48 => ⟨S50000x256, .f32⟩
  | 49 => ⟨S50000x256, .f32⟩
  | 50 => ⟨S50000x256, .f32⟩
  | 51 => ⟨S1x256, .f32⟩
  | 52 => ⟨S50000x256, .f32⟩
  | 53 => ⟨S50000x256, .f32⟩
  | 54 => ⟨S_, .i32⟩
  | 55 => ⟨S200000, .i32⟩
  | 56 => ⟨S200000, .i1⟩
  | 57 => ⟨S_, .i32⟩
  | 58 => ⟨S200000, .i32⟩
  | 59 => ⟨S200000, .i32⟩
  | 60 => ⟨S200000, .i32⟩
  | 61 => ⟨S200000x1, .i32⟩
  | 62 => ⟨S200000x256, .f32⟩
  | 63 => ⟨S_, .i32⟩
  | 64 => ⟨S200000, .i32⟩
  | 65 => ⟨S200000, .i1⟩
  | 66 => ⟨S_, .i32⟩
  | 67 => ⟨S200000, .i32⟩
  | 68 => ⟨S200000, .i32⟩
  | 69 => ⟨S200000, .i32⟩
  | 70 => ⟨S200000x1, .i32⟩
  | 71 => ⟨S200000x256, .f32⟩
  | 72 => ⟨S_, .i32⟩
  | 73 => ⟨S200000, .i32⟩
  | 74 => ⟨S200000, .i1⟩
  | 75 => ⟨S_, .i32⟩
  | 76 => ⟨S200000, .i32⟩
  | 77 => ⟨S200000, .i32⟩
  | 78 => ⟨S200000, .i32⟩
  | 79 => ⟨S200000x1, .i32⟩
  | 80 => ⟨S200000x256, .f32⟩
  | 81 => ⟨S200000x256, .f32⟩
  | 82 => ⟨S200000x8, .f32⟩
  | 83 => ⟨S1x8, .f32⟩
  | 84 => ⟨S200000x8, .f32⟩
  | 85 => ⟨S200000x8, .f32⟩
  | 86 => ⟨S_, .f32⟩
  | 87 => ⟨S200000x8, .f32⟩
  | 88 => ⟨S200000x8, .f32⟩
  | 89 => ⟨S_, .f32⟩
  | 90 => ⟨S200000, .f32⟩
  | 91 => ⟨S_, .f32⟩
  | 92 => ⟨S200000, .f32⟩
  | 93 => ⟨S200000, .f32⟩
  | 94 => ⟨S200000x1, .f32⟩
  | 95 => ⟨S200000x8, .f32⟩
  | 96 => ⟨S200000x8, .f32⟩
  | 97 => ⟨S200000x8, .f32⟩
  | 98 => ⟨S_, .f32⟩
  | 99 => ⟨S200000, .f32⟩
  | 100 => ⟨S200000x1, .f32⟩
  | 101 => ⟨S200000x8, .f32⟩
  | 102 => ⟨S200000x8, .f32⟩
  | 103 => ⟨S200000x256, .f32⟩
  | 104 => ⟨S1x256, .f32⟩
  | 105 => ⟨S200000x256, .f32⟩
  | 106 => ⟨S200000x256, .f32⟩
  | 107 => ⟨S_, .f32⟩
  | 108 => ⟨S200000, .f32⟩
  | 109 => ⟨S200000x1, .f32⟩
  | 110 => ⟨S_, .f32⟩
  | 111 => ⟨S200000x1, .f32⟩
  | 112 => ⟨S200000x1, .f32⟩
  | 113 => ⟨S200000x256, .f32⟩
  | 114 => ⟨S200000x256, .f32⟩
  | 115 => ⟨S_, .f32⟩
  | 116 => ⟨S50000x256, .f32⟩
  | 117 => ⟨S200000x1, .i32⟩
  | 118 => ⟨S50000x256, .f32⟩
  | 119 => ⟨S_, .f32⟩
  | 120 => ⟨S200000x1, .f32⟩
  | 121 => ⟨S_, .f32⟩
  | 122 => ⟨S50000x1, .f32⟩
  | 123 => ⟨S200000x1, .i32⟩
  | 124 => ⟨S50000x1, .f32⟩
  | 125 => ⟨S_, .i32⟩
  | 126 => ⟨S200000, .i32⟩
  | 127 => ⟨S200000, .i1⟩
  | _ => ⟨S100000x256, .f32⟩

abbrev hbmTy0_1 (i : Nat) : BufTy := match i % 128 with
  | 0 => ⟨S_, .i32⟩
  | 1 => ⟨S200000, .i32⟩
  | 2 => ⟨S200000, .i32⟩
  | 3 => ⟨S200000, .i32⟩
  | 4 => ⟨S200000x1, .i32⟩
  | 5 => ⟨S200000x256, .f32⟩
  | 6 => ⟨S_, .i32⟩
  | 7 => ⟨S200000, .i32⟩
  | 8 => ⟨S200000, .i1⟩
  | 9 => ⟨S_, .i32⟩
  | 10 => ⟨S200000, .i32⟩
  | 11 => ⟨S200000, .i32⟩
  | 12 => ⟨S200000, .i32⟩
  | 13 => ⟨S200000x1, .i32⟩
  | 14 => ⟨S200000x256, .f32⟩
  | 15 => ⟨S_, .i32⟩
  | 16 => ⟨S200000, .i32⟩
  | 17 => ⟨S200000, .i1⟩
  | 18 => ⟨S_, .i32⟩
  | 19 => ⟨S200000, .i32⟩
  | 20 => ⟨S200000, .i32⟩
  | 21 => ⟨S200000, .i32⟩
  | 22 => ⟨S200000x1, .i32⟩
  | 23 => ⟨S200000x256, .f32⟩
  | 24 => ⟨S200000x256, .f32⟩
  | 25 => ⟨S200000x8, .f32⟩
  | 26 => ⟨S1x8, .f32⟩
  | 27 => ⟨S200000x8, .f32⟩
  | 28 => ⟨S200000x8, .f32⟩
  | 29 => ⟨S_, .f32⟩
  | 30 => ⟨S200000x8, .f32⟩
  | 31 => ⟨S200000x8, .f32⟩
  | 32 => ⟨S_, .f32⟩
  | 33 => ⟨S200000, .f32⟩
  | 34 => ⟨S_, .f32⟩
  | 35 => ⟨S200000, .f32⟩
  | 36 => ⟨S200000, .f32⟩
  | 37 => ⟨S200000x1, .f32⟩
  | 38 => ⟨S200000x8, .f32⟩
  | 39 => ⟨S200000x8, .f32⟩
  | 40 => ⟨S200000x8, .f32⟩
  | 41 => ⟨S_, .f32⟩
  | 42 => ⟨S200000, .f32⟩
  | 43 => ⟨S200000x1, .f32⟩
  | 44 => ⟨S200000x8, .f32⟩
  | 45 => ⟨S200000x8, .f32⟩
  | 46 => ⟨S200000x256, .f32⟩
  | 47 => ⟨S1x256, .f32⟩
  | 48 => ⟨S200000x256, .f32⟩
  | 49 => ⟨S200000x256, .f32⟩
  | 50 => ⟨S_, .f32⟩
  | 51 => ⟨S200000, .f32⟩
  | 52 => ⟨S200000x1, .f32⟩
  | 53 => ⟨S_, .f32⟩
  | 54 => ⟨S200000x1, .f32⟩
  | 55 => ⟨S200000x1, .f32⟩
  | 56 => ⟨S200000x256, .f32⟩
  | 57 => ⟨S200000x256, .f32⟩
  | 58 => ⟨S_, .f32⟩
  | 59 => ⟨S100000x256, .f32⟩
  | 60 => ⟨S200000x1, .i32⟩
  | 61 => ⟨S100000x256, .f32⟩
  | 62 => ⟨S_, .f32⟩
  | 63 => ⟨S200000x1, .f32⟩
  | 64 => ⟨S_, .f32⟩
  | 65 => ⟨S100000x1, .f32⟩
  | 66 => ⟨S200000x1, .i32⟩
  | 67 => ⟨S100000x1, .f32⟩
  | 68 => ⟨S_, .f32⟩
  | 69 => ⟨S100000x1, .f32⟩
  | 70 => ⟨S100000x1, .f32⟩
  | 71 => ⟨S100000x256, .f32⟩
  | 72 => ⟨S100000x256, .f32⟩
  | 73 => ⟨S100000x256, .f32⟩
  | 74 => ⟨S1x256, .f32⟩
  | 75 => ⟨S100000x256, .f32⟩
  | 76 => ⟨S100000x256, .f32⟩
  | 77 => ⟨S100000x256, .f32⟩
  | 78 => ⟨S_, .f32⟩
  | 79 => ⟨S100000x256, .f32⟩
  | 80 => ⟨S100000x256, .f32⟩
  | 81 => ⟨S_, .f32⟩
  | 82 => ⟨S50000x1, .f32⟩
  | 83 => ⟨S50000x1, .f32⟩
  | 84 => ⟨S50000x256, .f32⟩
  | 85 => ⟨S50000x256, .f32⟩
  | 86 => ⟨S50000x256, .f32⟩
  | 87 => ⟨S1x256, .f32⟩
  | 88 => ⟨S50000x256, .f32⟩
  | 89 => ⟨S50000x256, .f32⟩
  | 90 => ⟨S50000x256, .f32⟩
  | 91 => ⟨S_, .f32⟩
  | 92 => ⟨S50000x256, .f32⟩
  | 93 => ⟨S50000x256, .f32⟩
  | 94 => ⟨S150000x256, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_c : Ref sig .tc := ⟨.hbm, 54, rfl⟩
abbrev main_v24 : Ref sig .tc := ⟨.hbm, 55, rfl⟩
abbrev main_v25 : Ref sig .tc := ⟨.hbm, 56, rfl⟩
abbrev main_c_0 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_c_1 : Ref sig .tc := ⟨.hbm, 63, rfl⟩
abbrev main_v31 : Ref sig .tc := ⟨.hbm, 64, rfl⟩
abbrev main_v32 : Ref sig .tc := ⟨.hbm, 65, rfl⟩
abbrev main_c_2 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_c_3 : Ref sig .tc := ⟨.hbm, 72, rfl⟩
abbrev main_v38 : Ref sig .tc := ⟨.hbm, 73, rfl⟩
abbrev main_v39 : Ref sig .tc := ⟨.hbm, 74, rfl⟩
abbrev main_c_4 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_cst : Ref sig .tc := ⟨.hbm, 86, rfl⟩
abbrev main_v50 : Ref sig .tc := ⟨.hbm, 87, rfl⟩
abbrev main_v51 : Ref sig .tc := ⟨.hbm, 88, rfl⟩
abbrev main_cst_5 : Ref sig .tc := ⟨.hbm, 89, rfl⟩
abbrev main_v52 : Ref sig .tc := ⟨.hbm, 90, rfl⟩
abbrev main_cst_6 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_cst_7 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_cst_8 : Ref sig .tc := ⟨.hbm, 107, rfl⟩
abbrev main_v67 : Ref sig .tc := ⟨.hbm, 108, rfl⟩
abbrev main_v68 : Ref sig .tc := ⟨.hbm, 109, rfl⟩
abbrev main_cst_9 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_cst_10 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_cst_11 : Ref sig .tc := ⟨.hbm, 119, rfl⟩
abbrev main_v76 : Ref sig .tc := ⟨.hbm, 120, rfl⟩
abbrev main_cst_12 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_c_13 : Ref sig .tc := ⟨.hbm, 125, rfl⟩
abbrev main_v80 : Ref sig .tc := ⟨.hbm, 126, rfl⟩
abbrev main_v81 : Ref sig .tc := ⟨.hbm, 127, rfl⟩
abbrev main_c_14 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_c_15 : Ref sig .tc := ⟨.hbm, 134, rfl⟩
abbrev main_v87 : Ref sig .tc := ⟨.hbm, 135, rfl⟩
abbrev main_v88 : Ref sig .tc := ⟨.hbm, 136, rfl⟩
abbrev main_c_16 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_c_17 : Ref sig .tc := ⟨.hbm, 143, rfl⟩
abbrev main_v94 : Ref sig .tc := ⟨.hbm, 144, rfl⟩
abbrev main_v95 : Ref sig .tc := ⟨.hbm, 145, rfl⟩
abbrev main_c_18 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_cst_19 : Ref sig .tc := ⟨.hbm, 157, rfl⟩
abbrev main_v106 : Ref sig .tc := ⟨.hbm, 158, rfl⟩
abbrev main_v107 : Ref sig .tc := ⟨.hbm, 159, rfl⟩
abbrev main_cst_20 : Ref sig .tc := ⟨.hbm, 160, rfl⟩
abbrev main_v108 : Ref sig .tc := ⟨.hbm, 161, rfl⟩
abbrev main_cst_21 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_cst_22 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_cst_23 : Ref sig .tc := ⟨.hbm, 178, rfl⟩
abbrev main_v123 : Ref sig .tc := ⟨.hbm, 179, rfl⟩
abbrev main_v124 : Ref sig .tc := ⟨.hbm, 180, rfl⟩
abbrev main_cst_24 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_cst_25 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_cst_26 : Ref sig .tc := ⟨.hbm, 190, rfl⟩
abbrev main_v132 : Ref sig .tc := ⟨.hbm, 191, rfl⟩
abbrev main_cst_27 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_cst_28 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_call0_cst : Ref sig .tc := ⟨.hbm, 206, rfl⟩
abbrev main_call0_v0 : Ref sig .tc := ⟨.hbm, 207, rfl⟩
abbrev main_v145 : Ref sig .tc := ⟨.hbm, 208, rfl⟩
abbrev main_cst_29 : Ref sig .tc := ⟨.hbm, 209, rfl⟩
abbrev main_v146 : Ref sig .tc := ⟨.hbm, 210, rfl⟩
abbrev main_v147 : Ref sig .tc := ⟨.hbm, 211, rfl⟩
abbrev main_v148 : Ref sig .tc := ⟨.hbm, 212, rfl⟩
abbrev main_v149 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_v153 : Ref sig .tc := ⟨.hbm, 217, rfl⟩
abbrev main_v154 : Ref sig .tc := ⟨.hbm, 218, rfl⟩
abbrev main_call1_cst : Ref sig .tc := ⟨.hbm, 219, rfl⟩
abbrev main_call1_v0 : Ref sig .tc := ⟨.hbm, 220, rfl⟩
abbrev main_v155 : Ref sig .tc := ⟨.hbm, 221, rfl⟩
abbrev main_v156 : Ref sig .tc := ⟨.hbm, 222, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S1x256_S50000x256_0_1 : S1x256.BroadcastsInDim S50000x256 (![0, 1] : Fin 2 → Fin S50000x256.rank)
  bcast_S_S200000 : S_.BroadcastsInDim S200000 (![] : Fin 0 → Fin S200000.rank)
  bcast_S200000_S200000x1_0 : S200000.BroadcastsInDim S200000x1 (![0] : Fin 1 → Fin S200000x1.rank)
  bcast_S8_S1x8_1 : S8.BroadcastsInDim S1x8 (![1] : Fin 1 → Fin S1x8.rank)
  bcast_S1x8_S200000x8_0_1 : S1x8.BroadcastsInDim S200000x8 (![0, 1] : Fin 2 → Fin S200000x8.rank)
  bcast_S_S200000x8 : S_.BroadcastsInDim S200000x8 (![] : Fin 0 → Fin S200000x8.rank)
  reducesTo_S200000x8_S200000_d1 : S200000x8.ReducesTo [1] S200000
  h_S_ : 0 < S_.numel
  bcast_S200000x1_S200000x8_0_1 : S200000x1.BroadcastsInDim S200000x8 (![0, 1] : Fin 2 → Fin S200000x8.rank)
  bcast_S1x256_S200000x256_0_1 : S1x256.BroadcastsInDim S200000x256 (![0, 1] : Fin 2 → Fin S200000x256.rank)
  bcast_S_S200000x1 : S_.BroadcastsInDim S200000x1 (![] : Fin 0 → Fin S200000x1.rank)
  bcast_S200000x1_S200000x256_0_1 : S200000x1.BroadcastsInDim S200000x256 (![0, 1] : Fin 2 → Fin S200000x256.rank)
  bcast_S_S50000x256 : S_.BroadcastsInDim S50000x256 (![] : Fin 0 → Fin S50000x256.rank)
  bcast_S_S50000x1 : S_.BroadcastsInDim S50000x1 (![] : Fin 0 → Fin S50000x1.rank)
  bcast_S_S100000x256 : S_.BroadcastsInDim S100000x256 (![] : Fin 0 → Fin S100000x256.rank)
  bcast_S_S100000x1 : S_.BroadcastsInDim S100000x1 (![] : Fin 0 → Fin S100000x1.rank)
  bcast_S100000x1_S100000x256_0_1 : S100000x1.BroadcastsInDim S100000x256 (![0, 1] : Fin 2 → Fin S100000x256.rank)
  bcast_S50000x1_S50000x256_0_1 : S50000x1.BroadcastsInDim S50000x256 (![0, 1] : Fin 2 → Fin S50000x256.rank)
  concatenates_S100000x256_S50000x256_S150000x256_d0 : Shape.Concatenates [S100000x256, S50000x256] S150000x256 0
  dot_S100000x256_S256x256_S100000x256_1_0_0_1_n_n_wf : DotDims.WF S100000x256 S256x256 S100000x256 [1] [0] [0] [1] [] []
  dot_S50000x256_S256x256_S50000x256_1_0_0_1_n_n_wf : DotDims.WF S50000x256 S256x256 S50000x256 [1] [0] [0] [1] [] []
  gather_S100000x256_S200000x1_S200000x256_1_0_n_n_0_1_1256_wf : GatherDims.WF S100000x256 S200000x1 S200000x256 [1] [0] [] [0] [] 1 ![1, 256]
  gather_S50000x256_S200000x1_S200000x256_1_0_n_n_0_1_1256_wf : GatherDims.WF S50000x256 S200000x1 S200000x256 [1] [0] [] [0] [] 1 ![1, 256]
  dot_S200000x256_S256x8_S200000x8_1_0_0_1_n_n_wf : DotDims.WF S200000x256 S256x8 S200000x8 [1] [0] [0] [1] [] []
  dot_S200000x256_S256x256_S200000x256_1_0_0_1_n_n_wf : DotDims.WF S200000x256 S256x256 S200000x256 [1] [0] [0] [1] [] []
  scatter_S50000x256_S200000x1_S200000x256_1_0_0_1_wf : ScatterDims.WF S50000x256 S200000x1 S200000x256 [1] [0] [0] 1
  scatter_S50000x1_S200000x1_S200000x1_1_0_0_1_wf : ScatterDims.WF S50000x1 S200000x1 S200000x1 [1] [0] [0] 1
  scatter_S100000x256_S200000x1_S200000x256_1_0_0_1_wf : ScatterDims.WF S100000x256 S200000x1 S200000x256 [1] [0] [0] 1
  scatter_S100000x1_S200000x1_S200000x1_1_0_0_1_wf : ScatterDims.WF S100000x1 S200000x1 S200000x1 [1] [0] [0] 1

variable [Facts₀]

def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S100000x256_S200000x1_S200000x256_1_0_n_n_0_1_1256 : GatherDims S100000x256 S200000x1 S200000x256 where
  offsetDims := [1]
  collapsedSliceDims := [0]
  operandBatchingDims := []
  startIndicesBatchingDims := []
  startIndexMap := [0]
  indexVectorDim := 1
  sliceSizes := ![1, 256]
  wf := gather_S100000x256_S200000x1_S200000x256_1_0_n_n_0_1_1256_wf
def gather_S50000x256_S200000x1_S200000x256_1_0_n_n_0_1_1256 : GatherDims S50000x256 S200000x1 S200000x256 where
  offsetDims := [1]
  collapsedSliceDims := [0]
  operandBatchingDims := []
  startIndicesBatchingDims := []
  startIndexMap := [0]
  indexVectorDim := 1
  sliceSizes := ![1, 256]
  wf := gather_S50000x256_S200000x1_S200000x256_1_0_n_n_0_1_1256_wf
def dot_S200000x256_S256x8_S200000x8_1_0_0_1_n_n : DotDims S200000x256 S256x8 S200000x8 where
  lhsContracting := [1]
  rhsContracting := [0]
  lhsNonContracting := [0]
  rhsNonContracting := [1]
  lhsBatch := []
  rhsBatch := []
  wf := dot_S200000x256_S256x8_S200000x8_1_0_0_1_n_n_wf
def dot_S200000x256_S256x256_S200000x256_1_0_0_1_n_n : DotDims S200000x256 S256x256 S200000x256 where
  lhsContracting := [1]
  rhsContracting := [0]
  lhsNonContracting := [0]
  rhsNonContracting := [1]
  lhsBatch := []
  rhsBatch := []
  wf := dot_S200000x256_S256x256_S200000x256_1_0_0_1_n_n_wf
def scatter_S50000x256_S200000x1_S200000x256_1_0_0_1 : ScatterDims S50000x256 S200000x1 S200000x256 where
  updateWindowDims := [1]
  insertedWindowDims := [0]
  scatterDimsToOperandDims := [0]
  indexVectorDim := 1
  wf := scatter_S50000x256_S200000x1_S200000x256_1_0_0_1_wf
def scatter_S50000x1_S200000x1_S200000x1_1_0_0_1 : ScatterDims S50000x1 S200000x1 S200000x1 where
  updateWindowDims := [1]
  insertedWindowDims := [0]
  scatterDimsToOperandDims := [0]
  indexVectorDim := 1
  wf := scatter_S50000x1_S200000x1_S200000x1_1_0_0_1_wf
def scatter_S100000x256_S200000x1_S200000x256_1_0_0_1 : ScatterDims S100000x256 S200000x1 S200000x256 where
  updateWindowDims := [1]
  insertedWindowDims := [0]
  scatterDimsToOperandDims := [0]
  indexVectorDim := 1
  wf := scatter_S100000x256_S200000x1_S200000x256_1_0_0_1_wf
def scatter_S100000x1_S200000x1_S200000x1_1_0_0_1 : ScatterDims S100000x1 S200000x1 S200000x1 where
  updateWindowDims := [1]
  insertedWindowDims := [0]
  scatterDimsToOperandDims := [0]
  indexVectorDim := 1
  wf := scatter_S100000x1_S200000x1_S200000x1_1_0_0_1_wf

class Facts : Prop extends Facts₀ where

variable [Facts]
-- ==== Proof.KCarry.lean ====
/- A buffer that no host operation of a stretch writes, and that is not a result array of a kernel call, holds after
   the stretch or the call what it held before (an input array of a call is read, never written). One theorem per
   (buffer, boundary it was last written at, boundary it is read at): the fold of @main's segment boundaries walked back. -/
import proofs.«416314_j25881472925720_1_alg».proof.Proof.Gen.KernelIdeal.Frame

set_option maxRecDepth 16384

noncomputable section

namespace Cert.KernelIdeal.GenC

open Cert.KernelIdeal Cert.KernelIdeal.Gen Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

theorem carry_arg0_0_1 (c : Dev nD) : W1 m ρ c (Proc.devRef .tc main_arg0) = W0 m ρ c (Proc.devRef .tc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg2_0_1 (c : Dev nD) : W1 m ρ c (Proc.devRef .tc main_arg2) = W0 m ρ c (Proc.devRef .tc main_arg2) :=
  calc W1 m ρ c (Proc.devRef .tc main_arg2)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg4_0_1 (c : Dev nD) : W1 m ρ c (Proc.devRef .tc main_arg4) = W0 m ρ c (Proc.devRef .tc main_arg4) :=
  calc W1 m ρ c (Proc.devRef .tc main_arg4)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg6_0_1 (c : Dev nD) : W1 m ρ c (Proc.devRef .tc main_arg6) = W0 m ρ c (Proc.devRef .tc main_arg6) :=
  calc W1 m ρ c (Proc.devRef .tc main_arg6)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg11_0_2 (c : Dev nD) : W2 m ρ c (Proc.devRef .tc main_arg11) = W0 m ρ c (Proc.devRef .tc main_arg11) :=
  calc W2 m ρ c (Proc.devRef .tc main_arg11)
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg13_0_2 (c : Dev nD) : W2 m ρ c (Proc.devRef .tc main_arg13) = W0 m ρ c (Proc.devRef .tc main_arg13) :=
  calc W2 m ρ c (Proc.devRef .tc main_arg13)
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg15_0_2 (c : Dev nD) : W2 m ρ c (Proc.devRef .tc main_arg15) = W0 m ρ c (Proc.devRef .tc main_arg15) :=
  calc W2 m ρ c (Proc.devRef .tc main_arg15)
    _ = W1 m ρ c (Proc.devRef .tc main_arg15) := W2_of_ne m ρ c main_arg15 (by decide)
    _ = W0 m ρ c (Proc.devRef .tc main_arg15) := StableHlo.after_of_forall_not_mem (b := Proc.devRef .tc main_arg15) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg1_0_3 (c : Dev nD) : W3 m ρ c (Proc.devRef .tc main_arg1) = W0 m ρ c (Proc.devRef .tc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg10_0_3 (c : Dev nD) : W3 m ρ c (Proc.devRef .tc main_arg10) = W0 m ρ c (Proc.devRef .tc main_arg10) :=
  calc W3 m ρ c (Proc.devRef .tc main_arg10)
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg12_0_3 (c : Dev nD) : W3 m ρ c (Proc.devRef .tc main_arg12) = W0 m ρ c (Proc.devRef .tc main_arg12) :=
  calc W3 m ρ c (Proc.devRef .tc main_arg12)
    _ = W2 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg14_0_3 (c : Dev nD) : W3 m ρ c (Proc.devRef .tc main_arg14) = W0 m ρ c (Proc.devRef .tc main_arg14) :=
  calc W3 m ρ c (Proc.devRef .tc main_arg14)
    _ = W2 m ρ c (Proc.devRef .tc main_arg14) := StableHlo.after_of_forall_not_mem (b := Proc.devRef .tc main_arg14) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg26_0_4 (c : Dev nD) : W4 m ρ c (Proc.devRef .tc main_arg26) = W0 m ρ c (Proc.devRef .tc main_arg26) :=
  calc W4 m ρ c (Proc.devRef .tc main_arg26)
    _ = W3 m ρ c (Proc.devRef .tc main_arg26) := W4_of_ne m ρ c main_arg26 (by decide)
    _ = W2 m ρ c (Proc.devRef .tc main_arg26) := StableHlo.after_of_forall_not_mem (b := Proc.devRef .tc main_arg26) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg26) := W2_of_ne m ρ c main_arg26 (by decide)
    _ = W0 m ρ c (Proc.devRef .tc main_arg26) := StableHlo.after_of_forall_not_mem (b := Proc.devRef .tc main_arg26) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg26_0_6 (c : Dev nD) : W6 m ρ c (Proc.devRef .tc main_arg26) = W0 m ρ c (Proc.devRef .tc main_arg26) :=
  calc W6 m ρ c (Proc.devRef .tc main_arg26)
    _ = W5 m ρ c (Proc.devRef .tc main_arg26) := StableHlo.after_of_forall_not_mem (b := Proc.devRef .tc main_arg26) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg26) := StableHlo.after_of_forall_not_mem (b := Proc.devRef .tc main_arg26) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg26) := W4_of_ne m ρ c main_arg26 (by decide)
    _ = W2 m ρ c (Proc.devRef .tc main_arg26) := StableHlo.after_of_forall_not_mem (b := Proc.devRef .tc main_arg26) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg26) := W2_of_ne m ρ c main_arg26 (by decide)
    _ = W0 m ρ c (Proc.devRef .tc main_arg26) := StableHlo.after_of_forall_not_mem (b := Proc.devRef .tc main_arg26) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg27_0_5 (c : Dev nD) : W5 m ρ c (Proc.devRef .tc main_arg27) = W0 m ρ c (Proc.devRef .tc main_arg27) :=
  calc W5 m ρ c (Proc.devRef .tc main_arg27)
    _ = W4 m ρ c (Proc.devRef .tc main_arg27) := StableHlo.after_of_forall_not_mem (b := Proc.devRef .tc main_arg27) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg27) := W4_of_ne m ρ c main_arg27 (by decide)
    _ = W2 m ρ c (Proc.devRef .tc main_arg27) := StableHlo.after_of_forall_not_mem (b := Proc.devRef .tc main_arg27) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg27) := W2_of_ne m ρ c main_arg27 (by decide)
    _ = W0 m ρ c (Proc.devRef .tc main_arg27) := StableHlo.after_of_forall_not_mem (b := Proc.devRef .tc main_arg27) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg27_0_9 (c : Dev nD) : W9 m ρ c (Proc.devRef .tc main_arg27) = W0 m ρ c (Proc.devRef .tc main_arg27) :=
  calc W9 m ρ c (Proc.devRef .tc main_arg27)
    _ = W8 m ρ c (Proc.devRef .tc main_arg27) := W9_of_ne m ρ c main_arg27 (by decide)
    _ = W7 m ρ c (Proc.devRef .tc main_arg27) := StableHlo.after_of_forall_not_mem (b := Proc.devRef .tc main_arg27) _ _ (List.forall_iff_forall_mem.mp (by
          simp only [hostOps2_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg27) := StableHlo.after_of_forall_not_mem (b := Proc.devRef .tc main_arg27) _ _ (List.forall_iff_forall_mem.mp (by
          simp only [hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg27) := StableHlo.after_of_forall_not_mem (b := Proc.devRef .tc main_arg27) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg27) := StableHlo.after_of_forall_not_mem (b := Proc.devRef .tc main_arg27) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg27) := W4_of_ne m ρ c main_arg27 (by decide)
    _ = W2 m ρ c (Proc.devRef .tc main_arg27) := StableHlo.after_of_forall_not_mem (b := Proc.devRef .tc main_arg27) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg27) := W2_of_ne m ρ c main_arg27 (by decide)
    _ = W0 m ρ c (Proc.devRef .tc main_arg27) := StableHlo.after_of_forall_not_mem (b := Proc.devRef .tc main_arg27) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg19_0_7 (c : Dev nD) : W7 m ρ c (Proc.devRef .tc main_arg19) = W0 m ρ c (Proc.devRef .tc main_arg19) :=
  calc W7 m ρ c (Proc.devRef .tc main_arg19)
    _ = W6 m ρ c (Proc.devRef .tc main_arg19) := StableHlo.after_of_forall_not_mem (b := Proc.devRef .tc main_arg19) _ _ (List.forall_iff_forall_mem.mp (by
          simp only [hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg19) := StableHlo.after_of_forall_not_mem (b := Proc.devRef .tc main_arg19) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg19) := StableHlo.after_of_forall_not_mem (b := Proc.devRef .tc main_arg19) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg19) := W4_of_ne m ρ c main_arg19 (by decide)
    _ = W2 m ρ c (Proc.devRef .tc main_arg19) := StableHlo.after_of_forall_not_mem (b := Proc.devRef .tc main_arg19) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg19) := W2_of_ne m ρ c main_arg19 (by decide)
    _ = W0 m ρ c (Proc.devRef .tc main_arg19) := StableHlo.after_of_forall_not_mem (b := Proc.devRef .tc main_arg19) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg21_0_7 (c : Dev nD) : W7 m ρ c (Proc.devRef .tc main_arg21) = W0 m ρ c (Proc.devRef .tc main_arg21) :=
  calc W7 m ρ c (Proc.devRef .tc main_arg21)
    _ = W6 m ρ c (Proc.devRef .tc main_arg21) := StableHlo.after_of_forall_not_mem (b := Proc.devRef .tc main_arg21) _ _ (List.forall_iff_forall_mem.mp (by
          simp only [hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg21) := StableHlo.after_of_forall_not_mem (b := Proc.devRef .tc main_arg21) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg21) := StableHlo.after_of_forall_not_mem (b := Proc.devRef .tc main_arg21) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg21) := W4_of_ne m ρ c main_arg21 (by decide)
    _ = W2 m ρ c (Proc.devRef .tc main_arg21) := StableHlo.after_of_forall_not_mem (b := Proc.devRef .tc main_arg21) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg21) := W2_of_ne m ρ c main_arg21 (by decide)
    _ = W0 m ρ c (Proc.devRef .tc main_arg21) := StableHlo.after_of_forall_not_mem (b := Proc.devRef .tc main_arg21) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg18_0_8 (c : Dev nD) : W8 m ρ c (Proc.devRef .tc main_arg18) = W0 m ρ c (Proc.devRef .tc main_arg18) :=
  calc W8 m ρ c (Proc.devRef .tc main_arg18)
    _ = W7 m ρ c (Proc.devRef .tc main_arg18) := StableHlo.after_of_forall_not_mem (b := Proc.devRef .tc main_arg18) _ _ (List.forall_iff_forall_mem.mp (by
          simp only [hostOps2_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg18) := StableHlo.after_of_forall_not_mem (b := Proc.devRef .tc main_arg18) _ _ (List.forall_iff_forall_mem.mp (by
          simp only [hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg18) := StableHlo.after_of_forall_not_mem (b := Proc.devRef .tc main_arg18) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg18) := StableHlo.after_of_forall_not_mem (b := Proc.devRef .tc main_arg18) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg18) := W4_of_ne m ρ c main_arg18 (by decide)
    _ = W2 m ρ c (Proc.devRef .tc main_arg18) := StableHlo.after_of_forall_not_mem (b := Proc.devRef .tc main_arg18) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg18) := W2_of_ne m ρ c main_arg18 (by decide)
    _ = W0 m ρ c (Proc.devRef .tc main_arg18) := StableHlo.after_of_forall_not_mem (b := Proc.devRef .tc main_arg18) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg20_0_8 (c : Dev nD) : W8 m ρ c (Proc.devRef .tc main_arg20) = W0 m ρ c (Proc.devRef .tc main_arg20) :=
  calc W8 m ρ c (Proc.devRef .tc main_arg20)
    _ = W7 m ρ c (Proc.devRef .tc main_arg20) := StableHlo.after_of_forall_not_mem (b := Proc.devRef .tc main_arg20) _ _ (List.forall_iff_forall_mem.mp (by
          simp only [hostOps2_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg20) := StableHlo.after_of_forall_not_mem (b := Proc.devRef .tc main_arg20) _ _ (List.forall_iff_forall_mem.mp (by
          simp only [hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg20) := StableHlo.after_of_forall_not_mem (b := Proc.devRef .tc main_arg20) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg20) := StableHlo.after_of_forall_not_mem (b := Proc.devRef .tc main_arg20) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg20) := W4_of_ne m ρ c main_arg20 (by decide)
    _ = W2 m ρ c (Proc.devRef .tc main_arg20) := StableHlo.after_of_forall_not_mem (b := Proc.devRef .tc main_arg20) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg20) := W2_of_ne m ρ c main_arg20 (by decide)
    _ = W0 m ρ c (Proc.devRef .tc main_arg20) := StableHlo.after_of_forall_not_mem (b := Proc.devRef .tc main_arg20) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg28_0_10 (c : Dev nD) : W10 m ρ c (Proc.devRef .tc main_arg28) = W0 m ρ c (Proc.devRef .tc main_arg28) :=
  calc W10 m ρ c (Proc.devRef .tc main_arg28)
    _ = W9 m ρ c (Proc.devRef .tc main_arg28) := StableHlo.after_of_forall_not_mem (b := Proc.devRef .tc main_arg28) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg28) := W9_of_ne m ρ c main_arg28 (by decide)
    _ = W7 m ρ c (Proc.devRef .tc main_arg28) := StableHlo.after_of_forall_not_mem (b := Proc.devRef .tc main_arg28) _ _ (List.forall_iff_forall_mem.mp (by
          simp only [hostOps2_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg28) := StableHlo.after_of_forall_not_mem (b := Proc.devRef .tc main_arg28) _ _ (List.forall_iff_forall_mem.mp (by
          simp only [hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg28) := StableHlo.after_of_forall_not_mem (b := Proc.devRef .tc main_arg28) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg28) := StableHlo.after_of_forall_not_mem (b := Proc.devRef .tc main_arg28) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg28) := W4_of_ne m ρ c main_arg28 (by decide)
    _ = W2 m ρ c (Proc.devRef .tc main_arg28) := StableHlo.after_of_forall_not_mem (b := Proc.devRef .tc main_arg28) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg28) := W2_of_ne m ρ c main_arg28 (by decide)
    _ = W0 m ρ c (Proc.devRef .tc main_arg28) := StableHlo.after_of_forall_not_mem (b := Proc.devRef .tc main_arg28) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg28_0_12 (c : Dev nD) : W12 m ρ c (Proc.devRef .tc main_arg28) = W0 m ρ c (Proc.devRef .tc main_arg28) :=
  calc W12 m ρ c (Proc.devRef .tc main_arg28)
    _ = W11 m ρ c (Proc.devRef .tc main_arg28) := StableHlo.after_of_forall_not_mem (b := Proc.devRef .tc main_arg28) _ _ (List.forall_iff_forall_mem.mp (by
          simp only [hostOps3_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg28) := StableHlo.after_of_forall_not_mem (b := Proc.devRef .tc main_arg28) _ _ (List.forall_iff_forall_mem.mp (by
          simp only [hostOps3_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg28) := StableHlo.after_of_forall_not_mem (b := Proc.devRef .tc main_arg28) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg28) := W9_of_ne m ρ c main_arg28 (by decide)
    _ = W7 m ρ c (Proc.devRef .tc main_arg28) := StableHlo.after_of_forall_not_mem (b := Proc.devRef .tc main_arg28) _ _ (List.forall_iff_forall_mem.mp (by
          simp only [hostOps2_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg28) := StableHlo.after_of_forall_not_mem (b := Proc.devRef .tc main_arg28) _ _ (List.forall_iff_forall_mem.mp (by
          simp only [hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg28) := StableHlo.after_of_forall_not_mem (b := Proc.devRef .tc main_arg28) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg28) := StableHlo.after_of_forall_not_mem (b := Proc.devRef .tc main_arg28) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg28) := W4_of_ne m ρ c main_arg28 (by decide)
    _ = W2 m ρ c (Proc.devRef .tc main_arg28) := StableHlo.after_of_forall_not_mem (b := Proc.devRef .tc main_arg28) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg28) := W2_of_ne m ρ c main_arg28 (by decide)
    _ = W0 m ρ c (Proc.devRef .tc main_arg28) := StableHlo.after_of_forall_not_mem (b := Proc.devRef .tc main_arg28) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg29_0_11 (c : Dev nD) : W11 m ρ c (Proc.devRef .tc main_arg29) = W0 m ρ c (Proc.devRef .tc main_arg29) :=
  calc W11 m ρ c (Proc.devRef .tc main_arg29)
    _ = W10 m ρ c (Proc.devRef .tc main_arg29) := StableHlo.after_of_forall_not_mem (b := Proc.devRef .tc main_arg29) _ _ (List.forall_iff_forall_mem.mp (by
          simp only [hostOps3_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg29) := StableHlo.after_of_forall_not_mem (b := Proc.devRef .tc main_arg29) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg29) := W9_of_ne m ρ c main_arg29 (by decide)
    _ = W7 m ρ c (Proc.devRef .tc main_arg29) := StableHlo.after_of_forall_not_mem (b := Proc.devRef .tc main_arg29) _ _ (List.forall_iff_forall_mem.mp (by
          simp only [hostOps2_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg29) := StableHlo.after_of_forall_not_mem (b := Proc.devRef .tc main_arg29) _ _ (List.forall_iff_forall_mem.mp (by
          simp only [hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg29) := StableHlo.after_of_forall_not_mem (b := Proc.devRef .tc main_arg29) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg29) := StableHlo.after_of_forall_not_mem (b := Proc.devRef .tc main_arg29) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg29) := W4_of_ne m ρ c main_arg29 (by decide)
    _ = W2 m ρ c (Proc.devRef .tc main_arg29) := StableHlo.after_of_forall_not_mem (b := Proc.devRef .tc main_arg29) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg29) := W2_of_ne m ρ c main_arg29 (by decide)
    _ = W0 m ρ c (Proc.devRef .tc main_arg29) := StableHlo.after_of_forall_not_mem (b := Proc.devRef .tc main_arg29) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg29_0_15 (c : Dev nD) : W15 m ρ c (Proc.devRef .tc main_arg29) = W0 m ρ c (Proc.devRef .tc main_arg29) :=
  calc W15 m ρ c (Proc.devRef .tc main_arg29)
    _ = W14 m ρ c (Proc.devRef .tc main_arg29) := W15_of_ne m ρ c main_arg29 (by decide)
    _ = W13 m ρ c (Proc.devRef .tc main_arg29) := StableHlo.after_of_forall_not_mem (b := Proc.devRef .tc main_arg29) _ _ (List.forall_iff_forall_mem.mp (by
          simp only [hostOps3_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W12 m ρ c (Proc.devRef .tc main_arg29) := StableHlo.after_of_forall_not_mem (b := Proc.devRef .tc main_arg29) _ _ (List.forall_iff_forall_mem.mp (by
          simp only [hostOps3_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg29) := StableHlo.after_of_forall_not_mem (b := Proc.devRef .tc main_arg29) _ _ (List.forall_iff_forall_mem.mp (by
          simp only [hostOps3_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg29) := StableHlo.after_of_forall_not_mem (b := Proc.devRef .tc main_arg29) _ _ (List.forall_iff_forall_mem.mp (by
          simp only [hostOps3_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg29) := StableHlo.after_of_forall_not_mem (b := Proc.devRef .tc main_arg29) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg29) := W9_of_ne m ρ c main_arg29 (by decide)
    _ = W7 m ρ c (Proc.devRef .tc main_arg29) := StableHlo.after_of_forall_not_mem (b := Proc.devRef .tc main_arg29) _ _ (List.forall_iff_forall_mem.mp (by
          simp only [hostOps2_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg29) := StableHlo.after_of_forall_not_mem (b := Proc.devRef .tc main_arg29) _ _ (List.forall_iff_forall_mem.mp (by
          simp only [hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg29) := StableHlo.after_of_forall_not_mem (b := Proc.devRef .tc main_arg29) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg29) := StableHlo.after_of_forall_not_mem (b := Proc.devRef .tc main_arg29) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg29) := W4_of_ne m ρ c main_arg29 (by decide)
    _ = W2 m ρ c (Proc.devRef .tc main_arg29) := StableHlo.after_of_forall_not_mem (b := Proc.devRef .tc main_arg29) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg29) := W2_of_ne m ρ c main_arg29 (by decide)
    _ = W0 m ρ c (Proc.devRef .tc main_arg29) := StableHlo.after_of_forall_not_mem (b := Proc.devRef .tc main_arg29) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg23_0_13 (c : Dev nD) : W13 m ρ c (Proc.devRef .tc main_arg23) = W0 m ρ c (Proc.devRef .tc main_arg23) :=
  calc W13 m ρ c (Proc.devRef .tc main_arg23)
    _ = W12 m ρ c (Proc.devRef .tc main_arg23) := StableHlo.after_of_forall_not_mem (b := Proc.devRef .tc main_arg23) _ _ (List.forall_iff_forall_mem.mp (by
          simp only [hostOps3_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg23) := StableHlo.after_of_forall_not_mem (b := Proc.devRef .tc main_arg23) _ _ (List.forall_iff_forall_mem.mp (by
          simp only [hostOps3_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg23) := StableHlo.after_of_forall_not_mem (b := Proc.devRef .tc main_arg23) _ _ (List.forall_iff_forall_mem.mp (by
          simp only [hostOps3_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg23) := StableHlo.after_of_forall_not_mem (b := Proc.devRef .tc main_arg23) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg23) := W9_of_ne m ρ c main_arg23 (by decide)
    _ = W7 m ρ c (Proc.devRef .tc main_arg23) := StableHlo.after_of_forall_not_mem (b := Proc.devRef .tc main_arg23) _ _ (List.forall_iff_forall_mem.mp (by
          simp only [hostOps2_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg23) := StableHlo.after_of_forall_not_mem (b := Proc.devRef .tc main_arg23) _ _ (List.forall_iff_forall_mem.mp (by
          simp only [hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg23) := StableHlo.after_of_forall_not_mem (b := Proc.devRef .tc main_arg23) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg23) := StableHlo.after_of_forall_not_mem (b := Proc.devRef .tc main_arg23) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg23) := W4_of_ne m ρ c main_arg23 (by decide)
    _ = W2 m ρ c (Proc.devRef .tc main_arg23) := StableHlo.after_of_forall_not_mem (b := Proc.devRef .tc main_arg23) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg23) := W2_of_ne m ρ c main_arg23 (by decide)
    _ = W0 m ρ c (Proc.devRef .tc main_arg23) := StableHlo.after_of_forall_not_mem (b := Proc.devRef .tc main_arg23) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg25_0_13 (c : Dev nD) : W13 m ρ c (Proc.devRef .tc main_arg25) = W0 m ρ c (Proc.devRef .tc main_arg25) :=
  calc W13 m ρ c (Proc.devRef .tc main_arg25)
    _ = W12 m ρ c (Proc.devRef .tc main_arg25) := StableHlo.after_of_forall_not_mem (b := Proc.devRef .tc main_arg25) _ _ (List.forall_iff_forall_mem.mp (by
          simp only [hostOps3_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg25) := StableHlo.after_of_forall_not_mem (b := Proc.devRef .tc main_arg25) _ _ (List.forall_iff_forall_mem.mp (by
          simp only [hostOps3_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg25) := StableHlo.after_of_forall_not_mem (b := Proc.devRef .tc main_arg25) _ _ (List.forall_iff_forall_mem.mp (by
          simp only [hostOps3_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg25) := StableHlo.after_of_forall_not_mem (b := Proc.devRef .tc main_arg25) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg25) := W9_of_ne m ρ c main_arg25 (by decide)
    _ = W7 m ρ c (Proc.devRef .tc main_arg25) := StableHlo.after_of_forall_not_mem (b := Proc.devRef .tc main_arg25) _ _ (List.forall_iff_forall_mem.mp (by
          simp only [hostOps2_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg25) := StableHlo.after_of_forall_not_mem (b := Proc.devRef .tc main_arg25) _ _ (List.forall_iff_forall_mem.mp (by
          simp only [hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg25) := StableHlo.after_of_forall_not_mem (b := Proc.devRef .tc main_arg25) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg25) := StableHlo.after_of_forall_not_mem (b := Proc.devRef .tc main_arg25) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg25) := W4_of_ne m ρ c main_arg25 (by decide)
    _ = W2 m ρ c (Proc.devRef .tc main_arg25) := StableHlo.after_of_forall_not_mem (b := Proc.devRef .tc main_arg25) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg25) := W2_of_ne m ρ c main_arg25 (by decide)
    _ = W0 m ρ c (Proc.devRef .tc main_arg25) := StableHlo.after_of_forall_not_mem (b := Proc.devRef .tc main_arg25) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg22_0_14 (c : Dev nD) : W14 m ρ c (Proc.devRef .tc main_arg22) = W0 m ρ c (Proc.devRef .tc main_arg22) :=
  calc W14 m ρ c (Proc.devRef .tc main_arg22)
    _ = W13 m ρ c (Proc.devRef .tc main_arg22) := StableHlo.after_of_forall_not_mem (b := Proc.devRef .tc main_arg22) _ _ (List.forall_iff_forall_mem.mp (by
          simp only [hostOps3_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W12 m ρ c (Proc.devRef .tc main_arg22) := StableHlo.after_of_forall_not_mem (b := Proc.devRef .tc main_arg22) _ _ (List.forall_iff_forall_mem.mp (by
          simp only [hostOps3_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg22) := StableHlo.after_of_forall_not_mem (b := Proc.devRef .tc main_arg22) _ _ (List.forall_iff_forall_mem.mp (by
          simp only [hostOps3_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg22) := StableHlo.after_of_forall_not_mem (b := Proc.devRef .tc main_arg22) _ _ (List.forall_iff_forall_mem.mp (by
          simp only [hostOps3_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg22) := StableHlo.after_of_forall_not_mem (b := Proc.devRef .tc main_arg22) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg22) := W9_of_ne m ρ c main_arg22 (by decide)
    _ = W7 m ρ c (Proc.devRef .tc main_arg22) := StableHlo.after_of_forall_not_mem (b := Proc.devRef .tc main_arg22) _ _ (List.forall_iff_forall_mem.mp (by
          simp only [hostOps2_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg22) := StableHlo.after_of_forall_not_mem (b := Proc.devRef .tc main_arg22) _ _ (List.forall_iff_forall_mem.mp (by
          simp only [hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg22) := StableHlo.after_of_forall_not_mem (b := Proc.devRef .tc main_arg22) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg22) := StableHlo.after_of_forall_not_mem (b := Proc.devRef .tc main_arg22) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg22) := W4_of_ne m ρ c main_arg22 (by decide)
    _ = W2 m ρ c (Proc.devRef .tc main_arg22) := StableHlo.after_of_forall_not_mem (b := Proc.devRef .tc main_arg22) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg22) := W2_of_ne m ρ c main_arg22 (by decide)
    _ = W0 m ρ c (Proc.devRef .tc main_arg22) := StableHlo.after_of_forall_not_mem (b := Proc.devRef .tc main_arg22) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg24_0_14 (c : Dev nD) : W14 m ρ c (Proc.devRef .tc main_arg24) = W0 m ρ c (Proc.devRef .tc main_arg24) :=
  calc W14 m ρ c (Proc.devRef .tc main_arg24)
    _ = W13 m ρ c (Proc.devRef .tc main_arg24) := StableHlo.after_of_forall_not_mem (b := Proc.devRef .tc main_arg24) _ _ (List.forall_iff_forall_mem.mp (by
          simp only [hostOps3_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W12 m ρ c (Proc.devRef .tc main_arg24) := StableHlo.after_of_forall_not_mem (b := Proc.devRef .tc main_arg24) _ _ (List.forall_iff_forall_mem.mp (by
          simp only [hostOps3_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg24) := StableHlo.after_of_forall_not_mem (b := Proc.devRef .tc main_arg24) _ _ (List.forall_iff_forall_mem.mp (by
          simp only [hostOps3_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg24) := StableHlo.after_of_forall_not_mem (b := Proc.devRef .tc main_arg24) _ _ (List.forall_iff_forall_mem.mp (by
          simp only [hostOps3_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg24) := StableHlo.after_of_forall_not_mem (b := Proc.devRef .tc main_arg24) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg24) := W9_of_ne m ρ c main_arg24 (by decide)
    _ = W7 m ρ c (Proc.devRef .tc main_arg24) := StableHlo.after_of_forall_not_mem (b := Proc.devRef .tc main_arg24) _ _ (List.forall_iff_forall_mem.mp (by
          simp only [hostOps2_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg24) := StableHlo.after_of_forall_not_mem (b := Proc.devRef .tc main_arg24) _ _ (List.forall_iff_forall_mem.mp (by
          simp only [hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg24) := StableHlo.after_of_forall_not_mem (b := Proc.devRef .tc main_arg24) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg24) := StableHlo.after_of_forall_not_mem (b := Proc.devRef .tc main_arg24) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg24) := W4_of_ne m ρ c main_arg24 (by decide)
    _ = W2 m ρ c (Proc.devRef .tc main_arg24) := StableHlo.after_of_forall_not_mem (b := Proc.devRef .tc main_arg24) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg24) := W2_of_ne m ρ c main_arg24 (by decide)
    _ = W0 m ρ c (Proc.devRef .tc main_arg24) := StableHlo.after_of_forall_not_mem (b := Proc.devRef .tc main_arg24) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg9_0_15 (c : Dev nD) : W15 m ρ c (Proc.devRef .tc main_arg9) = W0 m ρ c (Proc.devRef .tc main_arg9) :=
  calc W15 m ρ c (Proc.devRef .tc main_arg9)
    _ = W14 m ρ c (Proc.devRef .tc main_arg9) := W15_of_ne m ρ c main_arg9 (by decide)
    _ = W13 m ρ c (Proc.devRef .tc main_arg9) := StableHlo.after_of_forall_not_mem (b := Proc.devRef .tc main_arg9) _ _ (List.forall_iff_forall_mem.mp (by
          simp only [hostOps3_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W12 m ρ c (Proc.devRef .tc main_arg9) := StableHlo.after_of_forall_not_mem (b := Proc.devRef .tc main_arg9) _ _ (List.forall_iff_forall_mem.mp (by
          simp only [hostOps3_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg9) := StableHlo.after_of_forall_not_mem (b := Proc.devRef .tc main_arg9) _ _ (List.forall_iff_forall_mem.mp (by
          simp only [hostOps3_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg9) := StableHlo.after_of_forall_not_mem (b := Proc.devRef .tc main_arg9) _ _ (List.forall_iff_forall_mem.mp (by
          simp only [hostOps3_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg9) := StableHlo.after_of_forall_not_mem (b := Proc.devRef .tc main_arg9) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg9) := W9_of_ne m ρ c main_arg9 (by decide)
    _ = W7 m ρ c (Proc.devRef .tc main_arg9) := StableHlo.after_of_forall_not_mem (b := Proc.devRef .tc main_arg9) _ _ (List.forall_iff_forall_mem.mp (by
          simp only [hostOps2_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg9) := StableHlo.after_of_forall_not_mem (b := Proc.devRef .tc main_arg9) _ _ (List.forall_iff_forall_mem.mp (by
          simp only [hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg9) := StableHlo.after_of_forall_not_mem (b := Proc.devRef .tc main_arg9) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg0_0_16 (c : Dev nD) : W16 m ρ c (Proc.devRef .tc main_arg0) = W0 m ρ c (Proc.devRef .tc main_arg0) :=
  calc W16 m ρ c (Proc.devRef .tc main_arg0)
    _ = W15 m ρ c (Proc.devRef .tc main_arg0) := StableHlo.after_of_forall_not_mem (b := Proc.devRef .tc main_arg0) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W14 m ρ c (Proc.devRef .tc main_arg0) := W15_of_ne m ρ c main_arg0 (by decide)
    _ = W13 m ρ c (Proc.devRef .tc main_arg0) := StableHlo.after_of_forall_not_mem (b := Proc.devRef .tc main_arg0) _ _ (List.forall_iff_forall_mem.mp (by
          simp only [hostOps3_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W12 m ρ c (Proc.devRef .tc main_arg0) := StableHlo.after_of_forall_not_mem (b := Proc.devRef .tc main_arg0) _ _ (List.forall_iff_forall_mem.mp (by
          simp only [hostOps3_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg0) := StableHlo.after_of_forall_not_mem (b := Proc.devRef .tc main_arg0) _ _ (List.forall_iff_forall_mem.mp (by
          simp only [hostOps3_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg0) := StableHlo.after_of_forall_not_mem (b := Proc.devRef .tc main_arg0) _ _ (List.forall_iff_forall_mem.mp (by
          simp only [hostOps3_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg0) := StableHlo.after_of_forall_not_mem (b := Proc.devRef .tc main_arg0) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg0) := W9_of_ne m ρ c main_arg0 (by decide)
    _ = W7 m ρ c (Proc.devRef .tc main_arg0) := StableHlo.after_of_forall_not_mem (b := Proc.devRef .tc main_arg0) _ _ (List.forall_iff_forall_mem.mp (by
          simp only [hostOps2_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg0) := StableHlo.after_of_forall_not_mem (b := Proc.devRef .tc main_arg0) _ _ (List.forall_iff_forall_mem.mp (by
          simp only [hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg0) := StableHlo.after_of_forall_not_mem (b := Proc.devRef .tc main_arg0) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg8_0_16 (c : Dev nD) : W16 m ρ c (Proc.devRef .tc main_arg8) = W0 m ρ c (Proc.devRef .tc main_arg8) :=
  calc W16 m ρ c (Proc.devRef .tc main_arg8)
    _ = W15 m ρ c (Proc.devRef .tc main_arg8) := StableHlo.after_of_forall_not_mem (b := Proc.devRef .tc main_arg8) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W14 m ρ c (Proc.devRef .tc main_arg8) := W15_of_ne m ρ c main_arg8 (by decide)
    _ = W13 m ρ c (Proc.devRef .tc main_arg8) := StableHlo.after_of_forall_not_mem (b := Proc.devRef .tc main_arg8) _ _ (List.forall_iff_forall_mem.mp (by
          simp only [hostOps3_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W12 m ρ c (Proc.devRef .tc main_arg8) := StableHlo.after_of_forall_not_mem (b := Proc.devRef .tc main_arg8) _ _ (List.forall_iff_forall_mem.mp (by
          simp only [hostOps3_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg8) := StableHlo.after_of_forall_not_mem (b := Proc.devRef .tc main_arg8) _ _ (List.forall_iff_forall_mem.mp (by
          simp only [hostOps3_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg8) := StableHlo.after_of_forall_not_mem (b := Proc.devRef .tc main_arg8) _ _ (List.forall_iff_forall_mem.mp (by
          simp only [hostOps3_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg8) := StableHlo.after_of_forall_not_mem (b := Proc.devRef .tc main_arg8) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg8) := W9_of_ne m ρ c main_arg8 (by decide)
    _ = W7 m ρ c (Proc.devRef .tc main_arg8) := StableHlo.after_of_forall_not_mem (b := Proc.devRef .tc main_arg8) _ _ (List.forall_iff_forall_mem.mp (by
          simp only [hostOps2_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg8) := StableHlo.after_of_forall_not_mem (b := Proc.devRef .tc main_arg8) _ _ (List.forall_iff_forall_mem.mp (by
          simp only [hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg8) := StableHlo.after_of_forall_not_mem (b := Proc.devRef .tc main_arg8) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg17_0_17 (c : Dev nD) : W17 m ρ c (Proc.devRef .tc main_arg17) = W0 m ρ c (Proc.devRef .tc main_arg17) :=
  calc W17 m ρ c (Proc.devRef .tc main_arg17)
    _ = W16 m ρ c (Proc.devRef .tc main_arg17) := W17_of_ne m ρ c main_arg17 (by decide)
    _ = W15 m ρ c (Proc.devRef .tc main_arg17) := StableHlo.after_of_forall_not_mem (b := Proc.devRef .tc main_arg17) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W14 m ρ c (Proc.devRef .tc main_arg17) := W15_of_ne m ρ c main_arg17 (by decide)
    _ = W13 m ρ c (Proc.devRef .tc main_arg17) := StableHlo.after_of_forall_not_mem (b := Proc.devRef .tc main_arg17) _ _ (List.forall_iff_forall_mem.mp (by
          simp only [hostOps3_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W12 m ρ c (Proc.devRef .tc main_arg17) := StableHlo.after_of_forall_not_mem (b := Proc.devRef .tc main_arg17) _ _ (List.forall_iff_forall_mem.mp (by
          simp only [hostOps3_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg17) := StableHlo.after_of_forall_not_mem (b := Proc.devRef .tc main_arg17) _ _ (List.forall_iff_forall_mem.mp (by
          simp only [hostOps3_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg17) := StableHlo.after_of_forall_not_mem (b := Proc.devRef .tc main_arg17) _ _ (List.forall_iff_forall_mem.mp (by
          simp only [hostOps3_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg17) := StableHlo.after_of_forall_not_mem (b := Proc.devRef .tc main_arg17) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg17) := W9_of_ne m ρ c main_arg17 (by decide)
    _ = W7 m ρ c (Proc.devRef .tc main_arg17) := StableHlo.after_of_forall_not_mem (b := Proc.devRef .tc main_arg17) _ _ (List.forall_iff_forall_mem.mp (by
          simp only [hostOps2_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg17) := StableHlo.after_of_forall_not_mem (b := Proc.devRef .tc main_arg17) _ _ (List.forall_iff_forall_mem.mp (by
          simp only [hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg17) := StableHlo.after_of_forall_not_mem (b := Proc.devRef .tc main_arg17) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg17) := StableHlo.after_of_forall_not_mem (b := Proc.devRef .tc main_arg17) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg17) := W4_of_ne m ρ c main_arg17 (by decide)
    _ = W2 m ρ c (Proc.devRef .tc main_arg17) := StableHlo.after_of_forall_not_mem (b := Proc.devRef .tc main_arg17) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg17) := W2_of_ne m ρ c main_arg17 (by decide)
    _ = W0 m ρ c (Proc.devRef .tc main_arg17) := StableHlo.after_of_forall_not_mem (b := Proc.devRef .tc main_arg17) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg1_0_18 (c : Dev nD) : W18 m ρ c (Proc.devRef .tc main_arg1) = W0 m ρ c (Proc.devRef .tc main_arg1) :=
  calc W18 m ρ c (Proc.devRef .tc main_arg1)
    _ = W17 m ρ c (Proc.devRef .tc main_arg1) := StableHlo.after_of_forall_not_mem (b := Proc.devRef .tc main_arg1) _ _ (List.forall_iff_forall_mem.mp (by
          simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W16 m ρ c (Proc.devRef .tc main_arg1) := W17_of_ne m ρ c main_arg1 (by decide)
    _ = W15 m ρ c (Proc.devRef .tc main_arg1) := StableHlo.after_of_forall_not_mem (b := Proc.devRef .tc main_arg1) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W14 m ρ c (Proc.devRef .tc main_arg1) := W15_of_ne m ρ c main_arg1 (by decide)
    _ = W13 m ρ c (Proc.devRef .tc main_arg1) := StableHlo.after_of_forall_not_mem (b := Proc.devRef .tc main_arg1) _ _ (List.forall_iff_forall_mem.mp (by
          simp only [hostOps3_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W12 m ρ c (Proc.devRef .tc main_arg1) := StableHlo.after_of_forall_not_mem (b := Proc.devRef .tc main_arg1) _ _ (List.forall_iff_forall_mem.mp (by
          simp only [hostOps3_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg1) := StableHlo.after_of_forall_not_mem (b := Proc.devRef .tc main_arg1) _ _ (List.forall_iff_forall_mem.mp (by
          simp only [hostOps3_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg1) := StableHlo.after_of_forall_not_mem (b := Proc.devRef .tc main_arg1) _ _ (List.forall_iff_forall_mem.mp (by
          simp only [hostOps3_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg1) := StableHlo.after_of_forall_not_mem (b := Proc.devRef .tc main_arg1) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg1) := W9_of_ne m ρ c main_arg1 (by decide)
    _ = W7 m ρ c (Proc.devRef .tc main_arg1) := StableHlo.after_of_forall_not_mem (b := Proc.devRef .tc main_arg1) _ _ (List.forall_iff_forall_mem.mp (by
          simp only [hostOps2_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg1) := StableHlo.after_of_forall_not_mem (b := Proc.devRef .tc main_arg1) _ _ (List.forall_iff_forall_mem.mp (by
          simp only [hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg1) := StableHlo.after_of_forall_not_mem (b := Proc.devRef .tc main_arg1) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := (W4_arr m ρ c 0).trans (((dat1 (V3 m ρ) c).arrAt_in 0 rfl _).trans (A_eq1 (V3 m ρ) c 0))
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg16_0_18 (c : Dev nD) : W18 m ρ c (Proc.devRef .tc main_arg16) = W0 m ρ c (Proc.devRef .tc main_arg16) :=
  calc W18 m ρ c (Proc.devRef .tc main_arg16)
    _ = W17 m ρ c (Proc.devRef .tc main_arg16) := StableHlo.after_of_forall_not_mem (b := Proc.devRef .tc main_arg16) _ _ (List.forall_iff_forall_mem.mp (by
          simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W16 m ρ c (Proc.devRef .tc main_arg16) := W17_of_ne m ρ c main_arg16 (by decide)
    _ = W15 m ρ c (Proc.devRef .tc main_arg16) := StableHlo.after_of_forall_not_mem (b := Proc.devRef .tc main_arg16) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W14 m ρ c (Proc.devRef .tc main_arg16) := W15_of_ne m ρ c main_arg16 (by decide)
    _ = W13 m ρ c (Proc.devRef .tc main_arg16) := StableHlo.after_of_forall_not_mem (b := Proc.devRef .tc main_arg16) _ _ (List.forall_iff_forall_mem.mp (by
          simp only [hostOps3_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W12 m ρ c (Proc.devRef .tc main_arg16) := StableHlo.after_of_forall_not_mem (b := Proc.devRef .tc main_arg16) _ _ (List.forall_iff_forall_mem.mp (by
          simp only [hostOps3_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg16) := StableHlo.after_of_forall_not_mem (b := Proc.devRef .tc main_arg16) _ _ (List.forall_iff_forall_mem.mp (by
          simp only [hostOps3_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg16) := StableHlo.after_of_forall_not_mem (b := Proc.devRef .tc main_arg16) _ _ (List.forall_iff_forall_mem.mp (by
          simp only [hostOps3_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg16) := StableHlo.after_of_forall_not_mem (b := Proc.devRef .tc main_arg16) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg16) := W9_of_ne m ρ c main_arg16 (by decide)
    _ = W7 m ρ c (Proc.devRef .tc main_arg16) := StableHlo.after_of_forall_not_mem (b := Proc.devRef .tc main_arg16) _ _ (List.forall_iff_forall_mem.mp (by
          simp only [hostOps2_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg16) := StableHlo.after_of_forall_not_mem (b := Proc.devRef .tc main_arg16) _ _ (List.forall_iff_forall_mem.mp (by
          simp only [hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg16) := StableHlo.after_of_forall_not_mem (b := Proc.devRef .tc main_arg16) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg16) := StableHlo.after_of_forall_not_mem (b := Proc.devRef .tc main_arg16) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg16) := W4_of_ne m ρ c main_arg16 (by decide)
    _ = W2 m ρ c (Proc.devRef .tc main_arg16) := StableHlo.after_of_forall_not_mem (b := Proc.devRef .tc main_arg16) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg16) := W2_of_ne m ρ c main_arg16 (by decide)
    _ = W0 m ρ c (Proc.devRef .tc main_arg16) := StableHlo.after_of_forall_not_mem (b := Proc.devRef .tc main_arg16) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_v3_0_2_4 (c : Dev nD) : W4 m ρ c (Proc.devRef .tc main_v3_0) = W2 m ρ c (Proc.devRef .tc main_v3_0) :=
  calc W4 m ρ c (Proc.devRef .tc main_v3_0)
    _ = W3 m ρ c (Proc.devRef .tc main_v3_0) := W4_of_ne m ρ c main_v3_0 (by decide)
    _ = W2 m ρ c (Proc.devRef .tc main_v3_0) := StableHlo.after_of_forall_not_mem (b := Proc.devRef .tc main_v3_0) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_v3_2_2_6 (c : Dev nD) : W6 m ρ c (Proc.devRef .tc main_v3_2) = W2 m ρ c (Proc.devRef .tc main_v3_2) :=
  calc W6 m ρ c (Proc.devRef .tc main_v3_2)
    _ = W5 m ρ c (Proc.devRef .tc main_v3_2) := StableHlo.after_of_forall_not_mem (b := Proc.devRef .tc main_v3_2) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v3_2) := StableHlo.after_of_forall_not_mem (b := Proc.devRef .tc main_v3_2) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3_2) := W4_of_ne m ρ c main_v3_2 (by decide)
    _ = W2 m ρ c (Proc.devRef .tc main_v3_2) := StableHlo.after_of_forall_not_mem (b := Proc.devRef .tc main_v3_2) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_v3_1_2_11 (c : Dev nD) : W11 m ρ c (Proc.devRef .tc main_v3_1) = W2 m ρ c (Proc.devRef .tc main_v3_1) :=
  calc W11 m ρ c (Proc.devRef .tc main_v3_1)
    _ = W10 m ρ c (Proc.devRef .tc main_v3_1) := StableHlo.after_of_forall_not_mem (b := Proc.devRef .tc main_v3_1) _ _ (List.forall_iff_forall_mem.mp (by
          simp only [hostOps3_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v3_1) := StableHlo.after_of_forall_not_mem (b := Proc.devRef .tc main_v3_1) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v3_1) := W9_of_ne m ρ c main_v3_1 (by decide)
    _ = W7 m ρ c (Proc.devRef .tc main_v3_1) := StableHlo.after_of_forall_not_mem (b := Proc.devRef .tc main_v3_1) _ _ (List.forall_iff_forall_mem.mp (by
          simp only [hostOps2_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v3_1) := StableHlo.after_of_forall_not_mem (b := Proc.devRef .tc main_v3_1) _ _ (List.forall_iff_forall_mem.mp (by
          simp only [hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v3_1) := StableHlo.after_of_forall_not_mem (b := Proc.devRef .tc main_v3_1) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v3_1) := StableHlo.after_of_forall_not_mem (b := Proc.devRef .tc main_v3_1) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3_1) := W4_of_ne m ρ c main_v3_1 (by decide)
    _ = W2 m ρ c (Proc.devRef .tc main_v3_1) := StableHlo.after_of_forall_not_mem (b := Proc.devRef .tc main_v3_1) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_v7_1_4_5 (c : Dev nD) : W5 m ρ c (Proc.devRef .tc main_v7_1) = W4 m ρ c (Proc.devRef .tc main_v7_1) :=
  calc W5 m ρ c (Proc.devRef .tc main_v7_1)
    _ = W4 m ρ c (Proc.devRef .tc main_v7_1) := StableHlo.after_of_forall_not_mem (b := Proc.devRef .tc main_v7_1) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_v7_0_4_10 (c : Dev nD) : W10 m ρ c (Proc.devRef .tc main_v7_0) = W4 m ρ c (Proc.devRef .tc main_v7_0) :=
  calc W10 m ρ c (Proc.devRef .tc main_v7_0)
    _ = W9 m ρ c (Proc.devRef .tc main_v7_0) := StableHlo.after_of_forall_not_mem (b := Proc.devRef .tc main_v7_0) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v7_0) := W9_of_ne m ρ c main_v7_0 (by decide)
    _ = W7 m ρ c (Proc.devRef .tc main_v7_0) := StableHlo.after_of_forall_not_mem (b := Proc.devRef .tc main_v7_0) _ _ (List.forall_iff_forall_mem.mp (by
          simp only [hostOps2_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v7_0) := StableHlo.after_of_forall_not_mem (b := Proc.devRef .tc main_v7_0) _ _ (List.forall_iff_forall_mem.mp (by
          simp only [hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v7_0) := StableHlo.after_of_forall_not_mem (b := Proc.devRef .tc main_v7_0) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v7_0) := StableHlo.after_of_forall_not_mem (b := Proc.devRef .tc main_v7_0) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_v7_2_4_12 (c : Dev nD) : W12 m ρ c (Proc.devRef .tc main_v7_2) = W4 m ρ c (Proc.devRef .tc main_v7_2) :=
  calc W12 m ρ c (Proc.devRef .tc main_v7_2)
    _ = W11 m ρ c (Proc.devRef .tc main_v7_2) := StableHlo.after_of_forall_not_mem (b := Proc.devRef .tc main_v7_2) _ _ (List.forall_iff_forall_mem.mp (by
          simp only [hostOps3_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_v7_2) := StableHlo.after_of_forall_not_mem (b := Proc.devRef .tc main_v7_2) _ _ (List.forall_iff_forall_mem.mp (by
          simp only [hostOps3_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v7_2) := StableHlo.after_of_forall_not_mem (b := Proc.devRef .tc main_v7_2) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v7_2) := W9_of_ne m ρ c main_v7_2 (by decide)
    _ = W7 m ρ c (Proc.devRef .tc main_v7_2) := StableHlo.after_of_forall_not_mem (b := Proc.devRef .tc main_v7_2) _ _ (List.forall_iff_forall_mem.mp (by
          simp only [hostOps2_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v7_2) := StableHlo.after_of_forall_not_mem (b := Proc.devRef .tc main_v7_2) _ _ (List.forall_iff_forall_mem.mp (by
          simp only [hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v7_2) := StableHlo.after_of_forall_not_mem (b := Proc.devRef .tc main_v7_2) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v7_2) := StableHlo.after_of_forall_not_mem (b := Proc.devRef .tc main_v7_2) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_v8_5_8 (c : Dev nD) : W8 m ρ c (Proc.devRef .tc main_v8) = W5 m ρ c (Proc.devRef .tc main_v8) :=
  calc W8 m ρ c (Proc.devRef .tc main_v8)
    _ = W7 m ρ c (Proc.devRef .tc main_v8) := StableHlo.after_of_forall_not_mem (b := Proc.devRef .tc main_v8) _ _ (List.forall_iff_forall_mem.mp (by
          simp only [hostOps2_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v8) := StableHlo.after_of_forall_not_mem (b := Proc.devRef .tc main_v8) _ _ (List.forall_iff_forall_mem.mp (by
          simp only [hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v8) := StableHlo.after_of_forall_not_mem (b := Proc.devRef .tc main_v8) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_v9_6_8 (c : Dev nD) : W8 m ρ c (Proc.devRef .tc main_v9) = W6 m ρ c (Proc.devRef .tc main_v9) :=
  calc W8 m ρ c (Proc.devRef .tc main_v9)
    _ = W7 m ρ c (Proc.devRef .tc main_v9) := StableHlo.after_of_forall_not_mem (b := Proc.devRef .tc main_v9) _ _ (List.forall_iff_forall_mem.mp (by
          simp only [hostOps2_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v9) := StableHlo.after_of_forall_not_mem (b := Proc.devRef .tc main_v9) _ _ (List.forall_iff_forall_mem.mp (by
          simp only [hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_v10_7_8 (c : Dev nD) : W8 m ρ c (Proc.devRef .tc main_v10) = W7 m ρ c (Proc.devRef .tc main_v10) :=
  calc W8 m ρ c (Proc.devRef .tc main_v10)
    _ = W7 m ρ c (Proc.devRef .tc main_v10) := StableHlo.after_of_forall_not_mem (b := Proc.devRef .tc main_v10) _ _ (List.forall_iff_forall_mem.mp (by
          simp only [hostOps2_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_v16_10_18 (c : Dev nD) : W18 m ρ c (Proc.devRef .tc main_v16) = W10 m ρ c (Proc.devRef .tc main_v16) :=
  calc W18 m ρ c (Proc.devRef .tc main_v16)
    _ = W17 m ρ c (Proc.devRef .tc main_v16) := StableHlo.after_of_forall_not_mem (b := Proc.devRef .tc main_v16) _ _ (List.forall_iff_forall_mem.mp (by
          simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W16 m ρ c (Proc.devRef .tc main_v16) := W17_of_ne m ρ c main_v16 (by decide)
    _ = W15 m ρ c (Proc.devRef .tc main_v16) := StableHlo.after_of_forall_not_mem (b := Proc.devRef .tc main_v16) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W14 m ρ c (Proc.devRef .tc main_v16) := W15_of_ne m ρ c main_v16 (by decide)
    _ = W13 m ρ c (Proc.devRef .tc main_v16) := StableHlo.after_of_forall_not_mem (b := Proc.devRef .tc main_v16) _ _ (List.forall_iff_forall_mem.mp (by
          simp only [hostOps3_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W12 m ρ c (Proc.devRef .tc main_v16) := StableHlo.after_of_forall_not_mem (b := Proc.devRef .tc main_v16) _ _ (List.forall_iff_forall_mem.mp (by
          simp only [hostOps3_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_v16) := StableHlo.after_of_forall_not_mem (b := Proc.devRef .tc main_v16) _ _ (List.forall_iff_forall_mem.mp (by
          simp only [hostOps3_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_v16) := StableHlo.after_of_forall_not_mem (b := Proc.devRef .tc main_v16) _ _ (List.forall_iff_forall_mem.mp (by
          simp only [hostOps3_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_v20_10_18 (c : Dev nD) : W18 m ρ c (Proc.devRef .tc main_v20) = W10 m ρ c (Proc.devRef .tc main_v20) :=
  calc W18 m ρ c (Proc.devRef .tc main_v20)
    _ = W17 m ρ c (Proc.devRef .tc main_v20) := StableHlo.after_of_forall_not_mem (b := Proc.devRef .tc main_v20) _ _ (List.forall_iff_forall_mem.mp (by
          simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W16 m ρ c (Proc.devRef .tc main_v20) := W17_of_ne m ρ c main_v20 (by decide)
    _ = W15 m ρ c (Proc.devRef .tc main_v20) := StableHlo.after_of_forall_not_mem (b := Proc.devRef .tc main_v20) _ _ (List.forall_iff_forall_mem.mp (by
          simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W14 m ρ c (Proc.devRef .tc main_v20) := W15_of_ne m ρ c main_v20 (by decide)
    _ = W13 m ρ c (Proc.devRef .tc main_v20) := StableHlo.after_of_forall_not_mem (b := Proc.devRef .tc main_v20) _ _ (List.forall_iff_forall_mem.mp (by
          simp only [hostOps3_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W12 m ρ c (Proc.devRef .tc main_v20) := StableHlo.after_of_forall_not_mem (b := Proc.devRef .tc main_v20) _ _ (List.forall_iff_forall_mem.mp (by
          simp only [hostOps3_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_v20) := StableHlo.after_of_forall_not_mem (b := Proc.devRef .tc main_v20) _ _ (List.forall_iff_forall_mem.mp (by
          simp only [hostOps3_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_v20) := StableHlo.after_of_forall_not_mem (b := Proc.devRef .tc main_v20) _ _ (List.forall_iff_forall_mem.mp (by
          simp only [hostOps3_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_v21_11_14 (c : Dev nD) : W14 m ρ c (Proc.devRef .tc main_v21) = W11 m ρ c (Proc.devRef .tc main_v21) :=
  calc W14 m ρ c (Proc.devRef .tc main_v21)
    _ = W13 m ρ c (Proc.devRef .tc main_v21) := StableHlo.after_of_forall_not_mem (b := Proc.devRef .tc main_v21) _ _ (List.forall_iff_forall_mem.mp (by
          simp only [hostOps3_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W12 m ρ c (Proc.devRef .tc main_v21) := StableHlo.after_of_forall_not_mem (b := Proc.devRef .tc main_v21) _ _ (List.forall_iff_forall_mem.mp (by
          simp only [hostOps3_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_v21) := StableHlo.after_of_forall_not_mem (b := Proc.devRef .tc main_v21) _ _ (List.forall_iff_forall_mem.mp (by
          simp only [hostOps3_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_v22_12_14 (c : Dev nD) : W14 m ρ c (Proc.devRef .tc main_v22) = W12 m ρ c (Proc.devRef .tc main_v22) :=
  calc W14 m ρ c (Proc.devRef .tc main_v22)
    _ = W13 m ρ c (Proc.devRef .tc main_v22) := StableHlo.after_of_forall_not_mem (b := Proc.devRef .tc main_v22) _ _ (List.forall_iff_forall_mem.mp (by
          simp only [hostOps3_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W12 m ρ c (Proc.devRef .tc main_v22) := StableHlo.after_of_forall_not_mem (b := Proc.devRef .tc main_v22) _ _ (List.forall_iff_forall_mem.mp (by
          simp only [hostOps3_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_v23_13_14 (c : Dev nD) : W14 m ρ c (Proc.devRef .tc main_v23) = W13 m ρ c (Proc.devRef .tc main_v23) :=
  calc W14 m ρ c (Proc.devRef .tc main_v23)
    _ = W13 m ρ c (Proc.devRef .tc main_v23) := StableHlo.after_of_forall_not_mem (b := Proc.devRef .tc main_v23) _ _ (List.forall_iff_forall_mem.mp (by
          simp only [hostOps3_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_v35_17_19 (c : Dev nD) : W19 m ρ c (Proc.devRef .tc main_v35) = W17 m ρ c (Proc.devRef .tc main_v35) :=
  calc W19 m ρ c (Proc.devRef .tc main_v35)
    _ = W18 m ρ c (Proc.devRef .tc main_v35) := W19_of_ne m ρ c main_v35 (by decide)
    _ = W17 m ρ c (Proc.devRef .tc main_v35) := StableHlo.after_of_forall_not_mem (b := Proc.devRef .tc main_v35) _ _ (List.forall_iff_forall_mem.mp (by
          simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg27_0_4 (c : Dev nD) : W4 m ρ c (Proc.devRef .tc main_arg27) = W0 m ρ c (Proc.devRef .tc main_arg27) :=
  calc W4 m ρ c (Proc.devRef .tc main_arg27)
    _ = W3 m ρ c (Proc.devRef .tc main_arg27) := W4_of_ne m ρ c main_arg27 (by decide)
    _ = W2 m ρ c (Proc.devRef .tc main_arg27) := StableHlo.after_of_forall_not_mem (b := Proc.devRef .tc main_arg27) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg27) := W2_of_ne m ρ c main_arg27 (by decide)
    _ = W0 m ρ c (Proc.devRef .tc main_arg27) := StableHlo.after_of_forall_not_mem (b := Proc.devRef .tc main_arg27) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg19_0_4 (c : Dev nD) : W4 m ρ c (Proc.devRef .tc main_arg19) = W0 m ρ c (Proc.devRef .tc main_arg19) :=
  calc W4 m ρ c (Proc.devRef .tc main_arg19)
    _ = W3 m ρ c (Proc.devRef .tc main_arg19) := W4_of_ne m ρ c main_arg19 (by decide)
    _ = W2 m ρ c (Proc.devRef .tc main_arg19) := StableHlo.after_of_forall_not_mem (b := Proc.devRef .tc main_arg19) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg19) := W2_of_ne m ρ c main_arg19 (by decide)
    _ = W0 m ρ c (Proc.devRef .tc main_arg19) := StableHlo.after_of_forall_not_mem (b := Proc.devRef .tc main_arg19) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg21_0_4 (c : Dev nD) : W4 m ρ c (Proc.devRef .tc main_arg21) = W0 m ρ c (Proc.devRef .tc main_arg21) :=
  calc W4 m ρ c (Proc.devRef .tc main_arg21)
    _ = W3 m ρ c (Proc.devRef .tc main_arg21) := W4_of_ne m ρ c main_arg21 (by decide)
    _ = W2 m ρ c (Proc.devRef .tc main_arg21) := StableHlo.after_of_forall_not_mem (b := Proc.devRef .tc main_arg21) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg21) := W2_of_ne m ρ c main_arg21 (by decide)
    _ = W0 m ρ c (Proc.devRef .tc main_arg21) := StableHlo.after_of_forall_not_mem (b := Proc.devRef .tc main_arg21) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_v3_2_2_4 (c : Dev nD) : W4 m ρ c (Proc.devRef .tc main_v3_2) = W2 m ρ c (Proc.devRef .tc main_v3_2) :=
  calc W4 m ρ c (Proc.devRef .tc main_v3_2)
    _ = W3 m ρ c (Proc.devRef .tc main_v3_2) := W4_of_ne m ρ c main_v3_2 (by decide)
    _ = W2 m ρ c (Proc.devRef .tc main_v3_2) := StableHlo.after_of_forall_not_mem (b := Proc.devRef .tc main_v3_2) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_v7_0_4_9 (c : Dev nD) : W9 m ρ c (Proc.devRef .tc main_v7_0) = W4 m ρ c (Proc.devRef .tc main_v7_0) :=
  calc W9 m ρ c (Proc.devRef .tc main_v7_0)
    _ = W8 m ρ c (Proc.devRef .tc main_v7_0) := W9_of_ne m ρ c main_v7_0 (by decide)
    _ = W7 m ρ c (Proc.devRef .tc main_v7_0) := StableHlo.after_of_forall_not_mem (b := Proc.devRef .tc main_v7_0) _ _ (List.forall_iff_forall_mem.mp (by
          simp only [hostOps2_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v7_0) := StableHlo.after_of_forall_not_mem (b := Proc.devRef .tc main_v7_0) _ _ (List.forall_iff_forall_mem.mp (by
          simp only [hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v7_0) := StableHlo.after_of_forall_not_mem (b := Proc.devRef .tc main_v7_0) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v7_0) := StableHlo.after_of_forall_not_mem (b := Proc.devRef .tc main_v7_0) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg28_0_9 (c : Dev nD) : W9 m ρ c (Proc.devRef .tc main_arg28) = W0 m ρ c (Proc.devRef .tc main_arg28) :=
  calc W9 m ρ c (Proc.devRef .tc main_arg28)
    _ = W8 m ρ c (Proc.devRef .tc main_arg28) := W9_of_ne m ρ c main_arg28 (by decide)
    _ = W7 m ρ c (Proc.devRef .tc main_arg28) := StableHlo.after_of_forall_not_mem (b := Proc.devRef .tc main_arg28) _ _ (List.forall_iff_forall_mem.mp (by
          simp only [hostOps2_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg28) := StableHlo.after_of_forall_not_mem (b := Proc.devRef .tc main_arg28) _ _ (List.forall_iff_forall_mem.mp (by
          simp only [hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg28) := StableHlo.after_of_forall_not_mem (b := Proc.devRef .tc main_arg28) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg28) := StableHlo.after_of_forall_not_mem (b := Proc.devRef .tc main_arg28) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg28) := W4_of_ne m ρ c main_arg28 (by decide)
    _ = W2 m ρ c (Proc.devRef .tc main_arg28) := StableHlo.after_of_forall_not_mem (b := Proc.devRef .tc main_arg28) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg28) := W2_of_ne m ρ c main_arg28 (by decide)
    _ = W0 m ρ c (Proc.devRef .tc main_arg28) := StableHlo.after_of_forall_not_mem (b := Proc.devRef .tc main_arg28) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_v3_1_2_9 (c : Dev nD) : W9 m ρ c (Proc.devRef .tc main_v3_1) = W2 m ρ c (Proc.devRef .tc main_v3_1) :=
  calc W9 m ρ c (Proc.devRef .tc main_v3_1)
    _ = W8 m ρ c (Proc.devRef .tc main_v3_1) := W9_of_ne m ρ c main_v3_1 (by decide)
    _ = W7 m ρ c (Proc.devRef .tc main_v3_1) := StableHlo.after_of_forall_not_mem (b := Proc.devRef .tc main_v3_1) _ _ (List.forall_iff_forall_mem.mp (by
          simp only [hostOps2_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v3_1) := StableHlo.after_of_forall_not_mem (b := Proc.devRef .tc main_v3_1) _ _ (List.forall_iff_forall_mem.mp (by
          simp only [hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v3_1) := StableHlo.after_of_forall_not_mem (b := Proc.devRef .tc main_v3_1) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v3_1) := StableHlo.after_of_forall_not_mem (b := Proc.devRef .tc main_v3_1) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3_1) := W4_of_ne m ρ c main_v3_1 (by decide)
    _ = W2 m ρ c (Proc.devRef .tc main_v3_1) := StableHlo.after_of_forall_not_mem (b := Proc.devRef .tc main_v3_1) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg29_0_9 (c : Dev nD) : W9 m ρ c (Proc.devRef .tc main_arg29) = W0 m ρ c (Proc.devRef .tc main_arg29) :=
  calc W9 m ρ c (Proc.devRef .tc main_arg29)
    _ = W8 m ρ c (Proc.devRef .tc main_arg29) := W9_of_ne m ρ c main_arg29 (by decide)
    _ = W7 m ρ c (Proc.devRef .tc main_arg29) := StableHlo.after_of_forall_not_mem (b := Proc.devRef .tc main_arg29) _ _ (List.forall_iff_forall_mem.mp (by
          simp only [hostOps2_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg29) := StableHlo.after_of_forall_not_mem (b := Proc.devRef .tc main_arg29) _ _ (List.forall_iff_forall_mem.mp (by
          simp only [hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg29) := StableHlo.after_of_forall_not_mem (b := Proc.devRef .tc main_arg29) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg29) := StableHlo.after_of_forall_not_mem (b := Proc.devRef .tc main_arg29) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg29) := W4_of_ne m ρ c main_arg29 (by decide)
    _ = W2 m ρ c (Proc.devRef .tc main_arg29) := StableHlo.after_of_forall_not_mem (b := Proc.devRef .tc main_arg29) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg29) := W2_of_ne m ρ c main_arg29 (by decide)
    _ = W0 m ρ c (Proc.devRef .tc main_arg29) := StableHlo.after_of_forall_not_mem (b := Proc.devRef .tc main_arg29) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_v7_2_4_9 (c : Dev nD) : W9 m ρ c (Proc.devRef .tc main_v7_2) = W4 m ρ c (Proc.devRef .tc main_v7_2) :=
  calc W9 m ρ c (Proc.devRef .tc main_v7_2)
    _ = W8 m ρ c (Proc.devRef .tc main_v7_2) := W9_of_ne m ρ c main_v7_2 (by decide)
    _ = W7 m ρ c (Proc.devRef .tc main_v7_2) := StableHlo.after_of_forall_not_mem (b := Proc.devRef .tc main_v7_2) _ _ (List.forall_iff_forall_mem.mp (by
          simp only [hostOps2_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v7_2) := StableHlo.after_of_forall_not_mem (b := Proc.devRef .tc main_v7_2) _ _ (List.forall_iff_forall_mem.mp (by
          simp only [hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v7_2) := StableHlo.after_of_forall_not_mem (b := Proc.devRef .tc main_v7_2) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v7_2) := StableHlo.after_of_forall_not_mem (b := Proc.devRef .tc main_v7_2) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg23_0_9 (c : Dev nD) : W9 m ρ c (Proc.devRef .tc main_arg23) = W0 m ρ c (Proc.devRef .tc main_arg23) :=
  calc W9 m ρ c (Proc.devRef .tc main_arg23)
    _ = W8 m ρ c (Proc.devRef .tc main_arg23) := W9_of_ne m ρ c main_arg23 (by decide)
    _ = W7 m ρ c (Proc.devRef .tc main_arg23) := StableHlo.after_of_forall_not_mem (b := Proc.devRef .tc main_arg23) _ _ (List.forall_iff_forall_mem.mp (by
          simp only [hostOps2_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg23) := StableHlo.after_of_forall_not_mem (b := Proc.devRef .tc main_arg23) _ _ (List.forall_iff_forall_mem.mp (by
          simp only [hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg23) := StableHlo.after_of_forall_not_mem (b := Proc.devRef .tc main_arg23) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg23) := StableHlo.after_of_forall_not_mem (b := Proc.devRef .tc main_arg23) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg23) := W4_of_ne m ρ c main_arg23 (by decide)
    _ = W2 m ρ c (Proc.devRef .tc main_arg23) := StableHlo.after_of_forall_not_mem (b := Proc.devRef .tc main_arg23) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg23) := W2_of_ne m ρ c main_arg23 (by decide)
    _ = W0 m ρ c (Proc.devRef .tc main_arg23) := StableHlo.after_of_forall_not_mem (b := Proc.devRef .tc main_arg23) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg25_0_9 (c : Dev nD) : W9 m ρ c (Proc.devRef .tc main_arg25) = W0 m ρ c (Proc.devRef .tc main_arg25) :=
  calc W9 m ρ c (Proc.devRef .tc main_arg25)
    _ = W8 m ρ c (Proc.devRef .tc main_arg25) := W9_of_ne m ρ c main_arg25 (by decide)
    _ = W7 m ρ c (Proc.devRef .tc main_arg25) := StableHlo.after_of_forall_not_mem (b := Proc.devRef .tc main_arg25) _ _ (List.forall_iff_forall_mem.mp (by
          simp only [hostOps2_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg25) := StableHlo.after_of_forall_not_mem (b := Proc.devRef .tc main_arg25) _ _ (List.forall_iff_forall_mem.mp (by
          simp only [hostOps2_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg25) := StableHlo.after_of_forall_not_mem (b := Proc.devRef .tc main_arg25) _ _ (List.forall_iff_forall_mem.mp (by
          simp only [hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg25) := StableHlo.after_of_forall_not_mem (b := Proc.devRef .tc main_arg25) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg25) := W4_of_ne m ρ c main_arg25 (by decide)
    _ = W2 m ρ c (Proc.devRef .tc main_arg25) := StableHlo.after_of_forall_not_mem (b := Proc.devRef .tc main_arg25) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg25) := W2_of_ne m ρ c main_arg25 (by decide)
    _ = W0 m ρ c (Proc.devRef .tc main_arg25) := StableHlo.after_of_forall_not_mem (b := Proc.devRef .tc main_arg25) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.GenC

end
-- ==== Proof.LibRows.lean ====
/-
  Row gathers and accumulating row scatters read at an index.

  A table of N rows of width C is read, or accumulated into, at rows named by a column of n start indices
  (an [n × 1] array of words). Reading: result row p is the table's row at start index p, read signed and clamped
  into [0, N − 1]. Accumulating: update row e lands on the operand row its start index names, read signed and NOT
  clamped, and is dropped when that is no row of the operand; entry (r, c) of the result is the operand's entry plus the
  sum of the entries (e, c) of the update rows e that land on r.
-/
import Idealize.ShloMosaic.PureOps.Ideal
import Idealize.ShloMosaic.PureOps.Ideal.Laws
import Idealize.ShloMosaic.Lib.ValueIdx
import Idealize.ShloMosaic.Lib.StableHlo.Predicate

noncomputable section

namespace Cert.LibRows

open Idealize.ShloMosaic Idealize.ShloMosaic.ValueIdx Idealize.ShloMosaic.StableHlo.Predicate

/-- The table row a start index names when it is READ: the word read signed, clamped into [0, N − 1]. -/
def rowOf {N n w : ℕ} (hN : 0 < N) (idx : IVec ⟨2, ![n, 1]⟩ w) (p : Fin n) : Fin N :=
  ⟨min (idx (ixP p)).toInt.toNat (N - 1), by omega⟩

/-- A row gather read at (p, q): the table at (row of start index p, q). The five hypotheses are the printed
    dimension numbers, each closed by `rfl` at a use. -/
theorem gather_rows {α : Type} {N C n w : ℕ} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (hN : 0 < N) (p : Fin n) (q : Fin C) :
    Host.gather d x idx (ix2 p q) = x (ix2 (rowOf hN idx p) q) := by
  unfold Host.gather
  congr 1
  funext a
  apply Fin.ext
  have hnb : ∀ a : Fin 2, a ∉ d.operandBatchingDims := fun a => by rw [hob]; exact List.not_mem_nil
  -- the result's batch axes are axis 0 alone, its offset axes axis 1 alone
  have hbd : ∀ X ∈ d.batchDims, X = (0 : Fin 2) := by
    intro X hX
    have : d.batchDims = [(0 : Fin 2)] := by unfold GatherDims.batchDims; rw [hoff]; rfl
    rw [this] at hX; exact List.mem_singleton.mp hX
  have hod : ∀ X ∈ d.offsetDims, X = (1 : Fin 2) := by
    intro X hX; rw [hoff] at hX; exact List.mem_singleton.mp hX
  have e0 : ∀ X : Fin 2, X = 0 → ((ix2 p q : (⟨2, ![n, C]⟩ : Shape).Idx) X).val = p.val := by rintro _ rfl; rfl
  have e1 : ∀ X : Fin 2, X = 1 → ((ix2 p q : (⟨2, ![n, C]⟩ : Shape).Idx) X).val = q.val := by rintro _ rfl; rfl
  match a with
  | ⟨0, _⟩ =>
    -- axis 0 is collapsed and start-indexed: its slice has size 1, so the start is clamped into [0, N − 1]
    have hsl : d.sliceSizes 0 = 1 := d.slice_collapsed 0 (by rw [hcoll]; exact List.mem_singleton.mpr rfl)
    have hk : (0 : Fin 2) ∉ d.sKept := by rw [GatherDims.mem_sKept, hcoll]; simp
    have hm : (0 : Fin 2) ∈ d.startIndexMap := by rw [hsim]; exact List.mem_singleton.mpr rfl
    show d.start (ix2 p q) idx 0 + d.batchCoord (ix2 p q) 0 + d.offCoord (ix2 p q) 0 = min (idx (ixP p)).toInt.toNat (N - 1)
    rw [GatherDims.batchCoord_eq_zero _ _ _ (hnb 0), GatherDims.offCoord_eq_zero _ _ _ hk]
    unfold GatherDims.start
    rw [dif_pos hm]
    show min _ (N - d.sliceSizes 0) = _
    rw [hsl]
    congr 3
    congr 1
    funext b
    apply Fin.ext
    match b with
    | ⟨0, _⟩ =>
      unfold GatherDims.siIdx
      rw [dif_neg (by rw [hivd]; exact Nat.zero_ne_one)]
      unfold GatherDims.siCoord
      simp only [Fin.val_cast]
      exact e0 _ (hbd _ (List.getElem_mem _))
    | ⟨1, _⟩ =>
      unfold GatherDims.siIdx
      rw [dif_pos (by rw [hivd])]
      show List.idxOf (0 : Fin 2) d.startIndexMap = 0
      rw [hsim]; simp
  | ⟨1, _⟩ =>
    -- axis 1 is the one offset axis: no start, and the offset coordinate is the result's column
    have hk : (1 : Fin 2) ∈ d.sKept := by rw [GatherDims.mem_sKept, hcoll, hob]; simp
    have hm : (1 : Fin 2) ∉ d.startIndexMap := by rw [hsim]; simp
    show d.start (ix2 p q) idx 1 + d.batchCoord (ix2 p q) 1 + d.offCoord (ix2 p q) 1 = q.val
    rw [GatherDims.batchCoord_eq_zero _ _ _ (hnb 1)]
    unfold GatherDims.start GatherDims.offCoord
    rw [dif_neg hm, dif_pos hk]
    simp only [Nat.zero_add, Nat.add_zero]
    exact e1 _ (hod _ (List.getElem_mem _))

/-- Where update entry (e, c) of an accumulating row scatter lands: on (r, c') exactly when start index e, read signed,
    is r and the columns agree. -/
theorem scatter_rows_resultIdx {N C n w : ℕ} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1) (idx : IVec ⟨2, ![n, 1]⟩ w) (e : Fin n) (c : Fin C) (r : Fin N) (c' : Fin C) :
    d.resultIdx? (ix2 e c) idx = some (ix2 r c') ↔ (idx (ixP e)).toInt = (r.val : ℤ) ∧ c = c' := by
  -- the update's scatter axes are axis 0 alone, its window axes axis 1 alone
  have hus : ∀ X ∈ d.uScatter, X = (0 : Fin 2) := by
    intro X hX
    have : d.uScatter = [(0 : Fin 2)] := by unfold ScatterDims.uScatter; rw [huw]; rfl
    rw [this] at hX; exact List.mem_singleton.mp hX
  have huwd : ∀ X ∈ d.updateWindowDims, X = (1 : Fin 2) := by
    intro X hX; rw [huw] at hX; exact List.mem_singleton.mp hX
  have e0 : ∀ X : Fin 2, X = 0 → ((ix2 e c : (⟨2, ![n, C]⟩ : Shape).Idx) X).val = e.val := by rintro _ rfl; rfl
  have e1 : ∀ X : Fin 2, X = 1 → ((ix2 e c : (⟨2, ![n, C]⟩ : Shape).Idx) X).val = c.val := by rintro _ rfl; rfl
  have hmem_sKept : ∀ a : Fin 2, a ∈ d.sKept ↔ a ∉ d.insertedWindowDims := fun a => by
    simp [ScatterDims.sKept, Shape.kept, List.mem_filter, List.mem_finRange]
  -- the start of the window: the index word, read signed, on axis 0; nothing on axis 1
  have hs0 : d.start (ix2 e c) idx 0 = (idx (ixP e)).toInt := by
    have hm : (0 : Fin 2) ∈ d.scatterDimsToOperandDims := by rw [hsd]; exact List.mem_singleton.mpr rfl
    unfold ScatterDims.start
    rw [dif_pos hm]
    congr 2
    funext b
    apply Fin.ext
    match b with
    | ⟨0, _⟩ =>
      unfold ScatterDims.siIdx
      rw [dif_neg (by rw [hivd]; exact Nat.zero_ne_one)]
      unfold ScatterDims.siCoord
      simp only [Fin.val_cast]
      exact e0 _ (hus _ (List.getElem_mem _))
    | ⟨1, _⟩ =>
      unfold ScatterDims.siIdx
      rw [dif_pos (by rw [hivd])]
      show List.idxOf (0 : Fin 2) d.scatterDimsToOperandDims = 0
      rw [hsd]; simp
  have hs1 : d.start (ix2 e c) idx 1 = 0 := by
    have hm : (1 : Fin 2) ∉ d.scatterDimsToOperandDims := by rw [hsd]; simp
    unfold ScatterDims.start
    rw [dif_neg hm]
  -- the window coordinate: nothing on the inserted axis 0; the update's column on axis 1
  have hw0 : d.window (ix2 e c) 0 = 0 := by
    have hk : (0 : Fin 2) ∉ d.sKept := by rw [hmem_sKept, hiw]; simp
    unfold ScatterDims.window
    rw [dif_neg hk]
  have hw1 : d.window (ix2 e c) 1 = c.val := by
    have hk : (1 : Fin 2) ∈ d.sKept := by rw [hmem_sKept, hiw]; simp
    unfold ScatterDims.window
    rw [dif_pos hk]
    exact e1 _ (huwd _ (List.getElem_mem _))
  have hr := r.isLt
  have hc := c.isLt
  have hc' := c'.isLt
  unfold ScatterDims.resultIdx?
  constructor
  · intro h
    split at h
    · next hin =>
      have hf := Option.some.inj h
      have h0 := congrArg (fun f => (f 0).val) hf
      have h1 := congrArg (fun f => (f 1).val) hf
      simp only [hs0, hw0, hs1, hw1] at h0 h1
      have hin0 := (hin 0).1
      rw [hs0, hw0] at hin0
      change ((idx (ixP e)).toInt + ((0 : ℕ) : ℤ)).toNat = r.val at h0
      change ((0 : ℤ) + (c.val : ℤ)).toNat = c'.val at h1
      refine ⟨by omega, Fin.ext (by omega)⟩
    · exact absurd h (by simp)
  · rintro ⟨hi, rfl⟩
    have hin : ∀ a, 0 ≤ d.start (ix2 e c) idx a + d.window (ix2 e c) a ∧
        d.start (ix2 e c) idx a + (d.window (ix2 e c) a : ℤ) < ((⟨2, ![N, C]⟩ : Shape).size a : ℤ) := by
      intro a
      match a with
      | ⟨0, _⟩ =>
        show 0 ≤ d.start (ix2 e c) idx 0 + (d.window (ix2 e c) 0 : ℤ) ∧ d.start (ix2 e c) idx 0 + (d.window (ix2 e c) 0 : ℤ) < (N : ℤ)
        rw [hs0, hw0, hi]; omega
      | ⟨1, _⟩ =>
        show 0 ≤ d.start (ix2 e c) idx 1 + (d.window (ix2 e c) 1 : ℤ) ∧ d.start (ix2 e c) idx 1 + (d.window (ix2 e c) 1 : ℤ) < (C : ℤ)
        rw [hs1, hw1]; omega
    rw [dif_pos hin]
    congr 1
    funext a
    apply Fin.ext
    match a with
    | ⟨0, _⟩ =>
      show (d.start (ix2 e c) idx 0 + (d.window (ix2 e c) 0 : ℤ)).toNat = r.val
      rw [hs0, hw0, hi]; omega
    | ⟨1, _⟩ =>
      show (d.start (ix2 e c) idx 1 + (d.window (ix2 e c) 1 : ℤ)).toNat = c.val
      rw [hs1, hw1]; omega

/-- The accumulating row scatter at the extended reals, read at (r, c): the operand's entry plus the sum over the update
    rows that land on r of their entry in column c. -/
theorem scatterAdd_rows {φ : FTy} {N C n w : ℕ} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1) (x : FVec Ideal ⟨2, ![N, C]⟩ φ) (idx : IVec ⟨2, ![n, 1]⟩ w)
    (upd : FVec Ideal ⟨2, ![n, C]⟩ φ) (r : Fin N) (c : Fin C) :
    Host.scatterAdd d x idx upd (ix2 r c)
      = x (ix2 r c) + ∑ e ∈ Finset.univ.filter (fun e : Fin n => (idx (ixP e)).toInt = (r.val : ℤ)), upd (ix2 e c) := by
  show x (ix2 r c) + ∑ j ∈ Finset.univ.filter (fun j => d.resultIdx? j idx = some (ix2 r c)), upd j = _
  congr 1
  rw [Finset.sum_filter, sum_idx2, Finset.sum_filter]
  refine Finset.sum_congr rfl fun a _ => ?_
  simp only [scatter_rows_resultIdx d huw hiw hsd hivd]
  by_cases ha : (idx (ixP a)).toInt = (r.val : ℤ)
  · simp only [ha, true_and, if_true]
    rw [Finset.sum_ite_eq']
    simp
  · simp only [ha, false_and, if_false]
    exact Finset.sum_const_zero

/-- An accumulating scatter of real entries into real entries has real entries, whatever its dimension numbers and
    indices: each entry is the operand's plus a finite sum of updates. -/
theorem scatterAdd_real {φ : FTy} {s si su : Shape} {w : ℕ} (d : ScatterDims s si su) (x : FVec Ideal s φ) (idx : IVec si w)
    (upd : FVec Ideal su φ) (hx : ∀ i, ∃ r : ℝ, x i = (r : EReal)) (hu : ∀ j, ∃ r : ℝ, upd j = (r : EReal)) (i : s.Idx) :
    ∃ r : ℝ, Host.scatterAdd d x idx upd i = (r : EReal) := by
  -- a finite sum of real updates is real
  have hsum : ∀ S : Finset su.Idx, ∃ b : ℝ, ∑ j ∈ S, upd j = (b : EReal) := by
    classical
    intro S
    induction S using Finset.induction_on with
    | empty => exact ⟨0, by rw [Finset.sum_empty, EReal.coe_zero]⟩
    | insert j S hj ih =>
      obtain ⟨b, hb⟩ := ih
      obtain ⟨u, hu'⟩ := hu j
      exact ⟨u + b, by rw [Finset.sum_insert hj, hb, hu', EReal.coe_add]⟩
  obtain ⟨a, ha⟩ := hx i
  obtain ⟨b, hb⟩ := hsum (Finset.univ.filter (fun j => d.resultIdx? j idx = some i))
  refine ⟨a + b, ?_⟩
  show x i + ∑ j ∈ Finset.univ.filter (fun j => d.resultIdx? j idx = some i), upd j = _
  rw [ha, hb, EReal.coe_add]

end Cert.LibRows

end
-- ==== Proof.Spec.lean ====
/-
  The message-passing layer as functions on the extended reals, one row at a time.

  Three dense stages, each a function of the rows of its operands only, so that a block of rows of the result is the
  stage applied to the same block of rows of the operands:
    lin     x W b          : (x · W + b)(p, q) = Σ k, x (p, k) · W (k, q) + b q
    edge    k q v …        : row e is  (v · Wm + bm)(e, ·)  scaled by the mean over the 8 heads of
                             softmax_h ((k ⊙ q) · Wa + ba)(e, h) / √32, the softmax taken with the row maximum subtracted
    finish  agg cnt x …    : max ((agg / max (cnt, 1)) · Wout + bout + x, 0)
  and two row operations read at an entry: a row gather (row p of the result is the table's row at the start index p
  names, clamped into the table) and an accumulating row scatter (entry (r, c) is the operand's plus the sum of the
  update entries (e, c) over the rows e whose start index is r).
-/
import Idealize.ShloMosaic.PureOps.Ideal
import Idealize.ShloMosaic.PureOps.Ideal.Laws
import Idealize.ShloMosaic.Lib.ValueIdx
import proofs.«416314_j25881472925720_1_alg».proof.Proof.LibRows

noncomputable section

namespace Cert.Hgt

open Idealize.ShloMosaic Idealize.ShloMosaic.ValueIdx Idealize.ShloMosaic.StableHlo.Predicate

/-- An n × c array of extended reals. -/
abbrev Mat (n c : ℕ) := FVec Ideal ⟨2, ![n, c]⟩ .f32

/-- A vector's entries as a function of the position. -/
def row1 {c : ℕ} (b : FVec Ideal ⟨1, ![c]⟩ .f32) : Fin c → EReal := fun q => b (ix1 q)

/-- The entries of a one-row array as a function of the column. -/
def row2 {c : ℕ} (b : Mat 1 c) : Fin c → EReal := fun q => b (ix2 0 q)

/-! ## x · W + b -/

def linE {n K C : ℕ} (x : Mat n K) (W : Mat K C) (b : Fin C → EReal) (p : Fin n) (q : Fin C) : EReal :=
  (∑ k : Fin K, x (ix2 p k) * W (ix2 k q)) + b q

def lin {n K C : ℕ} (x : Mat n K) (W : Mat K C) (b : Fin C → EReal) : Mat n C := fun j => linE x W b (j 0) (j 1)

theorem lin_apply {n K C : ℕ} (x : Mat n K) (W : Mat K C) (b : Fin C → EReal) (p : Fin n) (q : Fin C) :
    lin x W b (ix2 p q) = linE x W b p q := rfl

/-! ## The edge stage -/

/-- Head h's score of edge e: ((k ⊙ q) · Wa + ba)(e, h) divided by the single-precision value nearest √32. -/
def scoreE {n : ℕ} (k q : Mat n 256) (Wa : Mat 256 8) (ba : Fin 8 → EReal) (e : Fin n) (h : Fin 8) : EReal :=
  Ideal.div ((∑ c : Fin 256, (k (ix2 e c) * q (ix2 e c)) * Wa (ix2 c h)) + ba h) (Ideal.ofBits .f32 0x40B504F3#32)

/-- The largest of edge e's eight scores (the fold of max from −∞). -/
def smaxE {n : ℕ} (k q : Mat n 256) (Wa : Mat 256 8) (ba : Fin 8 → EReal) (e : Fin n) : EReal :=
  (Finset.univ : Finset (Fin 8)).fold max (Ideal.ofBits .f32 0xFF800000#32) (fun h => scoreE k q Wa ba e h)

def expE {n : ℕ} (k q : Mat n 256) (Wa : Mat 256 8) (ba : Fin 8 → EReal) (e : Fin n) (h : Fin 8) : EReal :=
  Ideal.exp (scoreE k q Wa ba e h - smaxE k q Wa ba e)

def attnE {n : ℕ} (k q : Mat n 256) (Wa : Mat 256 8) (ba : Fin 8 → EReal) (e : Fin n) (h : Fin 8) : EReal :=
  Ideal.div (expE k q Wa ba e h) (∑ h' : Fin 8, expE k q Wa ba e h')

/-- The mean over the eight heads of edge e's attention weights. -/
def meanE {n : ℕ} (k q : Mat n 256) (Wa : Mat 256 8) (ba : Fin 8 → EReal) (e : Fin n) : EReal :=
  Ideal.div (∑ h : Fin 8, attnE k q Wa ba e h) (Ideal.ofBits .f32 0x41000000#32)

def edgeE {n : ℕ} (k q v : Mat n 256) (Wa : Mat 256 8) (ba : Fin 8 → EReal) (Wm : Mat 256 256) (bm : Fin 256 → EReal)
    (e : Fin n) (d : Fin 256) : EReal :=
  linE v Wm bm e d * meanE k q Wa ba e

def edge {n : ℕ} (k q v : Mat n 256) (Wa : Mat 256 8) (ba : Fin 8 → EReal) (Wm : Mat 256 256) (bm : Fin 256 → EReal) :
    Mat n 256 := fun j => edgeE k q v Wa ba Wm bm (j 0) (j 1)

theorem edge_apply {n : ℕ} (k q v : Mat n 256) (Wa : Mat 256 8) (ba : Fin 8 → EReal) (Wm : Mat 256 256)
    (bm : Fin 256 → EReal) (e : Fin n) (d : Fin 256) : edge k q v Wa ba Wm bm (ix2 e d) = edgeE k q v Wa ba Wm bm e d := rfl

/-! ## The finishing stage -/

/-- Entry (p, c) of the aggregate divided by the larger of row p's count and one. -/
def normE {n : ℕ} (agg : Mat n 256) (cnt : Mat n 1) (p : Fin n) (c : Fin 256) : EReal :=
  Ideal.div (agg (ix2 p c)) (max (cnt (ix2 p 0)) (Ideal.ofBits .f32 0x3F800000#32))

def finishE {n : ℕ} (agg : Mat n 256) (cnt : Mat n 1) (x : Mat n 256) (Wout : Mat 256 256) (bout : Fin 256 → EReal)
    (p : Fin n) (q : Fin 256) : EReal :=
  max (((∑ c : Fin 256, normE agg cnt p c * Wout (ix2 c q)) + bout q) + x (ix2 p q)) (Ideal.ofBits .f32 0x00000000#32)

def finish {n : ℕ} (agg : Mat n 256) (cnt : Mat n 1) (x : Mat n 256) (Wout : Mat 256 256) (bout : Fin 256 → EReal) :
    Mat n 256 := fun j => finishE agg cnt x Wout bout (j 0) (j 1)

theorem finish_apply {n : ℕ} (agg : Mat n 256) (cnt : Mat n 1) (x : Mat n 256) (Wout : Mat 256 256)
    (bout : Fin 256 → EReal) (p : Fin n) (q : Fin 256) : finish agg cnt x Wout bout (ix2 p q) = finishE agg cnt x Wout bout p q := rfl

/-! ## Row gather and accumulating row scatter -/

/-- Row p of the result is the table's row at start index p, read signed and clamped into the table. -/
def gatherS {N C n : ℕ} (hN : 0 < N) (x : Mat N C) (idx : IVec ⟨2, ![n, 1]⟩ 32) : Mat n C :=
  fun j => x (ix2 (Cert.LibRows.rowOf hN idx (j 0)) (j 1))

/-- Entry (r, c) is the operand's plus the sum over the update rows whose start index, read signed, is r. -/
def scatterS {N C n : ℕ} (x : Mat N C) (idx : IVec ⟨2, ![n, 1]⟩ 32) (upd : Mat n C) : Mat N C :=
  fun j => x (ix2 (j 0) (j 1)) + ∑ e ∈ Finset.univ.filter (fun e : Fin n => (idx (ixP e)).toInt = ((j 0).val : ℤ)), upd (ix2 e (j 1))

theorem gather_eq {N C n : ℕ} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1) (hN : 0 < N)
    (x : Mat N C) (idx : IVec ⟨2, ![n, 1]⟩ 32) : Host.gather d x idx = gatherS hN x idx := by
  funext j
  obtain ⟨p, q, rfl⟩ : ∃ (p : Fin n) (q : Fin C), j = ix2 p q := ⟨j 0, j 1, eq_ix2 j⟩
  exact Cert.LibRows.gather_rows d hoff hcoll hob hsim hivd x idx hN p q

theorem scatterAdd_eq {N C n : ℕ} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1) (x : Mat N C) (idx : IVec ⟨2, ![n, 1]⟩ 32) (upd : Mat n C) :
    Host.scatterAdd d x idx upd = scatterS x idx upd := by
  funext j
  obtain ⟨r, c, rfl⟩ : ∃ (r : Fin N) (c : Fin C), j = ix2 r c := ⟨j 0, j 1, eq_ix2 j⟩
  exact Cert.LibRows.scatterAdd_rows d huw hiw hsd hivd x idx upd r c

/-! ## One direction of message passing, and one node type's output -/

/-- The messages of one edge type, summed into their destination rows: the projections of the source and destination
    tables gathered per edge, the edge stage, and the accumulating scatter into zeros (`z`). `gs`, `gd` are the start
    indices the gathers read at and `sd` those the scatter writes at. -/
def aggS {Ns Nd : ℕ} (hs : 0 < Ns) (hd : 0 < Nd) (kS vS : Mat Ns 256) (qD : Mat Nd 256)
    (Wa : Mat 256 8) (ba : Fin 8 → EReal) (Wm : Mat 256 256) (bm : Fin 256 → EReal)
    (gs gd sd : IVec ⟨2, ![200000, 1]⟩ 32) (z : Mat Nd 256) : Mat Nd 256 :=
  scatterS z sd (edge (gatherS hs kS gs) (gatherS hd qD gd) (gatherS hs vS gs) Wa ba Wm bm)

end Cert.Hgt

end
-- ==== Proof.LibDense.lean ====
/-
  A plain matrix product read at an entry.

  For dimension numbers that contract the left operand's axis 1 with the right operand's axis 0 and have no batch axis,
  entry (p, q) of an [M × K] by [K × N] product is the sum over k of left (p, k) times right (k, q): for the
  vector unit's product into a zero accumulator and for the host's general dot alike. The hypotheses are the printed
  dimension numbers, each closed by `rfl` at a use.
-/
import Idealize.ShloMosaic.PureOps.Ideal
import Idealize.ShloMosaic.PureOps.Ideal.Laws
import Idealize.ShloMosaic.Lib.ValueIdx

noncomputable section

namespace Cert.LibDense

open Idealize.ShloMosaic Idealize.ShloMosaic.ValueIdx

variable {M K N : ℕ} (d : DotDims ⟨2, ![M, K]⟩ ⟨2, ![K, N]⟩ ⟨2, ![M, N]⟩)

/-- Two coordinates of one index at provably equal positions have one value. -/
private theorem coord_val_congr {s : Shape} (j : s.Idx) (p q : ℕ) (hp : p < s.rank) (hq : q < s.rank) (h : p = q) :
    (j ⟨p, hp⟩).val = (j ⟨q, hq⟩).val := by subst h; rfl

/-- The left operand's row is the result's row. -/
theorem lhs_row (hln : d.lhsNonContracting = [0]) (hlb : d.lhsBatch = [])
    (j : (⟨2, ![M, N]⟩ : Shape).Idx) (k : d.contr.Idx) : (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's column is the contraction index. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction index. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hln : d.lhsNonContracting = [0]) (hrn : d.rhsNonContracting = [1]) (hlb : d.lhsBatch = []) (hrb : d.rhsBatch = [])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The contraction shape has one axis, of extent K. -/
theorem contr_rank (hlc : d.lhsContracting = [1]) : d.contr.rank = 1 := by rw [d.rank_contr, hlc]; rfl

theorem contr_size (hlc : d.lhsContracting = [1]) :
    d.contr.size ⟨0, by rw [contr_rank d hlc]; exact Nat.one_pos⟩ = K := by
  have h := d.size_contr 0 (by rw [hlc]; exact Nat.one_pos)
  rw [h]
  simp [hlc]

/-- The sum over the contraction index is the sum over k of left (p, k) · right (k, q). -/
theorem sum_contr (hlc : d.lhsContracting = [1]) (hrc : d.rhsContracting = [0]) (hln : d.lhsNonContracting = [0])
    (hrn : d.rhsNonContracting = [1]) (hlb : d.lhsBatch = []) (hrb : d.rhsBatch = [])
    (x : (⟨2, ![M, K]⟩ : Shape).Idx → EReal) (w : (⟨2, ![K, N]⟩ : Shape).Idx → EReal) (p : Fin M) (q : Fin N) :
    ∑ k : d.contr.Idx, x (d.lhsIdx (ix2 p q) k) * w (d.rhsIdx (ix2 p q) k) = ∑ kk : Fin K, x (ix2 p kk) * w (ix2 kk q) := by
  rw [← Equiv.sum_comp (contrEquiv1 d K (contr_rank d hlc) (contr_size d hlc)).symm]
  refine Finset.sum_congr rfl fun kk _ => ?_
  have hk := contrEquiv1_symm_val d K (contr_rank d hlc) (contr_size d hlc) kk
  have el : d.lhsIdx (ix2 p q) ((contrEquiv1 d K (contr_rank d hlc) (contr_size d hlc)).symm kk) = ix2 p kk := by
    funext a; apply Fin.ext
    match a with
    | ⟨0, _⟩ => exact lhs_row d hln hlb _ _
    | ⟨1, _⟩ => exact (lhs_col d hlc _ _).trans hk
  have er : d.rhsIdx (ix2 p q) ((contrEquiv1 d K (contr_rank d hlc) (contr_size d hlc)).symm kk) = ix2 kk q := by
    funext a; apply Fin.ext
    match a with
    | ⟨0, _⟩ => exact (rhs_row d hrc _ _).trans hk
    | ⟨1, _⟩ => exact rhs_col d hln hrn hlb hrb _ _
  rw [el, er]

/-- The vector unit's product into a zero accumulator, read at (p, q). -/
theorem matmul_zero_apply {φ₁ φ₂ : FTy} (prec : Option ContractPrecision)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (p : Fin M) (q : Fin N) :
    FloatOps.matmul d prec x w (constant ⟨2, ![M, N]⟩ .f32 0x00000000#32) (ix2 p q) = ∑ kk : Fin K, x (ix2 p kk) * w (ix2 kk q) := by
  rw [Ideal.matmul_constant_zero_apply]
  exact sum_contr d hlc hrc hln hrn hlb hrb x w p q

/-- The vector unit's product into any accumulator, read at (p, q). -/
theorem matmul_acc_apply {φ₁ φ₂ : FTy} (prec : Option ContractPrecision)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (acc : FVec Ideal ⟨2, ![M, N]⟩ .f32) (p : Fin M) (q : Fin N) :
    FloatOps.matmul d prec x w acc (ix2 p q) = acc (ix2 p q) + ∑ kk : Fin K, x (ix2 p kk) * w (ix2 kk q) := by
  rw [Ideal.matmul_apply]
  exact congrArg (acc (ix2 p q) + ·) (sum_contr d hlc hrc hln hrn hlb hrb x w p q)

/-- The host's general dot, read at (p, q). -/
theorem dotGeneral_apply {φ₁ φ₂ : FTy} (prec : Option ContractPrecision) (sched : HostSchedule)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (p : Fin M) (q : Fin N) :
    FloatOps.dotGeneral d prec sched x w (ix2 p q) = ∑ kk : Fin K, x (ix2 p kk) * w (ix2 kk q) := by
  rw [Ideal.dotGeneral_apply]
  exact sum_contr d hlc hrc hln hrn hlb hrb x w p q

end Cert.LibDense

end
-- ==== Proof.KPay.lean ====
/-
  What each kernel body stores, as a function of the blocks it loads: at the extended reals the matrix unit's product into
  a zero accumulator is the plain sum over the contracted axis, a change of float format is the identity, and a lane
  reduction is the sum (or the maximum) over the lanes; so each body is the stage of Spec.lean applied to its blocks.
-/
import proofs.«416314_j25881472925720_1_alg».proof.Proof.Gen.KernelIdeal.Skeleton
import proofs.«416314_j25881472925720_1_alg».proof.Proof.Spec
import proofs.«416314_j25881472925720_1_alg».proof.Proof.LibDense
import Idealize.ShloMosaic.Lib.ValueLayout
import Idealize.ShloMosaic.Lib.Pipeline.Value
import Idealize.ShloMosaic.PureOps.Ideal.Laws

noncomputable section

namespace Cert.Hgt.KPay

open Idealize.ShloMosaic Idealize.ShloMosaic.ValueIdx Cert.KernelIdeal Cert.KernelIdeal.Gen Cert.Hgt

/-! ## Two layout reads: a column broadcast along the rows, and a vector cast to a column -/

/-- An [a, 1] column broadcast to [a, b] reads, at (p, c), the column's entry of row p. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An [a] vector cast to an [a, 1] column reads, at (p, u), the vector's entry p. -/
private theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-! ## The projections: x · W + b, the bias a one-row array -/

/-- x · W + b with both factors passed through a change of float format and the bias a one-row array broadcast along the rows. -/
private theorem proj_eq (x : FVec Ideal S2000x256 .f32) (W : FVec Ideal S256x256 .f32) (b : FVec Ideal S1x256 .f32) :
    addf (matmul dot_S2000x256_S256x256_S2000x256_1_0_0_1_n_n none (truncf .bf16 x bitsLt_bf16_f32)
        (truncf .bf16 W bitsLt_bf16_f32) (constant S2000x256 .f32 0x00000000#32))
      (broadcastTo S2000x256 (shapeCast S1x256 b shapeCasts_S1x256_S1x256) broadcasts_S1x256_S2000x256)
      = lin x W (row2 b) := by
  funext j
  obtain ⟨p, q, rfl⟩ : ∃ (p : Fin 2000) (q : Fin 256), j = ix2 p q := ⟨j 0, j 1, eq_ix2 j⟩
  rw [addf_apply, shapeCast_self, broadcastTo_1b_ab_apply, lin_apply]
  unfold linE row2
  refine congrArg (· + b (ix2 0 q)) ?_
  exact Cert.LibDense.matmul_zero_apply dot_S2000x256_S256x256_S2000x256_1_0_0_1_n_n none rfl rfl rfl rfl rfl rfl
    (truncf .bf16 x bitsLt_bf16_f32) (truncf .bf16 W bitsLt_bf16_f32) p q

theorem pay0_2 (x : Vec Ideal S2000x256 .f32) (W : Vec Ideal S256x256 .f32) (b : Vec Ideal S1x256 .f32) :
    k0_pay2 (F := Ideal) x W b = lin x W (row2 b) := proj_eq x W b
theorem pay0_3 (x : Vec Ideal S2000x256 .f32) (W : Vec Ideal S256x256 .f32) (b : Vec Ideal S1x256 .f32) :
    k0_pay3 (F := Ideal) x W b = lin x W (row2 b) := proj_eq x W b
theorem pay0_4 (x : Vec Ideal S2000x256 .f32) (W : Vec Ideal S256x256 .f32) (b : Vec Ideal S1x256 .f32) :
    k0_pay4 (F := Ideal) x W b = lin x W (row2 b) := proj_eq x W b
theorem pay1_2 (x : Vec Ideal S2000x256 .f32) (W : Vec Ideal S256x256 .f32) (b : Vec Ideal S1x256 .f32) :
    k1_pay2 (F := Ideal) x W b = lin x W (row2 b) := proj_eq x W b
theorem pay1_3 (x : Vec Ideal S2000x256 .f32) (W : Vec Ideal S256x256 .f32) (b : Vec Ideal S1x256 .f32) :
    k1_pay3 (F := Ideal) x W b = lin x W (row2 b) := proj_eq x W b
theorem pay1_4 (x : Vec Ideal S2000x256 .f32) (W : Vec Ideal S256x256 .f32) (b : Vec Ideal S1x256 .f32) :
    k1_pay4 (F := Ideal) x W b = lin x W (row2 b) := proj_eq x W b

/-! ## The edge stage -/

/-- The index over row p of a reduction along the lanes, with lane c put back, is (p, c). -/
private theorem lift_lane {a b : ℕ} (h : (⟨2, ![a, b]⟩ : Shape).Reduces [1] ⟨1, ![a]⟩) (p : Fin a) (c : Fin b) :
    h.lift (ix1 p) c = ix2 p c :=
  funext fun ax => Fin.ext (match ax with | ⟨0, _⟩ => rfl | ⟨1, _⟩ => rfl)

/-- A row's maximum over its eight lanes, kept as a column: the fold of max from −∞ over the row's entries. -/
private theorem rowMax_apply (S : FVec Ideal S2000x8 .f32) (e : Fin 2000) (u : Fin 1) :
    shapeCast S2000x1 (multiReduction .maximumf [1] S2000 S 0xFF800000#32 reduces_S2000x8_S2000 (.inl rfl) rfl)
        shapeCasts_S2000_S2000x1 (ix2 e u)
      = (Finset.univ : Finset (Fin 8)).fold max (Ideal.ofBits .f32 0xFF800000#32) (fun h => S (ix2 e h)) := by
  rw [shapeCast_a_a1_apply]
  exact (Ideal.multiReduction_maximumf_single S _ reduces_S2000x8_S2000 _ _ (ix1 e)).trans
    (congrArg (fun f => (Finset.univ : Finset (Fin 8)).fold max (Ideal.ofBits .f32 0xFF800000#32) f)
      (funext fun h => congrArg S (lift_lane reduces_S2000x8_S2000 e h)))

/-- A row's sum over its eight lanes, kept as a column. -/
private theorem rowSum_apply (T : FVec Ideal S2000x8 .f32) (e : Fin 2000) (u : Fin 1) :
    shapeCast S2000x1 (multiReduction .add [1] S2000 T 0x00000000#32 reduces_S2000x8_S2000 (.inl rfl) rfl)
        shapeCasts_S2000_S2000x1 (ix2 e u) = ∑ h : Fin 8, T (ix2 e h) := by
  rw [shapeCast_a_a1_apply]
  exact (Ideal.multiReduction_add_single T _ reduces_S2000x8_S2000 _ _ (ix1 e)).trans
    (Finset.sum_congr rfl fun h _ => congrArg T (lift_lane reduces_S2000x8_S2000 e h))

/-- The exponential of a row's entries less the row's maximum, for an array whose row e reads σ. -/
private theorem expStage_apply (S : FVec Ideal S2000x8 .f32) (σ : Fin 8 → EReal) (e : Fin 2000)
    (hS : ∀ h, S (ix2 e h) = σ h) (h : Fin 8) :
    exp (subf S (broadcastTo S2000x8 (shapeCast S2000x1
        (multiReduction .maximumf [1] S2000 S 0xFF800000#32 reduces_S2000x8_S2000 (.inl rfl) rfl)
        shapeCasts_S2000_S2000x1) broadcasts_S2000x1_S2000x8)) (ix2 e h)
      = Ideal.exp (σ h - (Finset.univ : Finset (Fin 8)).fold max (Ideal.ofBits .f32 0xFF800000#32) σ) := by
  show Ideal.exp (subf S _ (ix2 e h)) = _
  rw [subf_apply, broadcastTo_a1_ab_apply, rowMax_apply, hS, funext hS]

/-- Head h's score of edge e, as the body computes it from the loaded blocks. -/
private theorem score_eq (k q : FVec Ideal S2000x256 .f32) (Wa : FVec Ideal S256x8 .f32) (ba : FVec Ideal S1x8 .f32)
    (e : Fin 2000) (h : Fin 8) :
    divf (addf (matmul dot_S2000x256_S256x8_S2000x8_1_0_0_1_n_n none
          (truncf .bf16 (mulf (shapeCast S2000x256 k shapeCasts_S2000x256_S2000x256)
            (shapeCast S2000x256 q shapeCasts_S2000x256_S2000x256)) bitsLt_bf16_f32)
          (truncf .bf16 Wa bitsLt_bf16_f32) (constant S2000x8 .f32 0x00000000#32))
        (broadcastTo S2000x8 (shapeCast S1x8 ba shapeCasts_S1x8_S1x8) broadcasts_S1x8_S2000x8))
      (broadcast S2000x8 (Scalar.ofBits .f32 0x40B504F3#32)) (ix2 e h) = scoreE k q Wa (row2 ba) e h := by
  rw [divf_apply, addf_apply, broadcast_apply, broadcastTo_1b_ab_apply, shapeCast_self, shapeCast_self, shapeCast_self]
  simp only [matmul]
  rw [Cert.LibDense.matmul_zero_apply dot_S2000x256_S256x8_S2000x8_1_0_0_1_n_n none rfl rfl rfl rfl rfl rfl]
  rfl

/-- The mean attention weight of edge e, as the body computes it from the loaded blocks. -/
private theorem mean_eq (k q : FVec Ideal S2000x256 .f32) (Wa : FVec Ideal S256x8 .f32) (ba : FVec Ideal S1x8 .f32)
    (e : Fin 2000) (u : Fin 1) : k2_pay2 (F := Ideal) k q Wa ba (ix2 e u) = meanE k q Wa (row2 ba) e := by
  unfold k2_pay2 meanE
  -- the last division, and the sum of the weights over the heads
  rw [divf_apply, broadcast_apply, rowSum_apply]
  refine congrArg (fun s => Ideal.div s _) (Finset.sum_congr rfl fun h _ => ?_)
  -- head h's weight: its exponential over the sum of the eight
  unfold attnE
  rw [divf_apply, broadcastTo_a1_ab_apply, rowSum_apply]
  exact congrArg₂ Ideal.div (expStage_apply _ _ e (fun h' => score_eq k q Wa ba e h') h)
    (Finset.sum_congr rfl fun h' _ => expStage_apply _ _ e (fun h'' => score_eq k q Wa ba e h'') h')

/-- The message projection v · Wm + bm, as the body computes it. -/
private theorem msg_eq (v : FVec Ideal S2000x256 .f32) (Wm : FVec Ideal S256x256 .f32) (bm : FVec Ideal S1x256 .f32) :
    k2_pay3 (F := Ideal) v Wm bm = lin v Wm (row2 bm) := by
  unfold k2_pay3
  rw [shapeCast_self]
  exact proj_eq v Wm bm

theorem pay2 (k q v : Vec Ideal S2000x256 .f32) (Wa : Vec Ideal S256x8 .f32) (ba : Vec Ideal S1x8 .f32)
    (Wm : Vec Ideal S256x256 .f32) (bm : Vec Ideal S1x256 .f32) :
    k2_pay1 (F := Ideal) (k2_pay2 k q Wa ba) (k2_pay3 v Wm bm) = edge k q v Wa (row2 ba) Wm (row2 bm) := by
  funext j
  obtain ⟨e, d, rfl⟩ : ∃ (e : Fin 2000) (d : Fin 256), j = ix2 e d := ⟨j 0, j 1, eq_ix2 j⟩
  rw [edge_apply]
  unfold k2_pay1 edgeE
  rw [mulf_apply, broadcastTo_a1_ab_apply, mean_eq, msg_eq, lin_apply]
theorem pay3 (k q v : Vec Ideal S2000x256 .f32) (Wa : Vec Ideal S256x8 .f32) (ba : Vec Ideal S1x8 .f32)
    (Wm : Vec Ideal S256x256 .f32) (bm : Vec Ideal S1x256 .f32) :
    k3_pay1 (F := Ideal) (k3_pay2 k q Wa ba) (k3_pay3 v Wm bm) = edge k q v Wa (row2 ba) Wm (row2 bm) :=
  pay2 k q v Wa ba Wm bm

/-! ## The finishing stage -/

theorem pay4 (agg : Vec Ideal S2000x256 .f32) (cnt : Vec Ideal S2000x1 .f32) (Wout : Vec Ideal S256x256 .f32)
    (bout : Vec Ideal S1x256 .f32) (x : Vec Ideal S2000x256 .f32) :
    k4_pay1 (F := Ideal) agg cnt Wout bout x = finish agg cnt x Wout (row2 bout) := by
  funext j
  obtain ⟨p, q, rfl⟩ : ∃ (p : Fin 2000) (q : Fin 256), j = ix2 p q := ⟨j 0, j 1, eq_ix2 j⟩
  rw [finish_apply]
  unfold k4_pay1 finishE normE row2
  -- the outer maximum, the two sums, and the bias row
  rw [maximumf_apply, addf_apply, addf_apply, broadcast_apply, broadcastTo_1b_ab_apply, shapeCast_self, shapeCast_self,
    shapeCast_self]
  -- the product is the sum over the contracted axis
  simp only [matmul]
  rw [Cert.LibDense.matmul_zero_apply dot_S2000x256_S256x256_S2000x256_1_0_0_1_n_n none rfl rfl rfl rfl rfl rfl]
  refine congrArg (fun s => max (s + bout (ix2 0 q) + x (ix2 p q)) _) (Finset.sum_congr rfl fun c _ => ?_)
  -- its left factor at (p, c): the aggregate divided by the larger of row p's count and one
  rw [truncf_apply, truncf_apply, divf_apply, broadcastTo_a1_ab_apply, maximumf_apply, broadcast_apply]
  rfl
theorem pay5 (agg : Vec Ideal S2000x256 .f32) (cnt : Vec Ideal S2000x1 .f32) (Wout : Vec Ideal S256x256 .f32)
    (bout : Vec Ideal S1x256 .f32) (x : Vec Ideal S2000x256 .f32) :
    k5_pay1 (F := Ideal) agg cnt Wout bout x = finish agg cnt x Wout (row2 bout) := pay4 agg cnt Wout bout x

end Cert.Hgt.KPay

end
-- ==== Proof.KReg0.lean ====
/-
  The first projection call: what its three result arrays hold when the call returns, as whole-array functions of the
  arrays it was entered with. Each grid point t handles rows 2000·t … 2000·t + 1999: it loads that block of x and the whole
  weight and bias arrays, and writes back x_block · W + b; the blocks cover the array, and x · W + b is computed row by row.
-/
import proofs.«416314_j25881472925720_1_alg».proof.Proof.Gen.KernelIdeal.Frame
import proofs.«416314_j25881472925720_1_alg».proof.Proof.KPay
import Idealize.ShloMosaic.Lib.Pipeline.Value

noncomputable section

namespace Cert.Hgt.KReg0

open Idealize.ShloMosaic Idealize.ShloMosaic.TcCoe Idealize.ShloMosaic.ValueIdx Idealize.SL.Sem Cert.KernelIdeal Cert.KernelIdeal.Gen Cert.Hgt
open Idealize.ShloMosaic.Pipeline (Dat Cfg Window)

variable (V : (c : Dev nD) → (b : Ref sig .tc) → Buf (Elt Ideal) ((c : Thread nD τ).loc b))

/-! ## The windows' places -/

private theorem zero_offsets : (![0, 0] : Fin 2 → Nat) = fun _ => 0 := funext fun a => by fin_cases a <;> rfl

/-- The printed index maps over the grid: the row-blocked windows (x and the three results) sit at block (t, 0), the weight
    and bias windows at block (0, 0). In order: x; then (W, b) for the three results; then the three results. -/
private theorem index_facts : ∀ t : Fin cfg0.N,
      (win0_0.index t (0 : Fin 2) = t.val ∧ win0_0.index t (1 : Fin 2) = 0)
    ∧ ((win0_1.index t (0 : Fin 2) = 0 ∧ win0_1.index t (1 : Fin 2) = 0)
      ∧ (win0_2.index t (0 : Fin 2) = 0 ∧ win0_2.index t (1 : Fin 2) = 0)
      ∧ (win0_3.index t (0 : Fin 2) = 0 ∧ win0_3.index t (1 : Fin 2) = 0)
      ∧ (win0_4.index t (0 : Fin 2) = 0 ∧ win0_4.index t (1 : Fin 2) = 0)
      ∧ (win0_5.index t (0 : Fin 2) = 0 ∧ win0_5.index t (1 : Fin 2) = 0)
      ∧ (win0_6.index t (0 : Fin 2) = 0 ∧ win0_6.index t (1 : Fin 2) = 0))
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0) :=
  (by decide +kernel : ∀ t : Fin grid0.N, _)

/-! ## The product, row by row -/

/-- x · W + b is computed row by row: the entry (j₀, j₁) of (a block of rows of x) · W + b is the entry of x · W + b at
    the row that the block's row j₀ is, and the same column. -/
private theorem lin_block {N n K C : ℕ} (X : Mat N K) (W : Mat K C) (B : Mat 1 C) (x : Mat n K) (w : Mat K C) (b : Mat 1 C)
    (j : (⟨2, ![n, C]⟩ : Shape).Idx) (i : (⟨2, ![N, C]⟩ : Shape).Idx)
    (hx : ∀ k : Fin K, x (ix2 (j 0) k) = X (ix2 (i 0) k)) (hw : w = W) (hb : b = B) (hq : (j 1).val = (i 1).val) :
    lin x w (row2 b) j = lin X W (row2 B) i := by
  subst hw hb
  have e : (j 1 : Fin C) = i 1 := Fin.ext hq
  show linE x w (row2 b) (j 0) (j 1) = linE X w (row2 b) (i 0) (i 1)
  rw [e]
  unfold linE
  simp only [hx]

/-! ## The input blocks -/

/-- Point t's block of x is rows 2000·t … 2000·t + 1999 of x: its entry y is x's entry at row 2000·t + y₀, column y₁. -/
private theorem rows_block (c : Dev nD) (t : Fin cfg0.N) (y : S2000x256.Idx) (i : S100000x256.Idx)
    (h0 : t.val * 2000 + 1 * (y 0).val = (i 0).val) (h1 : (y 1).val = (i 1).val) :
    iblk0 V c 0 t y = V c main_arg0 i := by
  obtain ⟨x0, x1⟩ := (index_facts t).1
  show V c main_arg0 (((cfg0.win 0).blk t).view.emb y) = V c main_arg0 i
  refine congrArg _ (funext fun a => Fin.ext ?_)
  match a with
  | ⟨0, _⟩ => show win0_0.index t (0 : Fin 2) * 2000 + 1 * (y 0).val = (i 0).val; rw [x0]; exact h0
  | ⟨1, _⟩ => show win0_0.index t (1 : Fin 2) * 256 + 1 * (y 1).val = (i 1).val; omega

/-- The weight window 1 is not blocked: its block at every point is the whole array. -/
private theorem weights_block1 (c : Dev nD) (t : Fin cfg0.N) : iblk0 V c 1 t = V c main_arg2 := by
  obtain ⟨h0, h1⟩ := (index_facts t).2.1.1
  funext y
  show V c main_arg2 (((cfg0.win 1).blk t).view.emb y) = V c main_arg2 y
  refine congrArg _ (funext fun a => Fin.ext ?_)
  match a with
  | ⟨0, _⟩ => show win0_1.index t (0 : Fin 2) * 256 + 1 * (y 0).val = (y 0).val; omega
  | ⟨1, _⟩ => show win0_1.index t (1 : Fin 2) * 256 + 1 * (y 1).val = (y 1).val; omega

/-- The bias window 2 is not blocked either. -/
private theorem bias_block2 (c : Dev nD) (t : Fin cfg0.N) : iblk0 V c 2 t = V c main_v0 := by
  obtain ⟨h0, h1⟩ := (index_facts t).2.1.2.1
  funext y
  show V c main_v0 (((cfg0.win 2).blk t).view.emb y) = V c main_v0 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 256 + 1 * (y 1).val = (y 1).val; omega

/-- The weight window 3 is not blocked: its block at every point is the whole array. -/
private theorem weights_block3 (c : Dev nD) (t : Fin cfg0.N) : iblk0 V c 3 t = V c main_arg4 := by
  obtain ⟨h0, h1⟩ := (index_facts t).2.1.2.2.1
  funext y
  show V c main_arg4 (((cfg0.win 3).blk t).view.emb y) = V c main_arg4 y
  refine congrArg _ (funext fun a => Fin.ext ?_)
  match a with
  | ⟨0, _⟩ => show win0_3.index t (0 : Fin 2) * 256 + 1 * (y 0).val = (y 0).val; omega
  | ⟨1, _⟩ => show win0_3.index t (1 : Fin 2) * 256 + 1 * (y 1).val = (y 1).val; omega

/-- The bias window 4 is not blocked either. -/
private theorem bias_block4 (c : Dev nD) (t : Fin cfg0.N) : iblk0 V c 4 t = V c main_v1 := by
  obtain ⟨h0, h1⟩ := (index_facts t).2.1.2.2.2.1
  funext y
  show V c main_v1 (((cfg0.win 4).blk t).view.emb y) = V c main_v1 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 256 + 1 * (y 1).val = (y 1).val; omega

/-- The weight window 5 is not blocked: its block at every point is the whole array. -/
private theorem weights_block5 (c : Dev nD) (t : Fin cfg0.N) : iblk0 V c 5 t = V c main_arg6 := by
  obtain ⟨h0, h1⟩ := (index_facts t).2.1.2.2.2.2.1
  funext y
  show V c main_arg6 (((cfg0.win 5).blk t).view.emb y) = V c main_arg6 y
  refine congrArg _ (funext fun a => Fin.ext ?_)
  match a with
  | ⟨0, _⟩ => show win0_5.index t (0 : Fin 2) * 256 + 1 * (y 0).val = (y 0).val; omega
  | ⟨1, _⟩ => show win0_5.index t (1 : Fin 2) * 256 + 1 * (y 1).val = (y 1).val; omega

/-- The bias window 6 is not blocked either. -/
private theorem bias_block6 (c : Dev nD) (t : Fin cfg0.N) : iblk0 V c 6 t = V c main_v2 := by
  obtain ⟨h0, h1⟩ := (index_facts t).2.1.2.2.2.2.2
  funext y
  show V c main_v2 (((cfg0.win 6).blk t).view.emb y) = V c main_v2 y
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 256 + 1 * (y 1).val = (y 1).val; omega

/-! ## What each point writes back, and the cover -/

/-- What point t writes back of result 0: rows 2000·t … 2000·t + 1999 of x · W + b, because its block of x is those rows of x,
    its weight and bias blocks are the whole arrays, and the product is computed row by row. -/
private theorem flushed7 (c : Dev nD) (t : Fin cfg0.N) :
    (dat0 (F := Ideal) V c).flushed 7 t
      = ((cfg0.win 7).blk t).view.read (Elt Ideal) (lin (V c main_arg0) (V c main_arg2) (row2 (V c main_v0))) := by
  show (cfg0.win 7).cut (grid0.coords t) ((dat0 (F := Ideal) V c).after 7 t) = _
  rw [after0_7]
  unfold out0_7
  rw [View.canon_unit_zero zero_offsets]
  simp only [View.ld_unit_zero (S := S2000x256) zero_offsets, View.ld_unit_zero (S := S256x256) zero_offsets,
    View.ld_unit_zero (S := S1x256) zero_offsets]
  rw [KPay.pay0_2]
  funext j
  show lin (iblk0 V c 0 t) (iblk0 V c 1 t) (row2 (iblk0 V c 2 t)) j
     = lin (V c main_arg0) (V c main_arg2) (row2 (V c main_v0)) (((cfg0.win 7).blk t).view.emb j)
  have ho := (index_facts t).2.2.1
  refine lin_block _ _ _ _ _ _ j _ (fun k => rows_block V c t _ _ ?_ ?_) (weights_block1 V c t) (bias_block2 V c t) ?_
  · show t.val * 2000 + 1 * (j 0).val = win0_7.index t (0 : Fin 2) * 2000 + 1 * (j 0).val
    rw [ho.1]
  · show k.val = k.val
    rfl
  · show (j 1).val = win0_7.index t (1 : Fin 2) * 256 + 1 * (j 1).val
    rw [ho.2]; omega

/-- A row-and-column position lies in point t's block of result 0 iff each coordinate is in the block's range. -/
private theorem mem_block7 (t : Fin cfg0.N) (i : S100000x256.Idx) :
    i ∈ ((cfg0.win 7).blk t).view.set ↔ ∀ a : Fin 2, win0_7.index t a * S2000x256.size a ≤ (i a).val
      ∧ (i a).val < win0_7.index t a * S2000x256.size a + S2000x256.size a := by
  show i ∈ ((View.whole main_v3_0).slice (win0_7.rect t)).set ↔ _
  rw [View.set_slice_whole, Rect.mem_set_unit]
  exact Iff.rfl

/-- The blocks of result 0 cover it: row r is in the block of point r / 2000. -/
private theorem cover7 (i : S100000x256.Idx) :
    ∃ t : Fin cfg0.N, (cfg0.win 7).flush t = true ∧ i ∈ ((cfg0.win 7).blk t).view.set := by
  have hi0 : (i 0).val < 100000 := (i 0).isLt
  have hi1 : (i 1).val < 256 := (i 1).isLt
  have hN : cfg0.N = 50 := N_0
  have hlt : (i 0).val / 2000 < cfg0.N := by rw [hN]; omega
  have ho := (index_facts ⟨(i 0).val / 2000, hlt⟩).2.2.1
  refine ⟨⟨(i 0).val / 2000, hlt⟩, flush0_7 _, ?_⟩
  rw [mem_block7]
  intro a
  match a with
  | ⟨0, _⟩ =>
    show win0_7.index ⟨(i 0).val / 2000, hlt⟩ (0 : Fin 2) * 2000 ≤ (i 0).val
      ∧ (i 0).val < win0_7.index ⟨(i 0).val / 2000, hlt⟩ (0 : Fin 2) * 2000 + 2000
    rw [ho.1]; show (i 0).val / 2000 * 2000 ≤ (i 0).val ∧ (i 0).val < (i 0).val / 2000 * 2000 + 2000; omega
  | ⟨1, _⟩ =>
    show win0_7.index ⟨(i 0).val / 2000, hlt⟩ (1 : Fin 2) * 256 ≤ (i 1).val
      ∧ (i 1).val < win0_7.index ⟨(i 0).val / 2000, hlt⟩ (1 : Fin 2) * 256 + 256
    rw [ho.2]; omega

/-- What point t writes back of result 1: rows 2000·t … 2000·t + 1999 of x · W + b, because its block of x is those rows of x,
    its weight and bias blocks are the whole arrays, and the product is computed row by row. -/
private theorem flushed8 (c : Dev nD) (t : Fin cfg0.N) :
    (dat0 (F := Ideal) V c).flushed 8 t
      = ((cfg0.win 8).blk t).view.read (Elt Ideal) (lin (V c main_arg0) (V c main_arg4) (row2 (V c main_v1))) := by
  show (cfg0.win 8).cut (grid0.coords t) ((dat0 (F := Ideal) V c).after 8 t) = _
  rw [after0_8]
  unfold out0_8
  rw [View.canon_unit_zero zero_offsets]
  simp only [View.ld_unit_zero (S := S2000x256) zero_offsets, View.ld_unit_zero (S := S256x256) zero_offsets,
    View.ld_unit_zero (S := S1x256) zero_offsets]
  rw [KPay.pay0_3]
  funext j
  show lin (iblk0 V c 0 t) (iblk0 V c 3 t) (row2 (iblk0 V c 4 t)) j
     = lin (V c main_arg0) (V c main_arg4) (row2 (V c main_v1)) (((cfg0.win 8).blk t).view.emb j)
  have ho := (index_facts t).2.2.2.1
  refine lin_block _ _ _ _ _ _ j _ (fun k => rows_block V c t _ _ ?_ ?_) (weights_block3 V c t) (bias_block4 V c t) ?_
  · show t.val * 2000 + 1 * (j 0).val = win0_8.index t (0 : Fin 2) * 2000 + 1 * (j 0).val
    rw [ho.1]
  · show k.val = k.val
    rfl
  · show (j 1).val = win0_8.index t (1 : Fin 2) * 256 + 1 * (j 1).val
    rw [ho.2]; omega

/-- A row-and-column position lies in point t's block of result 1 iff each coordinate is in the block's range. -/
private theorem mem_block8 (t : Fin cfg0.N) (i : S100000x256.Idx) :
    i ∈ ((cfg0.win 8).blk t).view.set ↔ ∀ a : Fin 2, win0_8.index t a * S2000x256.size a ≤ (i a).val
      ∧ (i a).val < win0_8.index t a * S2000x256.size a + S2000x256.size a := by
  show i ∈ ((View.whole main_v3_1).slice (win0_8.rect t)).set ↔ _
  rw [View.set_slice_whole, Rect.mem_set_unit]
  exact Iff.rfl

/-- The blocks of result 1 cover it: row r is in the block of point r / 2000. -/
private theorem cover8 (i : S100000x256.Idx) :
    ∃ t : Fin cfg0.N, (cfg0.win 8).flush t = true ∧ i ∈ ((cfg0.win 8).blk t).view.set := by
  have hi0 : (i 0).val < 100000 := (i 0).isLt
  have hi1 : (i 1).val < 256 := (i 1).isLt
  have hN : cfg0.N = 50 := N_0
  have hlt : (i 0).val / 2000 < cfg0.N := by rw [hN]; omega
  have ho := (index_facts ⟨(i 0).val / 2000, hlt⟩).2.2.2.1
  refine ⟨⟨(i 0).val / 2000, hlt⟩, flush0_8 _, ?_⟩
  rw [mem_block8]
  intro a
  match a with
  | ⟨0, _⟩ =>
    show win0_8.index ⟨(i 0).val / 2000, hlt⟩ (0 : Fin 2) * 2000 ≤ (i 0).val
      ∧ (i 0).val < win0_8.index ⟨(i 0).val / 2000, hlt⟩ (0 : Fin 2) * 2000 + 2000
    rw [ho.1]; show (i 0).val / 2000 * 2000 ≤ (i 0).val ∧ (i 0).val < (i 0).val / 2000 * 2000 + 2000; omega
  | ⟨1, _⟩ =>
    show win0_8.index ⟨(i 0).val / 2000, hlt⟩ (1 : Fin 2) * 256 ≤ (i 1).val
      ∧ (i 1).val < win0_8.index ⟨(i 0).val / 2000, hlt⟩ (1 : Fin 2) * 256 + 256
    rw [ho.2]; omega

/-- What point t writes back of result 2: rows 2000·t … 2000·t + 1999 of x · W + b, because its block of x is those rows of x,
    its weight and bias blocks are the whole arrays, and the product is computed row by row. -/
private theorem flushed9 (c : Dev nD) (t : Fin cfg0.N) :
    (dat0 (F := Ideal) V c).flushed 9 t
      = ((cfg0.win 9).blk t).view.read (Elt Ideal) (lin (V c main_arg0) (V c main_arg6) (row2 (V c main_v2))) := by
  show (cfg0.win 9).cut (grid0.coords t) ((dat0 (F := Ideal) V c).after 9 t) = _
  rw [after0_9]
  unfold out0_9
  rw [View.canon_unit_zero zero_offsets]
  simp only [View.ld_unit_zero (S := S2000x256) zero_offsets, View.ld_unit_zero (S := S256x256) zero_offsets,
    View.ld_unit_zero (S := S1x256) zero_offsets]
  rw [KPay.pay0_4]
  funext j
  show lin (iblk0 V c 0 t) (iblk0 V c 5 t) (row2 (iblk0 V c 6 t)) j
     = lin (V c main_arg0) (V c main_arg6) (row2 (V c main_v2)) (((cfg0.win 9).blk t).view.emb j)
  have ho := (index_facts t).2.2.2.2
  refine lin_block _ _ _ _ _ _ j _ (fun k => rows_block V c t _ _ ?_ ?_) (weights_block5 V c t) (bias_block6 V c t) ?_
  · show t.val * 2000 + 1 * (j 0).val = win0_9.index t (0 : Fin 2) * 2000 + 1 * (j 0).val
    rw [ho.1]
  · show k.val = k.val
    rfl
  · show (j 1).val = win0_9.index t (1 : Fin 2) * 256 + 1 * (j 1).val
    rw [ho.2]; omega

/-- A row-and-column position lies in point t's block of result 2 iff each coordinate is in the block's range. -/
private theorem mem_block9 (t : Fin cfg0.N) (i : S100000x256.Idx) :
    i ∈ ((cfg0.win 9).blk t).view.set ↔ ∀ a : Fin 2, win0_9.index t a * S2000x256.size a ≤ (i a).val
      ∧ (i a).val < win0_9.index t a * S2000x256.size a + S2000x256.size a := by
  show i ∈ ((View.whole main_v3_2).slice (win0_9.rect t)).set ↔ _
  rw [View.set_slice_whole, Rect.mem_set_unit]
  exact Iff.rfl

/-- The blocks of result 2 cover it: row r is in the block of point r / 2000. -/
private theorem cover9 (i : S100000x256.Idx) :
    ∃ t : Fin cfg0.N, (cfg0.win 9).flush t = true ∧ i ∈ ((cfg0.win 9).blk t).view.set := by
  have hi0 : (i 0).val < 100000 := (i 0).isLt
  have hi1 : (i 1).val < 256 := (i 1).isLt
  have hN : cfg0.N = 50 := N_0
  have hlt : (i 0).val / 2000 < cfg0.N := by rw [hN]; omega
  have ho := (index_facts ⟨(i 0).val / 2000, hlt⟩).2.2.2.2
  refine ⟨⟨(i 0).val / 2000, hlt⟩, flush0_9 _, ?_⟩
  rw [mem_block9]
  intro a
  match a with
  | ⟨0, _⟩ =>
    show win0_9.index ⟨(i 0).val / 2000, hlt⟩ (0 : Fin 2) * 2000 ≤ (i 0).val
      ∧ (i 0).val < win0_9.index ⟨(i 0).val / 2000, hlt⟩ (0 : Fin 2) * 2000 + 2000
    rw [ho.1]; show (i 0).val / 2000 * 2000 ≤ (i 0).val ∧ (i 0).val < (i 0).val / 2000 * 2000 + 2000; omega
  | ⟨1, _⟩ =>
    show win0_9.index ⟨(i 0).val / 2000, hlt⟩ (1 : Fin 2) * 256 ≤ (i 1).val
      ∧ (i 1).val < win0_9.index ⟨(i 0).val / 2000, hlt⟩ (1 : Fin 2) * 256 + 256
    rw [ho.2]; omega

/-! ## The arrays when the call returns -/

theorem arr0_7 (c : Dev nD) : (dat0 (F := Ideal) V c).arrAt 7 cfg0.N = lin (V c main_arg0) (V c main_arg2) (row2 (V c main_v0)) :=
  (dat0 (F := Ideal) V c).arrAt_eq_of_cover 7 _ (fun t _ => flushed7 V c t) cover7
theorem arr0_8 (c : Dev nD) : (dat0 (F := Ideal) V c).arrAt 8 cfg0.N = lin (V c main_arg0) (V c main_arg4) (row2 (V c main_v1)) :=
  (dat0 (F := Ideal) V c).arrAt_eq_of_cover 8 _ (fun t _ => flushed8 V c t) cover8
theorem arr0_9 (c : Dev nD) : (dat0 (F := Ideal) V c).arrAt 9 cfg0.N = lin (V c main_arg0) (V c main_arg6) (row2 (V c main_v2)) :=
  (dat0 (F := Ideal) V c).arrAt_eq_of_cover 9 _ (fun t _ => flushed9 V c t) cover9

end Cert.Hgt.KReg0

end
-- ==== Proof.KReg1.lean ====
/-
  The second projection call (the other node type): its three result arrays when the call returns, as whole-array
  functions of the arrays it was entered with; the same argument as for the first call, at 25 grid points.
-/
import proofs.«416314_j25881472925720_1_alg».proof.Proof.Gen.KernelIdeal.Frame
import proofs.«416314_j25881472925720_1_alg».proof.Proof.KPay
import Idealize.ShloMosaic.Lib.Pipeline.Value

noncomputable section

namespace Cert.Hgt.KReg1

open Idealize.ShloMosaic Idealize.ShloMosaic.TcCoe Idealize.ShloMosaic.ValueIdx Idealize.SL.Sem Cert.KernelIdeal Cert.KernelIdeal.Gen Cert.Hgt
open Idealize.ShloMosaic.Pipeline (Dat Cfg Window)

variable (V : (c : Dev nD) → (b : Ref sig .tc) → Buf (Elt Ideal) ((c : Thread nD τ).loc b))

/-! ## The windows' places -/

private theorem zero_offsets : (![0, 0] : Fin 2 → Nat) = fun _ => 0 := funext fun a => by fin_cases a <;> rfl

/-- The printed index maps over the grid: the row-blocked windows (x and the three results) sit at block (t, 0), the weight
    and bias windows at block (0, 0). In order: x; then (W, b) for the three results; then the three results. -/
private theorem index_facts : ∀ t : Fin cfg1.N,
      (win1_0.index t (0 : Fin 2) = t.val ∧ win1_0.index t (1 : Fin 2) = 0)
    ∧ ((win1_1.index t (0 : Fin 2) = 0 ∧ win1_1.index t (1 : Fin 2) = 0)
      ∧ (win1_2.index t (0 : Fin 2) = 0 ∧ win1_2.index t (1 : Fin 2) = 0)
      ∧ (win1_3.index t (0 : Fin 2) = 0 ∧ win1_3.index t (1 : Fin 2) = 0)
      ∧ (win1_4.index t (0 : Fin 2) = 0 ∧ win1_4.index t (1 : Fin 2) = 0)
      ∧ (win1_5.index t (0 : Fin 2) = 0 ∧ win1_5.index t (1 : Fin 2) = 0)
      ∧ (win1_6.index t (0 : Fin 2) = 0 ∧ win1_6.index t (1 : Fin 2) = 0))
    ∧ (win1_7.index t (0 : Fin 2) = t.val ∧ win1_7.index t (1 : Fin 2) = 0)
    ∧ (win1_8.index t (0 : Fin 2) = t.val ∧ win1_8.index t (1 : Fin 2) = 0)
    ∧ (win1_9.index t (0 : Fin 2) = t.val ∧ win1_9.index t (1 : Fin 2) = 0) :=
  (by decide +kernel : ∀ t : Fin grid1.N, _)

/-! ## The product, row by row -/

/-- x · W + b is computed row by row: the entry (j₀, j₁) of (a block of rows of x) · W + b is the entry of x · W + b at
    the row that the block's row j₀ is, and the same column. -/
private theorem lin_block {N n K C : ℕ} (X : Mat N K) (W : Mat K C) (B : Mat 1 C) (x : Mat n K) (w : Mat K C) (b : Mat 1 C)
    (j : (⟨2, ![n, C]⟩ : Shape).Idx) (i : (⟨2, ![N, C]⟩ : Shape).Idx)
    (hx : ∀ k : Fin K, x (ix2 (j 0) k) = X (ix2 (i 0) k)) (hw : w = W) (hb : b = B) (hq : (j 1).val = (i 1).val) :
    lin x w (row2 b) j = lin X W (row2 B) i := by
  subst hw hb
  have e : (j 1 : Fin C) = i 1 := Fin.ext hq
  show linE x w (row2 b) (j 0) (j 1) = linE X w (row2 b) (i 0) (i 1)
  rw [e]
  unfold linE
  simp only [hx]

/-! ## The input blocks -/

/-- Point t's block of x is rows 2000·t … 2000·t + 1999 of x: its entry y is x's entry at row 2000·t + y₀, column y₁. -/
private theorem rows_block (c : Dev nD) (t : Fin cfg1.N) (y : S2000x256.Idx) (i : S50000x256.Idx)
    (h0 : t.val * 2000 + 1 * (y 0).val = (i 0).val) (h1 : (y 1).val = (i 1).val) :
    iblk1 V c 0 t y = V c main_arg1 i := by
  obtain ⟨x0, x1⟩ := (index_facts t).1
  show V c main_arg1 (((cfg1.win 0).blk t).view.emb y) = V c main_arg1 i
  refine congrArg _ (funext fun a => Fin.ext ?_)
  match a with
  | ⟨0, _⟩ => show win1_0.index t (0 : Fin 2) * 2000 + 1 * (y 0).val = (i 0).val; rw [x0]; exact h0
  | ⟨1, _⟩ => show win1_0.index t (1 : Fin 2) * 256 + 1 * (y 1).val = (i 1).val; omega

/-- The weight window 1 is not blocked: its block at every point is the whole array. -/
private theorem weights_block1 (c : Dev nD) (t : Fin cfg1.N) : iblk1 V c 1 t = V c main_arg10 := by
  obtain ⟨h0, h1⟩ := (index_facts t).2.1.1
  funext y
  show V c main_arg10 (((cfg1.win 1).blk t).view.emb y) = V c main_arg10 y
  refine congrArg _ (funext fun a => Fin.ext ?_)
  match a with
  | ⟨0, _⟩ => show win1_1.index t (0 : Fin 2) * 256 + 1 * (y 0).val = (y 0).val; omega
  | ⟨1, _⟩ => show win1_1.index t (1 : Fin 2) * 256 + 1 * (y 1).val = (y 1).val; omega

/-- The bias window 2 is not blocked either. -/
private theorem bias_block2 (c : Dev nD) (t : Fin cfg1.N) : iblk1 V c 2 t = V c main_v4 := by
  obtain ⟨h0, h1⟩ := (index_facts t).2.1.2.1
  funext y
  show V c main_v4 (((cfg1.win 2).blk t).view.emb y) = V c main_v4 y
  refine congrArg _ (funext fun a => Fin.ext ?_)
  match a with
  | ⟨0, _⟩ => show win1_2.index t (0 : Fin 2) * 1 + 1 * (y 0).val = (y 0).val; omega
  | ⟨1, _⟩ => show win1_2.index t (1 : Fin 2) * 256 + 1 * (y 1).val = (y 1).val; omega

/-- The weight window 3 is not blocked: its block at every point is the whole array. -/
private theorem weights_block3 (c : Dev nD) (t : Fin cfg1.N) : iblk1 V c 3 t = V c main_arg12 := by
  obtain ⟨h0, h1⟩ := (index_facts t).2.1.2.2.1
  funext y
  show V c main_arg12 (((cfg1.win 3).blk t).view.emb y) = V c main_arg12 y
  refine congrArg _ (funext fun a => Fin.ext ?_)
  match a with
  | ⟨0, _⟩ => show win1_3.index t (0 : Fin 2) * 256 + 1 * (y 0).val = (y 0).val; omega
  | ⟨1, _⟩ => show win1_3.index t (1 : Fin 2) * 256 + 1 * (y 1).val = (y 1).val; omega

/-- The bias window 4 is not blocked either. -/
private theorem bias_block4 (c : Dev nD) (t : Fin cfg1.N) : iblk1 V c 4 t = V c main_v5 := by
  obtain ⟨h0, h1⟩ := (index_facts t).2.1.2.2.2.1
  funext y
  show V c main_v5 (((cfg1.win 4).blk t).view.emb y) = V c main_v5 y
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 256 + 1 * (y 1).val = (y 1).val; omega

/-- The weight window 5 is not blocked: its block at every point is the whole array. -/
private theorem weights_block5 (c : Dev nD) (t : Fin cfg1.N) : iblk1 V c 5 t = V c main_arg14 := by
  obtain ⟨h0, h1⟩ := (index_facts t).2.1.2.2.2.2.1
  funext y
  show V c main_arg14 (((cfg1.win 5).blk t).view.emb y) = V c main_arg14 y
  refine congrArg _ (funext fun a => Fin.ext ?_)
  match a with
  | ⟨0, _⟩ => show win1_5.index t (0 : Fin 2) * 256 + 1 * (y 0).val = (y 0).val; omega
  | ⟨1, _⟩ => show win1_5.index t (1 : Fin 2) * 256 + 1 * (y 1).val = (y 1).val; omega

/-- The bias window 6 is not blocked either. -/
private theorem bias_block6 (c : Dev nD) (t : Fin cfg1.N) : iblk1 V c 6 t = V c main_v6 := by
  obtain ⟨h0, h1⟩ := (index_facts t).2.1.2.2.2.2.2
  funext y
  show V c main_v6 (((cfg1.win 6).blk t).view.emb y) = V c main_v6 y
  refine congrArg _ (funext fun a => Fin.ext ?_)
  match a with
  | ⟨0, _⟩ => show win1_6.index t (0 : Fin 2) * 1 + 1 * (y 0).val = (y 0).val; omega
  | ⟨1, _⟩ => show win1_6.index t (1 : Fin 2) * 256 + 1 * (y 1).val = (y 1).val; omega

/-! ## What each point writes back, and the cover -/

/-- What point t writes back of result 0: rows 2000·t … 2000·t + 1999 of x · W + b, because its block of x is those rows of x,
    its weight and bias blocks are the whole arrays, and the product is computed row by row. -/
private theorem flushed7 (c : Dev nD) (t : Fin cfg1.N) :
    (dat1 (F := Ideal) V c).flushed 7 t
      = ((cfg1.win 7).blk t).view.read (Elt Ideal) (lin (V c main_arg1) (V c main_arg10) (row2 (V c main_v4))) := by
  show (cfg1.win 7).cut (grid1.coords t) ((dat1 (F := Ideal) V c).after 7 t) = _
  rw [after1_7]
  unfold out1_7
  rw [View.canon_unit_zero zero_offsets]
  simp only [View.ld_unit_zero (S := S2000x256) zero_offsets, View.ld_unit_zero (S := S256x256) zero_offsets,
    View.ld_unit_zero (S := S1x256) zero_offsets]
  rw [KPay.pay1_2]
  funext j
  show lin (iblk1 V c 0 t) (iblk1 V c 1 t) (row2 (iblk1 V c 2 t)) j
     = lin (V c main_arg1) (V c main_arg10) (row2 (V c main_v4)) (((cfg1.win 7).blk t).view.emb j)
  have ho := (index_facts t).2.2.1
  refine lin_block _ _ _ _ _ _ j _ (fun k => rows_block V c t _ _ ?_ ?_) (weights_block1 V c t) (bias_block2 V c t) ?_
  · show t.val * 2000 + 1 * (j 0).val = win1_7.index t (0 : Fin 2) * 2000 + 1 * (j 0).val
    rw [ho.1]
  · show k.val = k.val
    rfl
  · show (j 1).val = win1_7.index t (1 : Fin 2) * 256 + 1 * (j 1).val
    rw [ho.2]; omega

/-- A row-and-column position lies in point t's block of result 0 iff each coordinate is in the block's range. -/
private theorem mem_block7 (t : Fin cfg1.N) (i : S50000x256.Idx) :
    i ∈ ((cfg1.win 7).blk t).view.set ↔ ∀ a : Fin 2, win1_7.index t a * S2000x256.size a ≤ (i a).val
      ∧ (i a).val < win1_7.index t a * S2000x256.size a + S2000x256.size a := by
  show i ∈ ((View.whole main_v7_0).slice (win1_7.rect t)).set ↔ _
  rw [View.set_slice_whole, Rect.mem_set_unit]
  exact Iff.rfl

/-- The blocks of result 0 cover it: row r is in the block of point r / 2000. -/
private theorem cover7 (i : S50000x256.Idx) :
    ∃ t : Fin cfg1.N, (cfg1.win 7).flush t = true ∧ i ∈ ((cfg1.win 7).blk t).view.set := by
  have hi0 : (i 0).val < 50000 := (i 0).isLt
  have hi1 : (i 1).val < 256 := (i 1).isLt
  have hN : cfg1.N = 25 := N_1
  have hlt : (i 0).val / 2000 < cfg1.N := by rw [hN]; omega
  have ho := (index_facts ⟨(i 0).val / 2000, hlt⟩).2.2.1
  refine ⟨⟨(i 0).val / 2000, hlt⟩, flush1_7 _, ?_⟩
  rw [mem_block7]
  intro a
  match a with
  | ⟨0, _⟩ =>
    show win1_7.index ⟨(i 0).val / 2000, hlt⟩ (0 : Fin 2) * 2000 ≤ (i 0).val
      ∧ (i 0).val < win1_7.index ⟨(i 0).val / 2000, hlt⟩ (0 : Fin 2) * 2000 + 2000
    rw [ho.1]; show (i 0).val / 2000 * 2000 ≤ (i 0).val ∧ (i 0).val < (i 0).val / 2000 * 2000 + 2000; omega
  | ⟨1, _⟩ =>
    show win1_7.index ⟨(i 0).val / 2000, hlt⟩ (1 : Fin 2) * 256 ≤ (i 1).val
      ∧ (i 1).val < win1_7.index ⟨(i 0).val / 2000, hlt⟩ (1 : Fin 2) * 256 + 256
    rw [ho.2]; omega

/-- What point t writes back of result 1: rows 2000·t … 2000·t + 1999 of x · W + b, because its block of x is those rows of x,
    its weight and bias blocks are the whole arrays, and the product is computed row by row. -/
private theorem flushed8 (c : Dev nD) (t : Fin cfg1.N) :
    (dat1 (F := Ideal) V c).flushed 8 t
      = ((cfg1.win 8).blk t).view.read (Elt Ideal) (lin (V c main_arg1) (V c main_arg12) (row2 (V c main_v5))) := by
  show (cfg1.win 8).cut (grid1.coords t) ((dat1 (F := Ideal) V c).after 8 t) = _
  rw [after1_8]
  unfold out1_8
  rw [View.canon_unit_zero zero_offsets]
  simp only [View.ld_unit_zero (S := S2000x256) zero_offsets, View.ld_unit_zero (S := S256x256) zero_offsets,
    View.ld_unit_zero (S := S1x256) zero_offsets]
  rw [KPay.pay1_3]
  funext j
  show lin (iblk1 V c 0 t) (iblk1 V c 3 t) (row2 (iblk1 V c 4 t)) j
     = lin (V c main_arg1) (V c main_arg12) (row2 (V c main_v5)) (((cfg1.win 8).blk t).view.emb j)
  have ho := (index_facts t).2.2.2.1
  refine lin_block _ _ _ _ _ _ j _ (fun k => rows_block V c t _ _ ?_ ?_) (weights_block3 V c t) (bias_block4 V c t) ?_
  · show t.val * 2000 + 1 * (j 0).val = win1_8.index t (0 : Fin 2) * 2000 + 1 * (j 0).val
    rw [ho.1]
  · show k.val = k.val
    rfl
  · show (j 1).val = win1_8.index t (1 : Fin 2) * 256 + 1 * (j 1).val
    rw [ho.2]; omega

/-- A row-and-column position lies in point t's block of result 1 iff each coordinate is in the block's range. -/
private theorem mem_block8 (t : Fin cfg1.N) (i : S50000x256.Idx) :
    i ∈ ((cfg1.win 8).blk t).view.set ↔ ∀ a : Fin 2, win1_8.index t a * S2000x256.size a ≤ (i a).val
      ∧ (i a).val < win1_8.index t a * S2000x256.size a + S2000x256.size a := by
  show i ∈ ((View.whole main_v7_1).slice (win1_8.rect t)).set ↔ _
  rw [View.set_slice_whole, Rect.mem_set_unit]
  exact Iff.rfl

/-- The blocks of result 1 cover it: row r is in the block of point r / 2000. -/
private theorem cover8 (i : S50000x256.Idx) :
    ∃ t : Fin cfg1.N, (cfg1.win 8).flush t = true ∧ i ∈ ((cfg1.win 8).blk t).view.set := by
  have hi0 : (i 0).val < 50000 := (i 0).isLt
  have hi1 : (i 1).val < 256 := (i 1).isLt
  have hN : cfg1.N = 25 := N_1
  have hlt : (i 0).val / 2000 < cfg1.N := by rw [hN]; omega
  have ho := (index_facts ⟨(i 0).val / 2000, hlt⟩).2.2.2.1
  refine ⟨⟨(i 0).val / 2000, hlt⟩, flush1_8 _, ?_⟩
  rw [mem_block8]
  intro a
  match a with
  | ⟨0, _⟩ =>
    show win1_8.index ⟨(i 0).val / 2000, hlt⟩ (0 : Fin 2) * 2000 ≤ (i 0).val
      ∧ (i 0).val < win1_8.index ⟨(i 0).val / 2000, hlt⟩ (0 : Fin 2) * 2000 + 2000
    rw [ho.1]; show (i 0).val / 2000 * 2000 ≤ (i 0).val ∧ (i 0).val < (i 0).val / 2000 * 2000 + 2000; omega
  | ⟨1, _⟩ =>
    show win1_8.index ⟨(i 0).val / 2000, hlt⟩ (1 : Fin 2) * 256 ≤ (i 1).val
      ∧ (i 1).val < win1_8.index ⟨(i 0).val / 2000, hlt⟩ (1 : Fin 2) * 256 + 256
    rw [ho.2]; omega

/-- What point t writes back of result 2: rows 2000·t … 2000·t + 1999 of x · W + b, because its block of x is those rows of x,
    its weight and bias blocks are the whole arrays, and the product is computed row by row. -/
private theorem flushed9 (c : Dev nD) (t : Fin cfg1.N) :
    (dat1 (F := Ideal) V c).flushed 9 t
      = ((cfg1.win 9).blk t).view.read (Elt Ideal) (lin (V c main_arg1) (V c main_arg14) (row2 (V c main_v6))) := by
  show (cfg1.win 9).cut (grid1.coords t) ((dat1 (F := Ideal) V c).after 9 t) = _
  rw [after1_9]
  unfold out1_9
  rw [View.canon_unit_zero zero_offsets]
  simp only [View.ld_unit_zero (S := S2000x256) zero_offsets, View.ld_unit_zero (S := S256x256) zero_offsets,
    View.ld_unit_zero (S := S1x256) zero_offsets]
  rw [KPay.pay1_4]
  funext j
  show lin (iblk1 V c 0 t) (iblk1 V c 5 t) (row2 (iblk1 V c 6 t)) j
     = lin (V c main_arg1) (V c main_arg14) (row2 (V c main_v6)) (((cfg1.win 9).blk t).view.emb j)
  have ho := (index_facts t).2.2.2.2
  refine lin_block _ _ _ _ _ _ j _ (fun k => rows_block V c t _ _ ?_ ?_) (weights_block5 V c t) (bias_block6 V c t) ?_
  · show t.val * 2000 + 1 * (j 0).val = win1_9.index t (0 : Fin 2) * 2000 + 1 * (j 0).val
    rw [ho.1]
  · show k.val = k.val
    rfl
  · show (j 1).val = win1_9.index t (1 : Fin 2) * 256 + 1 * (j 1).val
    rw [ho.2]; omega

/-- A row-and-column position lies in point t's block of result 2 iff each coordinate is in the block's range. -/
private theorem mem_block9 (t : Fin cfg1.N) (i : S50000x256.Idx) :
    i ∈ ((cfg1.win 9).blk t).view.set ↔ ∀ a : Fin 2, win1_9.index t a * S2000x256.size a ≤ (i a).val
      ∧ (i a).val < win1_9.index t a * S2000x256.size a + S2000x256.size a := by
  show i ∈ ((View.whole main_v7_2).slice (win1_9.rect t)).set ↔ _
  rw [View.set_slice_whole, Rect.mem_set_unit]
  exact Iff.rfl

/-- The blocks of result 2 cover it: row r is in the block of point r / 2000. -/
private theorem cover9 (i : S50000x256.Idx) :
    ∃ t : Fin cfg1.N, (cfg1.win 9).flush t = true ∧ i ∈ ((cfg1.win 9).blk t).view.set := by
  have hi0 : (i 0).val < 50000 := (i 0).isLt
  have hi1 : (i 1).val < 256 := (i 1).isLt
  have hN : cfg1.N = 25 := N_1
  have hlt : (i 0).val / 2000 < cfg1.N := by rw [hN]; omega
  have ho := (index_facts ⟨(i 0).val / 2000, hlt⟩).2.2.2.2
  refine ⟨⟨(i 0).val / 2000, hlt⟩, flush1_9 _, ?_⟩
  rw [mem_block9]
  intro a
  match a with
  | ⟨0, _⟩ =>
    show win1_9.index ⟨(i 0).val / 2000, hlt⟩ (0 : Fin 2) * 2000 ≤ (i 0).val
      ∧ (i 0).val < win1_9.index ⟨(i 0).val / 2000, hlt⟩ (0 : Fin 2) * 2000 + 2000
    rw [ho.1]; show (i 0).val / 2000 * 2000 ≤ (i 0).val ∧ (i 0).val < (i 0).val / 2000 * 2000 + 2000; omega
  | ⟨1, _⟩ =>
    show win1_9.index ⟨(i 0).val / 2000, hlt⟩ (1 : Fin 2) * 256 ≤ (i 1).val
      ∧ (i 1).val < win1_9.index ⟨(i 0).val / 2000, hlt⟩ (1 : Fin 2) * 256 + 256
    rw [ho.2]; omega

/-! ## The arrays when the call returns -/

theorem arr1_7 (c : Dev nD) : (dat1 (F := Ideal) V c).arrAt 7 cfg1.N = lin (V c main_arg1) (V c main_arg10) (row2 (V c main_v4)) :=
  (dat1 (F := Ideal) V c).arrAt_eq_of_cover 7 _ (fun t _ => flushed7 V c t) cover7
theorem arr1_8 (c : Dev nD) : (dat1 (F := Ideal) V c).arrAt 8 cfg1.N = lin (V c main_arg1) (V c main_arg12) (row2 (V c main_v5)) :=
  (dat1 (F := Ideal) V c).arrAt_eq_of_cover 8 _ (fun t _ => flushed8 V c t) cover8
theorem arr1_9 (c : Dev nD) : (dat1 (F := Ideal) V c).arrAt 9 cfg1.N = lin (V c main_arg1) (V c main_arg14) (row2 (V c main_v6)) :=
  (dat1 (F := Ideal) V c).arrAt_eq_of_cover 9 _ (fun t _ => flushed9 V c t) cover9

end Cert.Hgt.KReg1

end
-- ==== Proof.KReg2.lean ====
/-
  The first edge call: its result array when the call returns, as a whole-array function of the arrays it was entered
  with. Grid point t handles edges 2000·t … 2000·t + 1999: it loads that block of the three gathered arrays and the whole
  weight and bias arrays and writes back the edge stage of the block; the edge stage is computed edge by edge, and the
  blocks cover the array.
-/
import proofs.«416314_j25881472925720_1_alg».proof.Proof.Gen.KernelIdeal.Frame
import proofs.«416314_j25881472925720_1_alg».proof.Proof.KPay
import Idealize.ShloMosaic.Lib.Pipeline.Value

noncomputable section

namespace Cert.Hgt.KReg2

open Idealize.ShloMosaic Idealize.ShloMosaic.TcCoe Idealize.ShloMosaic.ValueIdx Idealize.SL.Sem Cert.KernelIdeal Cert.KernelIdeal.Gen Cert.Hgt
open Idealize.ShloMosaic.Pipeline (Dat Cfg Window)

variable (V : (c : Dev nD) → (b : Ref sig .tc) → Buf (Elt Ideal) ((c : Thread nD τ).loc b))

private theorem zero_off : (![0, 0] : Fin 2 → Nat) = fun _ => 0 := funext fun a => by fin_cases a <;> rfl

/-- The index maps over the grid: the row-blocked windows are at block (t, 0), the weight and bias windows at block (0, 0). -/
private theorem block_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- The edge stage is computed edge by edge: when k, q, v are rows 2000·b … 2000·b + 1999 of K, Q, W and the weights and
    biases are the same, entry (p, d) of the stage of the block is entry (2000·b + p, d) of the stage of the arrays. -/
private theorem edge_of_rows (K Q W : Mat 200000 256) (Wa : Mat 256 8) (Ba : Mat 1 8) (Wm : Mat 256 256) (Bm : Mat 1 256)
    (k q v : Mat 2000 256) (wa : Mat 256 8) (ba : Mat 1 8) (wm : Mat 256 256) (bm : Mat 1 256) (b : ℕ)
    (hk : ∀ (x : S2000x256.Idx) (y : S200000x256.Idx), (y 0).val = b * 2000 + (x 0).val → (y 1).val = (x 1).val → k x = K y)
    (hq : ∀ (x : S2000x256.Idx) (y : S200000x256.Idx), (y 0).val = b * 2000 + (x 0).val → (y 1).val = (x 1).val → q x = Q y)
    (hv : ∀ (x : S2000x256.Idx) (y : S200000x256.Idx), (y 0).val = b * 2000 + (x 0).val → (y 1).val = (x 1).val → v x = W y)
    (hwa : wa = Wa) (hba : ba = Ba) (hwm : wm = Wm) (hbm : bm = Bm)
    (x : S2000x256.Idx) (y : S200000x256.Idx) (h0 : (y 0).val = b * 2000 + (x 0).val) (h1 : (y 1).val = (x 1).val) :
    edge k q v wa (row2 ba) wm (row2 bm) x = edge K Q W Wa (row2 Ba) Wm (row2 Bm) y := by
  subst hwa hba hwm hbm
  have ek : ∀ c : Fin 256, k (ix2 (x 0) c) = K (ix2 (y 0) c) := fun c => hk _ _ h0 rfl
  have eq : ∀ c : Fin 256, q (ix2 (x 0) c) = Q (ix2 (y 0) c) := fun c => hq _ _ h0 rfl
  have ev : ∀ c : Fin 256, v (ix2 (x 0) c) = W (ix2 (y 0) c) := fun c => hv _ _ h0 rfl
  have e1 : y 1 = x 1 := Fin.ext h1
  show edgeE k q v wa (row2 ba) wm (row2 bm) (x 0) (x 1) = edgeE K Q W wa (row2 ba) wm (row2 bm) (y 0) (y 1)
  rw [e1]
  unfold edgeE linE meanE attnE expE smaxE scoreE
  simp only [ek, eq, ev]

/-- What point t writes back is block t of the edge stage of the arrays as the call finds them. -/
theorem flushed_eq (c : Dev nD) (t : Fin cfg2.N) :
    (dat2 (F := Ideal) V c).flushed 7 t = ((cfg2.win 7).blk t).view.read (Elt Ideal)
      (edge (V c main_v8) (V c main_v9) (V c main_v10) (V c main_arg18) (row2 (V c main_v11)) (V c main_arg20) (row2 (V c main_v12))) := by
  show (cfg2.win 7).cut (grid2.coords t) ((dat2 V c).after 7 t) = _
  rw [after2_7]
  unfold out2_7
  rw [View.canon_unit_zero zero_off]
  simp only [View.ld_unit_zero (S := S2000x256) zero_off, View.ld_unit_zero (S := S256x8) zero_off, View.ld_unit_zero (S := S1x8) zero_off, View.ld_unit_zero (S := S256x256) zero_off, View.ld_unit_zero (S := S1x256) zero_off]
  rw [KPay.pay2]
  obtain ⟨a00, a01, a10, a11, a20, a21, a30, a31, a40, a41, a50, a51, a60, a61, a70, a71⟩ := block_index t
  funext j
  show edge (iblk2 V c 0 t) (iblk2 V c 1 t) (iblk2 V c 2 t) (iblk2 V c 3 t) (row2 (iblk2 V c 4 t)) (iblk2 V c 5 t) (row2 (iblk2 V c 6 t)) ((cfg2.win 7).xinj (grid2.coords t) j)
    = edge (V c main_v8) (V c main_v9) (V c main_v10) (V c main_arg18) (row2 (V c main_v11)) (V c main_arg20) (row2 (V c main_v12)) (((cfg2.win 7).blk t).view.emb j)
  refine edge_of_rows _ _ _ _ _ _ _ _ _ _ _ _ _ _ t.val ?_ ?_ ?_ ?_ ?_ ?_ ?_ _ _ ?_ ?_
  · intro x y h0 h1
    show V c main_v8 (((cfg2.win 0).blk t).view.emb x) = V c main_v8 y
    congr 1; funext a; apply Fin.ext
    match a with
    | ⟨0, _⟩ => show win2_0.index t (0 : Fin 2) * 2000 + 1 * (x 0).val = (y 0).val; omega
    | ⟨1, _⟩ => show win2_0.index t (1 : Fin 2) * 256 + 1 * (x 1).val = (y 1).val; omega
  · intro x y h0 h1
    show V c main_v9 (((cfg2.win 1).blk t).view.emb x) = V c main_v9 y
    congr 1; funext a; apply Fin.ext
    match a with
    | ⟨0, _⟩ => show win2_1.index t (0 : Fin 2) * 2000 + 1 * (x 0).val = (y 0).val; omega
    | ⟨1, _⟩ => show win2_1.index t (1 : Fin 2) * 256 + 1 * (x 1).val = (y 1).val; omega
  · intro x y h0 h1
    show V c main_v10 (((cfg2.win 2).blk t).view.emb x) = V c main_v10 y
    congr 1; funext a; apply Fin.ext
    match a with
    | ⟨0, _⟩ => show win2_2.index t (0 : Fin 2) * 2000 + 1 * (x 0).val = (y 0).val; omega
    | ⟨1, _⟩ => show win2_2.index t (1 : Fin 2) * 256 + 1 * (x 1).val = (y 1).val; omega
  · funext x
    show V c main_arg18 (((cfg2.win 3).blk t).view.emb x) = V c main_arg18 x
    congr 1; funext a; apply Fin.ext
    match a with
    | ⟨0, _⟩ => show win2_3.index t (0 : Fin 2) * 256 + 1 * (x 0).val = (x 0).val; omega
    | ⟨1, _⟩ => show win2_3.index t (1 : Fin 2) * 8 + 1 * (x 1).val = (x 1).val; omega
  · funext x
    show V c main_v11 (((cfg2.win 4).blk t).view.emb x) = V c main_v11 x
    congr 1; funext a; apply Fin.ext
    match a with
    | ⟨0, _⟩ => show win2_4.index t (0 : Fin 2) * 1 + 1 * (x 0).val = (x 0).val; omega
    | ⟨1, _⟩ => show win2_4.index t (1 : Fin 2) * 8 + 1 * (x 1).val = (x 1).val; omega
  · funext x
    show V c main_arg20 (((cfg2.win 5).blk t).view.emb x) = V c main_arg20 x
    congr 1; funext a; apply Fin.ext
    match a with
    | ⟨0, _⟩ => show win2_5.index t (0 : Fin 2) * 256 + 1 * (x 0).val = (x 0).val; omega
    | ⟨1, _⟩ => show win2_5.index t (1 : Fin 2) * 256 + 1 * (x 1).val = (x 1).val; omega
  · funext x
    show V c main_v12 (((cfg2.win 6).blk t).view.emb x) = V c main_v12 x
    congr 1; funext a; apply Fin.ext
    match a with
    | ⟨0, _⟩ => show win2_6.index t (0 : Fin 2) * 1 + 1 * (x 0).val = (x 0).val; omega
    | ⟨1, _⟩ => show win2_6.index t (1 : Fin 2) * 256 + 1 * (x 1).val = (x 1).val; omega
  · show win2_7.index t (0 : Fin 2) * 2000 + 1 * (j 0).val = t.val * 2000 + (j 0).val; omega
  · show win2_7.index t (1 : Fin 2) * 256 + 1 * (j 1).val = (j 1).val; omega

/-- An index of the result array is in point t's block iff each coordinate is in the block's range on its axis. -/
theorem mem_blk (t : Fin cfg2.N) (i : S200000x256.Idx) :
    i ∈ ((cfg2.win 7).blk t).view.set ↔ ∀ a : Fin 2, win2_7.index t a * S2000x256.size a ≤ (i a).val ∧ (i a).val < win2_7.index t a * S2000x256.size a + S2000x256.size a := by
  show i ∈ ((View.whole main_v13).slice (win2_7.rect t)).set ↔ _
  rw [View.set_slice_whole, Rect.mem_set_unit]
  exact Iff.rfl

/-- Every entry of the result array is in some point's block: row r is in the block of point r / 2000. -/
theorem cover (i : S200000x256.Idx) : ∃ t : Fin cfg2.N, (cfg2.win 7).flush t = true ∧ i ∈ ((cfg2.win 7).blk t).view.set := by
  have hi0 : (i 0).val < 200000 := (i 0).isLt
  have hi1 : (i 1).val < 256 := (i 1).isLt
  have hN : cfg2.N = 100 := N_2
  have ht : (i 0).val / 2000 < cfg2.N := by rw [hN]; omega
  obtain ⟨-, -, -, -, -, -, -, -, -, -, -, -, -, -, a70, a71⟩ := block_index ⟨(i 0).val / 2000, ht⟩
  refine ⟨⟨(i 0).val / 2000, ht⟩, flush2_7 _, ?_⟩
  rw [mem_blk]
  intro a
  match a with
  | ⟨0, _⟩ =>
    show win2_7.index ⟨(i 0).val / 2000, ht⟩ (0 : Fin 2) * 2000 ≤ (i 0).val ∧ (i 0).val < win2_7.index ⟨(i 0).val / 2000, ht⟩ (0 : Fin 2) * 2000 + 2000
    rw [a70]
    show (i 0).val / 2000 * 2000 ≤ (i 0).val ∧ (i 0).val < (i 0).val / 2000 * 2000 + 2000
    omega
  | ⟨1, _⟩ =>
    show win2_7.index ⟨(i 0).val / 2000, ht⟩ (1 : Fin 2) * 256 ≤ (i 1).val ∧ (i 1).val < win2_7.index ⟨(i 0).val / 2000, ht⟩ (1 : Fin 2) * 256 + 256
    rw [a71]
    omega

theorem arr2_7 (c : Dev nD) : (dat2 (F := Ideal) V c).arrAt 7 cfg2.N
    = edge (V c main_v8) (V c main_v9) (V c main_v10) (V c main_arg18) (row2 (V c main_v11)) (V c main_arg20) (row2 (V c main_v12)) := by
  exact (dat2 V c).arrAt_eq_of_cover 7 _ (fun t _ => flushed_eq V c t) cover

end Cert.Hgt.KReg2

end
-- ==== Proof.KReg3.lean ====
/-
  The second edge call (the reverse edge type): its result array when the call returns, as a whole-array function of
  the arrays it was entered with; the same argument as for the first edge call.
-/
import proofs.«416314_j25881472925720_1_alg».proof.Proof.Gen.KernelIdeal.Frame
import proofs.«416314_j25881472925720_1_alg».proof.Proof.KPay
import Idealize.ShloMosaic.Lib.Pipeline.Value

noncomputable section

namespace Cert.Hgt.KReg3

open Idealize.ShloMosaic Idealize.ShloMosaic.TcCoe Idealize.ShloMosaic.ValueIdx Idealize.SL.Sem Cert.KernelIdeal Cert.KernelIdeal.Gen Cert.Hgt
open Idealize.ShloMosaic.Pipeline (Dat Cfg Window)

variable (V : (c : Dev nD) → (b : Ref sig .tc) → Buf (Elt Ideal) ((c : Thread nD τ).loc b))

private theorem zero_off : (![0, 0] : Fin 2 → Nat) = fun _ => 0 := funext fun a => by fin_cases a <;> rfl

/-- The index maps over the grid: the row-blocked windows are at block (t, 0), the weight and bias windows at block (0, 0). -/
private theorem block_index : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 :=
  (by decide +kernel : ∀ t : Fin grid3.N, _)

/-- The edge stage is computed edge by edge: when k, q, v are rows 2000·b … 2000·b + 1999 of K, Q, W and the weights and
    biases are the same, entry (p, d) of the stage of the block is entry (2000·b + p, d) of the stage of the arrays. -/
private theorem edge_of_rows (K Q W : Mat 200000 256) (Wa : Mat 256 8) (Ba : Mat 1 8) (Wm : Mat 256 256) (Bm : Mat 1 256)
    (k q v : Mat 2000 256) (wa : Mat 256 8) (ba : Mat 1 8) (wm : Mat 256 256) (bm : Mat 1 256) (b : ℕ)
    (hk : ∀ (x : S2000x256.Idx) (y : S200000x256.Idx), (y 0).val = b * 2000 + (x 0).val → (y 1).val = (x 1).val → k x = K y)
    (hq : ∀ (x : S2000x256.Idx) (y : S200000x256.Idx), (y 0).val = b * 2000 + (x 0).val → (y 1).val = (x 1).val → q x = Q y)
    (hv : ∀ (x : S2000x256.Idx) (y : S200000x256.Idx), (y 0).val = b * 2000 + (x 0).val → (y 1).val = (x 1).val → v x = W y)
    (hwa : wa = Wa) (hba : ba = Ba) (hwm : wm = Wm) (hbm : bm = Bm)
    (x : S2000x256.Idx) (y : S200000x256.Idx) (h0 : (y 0).val = b * 2000 + (x 0).val) (h1 : (y 1).val = (x 1).val) :
    edge k q v wa (row2 ba) wm (row2 bm) x = edge K Q W Wa (row2 Ba) Wm (row2 Bm) y := by
  subst hwa hba hwm hbm
  have ek : ∀ c : Fin 256, k (ix2 (x 0) c) = K (ix2 (y 0) c) := fun c => hk _ _ h0 rfl
  have eq : ∀ c : Fin 256, q (ix2 (x 0) c) = Q (ix2 (y 0) c) := fun c => hq _ _ h0 rfl
  have ev : ∀ c : Fin 256, v (ix2 (x 0) c) = W (ix2 (y 0) c) := fun c => hv _ _ h0 rfl
  have e1 : y 1 = x 1 := Fin.ext h1
  show edgeE k q v wa (row2 ba) wm (row2 bm) (x 0) (x 1) = edgeE K Q W wa (row2 ba) wm (row2 bm) (y 0) (y 1)
  rw [e1]
  unfold edgeE linE meanE attnE expE smaxE scoreE
  simp only [ek, eq, ev]

/-- What point t writes back is block t of the edge stage of the arrays as the call finds them. -/
theorem flushed_eq (c : Dev nD) (t : Fin cfg3.N) :
    (dat3 (F := Ideal) V c).flushed 7 t = ((cfg3.win 7).blk t).view.read (Elt Ideal)
      (edge (V c main_v21) (V c main_v22) (V c main_v23) (V c main_arg22) (row2 (V c main_v24)) (V c main_arg24) (row2 (V c main_v25))) := by
  show (cfg3.win 7).cut (grid3.coords t) ((dat3 V c).after 7 t) = _
  rw [after3_7]
  unfold out3_7
  rw [View.canon_unit_zero zero_off]
  simp only [View.ld_unit_zero (S := S2000x256) zero_off, View.ld_unit_zero (S := S256x8) zero_off, View.ld_unit_zero (S := S1x8) zero_off, View.ld_unit_zero (S := S256x256) zero_off, View.ld_unit_zero (S := S1x256) zero_off]
  rw [KPay.pay3]
  obtain ⟨a00, a01, a10, a11, a20, a21, a30, a31, a40, a41, a50, a51, a60, a61, a70, a71⟩ := block_index t
  funext j
  show edge (iblk3 V c 0 t) (iblk3 V c 1 t) (iblk3 V c 2 t) (iblk3 V c 3 t) (row2 (iblk3 V c 4 t)) (iblk3 V c 5 t) (row2 (iblk3 V c 6 t)) ((cfg3.win 7).xinj (grid3.coords t) j)
    = edge (V c main_v21) (V c main_v22) (V c main_v23) (V c main_arg22) (row2 (V c main_v24)) (V c main_arg24) (row2 (V c main_v25)) (((cfg3.win 7).blk t).view.emb j)
  refine edge_of_rows _ _ _ _ _ _ _ _ _ _ _ _ _ _ t.val ?_ ?_ ?_ ?_ ?_ ?_ ?_ _ _ ?_ ?_
  · intro x y h0 h1
    show V c main_v21 (((cfg3.win 0).blk t).view.emb x) = V c main_v21 y
    congr 1; funext a; apply Fin.ext
    match a with
    | ⟨0, _⟩ => show win3_0.index t (0 : Fin 2) * 2000 + 1 * (x 0).val = (y 0).val; omega
    | ⟨1, _⟩ => show win3_0.index t (1 : Fin 2) * 256 + 1 * (x 1).val = (y 1).val; omega
  · intro x y h0 h1
    show V c main_v22 (((cfg3.win 1).blk t).view.emb x) = V c main_v22 y
    congr 1; funext a; apply Fin.ext
    match a with
    | ⟨0, _⟩ => show win3_1.index t (0 : Fin 2) * 2000 + 1 * (x 0).val = (y 0).val; omega
    | ⟨1, _⟩ => show win3_1.index t (1 : Fin 2) * 256 + 1 * (x 1).val = (y 1).val; omega
  · intro x y h0 h1
    show V c main_v23 (((cfg3.win 2).blk t).view.emb x) = V c main_v23 y
    congr 1; funext a; apply Fin.ext
    match a with
    | ⟨0, _⟩ => show win3_2.index t (0 : Fin 2) * 2000 + 1 * (x 0).val = (y 0).val; omega
    | ⟨1, _⟩ => show win3_2.index t (1 : Fin 2) * 256 + 1 * (x 1).val = (y 1).val; omega
  · funext x
    show V c main_arg22 (((cfg3.win 3).blk t).view.emb x) = V c main_arg22 x
    congr 1; funext a; apply Fin.ext
    match a with
    | ⟨0, _⟩ => show win3_3.index t (0 : Fin 2) * 256 + 1 * (x 0).val = (x 0).val; omega
    | ⟨1, _⟩ => show win3_3.index t (1 : Fin 2) * 8 + 1 * (x 1).val = (x 1).val; omega
  · funext x
    show V c main_v24 (((cfg3.win 4).blk t).view.emb x) = V c main_v24 x
    congr 1; funext a; apply Fin.ext
    match a with
    | ⟨0, _⟩ => show win3_4.index t (0 : Fin 2) * 1 + 1 * (x 0).val = (x 0).val; omega
    | ⟨1, _⟩ => show win3_4.index t (1 : Fin 2) * 8 + 1 * (x 1).val = (x 1).val; omega
  · funext x
    show V c main_arg24 (((cfg3.win 5).blk t).view.emb x) = V c main_arg24 x
    congr 1; funext a; apply Fin.ext
    match a with
    | ⟨0, _⟩ => show win3_5.index t (0 : Fin 2) * 256 + 1 * (x 0).val = (x 0).val; omega
    | ⟨1, _⟩ => show win3_5.index t (1 : Fin 2) * 256 + 1 * (x 1).val = (x 1).val; omega
  · funext x
    show V c main_v25 (((cfg3.win 6).blk t).view.emb x) = V c main_v25 x
    congr 1; funext a; apply Fin.ext
    match a with
    | ⟨0, _⟩ => show win3_6.index t (0 : Fin 2) * 1 + 1 * (x 0).val = (x 0).val; omega
    | ⟨1, _⟩ => show win3_6.index t (1 : Fin 2) * 256 + 1 * (x 1).val = (x 1).val; omega
  · show win3_7.index t (0 : Fin 2) * 2000 + 1 * (j 0).val = t.val * 2000 + (j 0).val; omega
  · show win3_7.index t (1 : Fin 2) * 256 + 1 * (j 1).val = (j 1).val; omega

/-- An index of the result array is in point t's block iff each coordinate is in the block's range on its axis. -/
theorem mem_blk (t : Fin cfg3.N) (i : S200000x256.Idx) :
    i ∈ ((cfg3.win 7).blk t).view.set ↔ ∀ a : Fin 2, win3_7.index t a * S2000x256.size a ≤ (i a).val ∧ (i a).val < win3_7.index t a * S2000x256.size a + S2000x256.size a := by
  show i ∈ ((View.whole main_v26).slice (win3_7.rect t)).set ↔ _
  rw [View.set_slice_whole, Rect.mem_set_unit]
  exact Iff.rfl

/-- Every entry of the result array is in some point's block: row r is in the block of point r / 2000. -/
theorem cover (i : S200000x256.Idx) : ∃ t : Fin cfg3.N, (cfg3.win 7).flush t = true ∧ i ∈ ((cfg3.win 7).blk t).view.set := by
  have hi0 : (i 0).val < 200000 := (i 0).isLt
  have hi1 : (i 1).val < 256 := (i 1).isLt
  have hN : cfg3.N = 100 := N_3
  have ht : (i 0).val / 2000 < cfg3.N := by rw [hN]; omega
  obtain ⟨-, -, -, -, -, -, -, -, -, -, -, -, -, -, a70, a71⟩ := block_index ⟨(i 0).val / 2000, ht⟩
  refine ⟨⟨(i 0).val / 2000, ht⟩, flush3_7 _, ?_⟩
  rw [mem_blk]
  intro a
  match a with
  | ⟨0, _⟩ =>
    show win3_7.index ⟨(i 0).val / 2000, ht⟩ (0 : Fin 2) * 2000 ≤ (i 0).val ∧ (i 0).val < win3_7.index ⟨(i 0).val / 2000, ht⟩ (0 : Fin 2) * 2000 + 2000
    rw [a70]
    show (i 0).val / 2000 * 2000 ≤ (i 0).val ∧ (i 0).val < (i 0).val / 2000 * 2000 + 2000
    omega
  | ⟨1, _⟩ =>
    show win3_7.index ⟨(i 0).val / 2000, ht⟩ (1 : Fin 2) * 256 ≤ (i 1).val ∧ (i 1).val < win3_7.index ⟨(i 0).val / 2000, ht⟩ (1 : Fin 2) * 256 + 256
    rw [a71]
    omega

theorem arr3_7 (c : Dev nD) : (dat3 (F := Ideal) V c).arrAt 7 cfg3.N
    = edge (V c main_v21) (V c main_v22) (V c main_v23) (V c main_arg22) (row2 (V c main_v24)) (V c main_arg24) (row2 (V c main_v25)) := by
  exact (dat3 V c).arrAt_eq_of_cover 7 _ (fun t _ => flushed_eq V c t) cover

end Cert.Hgt.KReg3

end
-- ==== Proof.KReg4.lean ====
/-
  The first finishing call: its result array when the call returns, as a whole-array function of the arrays it was
  entered with. Grid point t handles rows 2000·t … 2000·t + 1999 of the aggregate, the counts and the residual input;
  the finishing stage is computed row by row, and the blocks cover the array.
-/
import proofs.«416314_j25881472925720_1_alg».proof.Proof.Gen.KernelIdeal.Frame
import proofs.«416314_j25881472925720_1_alg».proof.Proof.KPay
import Idealize.ShloMosaic.Lib.Pipeline.Value

noncomputable section

namespace Cert.Hgt.KReg4

open Idealize.ShloMosaic Idealize.ShloMosaic.TcCoe Idealize.ShloMosaic.ValueIdx Idealize.SL.Sem Cert.KernelIdeal Cert.KernelIdeal.Gen Cert.Hgt
open Idealize.ShloMosaic.Pipeline (Dat Cfg Window)

variable (V : (c : Dev nD) → (b : Ref sig .tc) → Buf (Elt Ideal) ((c : Thread nD τ).loc b))

/-- The rectangle offsets of a whole-block access, spelt as the zero function. -/
theorem zero_off : (![0, 0] : Fin 2 → Nat) = fun _ => 0 := funext fun a => by fin_cases a <;> rfl

/-- The windows' block indices at grid point t: the row-blocked windows (aggregate, counts, residual input, result) are
    at block (t, 0), the weight and the bias at block (0, 0). -/
theorem blocks_at : ∀ t : Fin cfg4.N,
    win4_0.index t (0 : Fin 2) = t.val ∧ win4_0.index t (1 : Fin 2) = 0
  ∧ win4_1.index t (0 : Fin 2) = t.val ∧ win4_1.index t (1 : Fin 2) = 0
  ∧ win4_2.index t (0 : Fin 2) = t.val ∧ win4_2.index t (1 : Fin 2) = 0
  ∧ win4_3.index t (0 : Fin 2) = 0 ∧ win4_3.index t (1 : Fin 2) = 0
  ∧ win4_4.index t (0 : Fin 2) = 0 ∧ win4_4.index t (1 : Fin 2) = 0
  ∧ win4_5.index t (0 : Fin 2) = t.val ∧ win4_5.index t (1 : Fin 2) = 0 :=
  (by decide +kernel : ∀ t : Fin grid4.N, _)

/-! ## The finishing stage is computed row by row -/

/-- Row p of the stage on one family of operands is row r of the stage on another when the row-blocked operands agree
    on those rows and the weight and bias are the same. -/
theorem finishE_rows {n N : ℕ} (agg' : Mat n 256) (cnt' : Mat n 1) (x' : Mat n 256)
    (agg : Mat N 256) (cnt : Mat N 1) (x : Mat N 256) (Wout : Mat 256 256) (bout : Fin 256 → EReal)
    (p : Fin n) (r : Fin N) (q : Fin 256)
    (hagg : ∀ k : Fin 256, agg' (ix2 p k) = agg (ix2 r k))
    (hcnt : cnt' (ix2 p 0) = cnt (ix2 r 0))
    (hx : x' (ix2 p q) = x (ix2 r q)) :
    finishE agg' cnt' x' Wout bout p q = finishE agg cnt x Wout bout r q := by
  unfold finishE normE
  simp only [hagg, hcnt, hx]

/-- The same at indices: entry j of the stage on one family of operands is entry i of the stage on the other when the
    two indices name the same column and the operands agree on the two rows. -/
theorem finish_rows {n N : ℕ} (agg' : Mat n 256) (cnt' : Mat n 1) (x' : Mat n 256) (Wout' : Mat 256 256) (bout' : Fin 256 → EReal)
    (agg : Mat N 256) (cnt : Mat N 1) (x : Mat N 256) (Wout : Mat 256 256) (bout : Fin 256 → EReal)
    (j : (⟨2, ![n, 256]⟩ : Shape).Idx) (i : (⟨2, ![N, 256]⟩ : Shape).Idx)
    (hW : Wout' = Wout) (hb : bout' = bout) (hcol : j 1 = i 1)
    (hagg : ∀ k : Fin 256, agg' (ix2 (j 0) k) = agg (ix2 (i 0) k))
    (hcnt : cnt' (ix2 (j 0) 0) = cnt (ix2 (i 0) 0))
    (hx : x' (ix2 (j 0) (i 1)) = x (ix2 (i 0) (i 1))) :
    finish agg' cnt' x' Wout' bout' j = finish agg cnt x Wout bout i := by
  subst hW hb
  have e : finishE agg' cnt' x' Wout' bout' (j 0) (j 1) = finishE agg' cnt' x' Wout' bout' (j 0) (i 1) := congrArg _ hcol
  exact e.trans (finishE_rows agg' cnt' x' agg cnt x Wout' bout' (j 0) (i 0) (i 1) hagg hcnt hx)

/-! ## The blocks the body is given, as parts of the arrays -/

/-- Entry (p, q) of the aggregate's block at grid point t is entry (2000·t + p, q) of the aggregate. -/
theorem agg_block (c : Dev nD) (t : Fin cfg4.N) (y : S2000x256.Idx) (i : S100000x256.Idx)
    (h0 : (i 0).val = t.val * 2000 + (y 0).val) (h1 : (i 1).val = (y 1).val) :
    (iblk4 V c 0 t : Vec Ideal S2000x256 .f32) y = (V c main_v29 : S100000x256.Idx → EReal) i := by
  obtain ⟨e0, e1, -⟩ := blocks_at t
  unfold iblk4
  rw [View.read_apply]
  show V c main_v29 _ = V c main_v29 _
  congr 1
  funext a; apply Fin.ext
  match a with
  | ⟨0, _⟩ => show win4_0.index t (0 : Fin 2) * 2000 + 1 * (y 0).val = (i 0).val; omega
  | ⟨1, _⟩ => show win4_0.index t (1 : Fin 2) * 256 + 1 * (y 1).val = (i 1).val; omega

/-- Entry (p, 0) of the counts' block at grid point t is entry (2000·t + p, 0) of the counts. -/
theorem cnt_block (c : Dev nD) (t : Fin cfg4.N) (y : S2000x1.Idx) (i : S100000x1.Idx)
    (h0 : (i 0).val = t.val * 2000 + (y 0).val) (h1 : (i 1).val = (y 1).val) :
    (iblk4 V c 1 t : Vec Ideal S2000x1 .f32) y = (V c main_v33 : S100000x1.Idx → EReal) i := by
  obtain ⟨-, -, e0, e1, -⟩ := blocks_at t
  unfold iblk4
  rw [View.read_apply]
  show V c main_v33 _ = V c main_v33 _
  congr 1
  funext a; apply Fin.ext
  match a with
  | ⟨0, _⟩ => show win4_1.index t (0 : Fin 2) * 2000 + 1 * (y 0).val = (i 0).val; omega
  | ⟨1, _⟩ => show win4_1.index t (1 : Fin 2) * 1 + 1 * (y 1).val = (i 1).val; omega

/-- Entry (p, q) of the residual input's block at grid point t is entry (2000·t + p, q) of the input. -/
theorem x_block (c : Dev nD) (t : Fin cfg4.N) (y : S2000x256.Idx) (i : S100000x256.Idx)
    (h0 : (i 0).val = t.val * 2000 + (y 0).val) (h1 : (i 1).val = (y 1).val) :
    (iblk4 V c 2 t : Vec Ideal S2000x256 .f32) y = (V c main_arg0 : S100000x256.Idx → EReal) i := by
  obtain ⟨-, -, -, -, e0, e1, -⟩ := blocks_at t
  unfold iblk4
  rw [View.read_apply]
  show V c main_arg0 _ = V c main_arg0 _
  congr 1
  funext a; apply Fin.ext
  match a with
  | ⟨0, _⟩ => show win4_2.index t (0 : Fin 2) * 2000 + 1 * (y 0).val = (i 0).val; omega
  | ⟨1, _⟩ => show win4_2.index t (1 : Fin 2) * 256 + 1 * (y 1).val = (i 1).val; omega

/-- The weight's block at every grid point is the weight. -/
theorem wout_block (c : Dev nD) (t : Fin cfg4.N) :
    (iblk4 V c 3 t : Vec Ideal S256x256 .f32) = (V c main_arg8 : S256x256.Idx → EReal) := by
  obtain ⟨-, -, -, -, -, -, e0, e1, -⟩ := blocks_at t
  funext y
  unfold iblk4
  rw [View.read_apply]
  show V c main_arg8 _ = V c main_arg8 _
  congr 1
  funext a; apply Fin.ext
  match a with
  | ⟨0, _⟩ => show win4_3.index t (0 : Fin 2) * 256 + 1 * (y 0).val = (y 0).val; omega
  | ⟨1, _⟩ => show win4_3.index t (1 : Fin 2) * 256 + 1 * (y 1).val = (y 1).val; omega

/-- The bias's block at every grid point is the bias. -/
theorem bout_block (c : Dev nD) (t : Fin cfg4.N) :
    (iblk4 V c 4 t : Vec Ideal S1x256 .f32) = (V c main_v34 : S1x256.Idx → EReal) := by
  obtain ⟨-, -, -, -, -, -, -, -, e0, e1, -⟩ := blocks_at t
  funext y
  unfold iblk4
  rw [View.read_apply]
  show V c main_v34 _ = V c main_v34 _
  congr 1
  funext a; apply Fin.ext
  match a with
  | ⟨0, _⟩ => show win4_4.index t (0 : Fin 2) * 1 + 1 * (y 0).val = (y 0).val; omega
  | ⟨1, _⟩ => show win4_4.index t (1 : Fin 2) * 256 + 1 * (y 1).val = (y 1).val; omega

/-! ## What a grid point writes back -/

/-- Grid point t writes back rows 2000·t … 2000·t + 1999 of the finishing stage of the whole arrays. -/
theorem flushed_eq (c : Dev nD) (t : Fin cfg4.N) :
    (dat4 (F := Ideal) V c).flushed 5 t = ((cfg4.win 5).blk t).view.read (Elt Ideal)
      (finish (V c main_v29) (V c main_v33) (V c main_arg0) (V c main_arg8) (row2 (V c main_v34))) := by
  show (cfg4.win 5).cut (grid4.coords t) ((dat4 V c).after 5 t) = _
  rw [after4_5]
  unfold out4_5
  rw [View.canon_unit_zero zero_off]
  simp only [View.ld_unit_zero (S := S2000x256) zero_off, View.ld_unit_zero (S := S2000x1) zero_off,
    View.ld_unit_zero (S := S256x256) zero_off, View.ld_unit_zero (S := S1x256) zero_off]
  rw [KPay.pay4]
  obtain ⟨-, -, -, -, -, -, -, -, -, -, e0, e1⟩ := blocks_at t
  funext j
  show finish (iblk4 V c 0 t) (iblk4 V c 1 t) (iblk4 V c 2 t) (iblk4 V c 3 t) (row2 (iblk4 V c 4 t)) ((win4 5).xinj (grid4.coords t) j)
    = finish (V c main_v29) (V c main_v33) (V c main_arg0) (V c main_arg8) (row2 (V c main_v34)) (((cfg4.win 5).blk t).view.emb j)
  have r0 : ((((cfg4.win 5).blk t).view.emb j) 0).val = t.val * 2000 + (j 0).val := by
    show win4_5.index t (0 : Fin 2) * 2000 + 1 * (j 0).val = _; omega
  have r1 : ((((cfg4.win 5).blk t).view.emb j) 1).val = (j 1).val := by
    show win4_5.index t (1 : Fin 2) * 256 + 1 * (j 1).val = _; omega
  refine finish_rows _ _ _ _ _ _ _ _ _ _ _ _ (wout_block V c t) (congrArg row2 (bout_block V c t)) (Fin.ext r1.symm)
    (fun k => agg_block V c t _ _ r0 rfl) (cnt_block V c t _ _ r0 rfl) (x_block V c t _ _ r0 rfl)

/-! ## The blocks cover the array -/

/-- An index of the result array is in grid point t's block iff each coordinate is in the block's range on its axis. -/
theorem mem_blk (t : Fin cfg4.N) (i : S100000x256.Idx) :
    i ∈ ((cfg4.win 5).blk t).view.set ↔ ∀ a : Fin 2, win4_5.index t a * S2000x256.size a ≤ (i a).val ∧ (i a).val < win4_5.index t a * S2000x256.size a + S2000x256.size a := by
  show i ∈ ((View.whole main_v35).slice (win4_5.rect t)).set ↔ _
  rw [View.set_slice_whole, Rect.mem_set_unit]
  exact Iff.rfl

/-- Row r of the result array is written back by grid point r / 2000. -/
theorem covered (i : S100000x256.Idx) :
    ∃ t : Fin cfg4.N, (cfg4.win 5).flush t = true ∧ i ∈ ((cfg4.win 5).blk t).view.set := by
  have hi0 : (i 0).val < 100000 := (i 0).isLt
  have hi1 : (i 1).val < 256 := (i 1).isLt
  have hN : cfg4.N = 50 := N_4
  have ht : (i 0).val / 2000 < cfg4.N := by rw [hN]; omega
  obtain ⟨-, -, -, -, -, -, -, -, -, -, e0, e1⟩ := blocks_at ⟨(i 0).val / 2000, ht⟩
  refine ⟨⟨(i 0).val / 2000, ht⟩, flush4_5 _, ?_⟩
  rw [mem_blk]
  intro a
  match a with
  | ⟨0, _⟩ =>
    show win4_5.index ⟨(i 0).val / 2000, ht⟩ (0 : Fin 2) * 2000 ≤ (i 0).val ∧ (i 0).val < win4_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win4_5.index ⟨(i 0).val / 2000, ht⟩ (1 : Fin 2) * 256 ≤ (i 1).val ∧ (i 1).val < win4_5.index ⟨(i 0).val / 2000, ht⟩ (1 : Fin 2) * 256 + 256
    rw [e1]; omega

/-! ## The result array when the call returns -/

theorem arr4_5 (c : Dev nD) : (dat4 (F := Ideal) V c).arrAt 5 cfg4.N
    = finish (V c main_v29) (V c main_v33) (V c main_arg0) (V c main_arg8) (row2 (V c main_v34)) :=
  (dat4 V c).arrAt_eq_of_cover 5 _ (fun t _ => flushed_eq V c t) covered

end Cert.Hgt.KReg4

end
-- ==== Proof.KReg5.lean ====
/-
  The second finishing call (the other node type): its result array when the call returns, as a whole-array function of
  the arrays it was entered with; the same argument as for the first finishing call, at 25 grid points.
-/
import proofs.«416314_j25881472925720_1_alg».proof.Proof.Gen.KernelIdeal.Frame
import proofs.«416314_j25881472925720_1_alg».proof.Proof.KPay
import Idealize.ShloMosaic.Lib.Pipeline.Value

noncomputable section

namespace Cert.Hgt.KReg5

open Idealize.ShloMosaic Idealize.ShloMosaic.TcCoe Idealize.ShloMosaic.ValueIdx Idealize.SL.Sem Cert.KernelIdeal Cert.KernelIdeal.Gen Cert.Hgt
open Idealize.ShloMosaic.Pipeline (Dat Cfg Window)

variable (V : (c : Dev nD) → (b : Ref sig .tc) → Buf (Elt Ideal) ((c : Thread nD τ).loc b))

/-- The rectangle offsets of a whole-block access, spelt as the zero function. -/
theorem zero_off : (![0, 0] : Fin 2 → Nat) = fun _ => 0 := funext fun a => by fin_cases a <;> rfl

/-- The windows' block indices at grid point t: the row-blocked windows (aggregate, counts, residual input, result) are
    at block (t, 0), the weight and the bias at block (0, 0). -/
theorem blocks_at : ∀ t : Fin cfg5.N,
    win5_0.index t (0 : Fin 2) = t.val ∧ win5_0.index t (1 : Fin 2) = 0
  ∧ win5_1.index t (0 : Fin 2) = t.val ∧ win5_1.index t (1 : Fin 2) = 0
  ∧ win5_2.index t (0 : Fin 2) = t.val ∧ win5_2.index t (1 : Fin 2) = 0
  ∧ win5_3.index t (0 : Fin 2) = 0 ∧ win5_3.index t (1 : Fin 2) = 0
  ∧ win5_4.index t (0 : Fin 2) = 0 ∧ win5_4.index t (1 : Fin 2) = 0
  ∧ win5_5.index t (0 : Fin 2) = t.val ∧ win5_5.index t (1 : Fin 2) = 0 :=
  (by decide +kernel : ∀ t : Fin grid5.N, _)

/-! ## The finishing stage is computed row by row -/

/-- Row p of the stage on one family of operands is row r of the stage on another when the row-blocked operands agree
    on those rows and the weight and bias are the same. -/
theorem finishE_rows {n N : ℕ} (agg' : Mat n 256) (cnt' : Mat n 1) (x' : Mat n 256)
    (agg : Mat N 256) (cnt : Mat N 1) (x : Mat N 256) (Wout : Mat 256 256) (bout : Fin 256 → EReal)
    (p : Fin n) (r : Fin N) (q : Fin 256)
    (hagg : ∀ k : Fin 256, agg' (ix2 p k) = agg (ix2 r k))
    (hcnt : cnt' (ix2 p 0) = cnt (ix2 r 0))
    (hx : x' (ix2 p q) = x (ix2 r q)) :
    finishE agg' cnt' x' Wout bout p q = finishE agg cnt x Wout bout r q := by
  unfold finishE normE
  simp only [hagg, hcnt, hx]

/-- The same at indices: entry j of the stage on one family of operands is entry i of the stage on the other when the
    two indices name the same column and the operands agree on the two rows. -/
theorem finish_rows {n N : ℕ} (agg' : Mat n 256) (cnt' : Mat n 1) (x' : Mat n 256) (Wout' : Mat 256 256) (bout' : Fin 256 → EReal)
    (agg : Mat N 256) (cnt : Mat N 1) (x : Mat N 256) (Wout : Mat 256 256) (bout : Fin 256 → EReal)
    (j : (⟨2, ![n, 256]⟩ : Shape).Idx) (i : (⟨2, ![N, 256]⟩ : Shape).Idx)
    (hW : Wout' = Wout) (hb : bout' = bout) (hcol : j 1 = i 1)
    (hagg : ∀ k : Fin 256, agg' (ix2 (j 0) k) = agg (ix2 (i 0) k))
    (hcnt : cnt' (ix2 (j 0) 0) = cnt (ix2 (i 0) 0))
    (hx : x' (ix2 (j 0) (i 1)) = x (ix2 (i 0) (i 1))) :
    finish agg' cnt' x' Wout' bout' j = finish agg cnt x Wout bout i := by
  subst hW hb
  have e : finishE agg' cnt' x' Wout' bout' (j 0) (j 1) = finishE agg' cnt' x' Wout' bout' (j 0) (i 1) := congrArg _ hcol
  exact e.trans (finishE_rows agg' cnt' x' agg cnt x Wout' bout' (j 0) (i 0) (i 1) hagg hcnt hx)

/-! ## The blocks the body is given, as parts of the arrays -/

/-- Entry (p, q) of the aggregate's block at grid point t is entry (2000·t + p, q) of the aggregate. -/
theorem agg_block (c : Dev nD) (t : Fin cfg5.N) (y : S2000x256.Idx) (i : S50000x256.Idx)
    (h0 : (i 0).val = t.val * 2000 + (y 0).val) (h1 : (i 1).val = (y 1).val) :
    (iblk5 V c 0 t : Vec Ideal S2000x256 .f32) y = (V c main_v16 : S50000x256.Idx → EReal) i := by
  obtain ⟨e0, e1, -⟩ := blocks_at t
  unfold iblk5
  rw [View.read_apply]
  show V c main_v16 _ = V c main_v16 _
  congr 1
  funext a; apply Fin.ext
  match a with
  | ⟨0, _⟩ => show win5_0.index t (0 : Fin 2) * 2000 + 1 * (y 0).val = (i 0).val; omega
  | ⟨1, _⟩ => show win5_0.index t (1 : Fin 2) * 256 + 1 * (y 1).val = (i 1).val; omega

/-- Entry (p, 0) of the counts' block at grid point t is entry (2000·t + p, 0) of the counts. -/
theorem cnt_block (c : Dev nD) (t : Fin cfg5.N) (y : S2000x1.Idx) (i : S50000x1.Idx)
    (h0 : (i 0).val = t.val * 2000 + (y 0).val) (h1 : (i 1).val = (y 1).val) :
    (iblk5 V c 1 t : Vec Ideal S2000x1 .f32) y = (V c main_v20 : S50000x1.Idx → EReal) i := by
  obtain ⟨-, -, e0, e1, -⟩ := blocks_at t
  unfold iblk5
  rw [View.read_apply]
  show V c main_v20 _ = V c main_v20 _
  congr 1
  funext a; apply Fin.ext
  match a with
  | ⟨0, _⟩ => show win5_1.index t (0 : Fin 2) * 2000 + 1 * (y 0).val = (i 0).val; omega
  | ⟨1, _⟩ => show win5_1.index t (1 : Fin 2) * 1 + 1 * (y 1).val = (i 1).val; omega

/-- Entry (p, q) of the residual input's block at grid point t is entry (2000·t + p, q) of the input. -/
theorem x_block (c : Dev nD) (t : Fin cfg5.N) (y : S2000x256.Idx) (i : S50000x256.Idx)
    (h0 : (i 0).val = t.val * 2000 + (y 0).val) (h1 : (i 1).val = (y 1).val) :
    (iblk5 V c 2 t : Vec Ideal S2000x256 .f32) y = (V c main_arg1 : S50000x256.Idx → EReal) i := by
  obtain ⟨-, -, -, -, e0, e1, -⟩ := blocks_at t
  unfold iblk5
  rw [View.read_apply]
  show V c main_arg1 _ = V c main_arg1 _
  congr 1
  funext a; apply Fin.ext
  match a with
  | ⟨0, _⟩ => show win5_2.index t (0 : Fin 2) * 2000 + 1 * (y 0).val = (i 0).val; omega
  | ⟨1, _⟩ => show win5_2.index t (1 : Fin 2) * 256 + 1 * (y 1).val = (i 1).val; omega

/-- The weight's block at every grid point is the weight. -/
theorem wout_block (c : Dev nD) (t : Fin cfg5.N) :
    (iblk5 V c 3 t : Vec Ideal S256x256 .f32) = (V c main_arg16 : S256x256.Idx → EReal) := by
  obtain ⟨-, -, -, -, -, -, e0, e1, -⟩ := blocks_at t
  funext y
  unfold iblk5
  rw [View.read_apply]
  show V c main_arg16 _ = V c main_arg16 _
  congr 1
  funext a; apply Fin.ext
  match a with
  | ⟨0, _⟩ => show win5_3.index t (0 : Fin 2) * 256 + 1 * (y 0).val = (y 0).val; omega
  | ⟨1, _⟩ => show win5_3.index t (1 : Fin 2) * 256 + 1 * (y 1).val = (y 1).val; omega

/-- The bias's block at every grid point is the bias. -/
theorem bout_block (c : Dev nD) (t : Fin cfg5.N) :
    (iblk5 V c 4 t : Vec Ideal S1x256 .f32) = (V c main_v36 : S1x256.Idx → EReal) := by
  obtain ⟨-, -, -, -, -, -, -, -, e0, e1, -⟩ := blocks_at t
  funext y
  unfold iblk5
  rw [View.read_apply]
  show V c main_v36 _ = V c main_v36 _
  congr 1
  funext a; apply Fin.ext
  match a with
  | ⟨0, _⟩ => show win5_4.index t (0 : Fin 2) * 1 + 1 * (y 0).val = (y 0).val; omega
  | ⟨1, _⟩ => show win5_4.index t (1 : Fin 2) * 256 + 1 * (y 1).val = (y 1).val; omega

/-! ## What a grid point writes back -/

/-- Grid point t writes back rows 2000·t … 2000·t + 1999 of the finishing stage of the whole arrays. -/
theorem flushed_eq (c : Dev nD) (t : Fin cfg5.N) :
    (dat5 (F := Ideal) V c).flushed 5 t = ((cfg5.win 5).blk t).view.read (Elt Ideal)
      (finish (V c main_v16) (V c main_v20) (V c main_arg1) (V c main_arg16) (row2 (V c main_v36))) := by
  show (cfg5.win 5).cut (grid5.coords t) ((dat5 V c).after 5 t) = _
  rw [after5_5]
  unfold out5_5
  rw [View.canon_unit_zero zero_off]
  simp only [View.ld_unit_zero (S := S2000x256) zero_off, View.ld_unit_zero (S := S2000x1) zero_off,
    View.ld_unit_zero (S := S256x256) zero_off, View.ld_unit_zero (S := S1x256) zero_off]
  rw [KPay.pay5]
  obtain ⟨-, -, -, -, -, -, -, -, -, -, e0, e1⟩ := blocks_at t
  funext j
  show finish (iblk5 V c 0 t) (iblk5 V c 1 t) (iblk5 V c 2 t) (iblk5 V c 3 t) (row2 (iblk5 V c 4 t)) ((win5 5).xinj (grid5.coords t) j)
    = finish (V c main_v16) (V c main_v20) (V c main_arg1) (V c main_arg16) (row2 (V c main_v36)) (((cfg5.win 5).blk t).view.emb j)
  have r0 : ((((cfg5.win 5).blk t).view.emb j) 0).val = t.val * 2000 + (j 0).val := by
    show win5_5.index t (0 : Fin 2) * 2000 + 1 * (j 0).val = _; omega
  have r1 : ((((cfg5.win 5).blk t).view.emb j) 1).val = (j 1).val := by
    show win5_5.index t (1 : Fin 2) * 256 + 1 * (j 1).val = _; omega
  refine finish_rows _ _ _ _ _ _ _ _ _ _ _ _ (wout_block V c t) (congrArg row2 (bout_block V c t)) (Fin.ext r1.symm)
    (fun k => agg_block V c t _ _ r0 rfl) (cnt_block V c t _ _ r0 rfl) (x_block V c t _ _ r0 rfl)

/-! ## The blocks cover the array -/

/-- An index of the result array is in grid point t's block iff each coordinate is in the block's range on its axis. -/
theorem mem_blk (t : Fin cfg5.N) (i : S50000x256.Idx) :
    i ∈ ((cfg5.win 5).blk t).view.set ↔ ∀ a : Fin 2, win5_5.index t a * S2000x256.size a ≤ (i a).val ∧ (i a).val < win5_5.index t a * S2000x256.size a + S2000x256.size a := by
  show i ∈ ((View.whole main_v37).slice (win5_5.rect t)).set ↔ _
  rw [View.set_slice_whole, Rect.mem_set_unit]
  exact Iff.rfl

/-- Row r of the result array is written back by grid point r / 2000. -/
theorem covered (i : S50000x256.Idx) :
    ∃ t : Fin cfg5.N, (cfg5.win 5).flush t = true ∧ i ∈ ((cfg5.win 5).blk t).view.set := by
  have hi0 : (i 0).val < 50000 := (i 0).isLt
  have hi1 : (i 1).val < 256 := (i 1).isLt
  have hN : cfg5.N = 25 := N_5
  have ht : (i 0).val / 2000 < cfg5.N := by rw [hN]; omega
  obtain ⟨-, -, -, -, -, -, -, -, -, -, e0, e1⟩ := blocks_at ⟨(i 0).val / 2000, ht⟩
  refine ⟨⟨(i 0).val / 2000, ht⟩, flush5_5 _, ?_⟩
  rw [mem_blk]
  intro a
  match a with
  | ⟨0, _⟩ =>
    show win5_5.index ⟨(i 0).val / 2000, ht⟩ (0 : Fin 2) * 2000 ≤ (i 0).val ∧ (i 0).val < win5_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win5_5.index ⟨(i 0).val / 2000, ht⟩ (1 : Fin 2) * 256 ≤ (i 1).val ∧ (i 1).val < win5_5.index ⟨(i 0).val / 2000, ht⟩ (1 : Fin 2) * 256 + 256
    rw [e1]; omega

/-! ## The result array when the call returns -/

theorem arr5_5 (c : Dev nD) : (dat5 (F := Ideal) V c).arrAt 5 cfg5.N
    = finish (V c main_v16) (V c main_v20) (V c main_arg1) (V c main_arg16) (row2 (V c main_v36)) :=
  (dat5 V c).arrAt_eq_of_cover 5 _ (fun t _ => flushed_eq V c t) covered

end Cert.Hgt.KReg5

end
-- ==== Proof.LibTake.lean ====
/-
  A row lookup that fills out-of-range rows, when every start index is in range.

  The lookup shifts negative start indices up by the table's height N, gathers the rows (the gather clamps a start into the
  table), and then replaces by a fill value every row whose shifted index is not in [0, N − 1]. When every start index
  lies in [0, N) nothing is shifted and no row is replaced: the lookup is the plain row gather.
-/
import Idealize.ShloMosaic.PureOps.Ideal
import Idealize.ShloMosaic.Lib.ValueIdx
import Idealize.ShloMosaic.Lib.ReduceAll
import Idealize.ShloMosaic.Lib.StableHlo.Predicate
import proofs.«416314_j25881472925720_1_alg».proof.Proof.Spec

noncomputable section

namespace Cert.Hgt

open Idealize.ShloMosaic Idealize.ShloMosaic.ValueIdx Idealize.ShloMosaic.StableHlo.Predicate

/-- Every start index lies in [0, N). -/
def InRange {n : ℕ} (N : ℕ) (ei : IVec ⟨1, ![n]⟩ 32) : Prop :=
  ∀ e : Fin n, 0 ≤ (ei (ix1 e)).toInt ∧ (ei (ix1 e)).toInt < (N : ℤ)

/-- The start indices as the gather reads them: a negative word shifted up by N, the result laid out as a column. -/
abbrev wrapIdx {n : ℕ} (N : BitVec 32) (ei : IVec ⟨1, ![n]⟩ 32)
    (h0 : (⟨0, ![]⟩ : Shape).BroadcastsInDim ⟨1, ![n]⟩ (![] : Fin 0 → Fin 1))
    (hc : (⟨1, ![n]⟩ : Shape).BroadcastsInDim ⟨2, ![n, 1]⟩ (![0] : Fin 1 → Fin 2)) : IVec ⟨2, ![n, 1]⟩ 32 :=
  broadcastInDim ⟨2, ![n, 1]⟩ ![0] hc
    (select (cmpi .slt ei (broadcastInDim ⟨1, ![n]⟩ ![] h0 (constantI ⟨0, ![]⟩ 32 0#32)))
      (addi ei (broadcastInDim ⟨1, ![n]⟩ ![] h0 (constantI ⟨0, ![]⟩ 32 N))) ei)

/-- A left fold by `and` from 1 over bits that are all 1 is 1. -/
private theorem foldl_andi_ones {ι : Type} (f : ι → BitVec 1) (hf : ∀ i, f i = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- An and-reduction from 1 of an array whose every bit is 1 is 1 at every result index. -/
private theorem reduce_andi_ones {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  exact foldl_andi_ones x hx _

/-- With every start index in [0, N) the filling lookup is the plain row gather. M is N − 1, the largest row. -/
theorem take_eq_gather {N M C n : ℕ} (hN : 0 < N) (hM : M + 1 = N) (hN31 : N < 2 ^ 31)
    (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (h0 : (⟨0, ![]⟩ : Shape).BroadcastsInDim ⟨1, ![n]⟩ (![] : Fin 0 → Fin 1))
    (hc : (⟨1, ![n]⟩ : Shape).BroadcastsInDim ⟨2, ![n, 1]⟩ (![0] : Fin 1 → Fin 2))
    (h0c : (⟨0, ![]⟩ : Shape).BroadcastsInDim ⟨2, ![n, 1]⟩ (![] : Fin 0 → Fin 2))
    (h11 : (⟨1, ![1]⟩ : Shape).BroadcastsInDim ⟨2, ![1, 1]⟩ (![1] : Fin 1 → Fin 2))
    (h1n : (⟨2, ![1, 1]⟩ : Shape).BroadcastsInDim ⟨2, ![n, 1]⟩ (![0, 1] : Fin 2 → Fin 2))
    (hred : (⟨2, ![n, 1]⟩ : Shape).ReducesTo [1] ⟨1, ![n]⟩) (hu : 0 < (⟨0, ![]⟩ : Shape).numel)
    (hm : (⟨1, ![n]⟩ : Shape).BroadcastsInDim ⟨2, ![n, C]⟩ (![0] : Fin 1 → Fin 2))
    (ei : IVec ⟨1, ![n]⟩ 32) (hr : InRange N ei) (T : Mat N C) (fill : Mat n C) :
    select (broadcastInDim ⟨2, ![n, C]⟩ ![0] hm
        (Host.reduce IntOp.andi
          (andi (cmpi .sge (wrapIdx (BitVec.ofNat 32 N) ei h0 hc) (broadcastInDim ⟨2, ![n, 1]⟩ ![] h0c (constantI ⟨0, ![]⟩ 32 0#32)))
                (cmpi .sle (wrapIdx (BitVec.ofNat 32 N) ei h0 hc)
                  (broadcastInDim ⟨2, ![n, 1]⟩ ![0, 1] h1n (broadcastInDim ⟨2, ![1, 1]⟩ ![1] h11 (constantI ⟨1, ![1]⟩ 32 (BitVec.ofNat 32 M))))))
          (constantI ⟨0, ![]⟩ 1 1#1) hred hu))
      (Host.gather d T (wrapIdx (BitVec.ofNat 32 N) ei h0 hc)) fill
    = gatherS hN T (wrapIdx (BitVec.ofNat 32 N) ei h0 hc) := by
  rw [gather_eq d hoff hcoll hob hsim hivd hN]
  -- every word of the index column is a start index, unshifted: a start index is not negative
  have hS : ∀ k : (⟨1, ![n]⟩ : Shape).Idx,
      select (cmpi .slt ei (broadcastInDim ⟨1, ![n]⟩ ![] h0 (constantI ⟨0, ![]⟩ 32 0#32)))
        (addi ei (broadcastInDim ⟨1, ![n]⟩ ![] h0 (constantI ⟨0, ![]⟩ 32 (BitVec.ofNat 32 N)))) ei k = ei (ix1 (k 0)) := by
    intro k
    obtain ⟨e, rfl⟩ : ∃ e : Fin n, k = ix1 e := ⟨k 0, eq_ix1 k⟩
    rw [select_apply]
    have hz : cmpi .slt ei (broadcastInDim ⟨1, ![n]⟩ ![] h0 (constantI ⟨0, ![]⟩ 32 0#32)) (ix1 e) = 0#1 := by
      show BitVec.ofBool ((ei (ix1 e)).slt 0#32) = 0#1
      have := (hr e).1
      simp only [BitVec.slt, BitVec.toInt_zero]
      rw [decide_eq_false (by omega)]
      rfl
    rw [hz, select_zero]
    rfl
  have hW : ∀ i, ∃ e : Fin n, wrapIdx (BitVec.ofNat 32 N) ei h0 hc i = ei (ix1 e) := fun i => ⟨_, hS _⟩
  funext j
  rw [select_apply]
  have hb : broadcastInDim ⟨2, ![n, C]⟩ ![0] hm
        (Host.reduce IntOp.andi
          (andi (cmpi .sge (wrapIdx (BitVec.ofNat 32 N) ei h0 hc) (broadcastInDim ⟨2, ![n, 1]⟩ ![] h0c (constantI ⟨0, ![]⟩ 32 0#32)))
                (cmpi .sle (wrapIdx (BitVec.ofNat 32 N) ei h0 hc)
                  (broadcastInDim ⟨2, ![n, 1]⟩ ![0, 1] h1n (broadcastInDim ⟨2, ![1, 1]⟩ ![1] h11 (constantI ⟨1, ![1]⟩ 32 (BitVec.ofNat 32 M))))))
          (constantI ⟨0, ![]⟩ 1 1#1) hred hu) j = 1#1 := by
    show Host.reduce IntOp.andi _ _ hred hu _ = 1#1
    refine reduce_andi_ones _ _ hred hu (fun i => ?_) rfl _
    obtain ⟨e, he⟩ := hW i
    obtain ⟨hlo, hhi⟩ := hr e
    show IntOp.andi (IntOp.cmpi .sge (wrapIdx (BitVec.ofNat 32 N) ei h0 hc i) 0#32)
        (IntOp.cmpi .sle (wrapIdx (BitVec.ofNat 32 N) ei h0 hc i) (BitVec.ofNat 32 M)) = 1#1
    rw [he, IntOp.andi_eq_one]
    have hMi : (BitVec.ofNat 32 M).toInt = (M : ℤ) := toInt_ofNat_small M (by omega)
    constructor
    · show BitVec.ofBool ((0#32).sle (ei (ix1 e))) = 1#1
      rw [ofBool_eq_one_iff]
      simp only [BitVec.sle, BitVec.toInt_zero, decide_eq_true_eq]
      exact hlo
    · show BitVec.ofBool ((ei (ix1 e)).sle (BitVec.ofNat 32 M)) = 1#1
      rw [ofBool_eq_one_iff]
      simp only [BitVec.sle, hMi, decide_eq_true_eq]
      omega
  rw [hb, select_one]

end Cert.Hgt

end
-- ==== Proof.KFold.lean ====
/-
  The kernel program's result array, read back through @main's segment boundaries.

  @main is twenty segments: stretches of host operations and six kernel calls. At each boundary every buffer that matters
  holds a stage function of Spec.lean of the argument arrays: the six projections after the two projection calls; the
  gathered rows after each row lookup (a lookup that fills out-of-range rows is the plain gather when every index is in
  range); the weighted messages after each edge call; the aggregates and counts after the accumulating scatters; each node
  type's output after its finishing call; and the two outputs concatenated at the end. A bias vector reaches a kernel
  call reshaped to one row, which reads back as the vector.
-/
import proofs.«416314_j25881472925720_1_alg».proof.Proof.Gen.KernelIdeal.Frame
import proofs.«416314_j25881472925720_1_alg».proof.Proof.KCarry
import proofs.«416314_j25881472925720_1_alg».proof.Proof.KReg0
import proofs.«416314_j25881472925720_1_alg».proof.Proof.KReg1
import proofs.«416314_j25881472925720_1_alg».proof.Proof.KReg2
import proofs.«416314_j25881472925720_1_alg».proof.Proof.KReg3
import proofs.«416314_j25881472925720_1_alg».proof.Proof.KReg4
import proofs.«416314_j25881472925720_1_alg».proof.Proof.KReg5
import proofs.«416314_j25881472925720_1_alg».proof.Proof.Spec
import proofs.«416314_j25881472925720_1_alg».proof.Proof.LibTake
import Idealize.ShloMosaic.Lib.ValueLayout
import Idealize.ShloMosaic.Lib.StableHlo.Run

noncomputable section

namespace Cert.Hgt.KFold

set_option maxRecDepth 16384

open Idealize.ShloMosaic Idealize.ShloMosaic.TcCoe Idealize.ShloMosaic.ValueIdx Idealize.SL.Sem Idealize.ShloMosaic.StableHlo
open Cert.KernelIdeal Cert.KernelIdeal.Gen Cert.KernelIdeal.GenC Cert.Hgt

variable (m : (ℓ : Loc nD τ sig) → Buf (Elt Ideal) ℓ) (ρ : Dev nD → PrngReg) (c : Dev nD)

/-- A vector reshaped to one row reads back, along that row, as the vector. -/
theorem row2_reshape {a : ℕ} (x : FVec Ideal ⟨1, ![a]⟩ .f32) (h : (⟨1, ![a]⟩ : Shape).ShapeCasts ⟨2, ![1, a]⟩) :
    row2 (shapeCast ⟨2, ![1, a]⟩ x h) = row1 x := funext fun q => shapeCast_a_1a_apply x h 0 q

/-! ## The first projection call -/

theorem e1_arg0 : W1 m ρ c (Proc.devRef .tc main_arg0) = (m ((c : Thread nD τ).loc main_arg0)) := carry_arg0_0_1 m ρ c

theorem e1_arg2 : W1 m ρ c (Proc.devRef .tc main_arg2) = (m ((c : Thread nD τ).loc main_arg2)) := carry_arg2_0_1 m ρ c

theorem e1_arg4 : W1 m ρ c (Proc.devRef .tc main_arg4) = (m ((c : Thread nD τ).loc main_arg4)) := carry_arg4_0_1 m ρ c

theorem e1_arg6 : W1 m ρ c (Proc.devRef .tc main_arg6) = (m ((c : Thread nD τ).loc main_arg6)) := carry_arg6_0_1 m ρ c

theorem e1_v0 : W1 m ρ c (Proc.devRef .tc main_v0) = shapeCast S1x256 (m ((c : Thread nD τ).loc main_arg3)) shapeCasts_S256_S1x256 := by
  show StableHlo.after hostOps0 (W0 m ρ c) (Proc.devRef .tc main_v0) = _
  after_results
  rfl

theorem e1_v1 : W1 m ρ c (Proc.devRef .tc main_v1) = shapeCast S1x256 (m ((c : Thread nD τ).loc main_arg5)) shapeCasts_S256_S1x256 := by
  show StableHlo.after hostOps0 (W0 m ρ c) (Proc.devRef .tc main_v1) = _
  after_results
  rfl

theorem e1_v2 : W1 m ρ c (Proc.devRef .tc main_v2) = shapeCast S1x256 (m ((c : Thread nD τ).loc main_arg7)) shapeCasts_S256_S1x256 := by
  show StableHlo.after hostOps0 (W0 m ρ c) (Proc.devRef .tc main_v2) = _
  after_results
  rfl

theorem r2_k : W2 m ρ c (Proc.devRef .tc main_v3_0) = (lin (m ((c : Thread nD τ).loc main_arg0)) (m ((c : Thread nD τ).loc main_arg2)) (row1 (m ((c : Thread nD τ).loc main_arg3)))) := by
  refine (W2_arr m ρ c 7).trans ((KReg0.arr0_7 (V1 m ρ) c).trans ?_)
  show lin (W1 m ρ c (Proc.devRef .tc main_arg0)) (W1 m ρ c (Proc.devRef .tc main_arg2)) (row2 (W1 m ρ c (Proc.devRef .tc main_v0))) = _
  rw [e1_arg0, e1_arg2, e1_v0, row2_reshape]

theorem r2_q : W2 m ρ c (Proc.devRef .tc main_v3_1) = (lin (m ((c : Thread nD τ).loc main_arg0)) (m ((c : Thread nD τ).loc main_arg4)) (row1 (m ((c : Thread nD τ).loc main_arg5)))) := by
  refine (W2_arr m ρ c 8).trans ((KReg0.arr0_8 (V1 m ρ) c).trans ?_)
  show lin (W1 m ρ c (Proc.devRef .tc main_arg0)) (W1 m ρ c (Proc.devRef .tc main_arg4)) (row2 (W1 m ρ c (Proc.devRef .tc main_v1))) = _
  rw [e1_arg0, e1_arg4, e1_v1, row2_reshape]

theorem r2_v : W2 m ρ c (Proc.devRef .tc main_v3_2) = (lin (m ((c : Thread nD τ).loc main_arg0)) (m ((c : Thread nD τ).loc main_arg6)) (row1 (m ((c : Thread nD τ).loc main_arg7)))) := by
  refine (W2_arr m ρ c 9).trans ((KReg0.arr0_9 (V1 m ρ) c).trans ?_)
  show lin (W1 m ρ c (Proc.devRef .tc main_arg0)) (W1 m ρ c (Proc.devRef .tc main_arg6)) (row2 (W1 m ρ c (Proc.devRef .tc main_v2))) = _
  rw [e1_arg0, e1_arg6, e1_v2, row2_reshape]

/-! ## The second projection call -/

theorem e2_arg11 : W2 m ρ c (Proc.devRef .tc main_arg11) = (m ((c : Thread nD τ).loc main_arg11)) := carry_arg11_0_2 m ρ c

theorem e2_arg13 : W2 m ρ c (Proc.devRef .tc main_arg13) = (m ((c : Thread nD τ).loc main_arg13)) := carry_arg13_0_2 m ρ c

theorem e2_arg15 : W2 m ρ c (Proc.devRef .tc main_arg15) = (m ((c : Thread nD τ).loc main_arg15)) := carry_arg15_0_2 m ρ c

theorem e3_arg1 : W3 m ρ c (Proc.devRef .tc main_arg1) = (m ((c : Thread nD τ).loc main_arg1)) := carry_arg1_0_3 m ρ c

theorem e3_arg10 : W3 m ρ c (Proc.devRef .tc main_arg10) = (m ((c : Thread nD τ).loc main_arg10)) := carry_arg10_0_3 m ρ c

theorem e3_arg12 : W3 m ρ c (Proc.devRef .tc main_arg12) = (m ((c : Thread nD τ).loc main_arg12)) := carry_arg12_0_3 m ρ c

theorem e3_arg14 : W3 m ρ c (Proc.devRef .tc main_arg14) = (m ((c : Thread nD τ).loc main_arg14)) := carry_arg14_0_3 m ρ c

theorem e3_v4 : W3 m ρ c (Proc.devRef .tc main_v4) = shapeCast S1x256 (m ((c : Thread nD τ).loc main_arg11)) shapeCasts_S256_S1x256 := by
  show StableHlo.after hostOps1 (W2 m ρ c) (Proc.devRef .tc main_v4) = _
  after_results
  rw [e2_arg11]
  rfl

theorem e3_v5 : W3 m ρ c (Proc.devRef .tc main_v5) = shapeCast S1x256 (m ((c : Thread nD τ).loc main_arg13)) shapeCasts_S256_S1x256 := by
  show StableHlo.after hostOps1 (W2 m ρ c) (Proc.devRef .tc main_v5) = _
  after_results
  rw [e2_arg13]
  rfl

theorem e3_v6 : W3 m ρ c (Proc.devRef .tc main_v6) = shapeCast S1x256 (m ((c : Thread nD τ).loc main_arg15)) shapeCasts_S256_S1x256 := by
  show StableHlo.after hostOps1 (W2 m ρ c) (Proc.devRef .tc main_v6) = _
  after_results
  rw [e2_arg15]
  rfl

theorem r4_k : W4 m ρ c (Proc.devRef .tc main_v7_0) = (lin (m ((c : Thread nD τ).loc main_arg1)) (m ((c : Thread nD τ).loc main_arg10)) (row1 (m ((c : Thread nD τ).loc main_arg11)))) := by
  refine (W4_arr m ρ c 7).trans ((KReg1.arr1_7 (V3 m ρ) c).trans ?_)
  show lin (W3 m ρ c (Proc.devRef .tc main_arg1)) (W3 m ρ c (Proc.devRef .tc main_arg10)) (row2 (W3 m ρ c (Proc.devRef .tc main_v4))) = _
  rw [e3_arg1, e3_arg10, e3_v4, row2_reshape]

theorem r4_q : W4 m ρ c (Proc.devRef .tc main_v7_1) = (lin (m ((c : Thread nD τ).loc main_arg1)) (m ((c : Thread nD τ).loc main_arg12)) (row1 (m ((c : Thread nD τ).loc main_arg13)))) := by
  refine (W4_arr m ρ c 8).trans ((KReg1.arr1_8 (V3 m ρ) c).trans ?_)
  show lin (W3 m ρ c (Proc.devRef .tc main_arg1)) (W3 m ρ c (Proc.devRef .tc main_arg12)) (row2 (W3 m ρ c (Proc.devRef .tc main_v5))) = _
  rw [e3_arg1, e3_arg12, e3_v5, row2_reshape]

theorem r4_v : W4 m ρ c (Proc.devRef .tc main_v7_2) = (lin (m ((c : Thread nD τ).loc main_arg1)) (m ((c : Thread nD τ).loc main_arg14)) (row1 (m ((c : Thread nD τ).loc main_arg15)))) := by
  refine (W4_arr m ρ c 9).trans ((KReg1.arr1_9 (V3 m ρ) c).trans ?_)
  show lin (W3 m ρ c (Proc.devRef .tc main_arg1)) (W3 m ρ c (Proc.devRef .tc main_arg14)) (row2 (W3 m ρ c (Proc.devRef .tc main_v6))) = _
  rw [e3_arg1, e3_arg14, e3_v6, row2_reshape]

/-! ## The first edge type: three row lookups, the edge call, two accumulating scatters -/

theorem e4_arg26 : W4 m ρ c (Proc.devRef .tc main_arg26) = (m ((c : Thread nD τ).loc main_arg26)) := carry_arg26_0_4 m ρ c

theorem e4_arg27 : W4 m ρ c (Proc.devRef .tc main_arg27) = (m ((c : Thread nD τ).loc main_arg27)) := carry_arg27_0_4 m ρ c

theorem e4_arg19 : W4 m ρ c (Proc.devRef .tc main_arg19) = (m ((c : Thread nD τ).loc main_arg19)) := carry_arg19_0_4 m ρ c

theorem e4_arg21 : W4 m ρ c (Proc.devRef .tc main_arg21) = (m ((c : Thread nD τ).loc main_arg21)) := carry_arg21_0_4 m ρ c

theorem e8_arg18 : W8 m ρ c (Proc.devRef .tc main_arg18) = (m ((c : Thread nD τ).loc main_arg18)) := carry_arg18_0_8 m ρ c

theorem e8_arg20 : W8 m ρ c (Proc.devRef .tc main_arg20) = (m ((c : Thread nD τ).loc main_arg20)) := carry_arg20_0_8 m ρ c

set_option maxHeartbeats 4000000 in
theorem h5_v8 (hPS : InRange 100000 (m ((c : Thread nD τ).loc main_arg26))) : W5 m ρ c (Proc.devRef .tc main_v8) = (gatherS (N := 100000) (by decide) (lin (m ((c : Thread nD τ).loc main_arg0)) (m ((c : Thread nD τ).loc main_arg2)) (row1 (m ((c : Thread nD τ).loc main_arg3)))) (wrapIdx 100000#32 (m ((c : Thread nD τ).loc main_arg26)) bcast_S_S200000 bcast_S200000_S200000x1_0)) := by
  show StableHlo.after hostOps2 (W4 m ρ c) (Proc.devRef .tc main_v8) = _
  after_results_simp
  rw [show W4 m ρ c (Proc.devRef .tc main_v3_0) = (lin (m ((c : Thread nD τ).loc main_arg0)) (m ((c : Thread nD τ).loc main_arg2)) (row1 (m ((c : Thread nD τ).loc main_arg3)))) from (carry_v3_0_2_4 m ρ c).trans (r2_k m ρ c), e4_arg26]
  simp only [TRef.ofBuf, TRef.toBuf, cast_eq]
  exact take_eq_gather (N := 100000) (M := 99999) (by decide) rfl (by norm_num) _ rfl rfl rfl rfl rfl bcast_S_S200000 bcast_S200000_S200000x1_0 bcast_S_S200000x1 bcast_S1_S1x1_1 bcast_S1x1_S200000x1_0_1 reducesTo_S200000x1_S200000_d1 h_S_ bcast_S200000_S200000x256_0 _ hPS _ _

set_option maxHeartbeats 4000000 in
theorem h6_v9 (hPD : InRange 50000 (m ((c : Thread nD τ).loc main_arg27))) : W6 m ρ c (Proc.devRef .tc main_v9) = (gatherS (N := 50000) (by decide) (lin (m ((c : Thread nD τ).loc main_arg1)) (m ((c : Thread nD τ).loc main_arg12)) (row1 (m ((c : Thread nD τ).loc main_arg13)))) (wrapIdx 50000#32 (m ((c : Thread nD τ).loc main_arg27)) bcast_S_S200000 bcast_S200000_S200000x1_0)) := by
  show StableHlo.after hostOps2_1 (W5 m ρ c) (Proc.devRef .tc main_v9) = _
  after_results_simp
  rw [show W4 m ρ c (Proc.devRef .tc main_v7_1) = (lin (m ((c : Thread nD τ).loc main_arg1)) (m ((c : Thread nD τ).loc main_arg12)) (row1 (m ((c : Thread nD τ).loc main_arg13)))) from r4_q m ρ c, e4_arg27]
  simp only [TRef.ofBuf, TRef.toBuf, cast_eq]
  exact take_eq_gather (N := 50000) (M := 49999) (by decide) rfl (by norm_num) _ rfl rfl rfl rfl rfl bcast_S_S200000 bcast_S200000_S200000x1_0 bcast_S_S200000x1 bcast_S1_S1x1_1 bcast_S1x1_S200000x1_0_1 reducesTo_S200000x1_S200000_d1 h_S_ bcast_S200000_S200000x256_0 _ hPD _ _

set_option maxHeartbeats 4000000 in
theorem h7_v10 (hPS : InRange 100000 (m ((c : Thread nD τ).loc main_arg26))) : W7 m ρ c (Proc.devRef .tc main_v10) = (gatherS (N := 100000) (by decide) (lin (m ((c : Thread nD τ).loc main_arg0)) (m ((c : Thread nD τ).loc main_arg6)) (row1 (m ((c : Thread nD τ).loc main_arg7)))) (wrapIdx 100000#32 (m ((c : Thread nD τ).loc main_arg26)) bcast_S_S200000 bcast_S200000_S200000x1_0)) := by
  show StableHlo.after hostOps2_2 (W6 m ρ c) (Proc.devRef .tc main_v10) = _
  after_results_simp
  rw [show W4 m ρ c (Proc.devRef .tc main_v3_2) = (lin (m ((c : Thread nD τ).loc main_arg0)) (m ((c : Thread nD τ).loc main_arg6)) (row1 (m ((c : Thread nD τ).loc main_arg7)))) from (carry_v3_2_2_4 m ρ c).trans (r2_v m ρ c), e4_arg26]
  simp only [TRef.ofBuf, TRef.toBuf, cast_eq]
  exact take_eq_gather (N := 100000) (M := 99999) (by decide) rfl (by norm_num) _ rfl rfl rfl rfl rfl bcast_S_S200000 bcast_S200000_S200000x1_0 bcast_S_S200000x1 bcast_S1_S1x1_1 bcast_S1x1_S200000x1_0_1 reducesTo_S200000x1_S200000_d1 h_S_ bcast_S200000_S200000x256_0 _ hPS _ _

theorem e8_v11 : W8 m ρ c (Proc.devRef .tc main_v11) = shapeCast S1x8 (m ((c : Thread nD τ).loc main_arg19)) shapeCasts_S8_S1x8 := by
  show StableHlo.after hostOps2_3 (W7 m ρ c) (Proc.devRef .tc main_v11) = _
  after_results_simp
  rw [e4_arg19]
  rfl

theorem e8_v12 : W8 m ρ c (Proc.devRef .tc main_v12) = shapeCast S1x256 (m ((c : Thread nD τ).loc main_arg21)) shapeCasts_S256_S1x256 := by
  show StableHlo.after hostOps2_3 (W7 m ρ c) (Proc.devRef .tc main_v12) = _
  after_results_simp
  rw [e4_arg21]
  rfl

theorem r9_w (hPS : InRange 100000 (m ((c : Thread nD τ).loc main_arg26))) (hPD : InRange 50000 (m ((c : Thread nD τ).loc main_arg27))) : W9 m ρ c (Proc.devRef .tc main_v13) = (edge (gatherS (N := 100000) (by decide) (lin (m ((c : Thread nD τ).loc main_arg0)) (m ((c : Thread nD τ).loc main_arg2)) (row1 (m ((c : Thread nD τ).loc main_arg3)))) (wrapIdx 100000#32 (m ((c : Thread nD τ).loc main_arg26)) bcast_S_S200000 bcast_S200000_S200000x1_0)) (gatherS (N := 50000) (by decide) (lin (m ((c : Thread nD τ).loc main_arg1)) (m ((c : Thread nD τ).loc main_arg12)) (row1 (m ((c : Thread nD τ).loc main_arg13)))) (wrapIdx 50000#32 (m ((c : Thread nD τ).loc main_arg27)) bcast_S_S200000 bcast_S200000_S200000x1_0)) (gatherS (N := 100000) (by decide) (lin (m ((c : Thread nD τ).loc main_arg0)) (m ((c : Thread nD τ).loc main_arg6)) (row1 (m ((c : Thread nD τ).loc main_arg7)))) (wrapIdx 100000#32 (m ((c : Thread nD τ).loc main_arg26)) bcast_S_S200000 bcast_S200000_S200000x1_0)) (m ((c : Thread nD τ).loc main_arg18)) (row1 (m ((c : Thread nD τ).loc main_arg19))) (m ((c : Thread nD τ).loc main_arg20)) (row1 (m ((c : Thread nD τ).loc main_arg21)))) := by
  refine (W9_arr m ρ c 7).trans ((KReg2.arr2_7 (V8 m ρ) c).trans ?_)
  show edge (W8 m ρ c (Proc.devRef .tc main_v8)) (W8 m ρ c (Proc.devRef .tc main_v9)) (W8 m ρ c (Proc.devRef .tc main_v10)) (W8 m ρ c (Proc.devRef .tc main_arg18)) (row2 (W8 m ρ c (Proc.devRef .tc main_v11))) (W8 m ρ c (Proc.devRef .tc main_arg20)) (row2 (W8 m ρ c (Proc.devRef .tc main_v12))) = _
  rw [(carry_v8_5_8 m ρ c).trans (h5_v8 m ρ c hPS), (carry_v9_6_8 m ρ c).trans (h6_v9 m ρ c hPD), (carry_v10_7_8 m ρ c).trans (h7_v10 m ρ c hPS), e8_arg18, e8_v11, e8_arg20, e8_v12, row2_reshape, row2_reshape]

theorem e9_arg27 : W9 m ρ c (Proc.devRef .tc main_arg27) = (m ((c : Thread nD τ).loc main_arg27)) := carry_arg27_0_9 m ρ c

theorem e9_arg28 : W9 m ρ c (Proc.devRef .tc main_arg28) = (m ((c : Thread nD τ).loc main_arg28)) := carry_arg28_0_9 m ρ c

theorem e9_arg29 : W9 m ρ c (Proc.devRef .tc main_arg29) = (m ((c : Thread nD τ).loc main_arg29)) := carry_arg29_0_9 m ρ c

theorem e9_arg23 : W9 m ρ c (Proc.devRef .tc main_arg23) = (m ((c : Thread nD τ).loc main_arg23)) := carry_arg23_0_9 m ρ c

theorem e9_arg25 : W9 m ρ c (Proc.devRef .tc main_arg25) = (m ((c : Thread nD τ).loc main_arg25)) := carry_arg25_0_9 m ρ c

theorem h10_agg (hPS : InRange 100000 (m ((c : Thread nD τ).loc main_arg26))) (hPD : InRange 50000 (m ((c : Thread nD τ).loc main_arg27))) : W10 m ρ c (Proc.devRef .tc main_v16) = (scatterS (broadcastInDim S50000x256 ![] bcast_S_S50000x256 (constant (F := Ideal) S_ .f32 0x00000000#32)) (broadcastInDim S200000x1 ![0] bcast_S200000_S200000x1_0 (m ((c : Thread nD τ).loc main_arg27))) (edge (gatherS (N := 100000) (by decide) (lin (m ((c : Thread nD τ).loc main_arg0)) (m ((c : Thread nD τ).loc main_arg2)) (row1 (m ((c : Thread nD τ).loc main_arg3)))) (wrapIdx 100000#32 (m ((c : Thread nD τ).loc main_arg26)) bcast_S_S200000 bcast_S200000_S200000x1_0)) (gatherS (N := 50000) (by decide) (lin (m ((c : Thread nD τ).loc main_arg1)) (m ((c : Thread nD τ).loc main_arg12)) (row1 (m ((c : Thread nD τ).loc main_arg13)))) (wrapIdx 50000#32 (m ((c : Thread nD τ).loc main_arg27)) bcast_S_S200000 bcast_S200000_S200000x1_0)) (gatherS (N := 100000) (by decide) (lin (m ((c : Thread nD τ).loc main_arg0)) (m ((c : Thread nD τ).loc main_arg6)) (row1 (m ((c : Thread nD τ).loc main_arg7)))) (wrapIdx 100000#32 (m ((c : Thread nD τ).loc main_arg26)) bcast_S_S200000 bcast_S200000_S200000x1_0)) (m ((c : Thread nD τ).loc main_arg18)) (row1 (m ((c : Thread nD τ).loc main_arg19))) (m ((c : Thread nD τ).loc main_arg20)) (row1 (m ((c : Thread nD τ).loc main_arg21))))) := by
  show StableHlo.after hostOps3 (W9 m ρ c) (Proc.devRef .tc main_v16) = _
  after_results
  rw [r9_w m ρ c hPS hPD, e9_arg27]
  exact scatterAdd_eq scatter_S50000x256_S200000x1_S200000x256_1_0_0_1 rfl rfl rfl rfl _ _ _

theorem h10_cnt  : W10 m ρ c (Proc.devRef .tc main_v20) = (scatterS (broadcastInDim S50000x1 ![] bcast_S_S50000x1 (constant (F := Ideal) S_ .f32 0x00000000#32)) (broadcastInDim S200000x1 ![0] bcast_S200000_S200000x1_0 (m ((c : Thread nD τ).loc main_arg27))) (broadcastInDim S200000x1 ![] bcast_S_S200000x1 (constant (F := Ideal) S_ .f32 0x3F800000#32))) := by
  show StableHlo.after hostOps3 (W9 m ρ c) (Proc.devRef .tc main_v20) = _
  after_results
  rw [e9_arg27]
  exact scatterAdd_eq scatter_S50000x1_S200000x1_S200000x1_1_0_0_1 rfl rfl rfl rfl _ _ _

/-! ## The reverse edge type -/

theorem e14_arg22 : W14 m ρ c (Proc.devRef .tc main_arg22) = (m ((c : Thread nD τ).loc main_arg22)) := carry_arg22_0_14 m ρ c

theorem e14_arg24 : W14 m ρ c (Proc.devRef .tc main_arg24) = (m ((c : Thread nD τ).loc main_arg24)) := carry_arg24_0_14 m ρ c

set_option maxHeartbeats 4000000 in
theorem h11_v21 (hRS : InRange 50000 (m ((c : Thread nD τ).loc main_arg28))) : W11 m ρ c (Proc.devRef .tc main_v21) = (gatherS (N := 50000) (by decide) (lin (m ((c : Thread nD τ).loc main_arg1)) (m ((c : Thread nD τ).loc main_arg10)) (row1 (m ((c : Thread nD τ).loc main_arg11)))) (wrapIdx 50000#32 (m ((c : Thread nD τ).loc main_arg28)) bcast_S_S200000 bcast_S200000_S200000x1_0)) := by
  show StableHlo.after hostOps3_1 (W10 m ρ c) (Proc.devRef .tc main_v21) = _
  after_results_simp
  rw [show W9 m ρ c (Proc.devRef .tc main_v7_0) = (lin (m ((c : Thread nD τ).loc main_arg1)) (m ((c : Thread nD τ).loc main_arg10)) (row1 (m ((c : Thread nD τ).loc main_arg11)))) from (carry_v7_0_4_9 m ρ c).trans (r4_k m ρ c), e9_arg28]
  simp only [TRef.ofBuf, TRef.toBuf, cast_eq]
  exact take_eq_gather (N := 50000) (M := 49999) (by decide) rfl (by norm_num) _ rfl rfl rfl rfl rfl bcast_S_S200000 bcast_S200000_S200000x1_0 bcast_S_S200000x1 bcast_S1_S1x1_1 bcast_S1x1_S200000x1_0_1 reducesTo_S200000x1_S200000_d1 h_S_ bcast_S200000_S200000x256_0 _ hRS _ _

set_option maxHeartbeats 4000000 in
theorem h12_v22 (hRD : InRange 100000 (m ((c : Thread nD τ).loc main_arg29))) : W12 m ρ c (Proc.devRef .tc main_v22) = (gatherS (N := 100000) (by decide) (lin (m ((c : Thread nD τ).loc main_arg0)) (m ((c : Thread nD τ).loc main_arg4)) (row1 (m ((c : Thread nD τ).loc main_arg5)))) (wrapIdx 100000#32 (m ((c : Thread nD τ).loc main_arg29)) bcast_S_S200000 bcast_S200000_S200000x1_0)) := by
  show StableHlo.after hostOps3_2 (W11 m ρ c) (Proc.devRef .tc main_v22) = _
  after_results_simp
  rw [show W9 m ρ c (Proc.devRef .tc main_v3_1) = (lin (m ((c : Thread nD τ).loc main_arg0)) (m ((c : Thread nD τ).loc main_arg4)) (row1 (m ((c : Thread nD τ).loc main_arg5)))) from (carry_v3_1_2_9 m ρ c).trans (r2_q m ρ c), e9_arg29]
  simp only [TRef.ofBuf, TRef.toBuf, cast_eq]
  exact take_eq_gather (N := 100000) (M := 99999) (by decide) rfl (by norm_num) _ rfl rfl rfl rfl rfl bcast_S_S200000 bcast_S200000_S200000x1_0 bcast_S_S200000x1 bcast_S1_S1x1_1 bcast_S1x1_S200000x1_0_1 reducesTo_S200000x1_S200000_d1 h_S_ bcast_S200000_S200000x256_0 _ hRD _ _

set_option maxHeartbeats 4000000 in
theorem h13_v23 (hRS : InRange 50000 (m ((c : Thread nD τ).loc main_arg28))) : W13 m ρ c (Proc.devRef .tc main_v23) = (gatherS (N := 50000) (by decide) (lin (m ((c : Thread nD τ).loc main_arg1)) (m ((c : Thread nD τ).loc main_arg14)) (row1 (m ((c : Thread nD τ).loc main_arg15)))) (wrapIdx 50000#32 (m ((c : Thread nD τ).loc main_arg28)) bcast_S_S200000 bcast_S200000_S200000x1_0)) := by
  show StableHlo.after hostOps3_3 (W12 m ρ c) (Proc.devRef .tc main_v23) = _
  after_results_simp
  rw [show W9 m ρ c (Proc.devRef .tc main_v7_2) = (lin (m ((c : Thread nD τ).loc main_arg1)) (m ((c : Thread nD τ).loc main_arg14)) (row1 (m ((c : Thread nD τ).loc main_arg15)))) from (carry_v7_2_4_9 m ρ c).trans (r4_v m ρ c), e9_arg28]
  simp only [TRef.ofBuf, TRef.toBuf, cast_eq]
  exact take_eq_gather (N := 50000) (M := 49999) (by decide) rfl (by norm_num) _ rfl rfl rfl rfl rfl bcast_S_S200000 bcast_S200000_S200000x1_0 bcast_S_S200000x1 bcast_S1_S1x1_1 bcast_S1x1_S200000x1_0_1 reducesTo_S200000x1_S200000_d1 h_S_ bcast_S200000_S200000x256_0 _ hRS _ _

theorem e14_v24 : W14 m ρ c (Proc.devRef .tc main_v24) = shapeCast S1x8 (m ((c : Thread nD τ).loc main_arg23)) shapeCasts_S8_S1x8 := by
  show StableHlo.after hostOps3_4 (W13 m ρ c) (Proc.devRef .tc main_v24) = _
  after_results_simp
  rw [e9_arg23]
  rfl

theorem e14_v25 : W14 m ρ c (Proc.devRef .tc main_v25) = shapeCast S1x256 (m ((c : Thread nD τ).loc main_arg25)) shapeCasts_S256_S1x256 := by
  show StableHlo.after hostOps3_4 (W13 m ρ c) (Proc.devRef .tc main_v25) = _
  after_results_simp
  rw [e9_arg25]
  rfl

theorem r15_w (hRS : InRange 50000 (m ((c : Thread nD τ).loc main_arg28))) (hRD : InRange 100000 (m ((c : Thread nD τ).loc main_arg29))) : W15 m ρ c (Proc.devRef .tc main_v26) = (edge (gatherS (N := 50000) (by decide) (lin (m ((c : Thread nD τ).loc main_arg1)) (m ((c : Thread nD τ).loc main_arg10)) (row1 (m ((c : Thread nD τ).loc main_arg11)))) (wrapIdx 50000#32 (m ((c : Thread nD τ).loc main_arg28)) bcast_S_S200000 bcast_S200000_S200000x1_0)) (gatherS (N := 100000) (by decide) (lin (m ((c : Thread nD τ).loc main_arg0)) (m ((c : Thread nD τ).loc main_arg4)) (row1 (m ((c : Thread nD τ).loc main_arg5)))) (wrapIdx 100000#32 (m ((c : Thread nD τ).loc main_arg29)) bcast_S_S200000 bcast_S200000_S200000x1_0)) (gatherS (N := 50000) (by decide) (lin (m ((c : Thread nD τ).loc main_arg1)) (m ((c : Thread nD τ).loc main_arg14)) (row1 (m ((c : Thread nD τ).loc main_arg15)))) (wrapIdx 50000#32 (m ((c : Thread nD τ).loc main_arg28)) bcast_S_S200000 bcast_S200000_S200000x1_0)) (m ((c : Thread nD τ).loc main_arg22)) (row1 (m ((c : Thread nD τ).loc main_arg23))) (m ((c : Thread nD τ).loc main_arg24)) (row1 (m ((c : Thread nD τ).loc main_arg25)))) := by
  refine (W15_arr m ρ c 7).trans ((KReg3.arr3_7 (V14 m ρ) c).trans ?_)
  show edge (W14 m ρ c (Proc.devRef .tc main_v21)) (W14 m ρ c (Proc.devRef .tc main_v22)) (W14 m ρ c (Proc.devRef .tc main_v23)) (W14 m ρ c (Proc.devRef .tc main_arg22)) (row2 (W14 m ρ c (Proc.devRef .tc main_v24))) (W14 m ρ c (Proc.devRef .tc main_arg24)) (row2 (W14 m ρ c (Proc.devRef .tc main_v25))) = _
  rw [(carry_v21_11_14 m ρ c).trans (h11_v21 m ρ c hRS), (carry_v22_12_14 m ρ c).trans (h12_v22 m ρ c hRD), (carry_v23_13_14 m ρ c).trans (h13_v23 m ρ c hRS), e14_arg22, e14_v24, e14_arg24, e14_v25, row2_reshape, row2_reshape]

theorem e15_arg29 : W15 m ρ c (Proc.devRef .tc main_arg29) = (m ((c : Thread nD τ).loc main_arg29)) := carry_arg29_0_15 m ρ c

theorem e15_arg9 : W15 m ρ c (Proc.devRef .tc main_arg9) = (m ((c : Thread nD τ).loc main_arg9)) := carry_arg9_0_15 m ρ c

theorem h16_agg (hRS : InRange 50000 (m ((c : Thread nD τ).loc main_arg28))) (hRD : InRange 100000 (m ((c : Thread nD τ).loc main_arg29))) : W16 m ρ c (Proc.devRef .tc main_v29) = (scatterS (broadcastInDim S100000x256 ![] bcast_S_S100000x256 (constant (F := Ideal) S_ .f32 0x00000000#32)) (broadcastInDim S200000x1 ![0] bcast_S200000_S200000x1_0 (m ((c : Thread nD τ).loc main_arg29))) (edge (gatherS (N := 50000) (by decide) (lin (m ((c : Thread nD τ).loc main_arg1)) (m ((c : Thread nD τ).loc main_arg10)) (row1 (m ((c : Thread nD τ).loc main_arg11)))) (wrapIdx 50000#32 (m ((c : Thread nD τ).loc main_arg28)) bcast_S_S200000 bcast_S200000_S200000x1_0)) (gatherS (N := 100000) (by decide) (lin (m ((c : Thread nD τ).loc main_arg0)) (m ((c : Thread nD τ).loc main_arg4)) (row1 (m ((c : Thread nD τ).loc main_arg5)))) (wrapIdx 100000#32 (m ((c : Thread nD τ).loc main_arg29)) bcast_S_S200000 bcast_S200000_S200000x1_0)) (gatherS (N := 50000) (by decide) (lin (m ((c : Thread nD τ).loc main_arg1)) (m ((c : Thread nD τ).loc main_arg14)) (row1 (m ((c : Thread nD τ).loc main_arg15)))) (wrapIdx 50000#32 (m ((c : Thread nD τ).loc main_arg28)) bcast_S_S200000 bcast_S200000_S200000x1_0)) (m ((c : Thread nD τ).loc main_arg22)) (row1 (m ((c : Thread nD τ).loc main_arg23))) (m ((c : Thread nD τ).loc main_arg24)) (row1 (m ((c : Thread nD τ).loc main_arg25))))) := by
  show StableHlo.after hostOps4 (W15 m ρ c) (Proc.devRef .tc main_v29) = _
  after_results
  rw [r15_w m ρ c hRS hRD, e15_arg29]
  exact scatterAdd_eq scatter_S100000x256_S200000x1_S200000x256_1_0_0_1 rfl rfl rfl rfl _ _ _

theorem h16_cnt  : W16 m ρ c (Proc.devRef .tc main_v33) = (scatterS (broadcastInDim S100000x1 ![] bcast_S_S100000x1 (constant (F := Ideal) S_ .f32 0x00000000#32)) (broadcastInDim S200000x1 ![0] bcast_S200000_S200000x1_0 (m ((c : Thread nD τ).loc main_arg29))) (broadcastInDim S200000x1 ![] bcast_S_S200000x1 (constant (F := Ideal) S_ .f32 0x3F800000#32))) := by
  show StableHlo.after hostOps4 (W15 m ρ c) (Proc.devRef .tc main_v33) = _
  after_results
  rw [e15_arg29]
  exact scatterAdd_eq scatter_S100000x1_S200000x1_S200000x1_1_0_0_1 rfl rfl rfl rfl _ _ _

theorem e16_v34 : W16 m ρ c (Proc.devRef .tc main_v34) = shapeCast S1x256 (m ((c : Thread nD τ).loc main_arg9)) shapeCasts_S256_S1x256 := by
  show StableHlo.after hostOps4 (W15 m ρ c) (Proc.devRef .tc main_v34) = _
  after_results
  rw [e15_arg9]
  rfl

/-! ## The two finishing calls and the concatenation -/

theorem e16_arg0 : W16 m ρ c (Proc.devRef .tc main_arg0) = (m ((c : Thread nD τ).loc main_arg0)) := carry_arg0_0_16 m ρ c

theorem e16_arg8 : W16 m ρ c (Proc.devRef .tc main_arg8) = (m ((c : Thread nD τ).loc main_arg8)) := carry_arg8_0_16 m ρ c

theorem e17_arg17 : W17 m ρ c (Proc.devRef .tc main_arg17) = (m ((c : Thread nD τ).loc main_arg17)) := carry_arg17_0_17 m ρ c

theorem e18_arg1 : W18 m ρ c (Proc.devRef .tc main_arg1) = (m ((c : Thread nD τ).loc main_arg1)) := carry_arg1_0_18 m ρ c

theorem e18_arg16 : W18 m ρ c (Proc.devRef .tc main_arg16) = (m ((c : Thread nD τ).loc main_arg16)) := carry_arg16_0_18 m ρ c

theorem r17_out (hRS : InRange 50000 (m ((c : Thread nD τ).loc main_arg28))) (hRD : InRange 100000 (m ((c : Thread nD τ).loc main_arg29))) : W17 m ρ c (Proc.devRef .tc main_v35) = (finish (scatterS (broadcastInDim S100000x256 ![] bcast_S_S100000x256 (constant (F := Ideal) S_ .f32 0x00000000#32)) (broadcastInDim S200000x1 ![0] bcast_S200000_S200000x1_0 (m ((c : Thread nD τ).loc main_arg29))) (edge (gatherS (N := 50000) (by decide) (lin (m ((c : Thread nD τ).loc main_arg1)) (m ((c : Thread nD τ).loc main_arg10)) (row1 (m ((c : Thread nD τ).loc main_arg11)))) (wrapIdx 50000#32 (m ((c : Thread nD τ).loc main_arg28)) bcast_S_S200000 bcast_S200000_S200000x1_0)) (gatherS (N := 100000) (by decide) (lin (m ((c : Thread nD τ).loc main_arg0)) (m ((c : Thread nD τ).loc main_arg4)) (row1 (m ((c : Thread nD τ).loc main_arg5)))) (wrapIdx 100000#32 (m ((c : Thread nD τ).loc main_arg29)) bcast_S_S200000 bcast_S200000_S200000x1_0)) (gatherS (N := 50000) (by decide) (lin (m ((c : Thread nD τ).loc main_arg1)) (m ((c : Thread nD τ).loc main_arg14)) (row1 (m ((c : Thread nD τ).loc main_arg15)))) (wrapIdx 50000#32 (m ((c : Thread nD τ).loc main_arg28)) bcast_S_S200000 bcast_S200000_S200000x1_0)) (m ((c : Thread nD τ).loc main_arg22)) (row1 (m ((c : Thread nD τ).loc main_arg23))) (m ((c : Thread nD τ).loc main_arg24)) (row1 (m ((c : Thread nD τ).loc main_arg25))))) (scatterS (broadcastInDim S100000x1 ![] bcast_S_S100000x1 (constant (F := Ideal) S_ .f32 0x00000000#32)) (broadcastInDim S200000x1 ![0] bcast_S200000_S200000x1_0 (m ((c : Thread nD τ).loc main_arg29))) (broadcastInDim S200000x1 ![] bcast_S_S200000x1 (constant (F := Ideal) S_ .f32 0x3F800000#32))) (m ((c : Thread nD τ).loc main_arg0)) (m ((c : Thread nD τ).loc main_arg8)) (row1 (m ((c : Thread nD τ).loc main_arg9)))) := by
  refine (W17_arr m ρ c 5).trans ((KReg4.arr4_5 (V16 m ρ) c).trans ?_)
  show finish (W16 m ρ c (Proc.devRef .tc main_v29)) (W16 m ρ c (Proc.devRef .tc main_v33)) (W16 m ρ c (Proc.devRef .tc main_arg0)) (W16 m ρ c (Proc.devRef .tc main_arg8)) (row2 (W16 m ρ c (Proc.devRef .tc main_v34))) = _
  rw [h16_agg m ρ c hRS hRD, h16_cnt, e16_arg0, e16_arg8, e16_v34, row2_reshape]

theorem e18_v36 : W18 m ρ c (Proc.devRef .tc main_v36) = shapeCast S1x256 (m ((c : Thread nD τ).loc main_arg17)) shapeCasts_S256_S1x256 := by
  show StableHlo.after hostOps5 (W17 m ρ c) (Proc.devRef .tc main_v36) = _
  after_results
  rw [e17_arg17]
  rfl

theorem r19_out (hPS : InRange 100000 (m ((c : Thread nD τ).loc main_arg26))) (hPD : InRange 50000 (m ((c : Thread nD τ).loc main_arg27))) : W19 m ρ c (Proc.devRef .tc main_v37) = (finish (scatterS (broadcastInDim S50000x256 ![] bcast_S_S50000x256 (constant (F := Ideal) S_ .f32 0x00000000#32)) (broadcastInDim S200000x1 ![0] bcast_S200000_S200000x1_0 (m ((c : Thread nD τ).loc main_arg27))) (edge (gatherS (N := 100000) (by decide) (lin (m ((c : Thread nD τ).loc main_arg0)) (m ((c : Thread nD τ).loc main_arg2)) (row1 (m ((c : Thread nD τ).loc main_arg3)))) (wrapIdx 100000#32 (m ((c : Thread nD τ).loc main_arg26)) bcast_S_S200000 bcast_S200000_S200000x1_0)) (gatherS (N := 50000) (by decide) (lin (m ((c : Thread nD τ).loc main_arg1)) (m ((c : Thread nD τ).loc main_arg12)) (row1 (m ((c : Thread nD τ).loc main_arg13)))) (wrapIdx 50000#32 (m ((c : Thread nD τ).loc main_arg27)) bcast_S_S200000 bcast_S200000_S200000x1_0)) (gatherS (N := 100000) (by decide) (lin (m ((c : Thread nD τ).loc main_arg0)) (m ((c : Thread nD τ).loc main_arg6)) (row1 (m ((c : Thread nD τ).loc main_arg7)))) (wrapIdx 100000#32 (m ((c : Thread nD τ).loc main_arg26)) bcast_S_S200000 bcast_S200000_S200000x1_0)) (m ((c : Thread nD τ).loc main_arg18)) (row1 (m ((c : Thread nD τ).loc main_arg19))) (m ((c : Thread nD τ).loc main_arg20)) (row1 (m ((c : Thread nD τ).loc main_arg21))))) (scatterS (broadcastInDim S50000x1 ![] bcast_S_S50000x1 (constant (F := Ideal) S_ .f32 0x00000000#32)) (broadcastInDim S200000x1 ![0] bcast_S200000_S200000x1_0 (m ((c : Thread nD τ).loc main_arg27))) (broadcastInDim S200000x1 ![] bcast_S_S200000x1 (constant (F := Ideal) S_ .f32 0x3F800000#32))) (m ((c : Thread nD τ).loc main_arg1)) (m ((c : Thread nD τ).loc main_arg16)) (row1 (m ((c : Thread nD τ).loc main_arg17)))) := by
  refine (W19_arr m ρ c 5).trans ((KReg5.arr5_5 (V18 m ρ) c).trans ?_)
  show finish (W18 m ρ c (Proc.devRef .tc main_v16)) (W18 m ρ c (Proc.devRef .tc main_v20)) (W18 m ρ c (Proc.devRef .tc main_arg1)) (W18 m ρ c (Proc.devRef .tc main_arg16)) (row2 (W18 m ρ c (Proc.devRef .tc main_v36))) = _
  rw [(carry_v16_10_18 m ρ c).trans (h10_agg m ρ c hPS hPD), (carry_v20_10_18 m ρ c).trans (h10_cnt m ρ c), e18_arg1, e18_arg16, e18_v36, row2_reshape]

/-- The result array at the last boundary: the two node types' outputs, concatenated. -/
theorem result_eq (hPS : InRange 100000 (m ((c : Thread nD τ).loc main_arg26))) (hPD : InRange 50000 (m ((c : Thread nD τ).loc main_arg27))) (hRS : InRange 50000 (m ((c : Thread nD τ).loc main_arg28))) (hRD : InRange 100000 (m ((c : Thread nD τ).loc main_arg29))) :
    W20 m ρ c (Proc.devRef .tc main_v38) = concatenate S150000x256 0 [⟨S100000x256, (finish (scatterS (broadcastInDim S100000x256 ![] bcast_S_S100000x256 (constant (F := Ideal) S_ .f32 0x00000000#32)) (broadcastInDim S200000x1 ![0] bcast_S200000_S200000x1_0 (m ((c : Thread nD τ).loc main_arg29))) (edge (gatherS (N := 50000) (by decide) (lin (m ((c : Thread nD τ).loc main_arg1)) (m ((c : Thread nD τ).loc main_arg10)) (row1 (m ((c : Thread nD τ).loc main_arg11)))) (wrapIdx 50000#32 (m ((c : Thread nD τ).loc main_arg28)) bcast_S_S200000 bcast_S200000_S200000x1_0)) (gatherS (N := 100000) (by decide) (lin (m ((c : Thread nD τ).loc main_arg0)) (m ((c : Thread nD τ).loc main_arg4)) (row1 (m ((c : Thread nD τ).loc main_arg5)))) (wrapIdx 100000#32 (m ((c : Thread nD τ).loc main_arg29)) bcast_S_S200000 bcast_S200000_S200000x1_0)) (gatherS (N := 50000) (by decide) (lin (m ((c : Thread nD τ).loc main_arg1)) (m ((c : Thread nD τ).loc main_arg14)) (row1 (m ((c : Thread nD τ).loc main_arg15)))) (wrapIdx 50000#32 (m ((c : Thread nD τ).loc main_arg28)) bcast_S_S200000 bcast_S200000_S200000x1_0)) (m ((c : Thread nD τ).loc main_arg22)) (row1 (m ((c : Thread nD τ).loc main_arg23))) (m ((c : Thread nD τ).loc main_arg24)) (row1 (m ((c : Thread nD τ).loc main_arg25))))) (scatterS (broadcastInDim S100000x1 ![] bcast_S_S100000x1 (constant (F := Ideal) S_ .f32 0x00000000#32)) (broadcastInDim S200000x1 ![0] bcast_S200000_S200000x1_0 (m ((c : Thread nD τ).loc main_arg29))) (broadcastInDim S200000x1 ![] bcast_S_S200000x1 (constant (F := Ideal) S_ .f32 0x3F800000#32))) (m ((c : Thread nD τ).loc main_arg0)) (m ((c : Thread nD τ).loc main_arg8)) (row1 (m ((c : Thread nD τ).loc main_arg9))))⟩, ⟨S50000x256, (finish (scatterS (broadcastInDim S50000x256 ![] bcast_S_S50000x256 (constant (F := Ideal) S_ .f32 0x00000000#32)) (broadcastInDim S200000x1 ![0] bcast_S200000_S200000x1_0 (m ((c : Thread nD τ).loc main_arg27))) (edge (gatherS (N := 100000) (by decide) (lin (m ((c : Thread nD τ).loc main_arg0)) (m ((c : Thread nD τ).loc main_arg2)) (row1 (m ((c : Thread nD τ).loc main_arg3)))) (wrapIdx 100000#32 (m ((c : Thread nD τ).loc main_arg26)) bcast_S_S200000 bcast_S200000_S200000x1_0)) (gatherS (N := 50000) (by decide) (lin (m ((c : Thread nD τ).loc main_arg1)) (m ((c : Thread nD τ).loc main_arg12)) (row1 (m ((c : Thread nD τ).loc main_arg13)))) (wrapIdx 50000#32 (m ((c : Thread nD τ).loc main_arg27)) bcast_S_S200000 bcast_S200000_S200000x1_0)) (gatherS (N := 100000) (by decide) (lin (m ((c : Thread nD τ).loc main_arg0)) (m ((c : Thread nD τ).loc main_arg6)) (row1 (m ((c : Thread nD τ).loc main_arg7)))) (wrapIdx 100000#32 (m ((c : Thread nD τ).loc main_arg26)) bcast_S_S200000 bcast_S200000_S200000x1_0)) (m ((c : Thread nD τ).loc main_arg18)) (row1 (m ((c : Thread nD τ).loc main_arg19))) (m ((c : Thread nD τ).loc main_arg20)) (row1 (m ((c : Thread nD τ).loc main_arg21))))) (scatterS (broadcastInDim S50000x1 ![] bcast_S_S50000x1 (constant (F := Ideal) S_ .f32 0x00000000#32)) (broadcastInDim S200000x1 ![0] bcast_S200000_S200000x1_0 (m ((c : Thread nD τ).loc main_arg27))) (broadcastInDim S200000x1 ![] bcast_S_S200000x1 (constant (F := Ideal) S_ .f32 0x3F800000#32))) (m ((c : Thread nD τ).loc main_arg1)) (m ((c : Thread nD τ).loc main_arg16)) (row1 (m ((c : Thread nD τ).loc main_arg17))))⟩] concatenates_S100000x256_S50000x256_S150000x256_d0 := by
  show StableHlo.after hostOps6 (W19 m ρ c) (Proc.devRef .tc main_v38) = _
  after_results
  rw [(carry_v35_17_19 m ρ c).trans (r17_out m ρ c hRS hRD), r19_out m ρ c hPS hPD]

end Cert.Hgt.KFold

end
-- ==== Proof.PreDecode.lean ====
/-
  What the precondition says about the four arrays of edge endpoints.

  The precondition is a conjunction, taken left to right, of one all-entries test per input; its last four conjuncts
  say that every entry e of an endpoint array satisfies 0 ≤ e and e < N (signed comparisons of 32-bit words), N the
  number of nodes of the type the array points into. So when the precondition is all ones, every endpoint, read
  signed, lies in [0, N).
-/
import proofs.«416314_j25881472925720_1_alg».proof.Pre_finite_inputs
import proofs.«416314_j25881472925720_1_alg».proof.Proof.Gen.Pre_finite_inputs
import proofs.«416314_j25881472925720_1_alg».proof.Proof.LibTake
import Idealize.ShloMosaic.Lib.ReduceAll
import Idealize.ShloMosaic.Lib.StableHlo.Predicate

noncomputable section

namespace Cert.Hgt.PreDecode

open Idealize.ShloMosaic Idealize.ShloMosaic.ValueIdx Idealize.ShloMosaic.StableHlo.Predicate Cert.Pre_finite_inputs Cert.Hgt

attribute [local instance] Cert.Pre_finite_inputs.Gen.facts

/-- The result shape of a reduction over every axis has one index. -/
private instance : Subsingleton S_.Idx := ⟨fun a b => funext fun d => d.elim0⟩

/-- One conjunct of the precondition, read back: if the all-entries test of 0 ≤ e ∧ e < N (signed) is 1,
    every entry, read signed, lies in [0, N). -/
private theorem inRange_of_all (N : ℕ) (Nw : BitVec 32) (hN : Nw.toInt = (N : ℤ)) (ei : IVec S200000 32)
    (h : Host.reduce IntOp.andi
      (andi (cmpi .sge ei (broadcastInDim S200000 ![] Facts.bcast_S_S200000 (constantI S_ 32 0#32)))
            (cmpi .slt ei (broadcastInDim S200000 ![] Facts.bcast_S_S200000 (constantI S_ 32 Nw))))
      (constantI S_ 1 1#1) Facts.reducesTo_S200000_S_d0 Facts.h_S_ ix0 = 1#1) : InRange N ei := by
  intro e
  -- the reduction by "and" is 1, so the test is 1 at entry e
  have he := Host.reduce_andi_all _ _ _ _ _ h (ix1 e)
  obtain ⟨h1, h2⟩ := IntOp.andi_eq_one.1 he
  -- the two signed comparisons, read at entry e against the broadcast constants
  have h1' : (0#32 : BitVec 32).toInt ≤ (ei (ix1 e)).toInt := IntOp.cmpi_sge.1 h1
  have h2' : (ei (ix1 e)).toInt < Nw.toInt := IntOp.cmpi_slt.1 h2
  have hz : (0#32 : BitVec 32).toInt = 0 := by decide
  rw [hz] at h1'
  rw [hN] at h2'
  exact ⟨h1', h2'⟩

theorem ranges_of_pre (a0 : FVec Ideal S100000x256 .f32) (a1 : FVec Ideal S50000x256 .f32) (a2 : FVec Ideal S256x256 .f32) (a3 : FVec Ideal S256 .f32) (a4 : FVec Ideal S256x256 .f32) (a5 : FVec Ideal S256 .f32) (a6 : FVec Ideal S256x256 .f32) (a7 : FVec Ideal S256 .f32) (a8 : FVec Ideal S256x256 .f32) (a9 : FVec Ideal S256 .f32) (a10 : FVec Ideal S256x256 .f32) (a11 : FVec Ideal S256 .f32) (a12 : FVec Ideal S256x256 .f32) (a13 : FVec Ideal S256 .f32) (a14 : FVec Ideal S256x256 .f32) (a15 : FVec Ideal S256 .f32) (a16 : FVec Ideal S256x256 .f32) (a17 : FVec Ideal S256 .f32) (a18 : FVec Ideal S256x8 .f32) (a19 : FVec Ideal S8 .f32) (a20 : FVec Ideal S256x256 .f32) (a21 : FVec Ideal S256 .f32) (a22 : FVec Ideal S256x8 .f32) (a23 : FVec Ideal S8 .f32) (a24 : FVec Ideal S256x256 .f32) (a25 : FVec Ideal S256 .f32) (a26 : IVec S200000 32) (a27 : IVec S200000 32) (a28 : IVec S200000 32) (a29 : IVec S200000 32)
    (h : Cert.Pre_finite_inputs.fn (F := Ideal) a0 a1 a2 a3 a4 a5 a6 a7 a8 a9 a10 a11 a12 a13 a14 a15 a16 a17 a18 a19 a20 a21 a22 a23 a24 a25 a26 a27 a28 a29 = fun _ => 1#1) :
    InRange 100000 a26 ∧ InRange 50000 a27 ∧ InRange 50000 a28 ∧ InRange 100000 a29 := by
  -- the precondition at its one index
  have h0 := congrFun h ix0
  -- the conjunction is taken left to right: the last conjunct is outermost
  obtain ⟨h0, h29⟩ := IntOp.andi_eq_one.1 h0
  obtain ⟨h0, h28⟩ := IntOp.andi_eq_one.1 h0
  obtain ⟨h0, h27⟩ := IntOp.andi_eq_one.1 h0
  obtain ⟨-, h26⟩ := IntOp.andi_eq_one.1 h0
  exact ⟨inRange_of_all 100000 100000#32 (by decide) a26 h26, inRange_of_all 50000 50000#32 (by decide) a27 h27,
    inRange_of_all 50000 50000#32 (by decide) a28 h28, inRange_of_all 100000 100000#32 (by decide) a29 h29⟩

end Cert.Hgt.PreDecode

end
-- ==== Proof.RefLin.lean ====
/-
  The reference's six projections: each is x · W + b, the bias broadcast along the rows.
-/
import proofs.«416314_j25881472925720_1_alg».proof.Proof.RefRead
import proofs.«416314_j25881472925720_1_alg».proof.Proof.Spec
import proofs.«416314_j25881472925720_1_alg».proof.Proof.LibDense
import Idealize.ShloMosaic.Lib.ValueLayout
import Idealize.ShloMosaic.Lib.Pipeline.Value
import Idealize.ShloMosaic.PureOps.Ideal.Laws
import Idealize.ShloMosaic.Lib.StableHlo.Predicate

noncomputable section

namespace Cert.Hgt.RefLin

open Idealize.ShloMosaic Idealize.ShloMosaic.ValueIdx Cert.ReferenceIdeal Cert.ReferenceIdeal.ReadP Cert.Hgt

/-! Each projection read at (p, q): the product is the sum over the contracted axis of the row p of the input times the
    column q of the weight, and the bias is read through its two broadcasts at position q. The six proofs are one. -/

theorem v3_eq (x0 : (⟨S100000x256, .f32⟩ : BufTy).Contents (Elt Ideal)) (x2 : (⟨S256x256, .f32⟩ : BufTy).Contents (Elt Ideal)) (x3 : (⟨S256, .f32⟩ : BufTy).Contents (Elt Ideal)) : val_main_v3 (F := Ideal) x0 x2 x3 = lin x0 x2 (row1 x3) := by
  funext j
  obtain ⟨p, q, rfl⟩ : ∃ (p : Fin 100000) (q : Fin 256), j = ix2 p q := ⟨j 0, j 1, eq_ix2 j⟩
  rw [val_main_v3_apply, val_main_v0_apply, val_main_v2_apply, val_main_v1_apply]
  have hl : ∀ k : Fin 256, lidx_main_v0 (ix2 p q) k = ix2 p k := fun k =>
    funext fun a => Fin.ext (by match a with | ⟨0, _⟩ => rfl | ⟨1, _⟩ => rfl)
  have hr : ∀ k : Fin 256, ridx_main_v0 (ix2 p q) k = ix2 k q := fun k =>
    funext fun a => Fin.ext (by match a with | ⟨0, _⟩ => rfl | ⟨1, _⟩ => rfl)
  have hb : idx_main_v1 (idx_main_v2 (ix2 p q)) = ix1 q :=
    funext fun a => Fin.ext (by match a with | ⟨0, _⟩ => rfl)
  rw [lin_apply]
  unfold linE row1
  simp only [Ideal.addf_def, hl, hr, hb]
theorem v7_eq (x0 : (⟨S100000x256, .f32⟩ : BufTy).Contents (Elt Ideal)) (x4 : (⟨S256x256, .f32⟩ : BufTy).Contents (Elt Ideal)) (x5 : (⟨S256, .f32⟩ : BufTy).Contents (Elt Ideal)) : val_main_v7 (F := Ideal) x0 x4 x5 = lin x0 x4 (row1 x5) := by
  funext j
  obtain ⟨p, q, rfl⟩ : ∃ (p : Fin 100000) (q : Fin 256), j = ix2 p q := ⟨j 0, j 1, eq_ix2 j⟩
  rw [val_main_v7_apply, val_main_v4_apply, val_main_v6_apply, val_main_v5_apply]
  have hl : ∀ k : Fin 256, lidx_main_v4 (ix2 p q) k = ix2 p k := fun k =>
    funext fun a => Fin.ext (by match a with | ⟨0, _⟩ => rfl | ⟨1, _⟩ => rfl)
  have hr : ∀ k : Fin 256, ridx_main_v4 (ix2 p q) k = ix2 k q := fun k =>
    funext fun a => Fin.ext (by match a with | ⟨0, _⟩ => rfl | ⟨1, _⟩ => rfl)
  have hb : idx_main_v5 (idx_main_v6 (ix2 p q)) = ix1 q :=
    funext fun a => Fin.ext (by match a with | ⟨0, _⟩ => rfl)
  rw [lin_apply]
  unfold linE row1
  simp only [Ideal.addf_def, hl, hr, hb]
theorem v11_eq (x0 : (⟨S100000x256, .f32⟩ : BufTy).Contents (Elt Ideal)) (x6 : (⟨S256x256, .f32⟩ : BufTy).Contents (Elt Ideal)) (x7 : (⟨S256, .f32⟩ : BufTy).Contents (Elt Ideal)) : val_main_v11 (F := Ideal) x0 x6 x7 = lin x0 x6 (row1 x7) := by
  funext j
  obtain ⟨p, q, rfl⟩ : ∃ (p : Fin 100000) (q : Fin 256), j = ix2 p q := ⟨j 0, j 1, eq_ix2 j⟩
  rw [val_main_v11_apply, val_main_v8_apply, val_main_v10_apply, val_main_v9_apply]
  have hl : ∀ k : Fin 256, lidx_main_v8 (ix2 p q) k = ix2 p k := fun k =>
    funext fun a => Fin.ext (by match a with | ⟨0, _⟩ => rfl | ⟨1, _⟩ => rfl)
  have hr : ∀ k : Fin 256, ridx_main_v8 (ix2 p q) k = ix2 k q := fun k =>
    funext fun a => Fin.ext (by match a with | ⟨0, _⟩ => rfl | ⟨1, _⟩ => rfl)
  have hb : idx_main_v9 (idx_main_v10 (ix2 p q)) = ix1 q :=
    funext fun a => Fin.ext (by match a with | ⟨0, _⟩ => rfl)
  rw [lin_apply]
  unfold linE row1
  simp only [Ideal.addf_def, hl, hr, hb]
theorem v15_eq (x1 : (⟨S50000x256, .f32⟩ : BufTy).Contents (Elt Ideal)) (x10 : (⟨S256x256, .f32⟩ : BufTy).Contents (Elt Ideal)) (x11 : (⟨S256, .f32⟩ : BufTy).Contents (Elt Ideal)) : val_main_v15 (F := Ideal) x1 x10 x11 = lin x1 x10 (row1 x11) := by
  funext j
  obtain ⟨p, q, rfl⟩ : ∃ (p : Fin 50000) (q : Fin 256), j = ix2 p q := ⟨j 0, j 1, eq_ix2 j⟩
  rw [val_main_v15_apply, val_main_v12_apply, val_main_v14_apply, val_main_v13_apply]
  have hl : ∀ k : Fin 256, lidx_main_v12 (ix2 p q) k = ix2 p k := fun k =>
    funext fun a => Fin.ext (by match a with | ⟨0, _⟩ => rfl | ⟨1, _⟩ => rfl)
  have hr : ∀ k : Fin 256, ridx_main_v12 (ix2 p q) k = ix2 k q := fun k =>
    funext fun a => Fin.ext (by match a with | ⟨0, _⟩ => rfl | ⟨1, _⟩ => rfl)
  have hb : idx_main_v13 (idx_main_v14 (ix2 p q)) = ix1 q :=
    funext fun a => Fin.ext (by match a with | ⟨0, _⟩ => rfl)
  rw [lin_apply]
  unfold linE row1
  simp only [Ideal.addf_def, hl, hr, hb]
theorem v19_eq (x1 : (⟨S50000x256, .f32⟩ : BufTy).Contents (Elt Ideal)) (x12 : (⟨S256x256, .f32⟩ : BufTy).Contents (Elt Ideal)) (x13 : (⟨S256, .f32⟩ : BufTy).Contents (Elt Ideal)) : val_main_v19 (F := Ideal) x1 x12 x13 = lin x1 x12 (row1 x13) := by
  funext j
  obtain ⟨p, q, rfl⟩ : ∃ (p : Fin 50000) (q : Fin 256), j = ix2 p q := ⟨j 0, j 1, eq_ix2 j⟩
  rw [val_main_v19_apply, val_main_v16_apply, val_main_v18_apply, val_main_v17_apply]
  have hl : ∀ k : Fin 256, lidx_main_v16 (ix2 p q) k = ix2 p k := fun k =>
    funext fun a => Fin.ext (by match a with | ⟨0, _⟩ => rfl | ⟨1, _⟩ => rfl)
  have hr : ∀ k : Fin 256, ridx_main_v16 (ix2 p q) k = ix2 k q := fun k =>
    funext fun a => Fin.ext (by match a with | ⟨0, _⟩ => rfl | ⟨1, _⟩ => rfl)
  have hb : idx_main_v17 (idx_main_v18 (ix2 p q)) = ix1 q :=
    funext fun a => Fin.ext (by match a with | ⟨0, _⟩ => rfl)
  rw [lin_apply]
  unfold linE row1
  simp only [Ideal.addf_def, hl, hr, hb]
theorem v23_eq (x1 : (⟨S50000x256, .f32⟩ : BufTy).Contents (Elt Ideal)) (x14 : (⟨S256x256, .f32⟩ : BufTy).Contents (Elt Ideal)) (x15 : (⟨S256, .f32⟩ : BufTy).Contents (Elt Ideal)) : val_main_v23 (F := Ideal) x1 x14 x15 = lin x1 x14 (row1 x15) := by
  funext j
  obtain ⟨p, q, rfl⟩ : ∃ (p : Fin 50000) (q : Fin 256), j = ix2 p q := ⟨j 0, j 1, eq_ix2 j⟩
  rw [val_main_v23_apply, val_main_v20_apply, val_main_v22_apply, val_main_v21_apply]
  have hl : ∀ k : Fin 256, lidx_main_v20 (ix2 p q) k = ix2 p k := fun k =>
    funext fun a => Fin.ext (by match a with | ⟨0, _⟩ => rfl | ⟨1, _⟩ => rfl)
  have hr : ∀ k : Fin 256, ridx_main_v20 (ix2 p q) k = ix2 k q := fun k =>
    funext fun a => Fin.ext (by match a with | ⟨0, _⟩ => rfl | ⟨1, _⟩ => rfl)
  have hb : idx_main_v21 (idx_main_v22 (ix2 p q)) = ix1 q :=
    funext fun a => Fin.ext (by match a with | ⟨0, _⟩ => rfl)
  rw [lin_apply]
  unfold linE row1
  simp only [Ideal.addf_def, hl, hr, hb]

end Cert.Hgt.RefLin

end
-- ==== Proof.RefEdge.lean ====
/-
  The reference's two edge stages: the weighted messages of each edge type are the edge stage of Spec.lean applied to
  the three gathered arrays. The reference subtracts max (−∞, row maximum), which is the row maximum.
-/
import proofs.«416314_j25881472925720_1_alg».proof.Proof.RefRead
import proofs.«416314_j25881472925720_1_alg».proof.Proof.Spec
import proofs.«416314_j25881472925720_1_alg».proof.Proof.LibDense
import Idealize.ShloMosaic.Lib.ValueLayout
import Idealize.ShloMosaic.Lib.Pipeline.Value
import Idealize.ShloMosaic.PureOps.Ideal.Laws
import Idealize.ShloMosaic.Lib.StableHlo.Predicate

noncomputable section

namespace Cert.Hgt.RefEdge

open Idealize.ShloMosaic Idealize.ShloMosaic.ValueIdx Cert.ReferenceIdeal Cert.ReferenceIdeal.ReadP Cert.Hgt

/-- The reduced index e with head k put back is (e, k). -/
private theorem lift_head (hr : S200000x8.Reduces [1] S200000) (e : Fin 200000) (k : Fin (S200000x8.size 1)) :
    hr.lift (ix1 e) k = ix2 e (⟨k.val, k.isLt⟩ : Fin 8) := by
  funext c; apply Fin.ext
  fin_cases c <;> rfl

/-- −∞ is below every extended real. -/
private theorem max_neg_inf (y : EReal) : max (Ideal.ofBits .f32 0xFF800000#32) y = y := by
  simp [Ideal.ofBits, Ideal.ieee]

section First

variable (x0 : (⟨S100000x256, .f32⟩ : BufTy).Contents (Elt Ideal)) (x1 : (⟨S50000x256, .f32⟩ : BufTy).Contents (Elt Ideal)) (x2 : (⟨S256x256, .f32⟩ : BufTy).Contents (Elt Ideal)) (x3 : (⟨S256, .f32⟩ : BufTy).Contents (Elt Ideal)) (x6 : (⟨S256x256, .f32⟩ : BufTy).Contents (Elt Ideal)) (x7 : (⟨S256, .f32⟩ : BufTy).Contents (Elt Ideal)) (x12 : (⟨S256x256, .f32⟩ : BufTy).Contents (Elt Ideal)) (x13 : (⟨S256, .f32⟩ : BufTy).Contents (Elt Ideal)) (x18 : (⟨S256x8, .f32⟩ : BufTy).Contents (Elt Ideal)) (x19 : (⟨S8, .f32⟩ : BufTy).Contents (Elt Ideal)) (x20 : (⟨S256x256, .f32⟩ : BufTy).Contents (Elt Ideal)) (x21 : (⟨S256, .f32⟩ : BufTy).Contents (Elt Ideal)) (x26 : (⟨S200000, .i32⟩ : BufTy).Contents (Elt Ideal)) (x27 : (⟨S200000, .i32⟩ : BufTy).Contents (Elt Ideal))

/-- Head h's score of edge e, as the reference computes it. -/
private theorem score72 (e : Fin 200000) (h : Fin 8) :
    val_main_v51 (F := Ideal) x0 x1 x2 x3 x12 x13 x18 x19 x26 x27 (ix2 e h) = scoreE (val_main_v30 (F := Ideal) x0 x2 x3 x26) (val_main_v37 (F := Ideal) x1 x12 x13 x27) x18 (row1 x19) e h := by
  rw [val_main_v51_apply, val_main_v49_apply, val_main_v46_apply, val_main_v48_apply, val_main_v47_apply, val_main_v50_apply, val_main_cst_apply]
  simp only [val_main_v45_apply, Ideal.hostDivf_def, Ideal.addf_def, Ideal.mulf_def, Ideal.ofBits_def]
  have el : ∀ k : Fin 256, lidx_main_v46 (ix2 e h) k = ix2 e k := fun k => funext fun a => by
    match a with | ⟨0, _⟩ => rfl | ⟨1, _⟩ => rfl
  have er : ∀ k : Fin 256, ridx_main_v46 (ix2 e h) k = ix2 k h := fun k => funext fun a => by
    match a with | ⟨0, _⟩ => rfl | ⟨1, _⟩ => rfl
  have eb : idx_main_v47 (idx_main_v48 (ix2 e h)) = ix1 h := funext fun a => by
    match a with | ⟨0, _⟩ => rfl
  simp only [el, er, eb]
  rfl

/-- The reference's max (−∞, row maximum of the scores) is the largest of edge e's eight scores. -/
private theorem smax72 (e : Fin 200000) :
    val_main_v54 (F := Ideal) x0 x1 x2 x3 x12 x13 x18 x19 x26 x27 (ix1 e) = smaxE (val_main_v30 (F := Ideal) x0 x2 x3 x26) (val_main_v37 (F := Ideal) x1 x12 x13 x27) x18 (row1 x19) e := by
  have hr : S200000x8.Reduces [1] S200000 := by decide
  rw [val_main_v54_apply, val_main_v53_apply, val_main_cst_6_apply]
  unfold val_main_v52
  rw [Host.reduce_eq_fold_single FloatOps.maximumf _ _ _ hr _]
  simp only [Ideal.maximumf_def, Ideal.ofBits_def]
  rw [max_neg_inf]
  unfold smaxE
  have hf : (val_main_v51 (F := Ideal) x0 x1 x2 x3 x12 x13 x18 x19 x26 x27 ∘ hr.lift (ix1 e))
      = fun h : Fin 8 => scoreE (val_main_v30 (F := Ideal) x0 x2 x3 x26) (val_main_v37 (F := Ideal) x1 x12 x13 x27) x18 (row1 x19) e h :=
    funext fun k => (congrArg _ (lift_head hr e k)).trans (score72 x0 x1 x2 x3 x12 x13 x18 x19 x26 x27 e _)
  exact congrArg (fun f => Finset.fold max (Ideal.ofBits .f32 0xFF800000#32) f (Finset.univ : Finset (Fin 8))) hf

/-- The exponential of head h's score less the largest score. -/
private theorem exp72 (e : Fin 200000) (h : Fin 8) :
    val_main_v58 (F := Ideal) x0 x1 x2 x3 x12 x13 x18 x19 x26 x27 (ix2 e h) = expE (val_main_v30 (F := Ideal) x0 x2 x3 x26) (val_main_v37 (F := Ideal) x1 x12 x13 x27) x18 (row1 x19) e h := by
  rw [val_main_v58_apply, val_main_v57_apply, val_main_v56_apply, val_main_v55_apply]
  have ei : idx_main_v55 (idx_main_v56 (ix2 e h)) = ix1 e := funext fun a => by
    match a with | ⟨0, _⟩ => rfl
  rw [ei, score72, smax72]
  simp only [Ideal.hostUnary_exp_def, Ideal.subf_def]
  rfl

/-- The sum of the eight exponentials of edge e. -/
private theorem expsum72 (e : Fin 200000) :
    val_main_v59 (F := Ideal) x0 x1 x2 x3 x12 x13 x18 x19 x26 x27 (ix1 e) = ∑ h : Fin 8, expE (val_main_v30 (F := Ideal) x0 x2 x3 x26) (val_main_v37 (F := Ideal) x1 x12 x13 x27) x18 (row1 x19) e h := by
  rw [val_main_v59_apply, val_main_cst_7_apply]
  simp only [Ideal.ofBits_def, Ideal.ofBits_zero_f32, zero_add]
  refine Finset.sum_congr rfl fun k _ => ?_
  have ei : idx_main_v59 (ix1 e) k = ix2 e k := funext fun a => by
    match a with | ⟨0, _⟩ => rfl | ⟨1, _⟩ => rfl
  rw [ei, exp72]

/-- Head h's attention weight of edge e. -/
private theorem attn72 (e : Fin 200000) (h : Fin 8) :
    val_main_v62 (F := Ideal) x0 x1 x2 x3 x12 x13 x18 x19 x26 x27 (ix2 e h) = attnE (val_main_v30 (F := Ideal) x0 x2 x3 x26) (val_main_v37 (F := Ideal) x1 x12 x13 x27) x18 (row1 x19) e h := by
  rw [val_main_v62_apply, val_main_v61_apply, val_main_v60_apply]
  have ei : idx_main_v60 (idx_main_v61 (ix2 e h)) = ix1 e := funext fun a => by
    match a with | ⟨0, _⟩ => rfl
  rw [ei, exp72, expsum72]
  simp only [Ideal.hostDivf_def]
  rfl

/-- The mean over the heads of edge e's attention weights, read at the one column of the one-column array. -/
private theorem mean72 (e : Fin 200000) :
    val_main_v70 (F := Ideal) x0 x1 x2 x3 x12 x13 x18 x19 x26 x27 (ix2 e 0) = meanE (val_main_v30 (F := Ideal) x0 x2 x3 x26) (val_main_v37 (F := Ideal) x1 x12 x13 x27) x18 (row1 x19) e := by
  rw [val_main_v70_apply, val_main_v68_apply, val_main_v69_apply, val_main_cst_9_apply, val_main_v67_apply, val_main_cst_8_apply]
  simp only [Ideal.ofBits_def, Ideal.ofBits_zero_f32, zero_add, Ideal.hostDivf_def]
  unfold meanE
  refine congrArg (fun s => Ideal.div s (Ideal.ofBits .f32 0x41000000#32)) (Finset.sum_congr rfl fun k _ => ?_)
  have ei : idx_main_v67 (idx_main_v68 (ix2 e 0)) k = ix2 e k := funext fun a => by
    match a with | ⟨0, _⟩ => rfl | ⟨1, _⟩ => rfl
  rw [ei, attn72]

/-- The message of edge e at column d: the gathered values times the message weights plus the bias. -/
private theorem lin72 (e : Fin 200000) (d : Fin 256) :
    val_main_v66 (F := Ideal) x0 x6 x7 x20 x21 x26 (ix2 e d) = linE (val_main_v44 (F := Ideal) x0 x6 x7 x26) x20 (row1 x21) e d := by
  rw [val_main_v66_apply, val_main_v63_apply, val_main_v65_apply, val_main_v64_apply]
  simp only [Ideal.addf_def]
  have el : ∀ k : Fin 256, lidx_main_v63 (ix2 e d) k = ix2 e k := fun k => funext fun a => by
    match a with | ⟨0, _⟩ => rfl | ⟨1, _⟩ => rfl
  have er : ∀ k : Fin 256, ridx_main_v63 (ix2 e d) k = ix2 k d := fun k => funext fun a => by
    match a with | ⟨0, _⟩ => rfl | ⟨1, _⟩ => rfl
  have eb : idx_main_v64 (idx_main_v65 (ix2 e d)) = ix1 d := funext fun a => by
    match a with | ⟨0, _⟩ => rfl
  simp only [el, er, eb]
  rfl

end First

theorem v72_eq (x0 : (⟨S100000x256, .f32⟩ : BufTy).Contents (Elt Ideal)) (x1 : (⟨S50000x256, .f32⟩ : BufTy).Contents (Elt Ideal)) (x2 : (⟨S256x256, .f32⟩ : BufTy).Contents (Elt Ideal)) (x3 : (⟨S256, .f32⟩ : BufTy).Contents (Elt Ideal)) (x6 : (⟨S256x256, .f32⟩ : BufTy).Contents (Elt Ideal)) (x7 : (⟨S256, .f32⟩ : BufTy).Contents (Elt Ideal))
    (x12 : (⟨S256x256, .f32⟩ : BufTy).Contents (Elt Ideal)) (x13 : (⟨S256, .f32⟩ : BufTy).Contents (Elt Ideal)) (x18 : (⟨S256x8, .f32⟩ : BufTy).Contents (Elt Ideal)) (x19 : (⟨S8, .f32⟩ : BufTy).Contents (Elt Ideal)) (x20 : (⟨S256x256, .f32⟩ : BufTy).Contents (Elt Ideal)) (x21 : (⟨S256, .f32⟩ : BufTy).Contents (Elt Ideal)) (x26 x27 : (⟨S200000, .i32⟩ : BufTy).Contents (Elt Ideal)) :
    val_main_v72 (F := Ideal) x0 x1 x2 x3 x6 x7 x12 x13 x18 x19 x20 x21 x26 x27
      = edge (val_main_v30 (F := Ideal) x0 x2 x3 x26) (val_main_v37 (F := Ideal) x1 x12 x13 x27) (val_main_v44 (F := Ideal) x0 x6 x7 x26) x18 (row1 x19) x20 (row1 x21) := by
  funext j
  obtain ⟨e, d, rfl⟩ : ∃ (e : Fin 200000) (d : Fin 256), j = ix2 e d := ⟨j 0, j 1, eq_ix2 j⟩
  rw [val_main_v72_apply, val_main_v71_apply]
  have ei : idx_main_v71 (ix2 e d) = ix2 e 0 := funext fun a => by
    match a with | ⟨0, _⟩ => rfl | ⟨1, _⟩ => rfl
  rw [ei, lin72, mean72, edge_apply]
  rfl

section Second

variable (x0 : (⟨S100000x256, .f32⟩ : BufTy).Contents (Elt Ideal)) (x1 : (⟨S50000x256, .f32⟩ : BufTy).Contents (Elt Ideal)) (x4 : (⟨S256x256, .f32⟩ : BufTy).Contents (Elt Ideal)) (x5 : (⟨S256, .f32⟩ : BufTy).Contents (Elt Ideal)) (x10 : (⟨S256x256, .f32⟩ : BufTy).Contents (Elt Ideal)) (x11 : (⟨S256, .f32⟩ : BufTy).Contents (Elt Ideal)) (x14 : (⟨S256x256, .f32⟩ : BufTy).Contents (Elt Ideal)) (x15 : (⟨S256, .f32⟩ : BufTy).Contents (Elt Ideal)) (x22 : (⟨S256x8, .f32⟩ : BufTy).Contents (Elt Ideal)) (x23 : (⟨S8, .f32⟩ : BufTy).Contents (Elt Ideal)) (x24 : (⟨S256x256, .f32⟩ : BufTy).Contents (Elt Ideal)) (x25 : (⟨S256, .f32⟩ : BufTy).Contents (Elt Ideal)) (x28 : (⟨S200000, .i32⟩ : BufTy).Contents (Elt Ideal)) (x29 : (⟨S200000, .i32⟩ : BufTy).Contents (Elt Ideal))

/-- Head h's score of edge e, as the reference computes it. -/
private theorem score128 (e : Fin 200000) (h : Fin 8) :
    val_main_v107 (F := Ideal) x0 x1 x4 x5 x10 x11 x22 x23 x28 x29 (ix2 e h) = scoreE (val_main_v86 (F := Ideal) x1 x10 x11 x28) (val_main_v93 (F := Ideal) x0 x4 x5 x29) x22 (row1 x23) e h := by
  rw [val_main_v107_apply, val_main_v105_apply, val_main_v102_apply, val_main_v104_apply, val_main_v103_apply, val_main_v106_apply, val_main_cst_19_apply]
  simp only [val_main_v101_apply, Ideal.hostDivf_def, Ideal.addf_def, Ideal.mulf_def, Ideal.ofBits_def]
  have el : ∀ k : Fin 256, lidx_main_v102 (ix2 e h) k = ix2 e k := fun k => funext fun a => by
    match a with | ⟨0, _⟩ => rfl | ⟨1, _⟩ => rfl
  have er : ∀ k : Fin 256, ridx_main_v102 (ix2 e h) k = ix2 k h := fun k => funext fun a => by
    match a with | ⟨0, _⟩ => rfl | ⟨1, _⟩ => rfl
  have eb : idx_main_v103 (idx_main_v104 (ix2 e h)) = ix1 h := funext fun a => by
    match a with | ⟨0, _⟩ => rfl
  simp only [el, er, eb]
  rfl

/-- The reference's max (−∞, row maximum of the scores) is the largest of edge e's eight scores. -/
private theorem smax128 (e : Fin 200000) :
    val_main_v110 (F := Ideal) x0 x1 x4 x5 x10 x11 x22 x23 x28 x29 (ix1 e) = smaxE (val_main_v86 (F := Ideal) x1 x10 x11 x28) (val_main_v93 (F := Ideal) x0 x4 x5 x29) x22 (row1 x23) e := by
  have hr : S200000x8.Reduces [1] S200000 := by decide
  rw [val_main_v110_apply, val_main_v109_apply, val_main_cst_21_apply]
  unfold val_main_v108
  rw [Host.reduce_eq_fold_single FloatOps.maximumf _ _ _ hr _]
  simp only [Ideal.maximumf_def, Ideal.ofBits_def]
  rw [max_neg_inf]
  unfold smaxE
  have hf : (val_main_v107 (F := Ideal) x0 x1 x4 x5 x10 x11 x22 x23 x28 x29 ∘ hr.lift (ix1 e))
      = fun h : Fin 8 => scoreE (val_main_v86 (F := Ideal) x1 x10 x11 x28) (val_main_v93 (F := Ideal) x0 x4 x5 x29) x22 (row1 x23) e h :=
    funext fun k => (congrArg _ (lift_head hr e k)).trans (score128 x0 x1 x4 x5 x10 x11 x22 x23 x28 x29 e _)
  exact congrArg (fun f => Finset.fold max (Ideal.ofBits .f32 0xFF800000#32) f (Finset.univ : Finset (Fin 8))) hf

/-- The exponential of head h's score less the largest score. -/
private theorem exp128 (e : Fin 200000) (h : Fin 8) :
    val_main_v114 (F := Ideal) x0 x1 x4 x5 x10 x11 x22 x23 x28 x29 (ix2 e h) = expE (val_main_v86 (F := Ideal) x1 x10 x11 x28) (val_main_v93 (F := Ideal) x0 x4 x5 x29) x22 (row1 x23) e h := by
  rw [val_main_v114_apply, val_main_v113_apply, val_main_v112_apply, val_main_v111_apply]
  have ei : idx_main_v111 (idx_main_v112 (ix2 e h)) = ix1 e := funext fun a => by
    match a with | ⟨0, _⟩ => rfl
  rw [ei, score128, smax128]
  simp only [Ideal.hostUnary_exp_def, Ideal.subf_def]
  rfl

/-- The sum of the eight exponentials of edge e. -/
private theorem expsum128 (e : Fin 200000) :
    val_main_v115 (F := Ideal) x0 x1 x4 x5 x10 x11 x22 x23 x28 x29 (ix1 e) = ∑ h : Fin 8, expE (val_main_v86 (F := Ideal) x1 x10 x11 x28) (val_main_v93 (F := Ideal) x0 x4 x5 x29) x22 (row1 x23) e h := by
  rw [val_main_v115_apply, val_main_cst_22_apply]
  simp only [Ideal.ofBits_def, Ideal.ofBits_zero_f32, zero_add]
  refine Finset.sum_congr rfl fun k _ => ?_
  have ei : idx_main_v115 (ix1 e) k = ix2 e k := funext fun a => by
    match a with | ⟨0, _⟩ => rfl | ⟨1, _⟩ => rfl
  rw [ei, exp128]

/-- Head h's attention weight of edge e. -/
private theorem attn128 (e : Fin 200000) (h : Fin 8) :
    val_main_v118 (F := Ideal) x0 x1 x4 x5 x10 x11 x22 x23 x28 x29 (ix2 e h) = attnE (val_main_v86 (F := Ideal) x1 x10 x11 x28) (val_main_v93 (F := Ideal) x0 x4 x5 x29) x22 (row1 x23) e h := by
  rw [val_main_v118_apply, val_main_v117_apply, val_main_v116_apply]
  have ei : idx_main_v116 (idx_main_v117 (ix2 e h)) = ix1 e := funext fun a => by
    match a with | ⟨0, _⟩ => rfl
  rw [ei, exp128, expsum128]
  simp only [Ideal.hostDivf_def]
  rfl

/-- The mean over the heads of edge e's attention weights, read at the one column of the one-column array. -/
private theorem mean128 (e : Fin 200000) :
    val_main_v126 (F := Ideal) x0 x1 x4 x5 x10 x11 x22 x23 x28 x29 (ix2 e 0) = meanE (val_main_v86 (F := Ideal) x1 x10 x11 x28) (val_main_v93 (F := Ideal) x0 x4 x5 x29) x22 (row1 x23) e := by
  rw [val_main_v126_apply, val_main_v124_apply, val_main_v125_apply, val_main_cst_24_apply, val_main_v123_apply, val_main_cst_23_apply]
  simp only [Ideal.ofBits_def, Ideal.ofBits_zero_f32, zero_add, Ideal.hostDivf_def]
  unfold meanE
  refine congrArg (fun s => Ideal.div s (Ideal.ofBits .f32 0x41000000#32)) (Finset.sum_congr rfl fun k _ => ?_)
  have ei : idx_main_v123 (idx_main_v124 (ix2 e 0)) k = ix2 e k := funext fun a => by
    match a with | ⟨0, _⟩ => rfl | ⟨1, _⟩ => rfl
  rw [ei, attn128]

/-- The message of edge e at column d: the gathered values times the message weights plus the bias. -/
private theorem lin128 (e : Fin 200000) (d : Fin 256) :
    val_main_v122 (F := Ideal) x1 x14 x15 x24 x25 x28 (ix2 e d) = linE (val_main_v100 (F := Ideal) x1 x14 x15 x28) x24 (row1 x25) e d := by
  rw [val_main_v122_apply, val_main_v119_apply, val_main_v121_apply, val_main_v120_apply]
  simp only [Ideal.addf_def]
  have el : ∀ k : Fin 256, lidx_main_v119 (ix2 e d) k = ix2 e k := fun k => funext fun a => by
    match a with | ⟨0, _⟩ => rfl | ⟨1, _⟩ => rfl
  have er : ∀ k : Fin 256, ridx_main_v119 (ix2 e d) k = ix2 k d := fun k => funext fun a => by
    match a with | ⟨0, _⟩ => rfl | ⟨1, _⟩ => rfl
  have eb : idx_main_v120 (idx_main_v121 (ix2 e d)) = ix1 d := funext fun a => by
    match a with | ⟨0, _⟩ => rfl
  simp only [el, er, eb]
  rfl

end Second

theorem v128_eq (x0 : (⟨S100000x256, .f32⟩ : BufTy).Contents (Elt Ideal)) (x1 : (⟨S50000x256, .f32⟩ : BufTy).Contents (Elt Ideal)) (x4 : (⟨S256x256, .f32⟩ : BufTy).Contents (Elt Ideal)) (x5 : (⟨S256, .f32⟩ : BufTy).Contents (Elt Ideal)) (x10 : (⟨S256x256, .f32⟩ : BufTy).Contents (Elt Ideal)) (x11 : (⟨S256, .f32⟩ : BufTy).Contents (Elt Ideal))
    (x14 : (⟨S256x256, .f32⟩ : BufTy).Contents (Elt Ideal)) (x15 : (⟨S256, .f32⟩ : BufTy).Contents (Elt Ideal)) (x22 : (⟨S256x8, .f32⟩ : BufTy).Contents (Elt Ideal)) (x23 : (⟨S8, .f32⟩ : BufTy).Contents (Elt Ideal)) (x24 : (⟨S256x256, .f32⟩ : BufTy).Contents (Elt Ideal)) (x25 : (⟨S256, .f32⟩ : BufTy).Contents (Elt Ideal)) (x28 x29 : (⟨S200000, .i32⟩ : BufTy).Contents (Elt Ideal)) :
    val_main_v128 (F := Ideal) x0 x1 x4 x5 x10 x11 x14 x15 x22 x23 x24 x25 x28 x29
      = edge (val_main_v86 (F := Ideal) x1 x10 x11 x28) (val_main_v93 (F := Ideal) x0 x4 x5 x29) (val_main_v100 (F := Ideal) x1 x14 x15 x28) x22 (row1 x23) x24 (row1 x25) := by
  funext j
  obtain ⟨e, d, rfl⟩ : ∃ (e : Fin 200000) (d : Fin 256), j = ix2 e d := ⟨j 0, j 1, eq_ix2 j⟩
  rw [val_main_v128_apply, val_main_v127_apply]
  have ei : idx_main_v127 (ix2 e d) = ix2 e 0 := funext fun a => by
    match a with | ⟨0, _⟩ => rfl | ⟨1, _⟩ => rfl
  rw [ei, lin128, mean128, edge_apply]
  rfl

end Cert.Hgt.RefEdge

end
-- ==== Proof.RefFin.lean ====
/-
  The reference's two finishing stages: each node type's output is the finishing stage of Spec.lean applied to its
  aggregate, its counts and its input rows (relu is the maximum with zero).
-/
import proofs.«416314_j25881472925720_1_alg».proof.Proof.RefRead
import proofs.«416314_j25881472925720_1_alg».proof.Proof.Spec
import proofs.«416314_j25881472925720_1_alg».proof.Proof.LibDense
import Idealize.ShloMosaic.Lib.ValueLayout
import Idealize.ShloMosaic.Lib.Pipeline.Value
import Idealize.ShloMosaic.PureOps.Ideal.Laws
import Idealize.ShloMosaic.Lib.StableHlo.Predicate

noncomputable section

namespace Cert.Hgt.RefFin

open Idealize.ShloMosaic Idealize.ShloMosaic.ValueIdx Cert.ReferenceIdeal Cert.ReferenceIdeal.ReadP Cert.Hgt

theorem v145_eq (x0 : (⟨S100000x256, .f32⟩ : BufTy).Contents (Elt Ideal)) (x1 : (⟨S50000x256, .f32⟩ : BufTy).Contents (Elt Ideal)) (x4 : (⟨S256x256, .f32⟩ : BufTy).Contents (Elt Ideal)) (x5 : (⟨S256, .f32⟩ : BufTy).Contents (Elt Ideal)) (x8 : (⟨S256x256, .f32⟩ : BufTy).Contents (Elt Ideal)) (x9 : (⟨S256, .f32⟩ : BufTy).Contents (Elt Ideal))
    (x10 : (⟨S256x256, .f32⟩ : BufTy).Contents (Elt Ideal)) (x11 : (⟨S256, .f32⟩ : BufTy).Contents (Elt Ideal)) (x14 : (⟨S256x256, .f32⟩ : BufTy).Contents (Elt Ideal)) (x15 : (⟨S256, .f32⟩ : BufTy).Contents (Elt Ideal)) (x22 : (⟨S256x8, .f32⟩ : BufTy).Contents (Elt Ideal)) (x23 : (⟨S8, .f32⟩ : BufTy).Contents (Elt Ideal)) (x24 : (⟨S256x256, .f32⟩ : BufTy).Contents (Elt Ideal)) (x25 : (⟨S256, .f32⟩ : BufTy).Contents (Elt Ideal)) (x28 x29 : (⟨S200000, .i32⟩ : BufTy).Contents (Elt Ideal)) :
    val_main_v145 (F := Ideal) x0 x1 x4 x5 x8 x9 x10 x11 x14 x15 x22 x23 x24 x25 x28 x29
      = finish (val_main_v131 (F := Ideal) x0 x1 x4 x5 x10 x11 x14 x15 x22 x23 x24 x25 x28 x29) (val_main_v135 (F := Ideal) x29) x0 x8 (row1 x9) := by
  funext j
  obtain ⟨p, q, rfl⟩ : ∃ (p : Fin 100000) (q : Fin 256), j = ix2 p q := ⟨j 0, j 1, eq_ix2 j⟩
  -- the host operations read at (p, q), outermost first
  rw [val_main_v145_apply, val_main_v144_apply, val_main_v143_apply, val_main_v140_apply, val_main_v142_apply,
    val_main_v141_apply, val_main_call0_v0_apply, val_main_call0_cst_apply]
  simp only [val_main_v139_apply, val_main_v138_apply, val_main_v137_apply, val_main_v136_apply, val_main_cst_28_apply]
  generalize val_main_v131 (F := Ideal) x0 x1 x4 x5 x10 x11 x14 x15 x22 x23 x24 x25 x28 x29 = A
  generalize val_main_v135 (F := Ideal) x29 = C
  -- the indices the operations read at, as coordinates
  have hl : ∀ k : Fin 256, lidx_main_v140 (ix2 p q) k = ix2 p k := fun k =>
    funext fun a => Fin.ext (by match a with | ⟨0, _⟩ => rfl | ⟨1, _⟩ => rfl)
  have hr : ∀ k : Fin 256, ridx_main_v140 (ix2 p q) k = ix2 k q := fun k =>
    funext fun a => Fin.ext (by match a with | ⟨0, _⟩ => rfl | ⟨1, _⟩ => rfl)
  have hc : ∀ k : Fin 256, idx_main_v138 (ix2 p k) = ix2 p 0 := fun k =>
    funext fun a => Fin.ext (by match a with | ⟨0, _⟩ => rfl | ⟨1, _⟩ => rfl)
  have hb : idx_main_v141 (idx_main_v142 (ix2 p q)) = ix1 q :=
    funext fun a => Fin.ext (by match a with | ⟨0, _⟩ => rfl)
  rw [finish_apply]
  unfold finishE normE row1
  simp only [Ideal.maximumf_def, Ideal.addf_def, Ideal.hostDivf_def, Ideal.ofBits_def, hl, hr, hc, hb]

theorem v155_eq (x0 : (⟨S100000x256, .f32⟩ : BufTy).Contents (Elt Ideal)) (x1 : (⟨S50000x256, .f32⟩ : BufTy).Contents (Elt Ideal)) (x2 : (⟨S256x256, .f32⟩ : BufTy).Contents (Elt Ideal)) (x3 : (⟨S256, .f32⟩ : BufTy).Contents (Elt Ideal)) (x6 : (⟨S256x256, .f32⟩ : BufTy).Contents (Elt Ideal)) (x7 : (⟨S256, .f32⟩ : BufTy).Contents (Elt Ideal))
    (x12 : (⟨S256x256, .f32⟩ : BufTy).Contents (Elt Ideal)) (x13 : (⟨S256, .f32⟩ : BufTy).Contents (Elt Ideal)) (x16 : (⟨S256x256, .f32⟩ : BufTy).Contents (Elt Ideal)) (x17 : (⟨S256, .f32⟩ : BufTy).Contents (Elt Ideal)) (x18 : (⟨S256x8, .f32⟩ : BufTy).Contents (Elt Ideal)) (x19 : (⟨S8, .f32⟩ : BufTy).Contents (Elt Ideal)) (x20 : (⟨S256x256, .f32⟩ : BufTy).Contents (Elt Ideal)) (x21 : (⟨S256, .f32⟩ : BufTy).Contents (Elt Ideal)) (x26 x27 : (⟨S200000, .i32⟩ : BufTy).Contents (Elt Ideal)) :
    val_main_v155 (F := Ideal) x0 x1 x2 x3 x6 x7 x12 x13 x16 x17 x18 x19 x20 x21 x26 x27
      = finish (val_main_v75 (F := Ideal) x0 x1 x2 x3 x6 x7 x12 x13 x18 x19 x20 x21 x26 x27) (val_main_v79 (F := Ideal) x27) x1 x16 (row1 x17) := by
  funext j
  obtain ⟨p, q, rfl⟩ : ∃ (p : Fin 50000) (q : Fin 256), j = ix2 p q := ⟨j 0, j 1, eq_ix2 j⟩
  -- the host operations read at (p, q), outermost first
  rw [val_main_v155_apply, val_main_v154_apply, val_main_v153_apply, val_main_v150_apply, val_main_v152_apply,
    val_main_v151_apply, val_main_call1_v0_apply, val_main_call1_cst_apply]
  simp only [val_main_v149_apply, val_main_v148_apply, val_main_v147_apply, val_main_v146_apply, val_main_cst_29_apply]
  generalize val_main_v75 (F := Ideal) x0 x1 x2 x3 x6 x7 x12 x13 x18 x19 x20 x21 x26 x27 = A
  generalize val_main_v79 (F := Ideal) x27 = C
  -- the indices the operations read at, as coordinates
  have hl : ∀ k : Fin 256, lidx_main_v150 (ix2 p q) k = ix2 p k := fun k =>
    funext fun a => Fin.ext (by match a with | ⟨0, _⟩ => rfl | ⟨1, _⟩ => rfl)
  have hr : ∀ k : Fin 256, ridx_main_v150 (ix2 p q) k = ix2 k q := fun k =>
    funext fun a => Fin.ext (by match a with | ⟨0, _⟩ => rfl | ⟨1, _⟩ => rfl)
  have hc : ∀ k : Fin 256, idx_main_v148 (ix2 p k) = ix2 p 0 := fun k =>
    funext fun a => Fin.ext (by match a with | ⟨0, _⟩ => rfl | ⟨1, _⟩ => rfl)
  have hb : idx_main_v151 (idx_main_v152 (ix2 p q)) = ix1 q :=
    funext fun a => Fin.ext (by match a with | ⟨0, _⟩ => rfl)
  rw [finish_apply]
  unfold finishE normE row1
  simp only [Ideal.maximumf_def, Ideal.addf_def, Ideal.hostDivf_def, Ideal.ofBits_def, hl, hr, hc, hb]

end Cert.Hgt.RefFin

end
-- ==== Proof.RefModel.lean ====
/-
  The reference program's result as stage functions of its arguments: the two node types' outputs, concatenated; each
  output the finishing stage of the scattered edge stage of the gathered projections.
-/
import proofs.«416314_j25881472925720_1_alg».proof.Proof.RefRead
import proofs.«416314_j25881472925720_1_alg».proof.Proof.RefLin
import proofs.«416314_j25881472925720_1_alg».proof.Proof.RefEdge
import proofs.«416314_j25881472925720_1_alg».proof.Proof.RefFin
import proofs.«416314_j25881472925720_1_alg».proof.Proof.Spec
import proofs.«416314_j25881472925720_1_alg».proof.Proof.LibTake

noncomputable section

namespace Cert.Hgt.RefModel

open Idealize.ShloMosaic Idealize.ShloMosaic.ValueIdx Cert.ReferenceIdeal Cert.ReferenceIdeal.Gen Cert.ReferenceIdeal.ReadP Cert.Hgt

/-! ## The index stages

Each gather's start indices are the edge list's words, a negative word shifted up by the table's row count, laid out as a
column: the stages that compute them are that expression, operation for operation. -/

private theorem idx29 (x26 : (⟨S200000, .i32⟩ : BufTy).Contents (Elt Ideal)) :
    val_main_v29 (F := Ideal) x26 = wrapIdx 100000#32 x26 bcast_S_S200000 bcast_S200000_S200000x1_0 := rfl
private theorem idx36 (x27 : (⟨S200000, .i32⟩ : BufTy).Contents (Elt Ideal)) :
    val_main_v36 (F := Ideal) x27 = wrapIdx 50000#32 x27 bcast_S_S200000 bcast_S200000_S200000x1_0 := rfl
private theorem idx43 (x26 : (⟨S200000, .i32⟩ : BufTy).Contents (Elt Ideal)) :
    val_main_v43 (F := Ideal) x26 = wrapIdx 100000#32 x26 bcast_S_S200000 bcast_S200000_S200000x1_0 := rfl
private theorem idx85 (x28 : (⟨S200000, .i32⟩ : BufTy).Contents (Elt Ideal)) :
    val_main_v85 (F := Ideal) x28 = wrapIdx 50000#32 x28 bcast_S_S200000 bcast_S200000_S200000x1_0 := rfl
private theorem idx92 (x29 : (⟨S200000, .i32⟩ : BufTy).Contents (Elt Ideal)) :
    val_main_v92 (F := Ideal) x29 = wrapIdx 100000#32 x29 bcast_S_S200000 bcast_S200000_S200000x1_0 := rfl
private theorem idx99 (x28 : (⟨S200000, .i32⟩ : BufTy).Contents (Elt Ideal)) :
    val_main_v99 (F := Ideal) x28 = wrapIdx 50000#32 x28 bcast_S_S200000 bcast_S200000_S200000x1_0 := rfl

/-! ## The gathers: rows of a projection at the start indices -/

private theorem gather30 (x0 : (⟨S100000x256, .f32⟩ : BufTy).Contents (Elt Ideal)) (x2 : (⟨S256x256, .f32⟩ : BufTy).Contents (Elt Ideal)) (x3 : (⟨S256, .f32⟩ : BufTy).Contents (Elt Ideal)) (x26 : (⟨S200000, .i32⟩ : BufTy).Contents (Elt Ideal)) :
    val_main_v30 (F := Ideal) x0 x2 x3 x26
      = gatherS (N := 100000) (by decide) (lin x0 x2 (row1 x3)) (wrapIdx 100000#32 x26 bcast_S_S200000 bcast_S200000_S200000x1_0) := by
  unfold val_main_v30
  rw [RefLin.v3_eq, idx29]
  exact gather_eq gather_S100000x256_S200000x1_S200000x256_1_0_n_n_0_1_1256 rfl rfl rfl rfl rfl _ _ _
private theorem gather37 (x1 : (⟨S50000x256, .f32⟩ : BufTy).Contents (Elt Ideal)) (x12 : (⟨S256x256, .f32⟩ : BufTy).Contents (Elt Ideal)) (x13 : (⟨S256, .f32⟩ : BufTy).Contents (Elt Ideal)) (x27 : (⟨S200000, .i32⟩ : BufTy).Contents (Elt Ideal)) :
    val_main_v37 (F := Ideal) x1 x12 x13 x27
      = gatherS (N := 50000) (by decide) (lin x1 x12 (row1 x13)) (wrapIdx 50000#32 x27 bcast_S_S200000 bcast_S200000_S200000x1_0) := by
  unfold val_main_v37
  rw [RefLin.v19_eq, idx36]
  exact gather_eq gather_S50000x256_S200000x1_S200000x256_1_0_n_n_0_1_1256 rfl rfl rfl rfl rfl _ _ _
private theorem gather44 (x0 : (⟨S100000x256, .f32⟩ : BufTy).Contents (Elt Ideal)) (x6 : (⟨S256x256, .f32⟩ : BufTy).Contents (Elt Ideal)) (x7 : (⟨S256, .f32⟩ : BufTy).Contents (Elt Ideal)) (x26 : (⟨S200000, .i32⟩ : BufTy).Contents (Elt Ideal)) :
    val_main_v44 (F := Ideal) x0 x6 x7 x26
      = gatherS (N := 100000) (by decide) (lin x0 x6 (row1 x7)) (wrapIdx 100000#32 x26 bcast_S_S200000 bcast_S200000_S200000x1_0) := by
  unfold val_main_v44
  rw [RefLin.v11_eq, idx43]
  exact gather_eq gather_S100000x256_S200000x1_S200000x256_1_0_n_n_0_1_1256 rfl rfl rfl rfl rfl _ _ _
private theorem gather86 (x1 : (⟨S50000x256, .f32⟩ : BufTy).Contents (Elt Ideal)) (x10 : (⟨S256x256, .f32⟩ : BufTy).Contents (Elt Ideal)) (x11 : (⟨S256, .f32⟩ : BufTy).Contents (Elt Ideal)) (x28 : (⟨S200000, .i32⟩ : BufTy).Contents (Elt Ideal)) :
    val_main_v86 (F := Ideal) x1 x10 x11 x28
      = gatherS (N := 50000) (by decide) (lin x1 x10 (row1 x11)) (wrapIdx 50000#32 x28 bcast_S_S200000 bcast_S200000_S200000x1_0) := by
  unfold val_main_v86
  rw [RefLin.v15_eq, idx85]
  exact gather_eq gather_S50000x256_S200000x1_S200000x256_1_0_n_n_0_1_1256 rfl rfl rfl rfl rfl _ _ _
private theorem gather93 (x0 : (⟨S100000x256, .f32⟩ : BufTy).Contents (Elt Ideal)) (x4 : (⟨S256x256, .f32⟩ : BufTy).Contents (Elt Ideal)) (x5 : (⟨S256, .f32⟩ : BufTy).Contents (Elt Ideal)) (x29 : (⟨S200000, .i32⟩ : BufTy).Contents (Elt Ideal)) :
    val_main_v93 (F := Ideal) x0 x4 x5 x29
      = gatherS (N := 100000) (by decide) (lin x0 x4 (row1 x5)) (wrapIdx 100000#32 x29 bcast_S_S200000 bcast_S200000_S200000x1_0) := by
  unfold val_main_v93
  rw [RefLin.v7_eq, idx92]
  exact gather_eq gather_S100000x256_S200000x1_S200000x256_1_0_n_n_0_1_1256 rfl rfl rfl rfl rfl _ _ _
private theorem gather100 (x1 : (⟨S50000x256, .f32⟩ : BufTy).Contents (Elt Ideal)) (x14 : (⟨S256x256, .f32⟩ : BufTy).Contents (Elt Ideal)) (x15 : (⟨S256, .f32⟩ : BufTy).Contents (Elt Ideal)) (x28 : (⟨S200000, .i32⟩ : BufTy).Contents (Elt Ideal)) :
    val_main_v100 (F := Ideal) x1 x14 x15 x28
      = gatherS (N := 50000) (by decide) (lin x1 x14 (row1 x15)) (wrapIdx 50000#32 x28 bcast_S_S200000 bcast_S200000_S200000x1_0) := by
  unfold val_main_v100
  rw [RefLin.v23_eq, idx99]
  exact gather_eq gather_S50000x256_S200000x1_S200000x256_1_0_n_n_0_1_1256 rfl rfl rfl rfl rfl _ _ _

/-! ## The scatters: the edge stage summed into its destination rows, and the destination counts -/

private theorem zeros129 : val_main_v129 (F := Ideal) = broadcastInDim S100000x256 ![] bcast_S_S100000x256 (constant (F := Ideal) S_ .f32 0x00000000#32) := rfl
private theorem zeros133 : val_main_v133 (F := Ideal) = broadcastInDim S100000x1 ![] bcast_S_S100000x1 (constant (F := Ideal) S_ .f32 0x00000000#32) := rfl
private theorem zeros73 : val_main_v73 (F := Ideal) = broadcastInDim S50000x256 ![] bcast_S_S50000x256 (constant (F := Ideal) S_ .f32 0x00000000#32) := rfl
private theorem zeros77 : val_main_v77 (F := Ideal) = broadcastInDim S50000x1 ![] bcast_S_S50000x1 (constant (F := Ideal) S_ .f32 0x00000000#32) := rfl
private theorem ones132 : val_main_v132 (F := Ideal) = broadcastInDim S200000x1 ![] bcast_S_S200000x1 (constant (F := Ideal) S_ .f32 0x3F800000#32) := rfl
private theorem ones76 : val_main_v76 (F := Ideal) = broadcastInDim S200000x1 ![] bcast_S_S200000x1 (constant (F := Ideal) S_ .f32 0x3F800000#32) := rfl
private theorem col130 (x29 : (⟨S200000, .i32⟩ : BufTy).Contents (Elt Ideal)) : val_main_v130 (F := Ideal) x29 = broadcastInDim S200000x1 ![0] bcast_S200000_S200000x1_0 x29 := rfl
private theorem col134 (x29 : (⟨S200000, .i32⟩ : BufTy).Contents (Elt Ideal)) : val_main_v134 (F := Ideal) x29 = broadcastInDim S200000x1 ![0] bcast_S200000_S200000x1_0 x29 := rfl
private theorem col74 (x27 : (⟨S200000, .i32⟩ : BufTy).Contents (Elt Ideal)) : val_main_v74 (F := Ideal) x27 = broadcastInDim S200000x1 ![0] bcast_S200000_S200000x1_0 x27 := rfl
private theorem col78 (x27 : (⟨S200000, .i32⟩ : BufTy).Contents (Elt Ideal)) : val_main_v78 (F := Ideal) x27 = broadcastInDim S200000x1 ![0] bcast_S200000_S200000x1_0 x27 := rfl

private theorem scatter131 (x0 : (⟨S100000x256, .f32⟩ : BufTy).Contents (Elt Ideal)) (x1 : (⟨S50000x256, .f32⟩ : BufTy).Contents (Elt Ideal)) (x4 : (⟨S256x256, .f32⟩ : BufTy).Contents (Elt Ideal)) (x5 : (⟨S256, .f32⟩ : BufTy).Contents (Elt Ideal)) (x10 : (⟨S256x256, .f32⟩ : BufTy).Contents (Elt Ideal)) (x11 : (⟨S256, .f32⟩ : BufTy).Contents (Elt Ideal)) (x14 : (⟨S256x256, .f32⟩ : BufTy).Contents (Elt Ideal)) (x15 : (⟨S256, .f32⟩ : BufTy).Contents (Elt Ideal)) (x22 : (⟨S256x8, .f32⟩ : BufTy).Contents (Elt Ideal)) (x23 : (⟨S8, .f32⟩ : BufTy).Contents (Elt Ideal)) (x24 : (⟨S256x256, .f32⟩ : BufTy).Contents (Elt Ideal)) (x25 : (⟨S256, .f32⟩ : BufTy).Contents (Elt Ideal)) (x28 : (⟨S200000, .i32⟩ : BufTy).Contents (Elt Ideal)) (x29 : (⟨S200000, .i32⟩ : BufTy).Contents (Elt Ideal)) :
    val_main_v131 (F := Ideal) x0 x1 x4 x5 x10 x11 x14 x15 x22 x23 x24 x25 x28 x29
      = scatterS (broadcastInDim S100000x256 ![] bcast_S_S100000x256 (constant (F := Ideal) S_ .f32 0x00000000#32)) (broadcastInDim S200000x1 ![0] bcast_S200000_S200000x1_0 x29)
          (edge (gatherS (N := 50000) (by decide) (lin x1 x10 (row1 x11)) (wrapIdx 50000#32 x28 bcast_S_S200000 bcast_S200000_S200000x1_0))
            (gatherS (N := 100000) (by decide) (lin x0 x4 (row1 x5)) (wrapIdx 100000#32 x29 bcast_S_S200000 bcast_S200000_S200000x1_0))
            (gatherS (N := 50000) (by decide) (lin x1 x14 (row1 x15)) (wrapIdx 50000#32 x28 bcast_S_S200000 bcast_S200000_S200000x1_0)) x22 (row1 x23) x24 (row1 x25)) := by
  unfold val_main_v131
  rw [RefEdge.v128_eq, gather86, gather93, gather100, zeros129, col130]
  exact scatterAdd_eq scatter_S100000x256_S200000x1_S200000x256_1_0_0_1 rfl rfl rfl rfl _ _ _

private theorem scatter135 (x29 : (⟨S200000, .i32⟩ : BufTy).Contents (Elt Ideal)) :
    val_main_v135 (F := Ideal) x29 = scatterS (broadcastInDim S100000x1 ![] bcast_S_S100000x1 (constant (F := Ideal) S_ .f32 0x00000000#32)) (broadcastInDim S200000x1 ![0] bcast_S200000_S200000x1_0 x29) (broadcastInDim S200000x1 ![] bcast_S_S200000x1 (constant (F := Ideal) S_ .f32 0x3F800000#32)) := by
  unfold val_main_v135
  rw [zeros133, col134, ones132]
  exact scatterAdd_eq scatter_S100000x1_S200000x1_S200000x1_1_0_0_1 rfl rfl rfl rfl _ _ _

private theorem scatter75 (x0 : (⟨S100000x256, .f32⟩ : BufTy).Contents (Elt Ideal)) (x1 : (⟨S50000x256, .f32⟩ : BufTy).Contents (Elt Ideal)) (x2 : (⟨S256x256, .f32⟩ : BufTy).Contents (Elt Ideal)) (x3 : (⟨S256, .f32⟩ : BufTy).Contents (Elt Ideal)) (x6 : (⟨S256x256, .f32⟩ : BufTy).Contents (Elt Ideal)) (x7 : (⟨S256, .f32⟩ : BufTy).Contents (Elt Ideal)) (x12 : (⟨S256x256, .f32⟩ : BufTy).Contents (Elt Ideal)) (x13 : (⟨S256, .f32⟩ : BufTy).Contents (Elt Ideal)) (x18 : (⟨S256x8, .f32⟩ : BufTy).Contents (Elt Ideal)) (x19 : (⟨S8, .f32⟩ : BufTy).Contents (Elt Ideal)) (x20 : (⟨S256x256, .f32⟩ : BufTy).Contents (Elt Ideal)) (x21 : (⟨S256, .f32⟩ : BufTy).Contents (Elt Ideal)) (x26 : (⟨S200000, .i32⟩ : BufTy).Contents (Elt Ideal)) (x27 : (⟨S200000, .i32⟩ : BufTy).Contents (Elt Ideal)) :
    val_main_v75 (F := Ideal) x0 x1 x2 x3 x6 x7 x12 x13 x18 x19 x20 x21 x26 x27
      = scatterS (broadcastInDim S50000x256 ![] bcast_S_S50000x256 (constant (F := Ideal) S_ .f32 0x00000000#32)) (broadcastInDim S200000x1 ![0] bcast_S200000_S200000x1_0 x27)
          (edge (gatherS (N := 100000) (by decide) (lin x0 x2 (row1 x3)) (wrapIdx 100000#32 x26 bcast_S_S200000 bcast_S200000_S200000x1_0))
            (gatherS (N := 50000) (by decide) (lin x1 x12 (row1 x13)) (wrapIdx 50000#32 x27 bcast_S_S200000 bcast_S200000_S200000x1_0))
            (gatherS (N := 100000) (by decide) (lin x0 x6 (row1 x7)) (wrapIdx 100000#32 x26 bcast_S_S200000 bcast_S200000_S200000x1_0)) x18 (row1 x19) x20 (row1 x21)) := by
  unfold val_main_v75
  rw [RefEdge.v72_eq, gather30, gather37, gather44, zeros73, col74]
  exact scatterAdd_eq scatter_S50000x256_S200000x1_S200000x256_1_0_0_1 rfl rfl rfl rfl _ _ _

private theorem scatter79 (x27 : (⟨S200000, .i32⟩ : BufTy).Contents (Elt Ideal)) :
    val_main_v79 (F := Ideal) x27 = scatterS (broadcastInDim S50000x1 ![] bcast_S_S50000x1 (constant (F := Ideal) S_ .f32 0x00000000#32)) (broadcastInDim S200000x1 ![0] bcast_S200000_S200000x1_0 x27) (broadcastInDim S200000x1 ![] bcast_S_S200000x1 (constant (F := Ideal) S_ .f32 0x3F800000#32)) := by
  unfold val_main_v79
  rw [zeros77, col78, ones76]
  exact scatterAdd_eq scatter_S50000x1_S200000x1_S200000x1_1_0_0_1 rfl rfl rfl rfl _ _ _

/-! ## The result -/

theorem ref_eq (x0 : (⟨S100000x256, .f32⟩ : BufTy).Contents (Elt Ideal)) (x1 : (⟨S50000x256, .f32⟩ : BufTy).Contents (Elt Ideal)) (x2 : (⟨S256x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x256, .f32⟩ : BufTy).Contents (Elt Ideal)) (x9 : (⟨S256, .f32⟩ : BufTy).Contents (Elt Ideal)) (x10 : (⟨S256x256, .f32⟩ : BufTy).Contents (Elt Ideal)) (x11 : (⟨S256, .f32⟩ : BufTy).Contents (Elt Ideal)) (x12 : (⟨S256x256, .f32⟩ : BufTy).Contents (Elt Ideal)) (x13 : (⟨S256, .f32⟩ : BufTy).Contents (Elt Ideal)) (x14 : (⟨S256x256, .f32⟩ : BufTy).Contents (Elt Ideal)) (x15 : (⟨S256, .f32⟩ : BufTy).Contents (Elt Ideal)) (x16 : (⟨S256x256, .f32⟩ : BufTy).Contents (Elt Ideal)) (x17 : (⟨S256, .f32⟩ : BufTy).Contents (Elt Ideal)) (x18 : (⟨S256x8, .f32⟩ : BufTy).Contents (Elt Ideal)) (x19 : (⟨S8, .f32⟩ : BufTy).Contents (Elt Ideal)) (x20 : (⟨S256x256, .f32⟩ : BufTy).Contents (Elt Ideal)) (x21 : (⟨S256, .f32⟩ : BufTy).Contents (Elt Ideal)) (x22 : (⟨S256x8, .f32⟩ : BufTy).Contents (Elt Ideal)) (x23 : (⟨S8, .f32⟩ : BufTy).Contents (Elt Ideal)) (x24 : (⟨S256x256, .f32⟩ : BufTy).Contents (Elt Ideal)) (x25 : (⟨S256, .f32⟩ : BufTy).Contents (Elt Ideal)) (x26 x27 x28 x29 : (⟨S200000, .i32⟩ : BufTy).Contents (Elt Ideal)) :
    val_main_v156 (F := Ideal) x0 x1 x2 x3 x4 x5 x6 x7 x8 x9 x10 x11 x12 x13 x14 x15 x16 x17 x18 x19 x20 x21 x22 x23 x24 x25 x26 x27 x28 x29
      = concatenate S150000x256 0 [⟨S100000x256, (finish (scatterS (broadcastInDim S100000x256 ![] bcast_S_S100000x256 (constant (F := Ideal) S_ .f32 0x00000000#32)) (broadcastInDim S200000x1 ![0] bcast_S200000_S200000x1_0 x29) (edge (gatherS (N := 50000) (by decide) (lin x1 x10 (row1 x11)) (wrapIdx 50000#32 x28 bcast_S_S200000 bcast_S200000_S200000x1_0)) (gatherS (N := 100000) (by decide) (lin x0 x4 (row1 x5)) (wrapIdx 100000#32 x29 bcast_S_S200000 bcast_S200000_S200000x1_0)) (gatherS (N := 50000) (by decide) (lin x1 x14 (row1 x15)) (wrapIdx 50000#32 x28 bcast_S_S200000 bcast_S200000_S200000x1_0)) x22 (row1 x23) x24 (row1 x25))) (scatterS (broadcastInDim S100000x1 ![] bcast_S_S100000x1 (constant (F := Ideal) S_ .f32 0x00000000#32)) (broadcastInDim S200000x1 ![0] bcast_S200000_S200000x1_0 x29) (broadcastInDim S200000x1 ![] bcast_S_S200000x1 (constant (F := Ideal) S_ .f32 0x3F800000#32))) x0 x8 (row1 x9))⟩, ⟨S50000x256, (finish (scatterS (broadcastInDim S50000x256 ![] bcast_S_S50000x256 (constant (F := Ideal) S_ .f32 0x00000000#32)) (broadcastInDim S200000x1 ![0] bcast_S200000_S200000x1_0 x27) (edge (gatherS (N := 100000) (by decide) (lin x0 x2 (row1 x3)) (wrapIdx 100000#32 x26 bcast_S_S200000 bcast_S200000_S200000x1_0)) (gatherS (N := 50000) (by decide) (lin x1 x12 (row1 x13)) (wrapIdx 50000#32 x27 bcast_S_S200000 bcast_S200000_S200000x1_0)) (gatherS (N := 100000) (by decide) (lin x0 x6 (row1 x7)) (wrapIdx 100000#32 x26 bcast_S_S200000 bcast_S200000_S200000x1_0)) x18 (row1 x19) x20 (row1 x21))) (scatterS (broadcastInDim S50000x1 ![] bcast_S_S50000x1 (constant (F := Ideal) S_ .f32 0x00000000#32)) (broadcastInDim S200000x1 ![0] bcast_S200000_S200000x1_0 x27) (broadcastInDim S200000x1 ![] bcast_S_S200000x1 (constant (F := Ideal) S_ .f32 0x3F800000#32))) x1 x16 (row1 x17))⟩] concatenates_S100000x256_S50000x256_S150000x256_d0 := by
  unfold val_main_v156
  rw [RefFin.v145_eq, RefFin.v155_eq, scatter131, scatter135, scatter75, scatter79]

end Cert.Hgt.RefModel

end
-- ==== Proof.lean ====
/-
  One layer of heterogeneous-graph attention message passing, as a tiled kernel program and as a plain host program:
  the two compute the same array over the extended reals.

  Both programs project each node type's rows three ways (x · W + b), look up per edge the source's key and value rows and
  the destination's query row, turn (k ⊙ q) · Wa + ba into eight head scores divided by √32, take the mean over the heads of
  their softmax, scale the message row v · Wm + bm by it, sum the scaled messages into their destination rows together with
  a count of the edges arriving there, and finish each node type as max ((agg / max (cnt, 1)) · Wout + bout + x, 0); the two
  node types' outputs are concatenated. The kernel program does the dense stages in blocks of 2000 rows with the operands
  rounded to a shorter float format on the way into the matrix unit (the identity on the extended reals), and its row lookup
  replaces an out-of-range row by a fill value where the host program's lookup clamps the index; so the two agree where
  every edge endpoint names a node, which is the precondition's last four conjuncts.

  The kernel program's value is read off its run segment by segment (KFold.lean over KReg0 … KReg5, KPay.lean, KCarry.lean,
  LibTake.lean); the host program's off its composed term (RefModel.lean over RefLin, RefEdge, RefFin); both land on the
  same expression in the stage functions of Spec.lean, which the agreement of the arguments makes one term.
-/
import proofs.«416314_j25881472925720_1_alg».proof.Defs
import proofs.«416314_j25881472925720_1_alg».proof.Proof.Gen.Kernel
import proofs.«416314_j25881472925720_1_alg».proof.Proof.Gen.Kernel.Frame
import proofs.«416314_j25881472925720_1_alg».proof.Proof.Gen.KernelIdeal
import proofs.«416314_j25881472925720_1_alg».proof.Proof.Gen.KernelIdeal.Frame
import proofs.«416314_j25881472925720_1_alg».proof.Proof.Gen.ReferenceIdeal
import proofs.«416314_j25881472925720_1_alg».proof.Proof.Gen.Pre_finite_inputs
import proofs.«416314_j25881472925720_1_alg».proof.Proof.KRun
import proofs.«416314_j25881472925720_1_alg».proof.Proof.KFold
import proofs.«416314_j25881472925720_1_alg».proof.Proof.PreDecode
import proofs.«416314_j25881472925720_1_alg».proof.Proof.RefRunB
import proofs.«416314_j25881472925720_1_alg».proof.Proof.RefRead
import proofs.«416314_j25881472925720_1_alg».proof.Proof.RefModel
import Idealize.ShloMosaic.Adequacy
import Idealize.ShloMosaic.Init

set_option maxRecDepth 16384

noncomputable section

namespace Cert.Proof

open Idealize.ShloMosaic Idealize.ShloMosaic.TcCoe Idealize.SL.Sem Cert.Hgt

attribute [local instance] Cert.Kernel.Gen.facts Cert.KernelIdeal.Gen.facts Cert.ReferenceIdeal.Gen.facts Cert.Pre_finite_inputs.Gen.facts

theorem frame_k : Cert.frame_Kernel := fun m ρ _ => Cert.Kernel.Gen.frame m ρ

theorem frame_ki : Cert.frame_KernelIdeal := fun m ρ _ => Cert.KernelIdeal.Gen.frame m ρ

/-- The host program's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- The two programs, run from memories that agree on the arguments, end with the same result array: the kernel program's
    is the composed stage term of its arguments (every edge endpoint in range, by the precondition), the host program's the
    same term of its own arguments, and the arguments agree. -/
theorem algebraic : Cert.algebraic_KernelIdeal_ReferenceIdeal := by
  intro m ρ m' ρ' hpre hagree
  have hr := fun (c : Dev Cert.KernelIdeal.nD) => Cert.Hgt.PreDecode.ranges_of_pre _ _ _ _ _ _ _ _ _ _ _ _ _ _ _ _ _ _ _ _ _ _ _ _ _ _ _ _ _ _ (hpre c)
  refine ⟨fun c => Cert.KernelIdeal.Gen.W20 m ρ c (Proc.devRef .tc Cert.KernelIdeal.main_v38), Cert.KernelIdeal.GenV.run_value (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7, a8, a9, a10, a11, a12, a13, a14, a15, a16, a17, a18, a19, a20, a21, a22, a23, a24, a25, a26, a27, a28, a29⟩ := hagree c
  rw [Cert.ReferenceIdeal.ReadP.val_main_v156_eq, a0, a1, a2, a3, a4, a5, a6, a7, a8, a9, a10, a11, a12, a13, a14, a15, a16, a17, a18, a19, a20, a21, a22, a23, a24, a25, a26, a27, a28, a29,
    Cert.Hgt.RefModel.ref_eq]
  exact (Cert.Hgt.KFold.result_eq m ρ c (hr c).1 (hr c).2.1 (hr c).2.2.1 (hr c).2.2.2).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
